-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S2x65536 : Shape := ⟨2, ![2, 65536]⟩
abbrev S4096x256 : Shape := ⟨2, ![4096, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x128 : Shape := ⟨2, ![128, 128]⟩
abbrev S128x16384 : Shape := ⟨2, ![128, 16384]⟩
abbrev S16384 : Shape := ⟨1, ![16384]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16384 : S_.BroadcastsInDim S128x16384 (![] : Fin 0 → Fin S128x16384.rank)
  reducesTo_S128x16384_S_d0_1 : S128x16384.ReducesTo [0, 1] S_
  bcast_S_S16384 : S_.BroadcastsInDim S16384 (![] : Fin 0 → Fin S16384.rank)
  reducesTo_S16384_S_d0 : S16384.ReducesTo [0] S_
  bcast_S_S2x65536 : S_.BroadcastsInDim S2x65536 (![] : Fin 0 → Fin S2x65536.rank)
  reducesTo_S2x65536_S_d0_1 : S2x65536.ReducesTo [0, 1] S_

variable [Facts]

def fn_part4 {F : FTy → Type} [FloatOps F] (main_arg1 : IVec S2x65536 32) (main_v63 : IVec S_ 1) (main_v67 : IVec S_ 1) : IVec S_ 1 :=
  let main_v68 : IVec S_ 1 := andi main_v63 main_v67
  let main_c_26 : IVec S_ 32 := constantI S_ 32 0#32
  let main_v69 : IVec S2x65536 32 := broadcastInDim S2x65536 ![] bcast_S_S2x65536 main_c_26
  let main_v70 : IVec S2x65536 1 := cmpi .sge main_arg1 main_v69
  let main_c_27 : IVec S_ 1 := constantI S_ 1 1#1
  let main_v71 : IVec S_ 1 := (fun x v => Host.reduce IntOp.andi x v reducesTo_S2x65536_S_d0_1 h_S_) main_v70 main_c_27
  let main_v72 : IVec S_ 1 := andi main_v68 main_v71
  let main_c_28 : IVec S_ 32 := constantI S_ 32 4096#32
  let main_v73 : IVec S2x65536 32 := broadcastInDim S2x65536 ![] bcast_S_S2x65536 main_c_28
  let main_v74 : IVec S2x65536 1 := cmpi .slt main_arg1 main_v73
  let main_c_29 : IVec S_ 1 := constantI S_ 1 1#1
  let main_v75 : IVec S_ 1 := (fun x v => Host.reduce IntOp.andi x v reducesTo_S2x65536_S_d0_1 h_S_) main_v74 main_c_29
  let main_v76 : IVec S_ 1 := andi main_v72 main_v75
  main_v76

def fn_part3 {F : FTy → Type} [FloatOps F] (main_arg1 : IVec S2x65536 32) (main_arg12 : FVec F S128 .f32) (main_arg13 : FVec F S128x16384 .f32) (main_arg14 : FVec F S16384 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x16384 .f32 := Host.absf main_arg13
  let main_cst_22 : FVec F S_ .f32 := constant S_ .f32 0x7F800000#32
  let main_v60 : FVec F S128x16384 .f32 := broadcastInDim S128x16384 ![] bcast_S_S128x16384 main_cst_22
  let main_v61 : IVec S128x16384 1 := cmpf .olt main_v59 main_v60
  let main_c_23 : IVec S_ 1 := constantI S_ 1 1#1
  let main_v62 : IVec S_ 1 := (fun x v => Host.reduce IntOp.andi x v reducesTo_S128x16384_S_d0_1 h_S_) main_v61 main_c_23
  let main_v63 : IVec S_ 1 := andi main_v58 main_v62
  let main_v64 : FVec F S16384 .f32 := Host.absf main_arg14
  let main_cst_24 : FVec F S_ .f32 := constant S_ .f32 0x7F800000#32
  let main_v65 : FVec F S16384 .f32 := broadcastInDim S16384 ![] bcast_S_S16384 main_cst_24
  let main_v66 : IVec S16384 1 := cmpf .olt main_v64 main_v65
  let main_c_25 : IVec S_ 1 := constantI S_ 1 1#1
  let main_v67 : IVec S_ 1 := (fun x v => Host.reduce IntOp.andi x v reducesTo_S16384_S_d0 h_S_) main_v66 main_c_25
  fn_part4 (F := F) main_arg1 main_v63 main_v67

def fn_part2 {F : FTy → Type} [FloatOps F] (main_arg1 : IVec S2x65536 32) (main_arg8 : FVec F S128 .f32) (main_arg9 : FVec F S128x128 .f32) (main_arg10 : FVec F S128 .f32) (main_arg11 : FVec F S128x128 .f32) (main_arg12 : FVec F S128 .f32) (main_arg13 : FVec F S128x16384 .f32) (main_arg14 : FVec F S16384 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_arg13 main_arg14 main_v48 main_v49 main_v50

def fn_part1 {F : FTy → Type} [FloatOps F] (main_arg1 : IVec S2x65536 32) (main_arg5 : FVec F S256x256 .f32) (main_arg6 : FVec F S256 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x16384 .f32) (main_arg14 : FVec F S16384 .f32) (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S4096x4096 .f32) (main_arg1 : IVec S2x65536 32) (main_arg2 : FVec F S4096x256 .f32) (main_arg3 : FVec F S256 .f32) (main_arg4 : FVec F S4096x256 .f32) (main_arg5 : FVec F S256x256 .f32) (main_arg6 : FVec F S256 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x16384 .f32) (main_arg14 : FVec F S16384 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x256 .f32 := Host.absf main_arg2
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S4096x256 .f32 := Host.absf main_arg4
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S4096x4096 : Shape := ⟨2, ![4096, 4096]⟩
abbrev S2x65536 : Shape := ⟨2, ![2, 65536]⟩
abbrev S4096x256 : Shape := ⟨2, ![4096, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x128 : Shape := ⟨2, ![128, 128]⟩
abbrev S128x16384 : Shape := ⟨2, ![128, 16384]⟩
abbrev S16384 : Shape := ⟨1, ![16384]⟩
abbrev S1x65536 : Shape := ⟨2, ![1, 65536]⟩
abbrev S65536 : Shape := ⟨1, ![65536]⟩
abbrev S_ : Shape := ⟨0, ![]⟩
abbrev S65536x1 : Shape := ⟨2, ![65536, 1]⟩
abbrev S65536x2 : Shape := ⟨2, ![65536, 2]⟩
abbrev S4096 : Shape := ⟨1, ![4096]⟩
abbrev S4096x1 : Shape := ⟨2, ![4096, 1]⟩
abbrev S1x4096 : Shape := ⟨2, ![1, 4096]⟩
abbrev S2048x4096 : Shape := ⟨2, ![2048, 4096]⟩
abbrev S4096x512 : Shape := ⟨2, ![4096, 512]⟩
abbrev S2048x1 : Shape := ⟨2, ![2048, 1]⟩
abbrev S1x512 : Shape := ⟨2, ![1, 512]⟩
abbrev S2048x512 : Shape := ⟨2, ![2048, 512]⟩
abbrev S1x256 : Shape := ⟨2, ![1, 256]⟩
abbrev S2048x256 : Shape := ⟨2, ![2048, 256]⟩
abbrev S1x128 : Shape := ⟨2, ![1, 128]⟩
abbrev S4096x128 : Shape := ⟨2, ![4096, 128]⟩
abbrev S2048x128 : Shape := ⟨2, ![2048, 128]⟩
abbrev S1x16384 : Shape := ⟨2, ![1, 16384]⟩
abbrev S4096x16384 : Shape := ⟨2, ![4096, 16384]⟩
abbrev S1024x128 : Shape := ⟨2, ![1024, 128]⟩
abbrev S128x4096 : Shape := ⟨2, ![128, 4096]⟩
abbrev S1024x1 : Shape := ⟨2, ![1024, 1]⟩
abbrev S1024x4096 : Shape := ⟨2, ![1024, 4096]⟩
abbrev S4096x4x4096 : Shape := ⟨3, ![4096, 4, 4096]⟩

abbrev nBuf : Space → Nat
  | .hbm => 137
  | .vmem => 84
  | .smem => 0
  | _ => 0

abbrev hbmTy0_0 (i : Nat) : BufTy := match i % 128 with
  | 0 => ⟨S4096x4096, .f32⟩
  | 1 => ⟨S2x65536, .i32⟩
  | 2 => ⟨S4096x256, .f32⟩
  | 3 => ⟨S256, .f32⟩
  | 4 => ⟨S4096x256, .f32⟩
  | 5 => ⟨S256x256, .f32⟩
  | 6 => ⟨S256, .f32⟩
  | 7 => ⟨S256x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x16384, .f32⟩
  | 14 => ⟨S16384, .f32⟩
  | 15 => ⟨S1x65536, .i32⟩
  | 16 => ⟨S65536, .i32⟩
  | 17 => ⟨S1x65536, .i32⟩
  | 18 => ⟨S65536, .i32⟩
  | 19 => ⟨S_, .f32⟩
  | 20 => ⟨S65536, .f32⟩
  | 21 => ⟨S_, .f32⟩
  | 22 => ⟨S4096x4096, .f32⟩
  | 23 => ⟨S_, .i32⟩
  | 24 => ⟨S65536, .i32⟩
  | 25 => ⟨S65536, .i1⟩
  | 26 => ⟨S_, .i32⟩
  | 27 => ⟨S65536, .i32⟩
  | 28 => ⟨S65536, .i32⟩
  | 29 => ⟨S65536, .i32⟩
  | 30 => ⟨S_, .i32⟩
  | 31 => ⟨S65536, .i32⟩
  | 32 => ⟨S65536, .i1⟩
  | 33 => ⟨S_, .i32⟩
  | 34 => ⟨S65536, .i32⟩
  | 35 => ⟨S65536, .i32⟩
  | 36 => ⟨S65536, .i32⟩
  | 37 => ⟨S65536x1, .i32⟩
  | 38 => ⟨S65536x1, .i32⟩
  | 39 => ⟨S65536x2, .i32⟩
  | 40 => ⟨S4096x4096, .f32⟩
  | 41 => ⟨S4096x4096, .bf16⟩
  | 42 => ⟨S_, .f32⟩
  | 43 => ⟨S4096, .f32⟩
  | 44 => ⟨S65536x1, .i32⟩
  | 45 => ⟨S4096, .f32⟩
  | 46 => ⟨S_, .f32⟩
  | 47 => ⟨S4096, .f32⟩
  | 48 => ⟨S4096, .f32⟩
  | 49 => ⟨S_, .f32⟩
  | 50 => ⟨S4096, .f32⟩
  | 51 => ⟨S4096, .f32⟩
  | 52 => ⟨S_, .f32⟩
  | 53 => ⟨S4096, .f32⟩
  | 54 => ⟨S4096, .f32⟩
  | 55 => ⟨S_, .f32⟩
  | 56 => ⟨S4096, .f32⟩
  | 57 => ⟨S4096, .f32⟩
  | 58 => ⟨S4096x4096, .bf16⟩
  | 59 => ⟨S4096x1, .f32⟩
  | 60 => ⟨S_, .f32⟩
  | 61 => ⟨S1x4096, .f32⟩
  | 62 => ⟨S4096x4096, .bf16⟩
  | 63 => ⟨S_, .f32⟩
  | 64 => ⟨S4096x1, .f32⟩
  | 65 => ⟨S1x256, .f32⟩
  | 66 => ⟨S4096x256, .f32⟩
  | 67 => ⟨S_, .f32⟩
  | 68 => ⟨S4096x1, .f32⟩
  | 69 => ⟨S_, .f32⟩
  | 70 => ⟨S1x256, .f32⟩
  | 71 => ⟨S4096x256, .f32⟩
  | 72 => ⟨S4096x256, .f32⟩
  | 73 => ⟨S_, .f32⟩
  | 74 => ⟨S4096x256, .f32⟩
  | 75 => ⟨S4096x256, .f32⟩
  | 76 => ⟨S_, .f32⟩
  | 77 => ⟨S4096x1, .f32⟩
  | 78 => ⟨S_, .f32⟩
  | 79 => ⟨S1x256, .f32⟩
  | 80 => ⟨S4096x256, .f32⟩
  | 81 => ⟨S4096x1, .f32⟩
  | 82 => ⟨S4096x256, .f32⟩
  | 83 => ⟨S4096x256, .f32⟩
  | 84 => ⟨S4096x256, .bf16⟩
  | 85 => ⟨S4096x1, .f32⟩
  | 86 => ⟨S_, .f32⟩
  | 87 => ⟨S1x256, .f32⟩
  | 88 => ⟨S4096x256, .f32⟩
  | 89 => ⟨S4096, .f32⟩
  | 90 => ⟨S4096x1, .f32⟩
  | 91 => ⟨S4096x256, .f32⟩
  | 92 => ⟨S4096x256, .f32⟩
  | 93 => ⟨S4096x256, .f32⟩
  | 94 => ⟨S1x256, .f32⟩
  | 95 => ⟨S4096x256, .f32⟩
  | 96 => ⟨S4096x256, .f32⟩
  | 97 => ⟨S_, .f32⟩
  | 98 => ⟨S4096x256, .f32⟩
  | 99 => ⟨S4096x256, .f32⟩
  | 100 => ⟨S_, .f32⟩
  | 101 => ⟨S4096x1, .f32⟩
  | 102 => ⟨S_, .f32⟩
  | 103 => ⟨S1x128, .f32⟩
  | 104 => ⟨S4096x128, .f32⟩
  | 105 => ⟨S4096x1, .f32⟩
  | 106 => ⟨S4096x128, .f32⟩
  | 107 => ⟨S4096x128, .f32⟩
  | 108 => ⟨S4096x128, .bf16⟩
  | 109 => ⟨S4096x1, .f32⟩
  | 110 => ⟨S_, .f32⟩
  | 111 => ⟨S1x128, .f32⟩
  | 112 => ⟨S4096x128, .f32⟩
  | 113 => ⟨S4096, .f32⟩
  | 114 => ⟨S4096x1, .f32⟩
  | 115 => ⟨S4096x128, .f32⟩
  | 116 => ⟨S4096x128, .f32⟩
  | 117 => ⟨S4096x128, .f32⟩
  | 118 => ⟨S1x128, .f32⟩
  | 119 => ⟨S4096x128, .f32⟩
  | 120 => ⟨S4096x128, .f32⟩
  | 121 => ⟨S_, .f32⟩
  | 122 => ⟨S4096x128, .f32⟩
  | 123 => ⟨S4096x128, .f32⟩
  | 124 => ⟨S_, .f32⟩
  | 125 => ⟨S4096x1, .f32⟩
  | 126 => ⟨S1x128, .f32⟩
  | 127 => ⟨S4096x128, .f32⟩
  | _ => ⟨S4096x4096, .f32⟩

abbrev hbmTy0_1 (i : Nat) : BufTy := match i % 128 with
  | 0 => ⟨S_, .f32⟩
  | 1 => ⟨S4096x1, .f32⟩
  | 2 => ⟨S1x128, .f32⟩
  | 3 => ⟨S4096x128, .f32⟩
  | 4 => ⟨S_, .f32⟩
  | 5 => ⟨S4096x1, .f32⟩
  | 6 => ⟨S1x16384, .f32⟩
  | 7 => ⟨S4096x16384, .f32⟩
  | 8 => ⟨S4096x4x4096, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | .local _ .vmem, ⟨0, _⟩ => ⟨S2048x4096, .bf16⟩
  | .local _ .vmem, ⟨1, _⟩ => ⟨S2048x4096, .bf16⟩
  | .local _ .vmem, ⟨2, _⟩ => ⟨S4096x512, .bf16⟩
  | .local _ .vmem, ⟨3, _⟩ => ⟨S4096x512, .bf16⟩
  | .local _ .vmem, ⟨4, _⟩ => ⟨S2048x1, .f32⟩
  | .local _ .vmem, ⟨5, _⟩ => ⟨S2048x1, .f32⟩
  | .local _ .vmem, ⟨6, _⟩ => ⟨S1x512, .f32⟩
  | .local _ .vmem, ⟨7, _⟩ => ⟨S1x512, .f32⟩
  | .local _ .vmem, ⟨8, _⟩ => ⟨S2048x512, .bf16⟩
  | .local _ .vmem, ⟨9, _⟩ => ⟨S2048x512, .bf16⟩
  | .local _ .vmem, ⟨10, _⟩ => ⟨S2048x4096, .bf16⟩
  | .local _ .vmem, ⟨11, _⟩ => ⟨S2048x4096, .bf16⟩
  | .local _ .vmem, ⟨12, _⟩ => ⟨S4096x256, .f32⟩
  | .local _ .vmem, ⟨13, _⟩ => ⟨S2048x1, .f32⟩
  | .local _ .vmem, ⟨14, _⟩ => ⟨S2048x1, .f32⟩
  | .local _ .vmem, ⟨15, _⟩ => ⟨S1x256, .f32⟩
  | .local _ .vmem, ⟨16, _⟩ => ⟨S2048x256, .f32⟩
  | .local _ .vmem, ⟨17, _⟩ => ⟨S2048x256, .f32⟩
  | .local _ .vmem, ⟨18, _⟩ => ⟨S2048x4096, .bf16⟩
  | .local _ .vmem, ⟨19, _⟩ => ⟨S2048x4096, .bf16⟩
  | .local _ .vmem, ⟨20, _⟩ => ⟨S4096x256, .f32⟩
  | .local _ .vmem, ⟨21, _⟩ => ⟨S2048x1, .f32⟩
  | .local _ .vmem, ⟨22, _⟩ => ⟨S2048x1, .f32⟩
  | .local _ .vmem, ⟨23, _⟩ => ⟨S1x256, .f32⟩
  | .local _ .vmem, ⟨24, _⟩ => ⟨S2048x256, .f32⟩
  | .local _ .vmem, ⟨25, _⟩ => ⟨S2048x256, .f32⟩
  | .local _ .vmem, ⟨26, _⟩ => ⟨S2048x256, .f32⟩
  | .local _ .vmem, ⟨27, _⟩ => ⟨S2048x256, .f32⟩
  | .local _ .vmem, ⟨28, _⟩ => ⟨S256x256, .f32⟩
  | .local _ .vmem, ⟨29, _⟩ => ⟨S2048x1, .f32⟩
  | .local _ .vmem, ⟨30, _⟩ => ⟨S2048x1, .f32⟩
  | .local _ .vmem, ⟨31, _⟩ => ⟨S1x256, .f32⟩
  | .local _ .vmem, ⟨32, _⟩ => ⟨S2048x256, .f32⟩
  | .local _ .vmem, ⟨33, _⟩ => ⟨S2048x256, .f32⟩
  | .local _ .vmem, ⟨34, _⟩ => ⟨S2048x4096, .bf16⟩
  | .local _ .vmem, ⟨35, _⟩ => ⟨S2048x4096, .bf16⟩
  | .local _ .vmem, ⟨36, _⟩ => ⟨S4096x256, .bf16⟩
  | .local _ .vmem, ⟨37, _⟩ => ⟨S2048x1, .f32⟩
  | .local _ .vmem, ⟨38, _⟩ => ⟨S2048x1, .f32⟩
  | .local _ .vmem, ⟨39, _⟩ => ⟨S1x256, .f32⟩
  | .local _ .vmem, ⟨40, _⟩ => ⟨S2048x256, .f32⟩
  | .local _ .vmem, ⟨41, _⟩ => ⟨S2048x256, .f32⟩
  | .local _ .vmem, ⟨42, _⟩ => ⟨S2048x256, .f32⟩
  | .local _ .vmem, ⟨43, _⟩ => ⟨S2048x256, .f32⟩
  | .local _ .vmem, ⟨44, _⟩ => ⟨S256x128, .f32⟩
  | .local _ .vmem, ⟨45, _⟩ => ⟨S2048x1, .f32⟩
  | .local _ .vmem, ⟨46, _⟩ => ⟨S2048x1, .f32⟩
  | .local _ .vmem, ⟨47, _⟩ => ⟨S1x128, .f32⟩
  | .local _ .vmem, ⟨48, _⟩ => ⟨S2048x128, .f32⟩
  | .local _ .vmem, ⟨49, _⟩ => ⟨S2048x128, .f32⟩
  | .local _ .vmem, ⟨50, _⟩ => ⟨S2048x4096, .bf16⟩
  | .local _ .vmem, ⟨51, _⟩ => ⟨S2048x4096, .bf16⟩
  | .local _ .vmem, ⟨52, _⟩ => ⟨S4096x128, .bf16⟩
  | .local _ .vmem, ⟨53, _⟩ => ⟨S2048x1, .f32⟩
  | .local _ .vmem, ⟨54, _⟩ => ⟨S2048x1, .f32⟩
  | .local _ .vmem, ⟨55, _⟩ => ⟨S1x128, .f32⟩
  | .local _ .vmem, ⟨56, _⟩ => ⟨S2048x128, .f32⟩
  | .local _ .vmem, ⟨57, _⟩ => ⟨S2048x128, .f32⟩
  | .local _ .vmem, ⟨58, _⟩ => ⟨S2048x128, .f32⟩
  | .local _ .vmem, ⟨59, _⟩ => ⟨S2048x128, .f32⟩
  | .local _ .vmem, ⟨60, _⟩ => ⟨S128x128, .f32⟩
  | .local _ .vmem, ⟨61, _⟩ => ⟨S2048x1, .f32⟩
  | .local _ .vmem, ⟨62, _⟩ => ⟨S2048x1, .f32⟩
  | .local _ .vmem, ⟨63, _⟩ => ⟨S1x128, .f32⟩
  | .local _ .vmem, ⟨64, _⟩ => ⟨S2048x128, .f32⟩
  | .local _ .vmem, ⟨65, _⟩ => ⟨S2048x128, .f32⟩
  | .local _ .vmem, ⟨66, _⟩ => ⟨S2048x128, .f32⟩
  | .local _ .vmem, ⟨67, _⟩ => ⟨S2048x128, .f32⟩
  | .local _ .vmem, ⟨68, _⟩ => ⟨S128x128, .f32⟩
  | .local _ .vmem, ⟨69, _⟩ => ⟨S2048x1, .f32⟩
  | .local _ .vmem, ⟨70, _⟩ => ⟨S2048x1, .f32⟩
  | .local _ .vmem, ⟨71, _⟩ => ⟨S1x128, .f32⟩
  | .local _ .vmem, ⟨72, _⟩ => ⟨S2048x128, .f32⟩
  | .local _ .vmem, ⟨73, _⟩ => ⟨S2048x128, .f32⟩
  | .local _ .vmem, ⟨74, _⟩ => ⟨S1024x128, .f32⟩
  | .local _ .vmem, ⟨75, _⟩ => ⟨S1024x128, .f32⟩
  | .local _ .vmem, ⟨76, _⟩ => ⟨S128x4096, .f32⟩
  | .local _ .vmem, ⟨77, _⟩ => ⟨S128x4096, .f32⟩
  | .local _ .vmem, ⟨78, _⟩ => ⟨S1024x1, .f32⟩
  | .local _ .vmem, ⟨79, _⟩ => ⟨S1024x1, .f32⟩
  | .local _ .vmem, ⟨80, _⟩ => ⟨S1x4096, .f32⟩
  | .local _ .vmem, ⟨81, _⟩ => ⟨S1x4096, .f32⟩
  | .local _ .vmem, ⟨82, _⟩ => ⟨S1024x4096, .f32⟩
  | .local _ .vmem, ⟨83, _⟩ => ⟨S1024x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_2 : Ref sig .tc := ⟨.hbm, 30, rfl⟩
abbrev main_v11 : Ref sig .tc := ⟨.hbm, 31, rfl⟩
abbrev main_v12 : Ref sig .tc := ⟨.hbm, 32, rfl⟩
abbrev main_c_3 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_5 : Ref sig .tc := ⟨.hbm, 46, rfl⟩
abbrev main_v24 : Ref sig .tc := ⟨.hbm, 47, rfl⟩
abbrev main_v25 : Ref sig .tc := ⟨.hbm, 48, rfl⟩
abbrev main_cst_6 : Ref sig .tc := ⟨.hbm, 49, rfl⟩
abbrev main_v26 : Ref sig .tc := ⟨.hbm, 50, rfl⟩
abbrev main_v27 : Ref sig .tc := ⟨.hbm, 51, rfl⟩
abbrev main_cst_7 : Ref sig .tc := ⟨.hbm, 52, rfl⟩
abbrev main_v28 : Ref sig .tc := ⟨.hbm, 53, rfl⟩
abbrev main_v29 : Ref sig .tc := ⟨.hbm, 54, rfl⟩
abbrev main_cst_8 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_9 : Ref sig .tc := ⟨.hbm, 60, rfl⟩
abbrev main_v34 : Ref sig .tc := ⟨.hbm, 61, rfl⟩
abbrev main_v35 : Ref sig .tc := ⟨.hbm, 62, rfl⟩
abbrev main_cst_10 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_11 : Ref sig .tc := ⟨.hbm, 67, rfl⟩
abbrev main_v39 : Ref sig .tc := ⟨.hbm, 68, rfl⟩
abbrev main_cst_12 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_13 : Ref sig .tc := ⟨.hbm, 73, rfl⟩
abbrev main_v43 : Ref sig .tc := ⟨.hbm, 74, rfl⟩
abbrev main_v44 : Ref sig .tc := ⟨.hbm, 75, rfl⟩
abbrev main_cst_14 : Ref sig .tc := ⟨.hbm, 76, rfl⟩
abbrev main_v45 : Ref sig .tc := ⟨.hbm, 77, rfl⟩
abbrev main_cst_15 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_16 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_17 : Ref sig .tc := ⟨.hbm, 97, rfl⟩
abbrev main_v63 : Ref sig .tc := ⟨.hbm, 98, rfl⟩
abbrev main_v64 : Ref sig .tc := ⟨.hbm, 99, rfl⟩
abbrev main_cst_18 : Ref sig .tc := ⟨.hbm, 100, rfl⟩
abbrev main_v65 : Ref sig .tc := ⟨.hbm, 101, rfl⟩
abbrev main_cst_19 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_20 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_21 : Ref sig .tc := ⟨.hbm, 121, rfl⟩
abbrev main_v83 : Ref sig .tc := ⟨.hbm, 122, rfl⟩
abbrev main_v84 : Ref sig .tc := ⟨.hbm, 123, rfl⟩
abbrev main_cst_22 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_23 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_24 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg4_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg4_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg2_1 : Ref sig .tc := ⟨.vmem, 54, rfl⟩
abbrev cc6_stg3_0 : Ref sig .tc := ⟨.vmem, 55, rfl⟩
abbrev cc6_stg4_0 : Ref sig .tc := ⟨.vmem, 56, rfl⟩
abbrev cc6_stg4_1 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg2_0 : Ref sig .tc := ⟨.vmem, 61, rfl⟩
abbrev cc7_stg2_1 : Ref sig .tc := ⟨.vmem, 62, rfl⟩
abbrev cc7_stg3_0 : Ref sig .tc := ⟨.vmem, 63, rfl⟩
abbrev cc7_stg4_0 : Ref sig .tc := ⟨.vmem, 64, rfl⟩
abbrev cc7_stg4_1 : Ref sig .tc := ⟨.vmem, 65, rfl⟩
abbrev cc8_stg0_0 : Ref sig .tc := ⟨.vmem, 66, rfl⟩
abbrev cc8_stg0_1 : Ref sig .tc := ⟨.vmem, 67, rfl⟩
abbrev cc8_stg1_0 : Ref sig .tc := ⟨.vmem, 68, rfl⟩
abbrev cc8_stg2_0 : Ref sig .tc := ⟨.vmem, 69, rfl⟩
abbrev cc8_stg2_1 : Ref sig .tc := ⟨.vmem, 70, rfl⟩
abbrev cc8_stg3_0 : Ref sig .tc := ⟨.vmem, 71, rfl⟩
abbrev cc8_stg4_0 : Ref sig .tc := ⟨.vmem, 72, rfl⟩
abbrev cc8_stg4_1 : Ref sig .tc := ⟨.vmem, 73, rfl⟩
abbrev cc9_stg0_0 : Ref sig .tc := ⟨.vmem, 74, rfl⟩
abbrev cc9_stg0_1 : Ref sig .tc := ⟨.vmem, 75, rfl⟩
abbrev cc9_stg1_0 : Ref sig .tc := ⟨.vmem, 76, rfl⟩
abbrev cc9_stg1_1 : Ref sig .tc := ⟨.vmem, 77, rfl⟩
abbrev cc9_stg2_0 : Ref sig .tc := ⟨.vmem, 78, rfl⟩
abbrev cc9_stg2_1 : Ref sig .tc := ⟨.vmem, 79, rfl⟩
abbrev cc9_stg3_0 : Ref sig .tc := ⟨.vmem, 80, rfl⟩
abbrev cc9_stg3_1 : Ref sig .tc := ⟨.vmem, 81, rfl⟩
abbrev cc9_stg4_0 : Ref sig .tc := ⟨.vmem, 82, rfl⟩
abbrev cc9_stg4_1 : Ref sig .tc := ⟨.vmem, 83, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem2_1 : DmaSem sig := 38
abbrev cc4_sem3_0 : DmaSem sig := 39
abbrev cc4_sem4_0 : DmaSem sig := 40
abbrev cc4_sem4_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem2_1 : DmaSem sig := 46
abbrev cc5_sem3_0 : DmaSem sig := 47
abbrev cc5_sem4_0 : DmaSem sig := 48
abbrev cc5_sem4_1 : DmaSem sig := 49
abbrev cc6_sem0_0 : DmaSem sig := 50
abbrev cc6_sem0_1 : DmaSem sig := 51
abbrev cc6_sem1_0 : DmaSem sig := 52
abbrev cc6_sem2_0 : DmaSem sig := 53
abbrev cc6_sem2_1 : DmaSem sig := 54
abbrev cc6_sem3_0 : DmaSem sig := 55
abbrev cc6_sem4_0 : DmaSem sig := 56
abbrev cc6_sem4_1 : DmaSem sig := 57
abbrev cc7_sem0_0 : DmaSem sig := 58
abbrev cc7_sem0_1 : DmaSem sig := 59
abbrev cc7_sem1_0 : DmaSem sig := 60
abbrev cc7_sem2_0 : DmaSem sig := 61
abbrev cc7_sem2_1 : DmaSem sig := 62
abbrev cc7_sem3_0 : DmaSem sig := 63
abbrev cc7_sem4_0 : DmaSem sig := 64
abbrev cc7_sem4_1 : DmaSem sig := 65
abbrev cc8_sem0_0 : DmaSem sig := 66
abbrev cc8_sem0_1 : DmaSem sig := 67
abbrev cc8_sem1_0 : DmaSem sig := 68
abbrev cc8_sem2_0 : DmaSem sig := 69
abbrev cc8_sem2_1 : DmaSem sig := 70
abbrev cc8_sem3_0 : DmaSem sig := 71
abbrev cc8_sem4_0 : DmaSem sig := 72
abbrev cc8_sem4_1 : DmaSem sig := 73
abbrev cc9_sem0_0 : DmaSem sig := 74
abbrev cc9_sem0_1 : DmaSem sig := 75
abbrev cc9_sem1_0 : DmaSem sig := 76
abbrev cc9_sem1_1 : DmaSem sig := 77
abbrev cc9_sem2_0 : DmaSem sig := 78
abbrev cc9_sem2_1 : DmaSem sig := 79
abbrev cc9_sem3_0 : DmaSem sig := 80
abbrev cc9_sem3_1 : DmaSem sig := 81
abbrev cc9_sem4_0 : DmaSem sig := 82
abbrev cc9_sem4_1 : DmaSem sig := 83

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, true]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![2, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S4096x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, true]

abbrev stage2_4 : Fin 2 → Memref sig .tc .vmem S2048x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![2, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S2048x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, true]

abbrev stage3_4 : Fin 2 → Memref sig .tc .vmem S2048x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![2, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S2048x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S4096x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S2048x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, true]

abbrev stage4_4 : Fin 2 → Memref sig .tc .vmem S2048x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev grid5 : Pipeline.Grid := ⟨2, ![2, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S2048x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S256x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S2048x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, true]

abbrev stage5_4 : Fin 2 → Memref sig .tc .vmem S2048x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev grid6 : Pipeline.Grid := ⟨2, ![2, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S2048x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 1 → Memref sig .tc .vmem S4096x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 2 → Memref sig .tc .vmem S2048x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, true]

abbrev stage6_4 : Fin 2 → Memref sig .tc .vmem S2048x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev grid7 : Pipeline.Grid := ⟨2, ![2, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S2048x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 2 → Memref sig .tc .vmem S2048x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, true]

abbrev stage7_4 : Fin 2 → Memref sig .tc .vmem S2048x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev grid8 : Pipeline.Grid := ⟨2, ![2, 1], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S2048x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true]

abbrev stage8_2 : Fin 2 → Memref sig .tc .vmem S2048x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false, true]

abbrev stage8_4 : Fin 2 → Memref sig .tc .vmem S2048x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true, true]

abbrev grid9 : Pipeline.Grid := ⟨2, ![4, 4], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc9_transform_4 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 2 → Memref sig .tc .vmem S1024x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 2 → Memref sig .tc .vmem S128x4096 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S1024x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, false]

abbrev stage9_3 : Fin 2 → Memref sig .tc .vmem S1x4096 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![false, true]

abbrev stage9_4 : Fin 2 → Memref sig .tc .vmem S1024x4096 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true, true]

class Facts₀ : Prop where
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S_S4096x4096 : S_.BroadcastsInDim S4096x4096 (![] : Fin 0 → Fin S4096x4096.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  bitsLt_bf16_f32 : FTy.bits .bf16 < FTy.bits .f32
  bcast_S_S4096 : S_.BroadcastsInDim S4096 (![] : Fin 0 → Fin S4096.rank)
  shapeCasts_S4096_S4096x1 : S4096.ShapeCasts S4096x1
  bcast_S_S1x4096 : S_.BroadcastsInDim S1x4096 (![] : Fin 0 → Fin S1x4096.rank)
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  packedbf16_S2048x512_S2048x512_0_0 : (Rect.unit (s := S2048x512) ![0, 0] S2048x512.size inb_S2048x512_S2048x512_0_0).PackedRows (EltTy.packing .bf16)
  bcast_S_S4096x1 : S_.BroadcastsInDim S4096x1 (![] : Fin 0 → Fin S4096x1.rank)
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  broadcasts_S2048x1_S2048x256 : S2048x1.Broadcasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  bcast_S_S1x256 : S_.BroadcastsInDim S1x256 (![] : Fin 0 → Fin S1x256.rank)
  bcast_S_S4096x256 : S_.BroadcastsInDim S4096x256 (![] : Fin 0 → Fin S4096x256.rank)
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  shapeCasts_S4096x256_S4096x256 : S4096x256.ShapeCasts S4096x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S1x128 : S_.BroadcastsInDim S1x128 (![] : Fin 0 → Fin S1x128.rank)
  inb_S256x128_S256x128_0_0 : ∀ a, (![0, 0] : Fin 2 → Nat) a + S256x128.size a ≤ S256x128.size a
  h_S256x128 : 0 < S256x128.numel
  broadcasts_S2048x1_S2048x128 : S2048x1.Broadcasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  bcast_S4096x1_S4096x128_0_1 : S4096x1.BroadcastsInDim S4096x128 (![0, 1] : Fin 2 → Fin S4096x128.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  shapeCasts_S128_S1x128 : S128.ShapeCasts S1x128
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S16384_S1x16384 : S16384.ShapeCasts S1x16384
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x4096_S128x4096_0_0 : ∀ a, (![0, 0] : Fin 2 → Nat) a + S128x4096.size a ≤ S128x4096.size a
  h_S128x4096 : 0 < S128x4096.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x4096 : S1024x1.Broadcasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S1024x4096 : S1x4096.Broadcasts S1024x4096
  inb_S1024x4096_S1024x4096_0_0 : ∀ a, (![0, 0] : Fin 2 → Nat) a + S1024x4096.size a ≤ S1024x4096.size a
  h_S1024x4096 : 0 < S1024x4096.numel
  shapeCasts_S4096x16384_S4096x4x4096 : S4096x16384.ShapeCasts S4096x4x4096
  scatter_S4096x4096_S65536x2_S65536_n_01_01_1_wf : ScatterDims.WF S4096x4096 S65536x2 S65536 [] [0, 1] [0, 1] 1
  scatter_S4096_S65536x1_S65536_n_0_0_1_wf : ScatterDims.WF S4096 S65536x1 S65536 [] [0] [0] 1
  dot_S2048x4096_S4096x512_S2048x512_1_0_0_1_n_n_wf : DotDims.WF S2048x4096 S4096x512 S2048x512 [1] [0] [0] [1] [] []
  dot_S2048x4096_S4096x256_S2048x256_1_0_0_1_n_n_wf : DotDims.WF S2048x4096 S4096x256 S2048x256 [1] [0] [0] [1] [] []
  dot_S2048x256_S256x256_S2048x256_1_0_0_1_n_n_wf : DotDims.WF S2048x256 S256x256 S2048x256 [1] [0] [0] [1] [] []
  dot_S2048x256_S256x128_S2048x128_1_0_0_1_n_n_wf : DotDims.WF S2048x256 S256x128 S2048x128 [1] [0] [0] [1] [] []
  dot_S2048x4096_S4096x128_S2048x128_1_0_0_1_n_n_wf : DotDims.WF S2048x4096 S4096x128 S2048x128 [1] [0] [0] [1] [] []
  dot_S2048x128_S128x128_S2048x128_1_0_0_1_n_n_wf : DotDims.WF S2048x128 S128x128 S2048x128 [1] [0] [0] [1] [] []
  dot_S1024x128_S128x4096_S1024x4096_1_0_0_1_n_n_wf : DotDims.WF S1024x128 S128x4096 S1024x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S4096x4096.size a
  hwx0_0 : ∀ i : grid0.Coords, EltTy.bits .bf16 = 32 ∨ (Rect.block (s := S4096x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .f32 = 32 ∨ (Rect.block (s := S4096x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S4096x4096.size a
  hwx0_4 : ∀ i : grid0.Coords, EltTy.bits .bf16 = 32 ∨ (Rect.block (s := S4096x4096) S2048x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x4096.size a ≤ S4096x4096.size a
  hwx1_0 : ∀ i : grid1.Coords, EltTy.bits .bf16 = 32 ∨ (Rect.block (s := S4096x4096) S2048x4096.size (cc1_transform_0 i) (hinb1_0 i)).WholeWords (EltTy.packing .bf16)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .f32 = 32 ∨ (Rect.block (s := S4096x256) S4096x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S4096x1.size a
  hwx1_2 : ∀ i : grid1.Coords, EltTy.bits .f32 = 32 ∨ (Rect.block (s := S4096x1) S2048x1.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x256.size a ≤ S4096x256.size a
  hwx1_4 : ∀ i : grid1.Coords, EltTy.bits .f32 = 32 ∨ (Rect.block (s := S4096x256) S2048x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x4096.size a ≤ S4096x4096.size a
  hwx2_0 : ∀ i : grid2.Coords, EltTy.bits .bf16 = 32 ∨ (Rect.block (s := S4096x4096) S2048x4096.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S4096x256.size a
  hwx2_1 : ∀ i : grid2.Coords, EltTy.bits .f32 = 32 ∨ (Rect.block (s := S4096x256) S4096x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S4096x1.size a
  hwx2_2 : ∀ i : grid2.Coords, EltTy.bits .f32 = 32 ∨ (Rect.block (s := S4096x1) S2048x1.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x256.size a ≤ S4096x256.size a
  hwx2_4 : ∀ i : grid2.Coords, EltTy.bits .f32 = 32 ∨ (Rect.block (s := S4096x256) S2048x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S4096x256.size a
  hwx3_0 : ∀ i : grid3.Coords, EltTy.bits .f32 = 32 ∨ (Rect.block (s := S4096x256) S2048x256.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1.size a ≤ S4096x1.size a
  hwx3_2 : ∀ i : grid3.Coords, EltTy.bits .f32 = 32 ∨ (Rect.block (s := S4096x1) S2048x1.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x256.size a ≤ S4096x256.size a
  hwx3_4 : ∀ i : grid3.Coords, EltTy.bits .f32 = 32 ∨ (Rect.block (s := S4096x256) S2048x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x4096.size a ≤ S4096x4096.size a
  hwx4_0 : ∀ i : grid4.Coords, EltTy.bits .bf16 = 32 ∨ (Rect.block (s := S4096x4096) S2048x4096.size (cc4_transform_0 i) (hinb4_0 i)).WholeWords (EltTy.packing .bf16)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S4096x256.size a ≤ S4096x256.size a
  hwx4_1 : ∀ i : grid4.Coords, EltTy.bits .bf16 = 32 ∨ (Rect.block (s := S4096x256) S4096x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x1.size a ≤ S4096x1.size a
  hwx4_2 : ∀ i : grid4.Coords, EltTy.bits .f32 = 32 ∨ (Rect.block (s := S4096x1) S2048x1.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2048x256.size a ≤ S4096x256.size a
  hwx4_4 : ∀ i : grid4.Coords, EltTy.bits .f32 = 32 ∨ (Rect.block (s := S4096x256) S2048x256.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x256.size a ≤ S4096x256.size a
  hwx5_0 : ∀ i : grid5.Coords, EltTy.bits .f32 = 32 ∨ (Rect.block (s := S4096x256) S2048x256.size (cc5_transform_0 i) (hinb5_0 i)).WholeWords (EltTy.packing .f32)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S256x128.size a ≤ S256x128.size a
  hwx5_1 : ∀ i : grid5.Coords, EltTy.bits .f32 = 32 ∨ (Rect.block (s := S256x128) S256x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x1.size a ≤ S4096x1.size a
  hwx5_2 : ∀ i : grid5.Coords, EltTy.bits .f32 = 32 ∨ (Rect.block (s := S4096x1) S2048x1.size (cc5_transform_2 i) (hinb5_2 i)).WholeWords (EltTy.packing .f32)
  hstage5_3 : ∀ j, (stage5_3 j).IsWhole
  nbuf5_3 : grid5.bufCount reads5_3 false = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2048x128.size a ≤ S4096x128.size a
  hwx5_4 : ∀ i : grid5.Coords, EltTy.bits .f32 = 32 ∨ (Rect.block (s := S4096x128) S2048x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x4096.size a ≤ S4096x4096.size a
  hwx6_0 : ∀ i : grid6.Coords, EltTy.bits .bf16 = 32 ∨ (Rect.block (s := S4096x4096) S2048x4096.size (cc6_transform_0 i) (hinb6_0 i)).WholeWords (EltTy.packing .bf16)
  hstage6_1 : ∀ j, (stage6_1 j).IsWhole
  nbuf6_1 : grid6.bufCount reads6_1 false = 1
  hreads6_1 : ∀ i i' : grid6.Coords, (∀ a, reads6_1 a = true → i a = i' a) → cc6_transform_1 i = cc6_transform_1 i'
  hinb6_1 : ∀ (i : grid6.Coords) a, (cc6_transform_1 i a + 1) * S4096x128.size a ≤ S4096x128.size a
  hwx6_1 : ∀ i : grid6.Coords, EltTy.bits .bf16 = 32 ∨ (Rect.block (s := S4096x128) S4096x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048x1.size a ≤ S4096x1.size a
  hwx6_2 : ∀ i : grid6.Coords, EltTy.bits .f32 = 32 ∨ (Rect.block (s := S4096x1) S2048x1.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2048x128.size a ≤ S4096x128.size a
  hwx6_4 : ∀ i : grid6.Coords, EltTy.bits .f32 = 32 ∨ (Rect.block (s := S4096x128) S2048x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x128.size a ≤ S4096x128.size a
  hwx7_0 : ∀ i : grid7.Coords, EltTy.bits .f32 = 32 ∨ (Rect.block (s := S4096x128) S2048x128.size (cc7_transform_0 i) (hinb7_0 i)).WholeWords (EltTy.packing .f32)
  hstage7_1 : ∀ j, (stage7_1 j).IsWhole
  nbuf7_1 : grid7.bufCount reads7_1 false = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2048x1.size a ≤ S4096x1.size a
  hwx7_2 : ∀ i : grid7.Coords, EltTy.bits .f32 = 32 ∨ (Rect.block (s := S4096x1) S2048x1.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2048x128.size a ≤ S4096x128.size a
  hwx7_4 : ∀ i : grid7.Coords, EltTy.bits .f32 = 32 ∨ (Rect.block (s := S4096x128) S2048x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048x128.size a ≤ S4096x128.size a
  hwx8_0 : ∀ i : grid8.Coords, EltTy.bits .f32 = 32 ∨ (Rect.block (s := S4096x128) S2048x128.size (cc8_transform_0 i) (hinb8_0 i)).WholeWords (EltTy.packing .f32)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2048x1.size a ≤ S4096x1.size a
  hwx8_2 : ∀ i : grid8.Coords, EltTy.bits .f32 = 32 ∨ (Rect.block (s := S4096x1) S2048x1.size (cc8_transform_2 i) (hinb8_2 i)).WholeWords (EltTy.packing .f32)
  hstage8_3 : ∀ j, (stage8_3 j).IsWhole
  nbuf8_3 : grid8.bufCount reads8_3 false = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S2048x128.size a ≤ S4096x128.size a
  hwx8_4 : ∀ i : grid8.Coords, EltTy.bits .f32 = 32 ∨ (Rect.block (s := S4096x128) S2048x128.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1024x128.size a ≤ S4096x128.size a
  hwx9_0 : ∀ i : grid9.Coords, EltTy.bits .f32 = 32 ∨ (Rect.block (s := S4096x128) S1024x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S128x4096.size a ≤ S128x16384.size a
  hwx9_1 : ∀ i : grid9.Coords, EltTy.bits .f32 = 32 ∨ (Rect.block (s := S128x16384) S128x4096.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1024x1.size a ≤ S4096x1.size a
  hwx9_2 : ∀ i : grid9.Coords, EltTy.bits .f32 = 32 ∨ (Rect.block (s := S4096x1) S1024x1.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S1x4096.size a ≤ S1x16384.size a
  hwx9_3 : ∀ i : grid9.Coords, EltTy.bits .f32 = 32 ∨ (Rect.block (s := S1x16384) S1x4096.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S1024x4096.size a ≤ S4096x16384.size a
  hwx9_4 : ∀ i : grid9.Coords, EltTy.bits .f32 = 32 ∨ (Rect.block (s := S4096x16384) S1024x4096.size (cc9_transform_4 i) (hinb9_4 i)).WholeWords (EltTy.packing .f32)

variable [Facts₀]

def scatter_S4096x4096_S65536x2_S65536_n_01_01_1 : ScatterDims S4096x4096 S65536x2 S65536 where
  updateWindowDims := []
  insertedWindowDims := [0, 1]
  scatterDimsToOperandDims := [0, 1]
  indexVectorDim := 1
  wf := scatter_S4096x4096_S65536x2_S65536_n_01_01_1_wf
def scatter_S4096_S65536x1_S65536_n_0_0_1 : ScatterDims S4096 S65536x1 S65536 where
  updateWindowDims := []
  insertedWindowDims := [0]
  scatterDimsToOperandDims := [0]
  indexVectorDim := 1
  wf := scatter_S4096_S65536x1_S65536_n_0_0_1_wf
def dot_S2048x4096_S4096x512_S2048x512_1_0_0_1_n_n : DotDims S2048x4096 S4096x512 S2048x512 where
  lhsContracting := [1]
  rhsContracting := [0]
  lhsNonContracting := [0]
  rhsNonContracting := [1]
  lhsBatch := []
  rhsBatch := []
  wf := dot_S2048x4096_S4096x512_S2048x512_1_0_0_1_n_n_wf
def dot_S2048x4096_S4096x256_S2048x256_1_0_0_1_n_n : DotDims S2048x4096 S4096x256 S2048x256 where
  lhsContracting := [1]
  rhsContracting := [0]
  lhsNonContracting := [0]
  rhsNonContracting := [1]
  lhsBatch := []
  rhsBatch := []
  wf := dot_S2048x4096_S4096x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x4096_S4096x128_S2048x128_1_0_0_1_n_n : DotDims S2048x4096 S4096x128 S2048x128 where
  lhsContracting := [1]
  rhsContracting := [0]
  lhsNonContracting := [0]
  rhsNonContracting := [1]
  lhsBatch := []
  rhsBatch := []
  wf := dot_S2048x4096_S4096x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S1024x128_S128x4096_S1024x4096_1_0_0_1_n_n : DotDims S1024x128 S128x4096 S1024x4096 where
  lhsContracting := [1]
  rhsContracting := [0]
  lhsNonContracting := [0]
  rhsNonContracting := [1]
  lhsBatch := []
  rhsBatch := []
  wf := dot_S1024x128_S128x4096_S1024x4096_1_0_0_1_n_n_wf

abbrev win0_0 : Pipeline.Window sig grid0 :=
  Pipeline.Window.ofSpec (Memref.whole main_v20) S2048x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v35) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v35) S2048x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4096x256.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x256.size cc1_transform_3 reads1_3 false false 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S2048x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v32) S2048x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S4096x256.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x256.size cc2_transform_3 reads2_3 false false 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S2048x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v44) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S256x256.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S2048x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1x256.size cc3_transform_3 reads3_3 false false 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S2048x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v20) S2048x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S4096x256.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v52) S2048x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v53) S1x256.size cc4_transform_3 reads4_3 false false 1 stage4_3 sem4_3
    hrank4 hreads4_3 hinb4_3 nbuf4_3 (Memref.isWhole_whole _) hwx4_3 hstage4_3

abbrev win4_4 : Pipeline.Window sig grid4 :=
  Pipeline.Window.ofSpec (Memref.whole main_v54) S2048x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v64) S2048x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S256x128.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v65) S2048x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v66) S1x128.size cc5_transform_3 reads5_3 false false 1 stage5_3 sem5_3
    hrank5 hreads5_3 hinb5_3 nbuf5_3 (Memref.isWhole_whole _) hwx5_3 hstage5_3

abbrev win5_4 : Pipeline.Window sig grid5 :=
  Pipeline.Window.ofSpec (Memref.whole main_v67) S2048x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v20) S2048x4096.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v71) S4096x128.size cc6_transform_1 reads6_1 false false 1 stage6_1 sem6_1
    hrank6 hreads6_1 hinb6_1 nbuf6_1 (Memref.isWhole_whole _) hwx6_1 hstage6_1

abbrev win6_2 : Pipeline.Window sig grid6 :=
  Pipeline.Window.ofSpec (Memref.whole main_v72) S2048x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v73) S1x128.size cc6_transform_3 reads6_3 false false 1 stage6_3 sem6_3
    hrank6 hreads6_3 hinb6_3 nbuf6_3 (Memref.isWhole_whole _) hwx6_3 hstage6_3

abbrev win6_4 : Pipeline.Window sig grid6 :=
  Pipeline.Window.ofSpec (Memref.whole main_v74) S2048x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v84) S2048x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S128x128.size cc7_transform_1 reads7_1 false false 1 stage7_1 sem7_1
    hrank7 hreads7_1 hinb7_1 nbuf7_1 (Memref.isWhole_whole _) hwx7_1 hstage7_1

abbrev win7_2 : Pipeline.Window sig grid7 :=
  Pipeline.Window.ofSpec (Memref.whole main_v85) S2048x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v86) S1x128.size cc7_transform_3 reads7_3 false false 1 stage7_3 sem7_3
    hrank7 hreads7_3 hinb7_3 nbuf7_3 (Memref.isWhole_whole _) hwx7_3 hstage7_3

abbrev win7_4 : Pipeline.Window sig grid7 :=
  Pipeline.Window.ofSpec (Memref.whole main_v87) S2048x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v87) S2048x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S128x128.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_v88) S2048x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v89) S1x128.size cc8_transform_3 reads8_3 false false 1 stage8_3 sem8_3
    hrank8 hreads8_3 hinb8_3 nbuf8_3 (Memref.isWhole_whole _) hwx8_3 hstage8_3

abbrev win8_4 : Pipeline.Window sig grid8 :=
  Pipeline.Window.ofSpec (Memref.whole main_v90) S2048x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v90) S1024x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg13) S128x4096.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v91) S1024x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v92) S1x4096.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v93) S1024x4096.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

class Facts : Prop extends Facts₀ where

variable [Facts]
-- ==== ReferenceIdeal.lean ====
abbrev S4096x4096 : Shape := ⟨2, ![4096, 4096]⟩
abbrev S2x65536 : Shape := ⟨2, ![2, 65536]⟩
abbrev S4096x256 : Shape := ⟨2, ![4096, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x128 : Shape := ⟨2, ![128, 128]⟩
abbrev S128x16384 : Shape := ⟨2, ![128, 16384]⟩
abbrev S16384 : Shape := ⟨1, ![16384]⟩
abbrev S1x65536 : Shape := ⟨2, ![1, 65536]⟩
abbrev S65536 : Shape := ⟨1, ![65536]⟩
abbrev S_ : Shape := ⟨0, ![]⟩
abbrev S4096 : Shape := ⟨1, ![4096]⟩
abbrev S65536x1 : Shape := ⟨2, ![65536, 1]⟩
abbrev S65536x4096 : Shape := ⟨2, ![65536, 4096]⟩
abbrev S4096x1 : Shape := ⟨2, ![4096, 1]⟩
abbrev S1x256 : Shape := ⟨2, ![1, 256]⟩
abbrev S69632 : Shape := ⟨1, ![69632]⟩
abbrev S69632x1 : Shape := ⟨2, ![69632, 1]⟩
abbrev S69632x256 : Shape := ⟨2, ![69632, 256]⟩
abbrev S4096x128 : Shape := ⟨2, ![4096, 128]⟩
abbrev S69632x128 : Shape := ⟨2, ![69632, 128]⟩
abbrev S1x128 : Shape := ⟨2, ![1, 128]⟩
abbrev S4096x16384 : Shape := ⟨2, ![4096, 16384]⟩
abbrev S1x16384 : Shape := ⟨2, ![1, 16384]⟩
abbrev S4096x4x4096 : Shape := ⟨3, ![4096, 4, 4096]⟩

abbrev nBuf : Space → Nat
  | .hbm => 194
  | .vmem => 0
  | .smem => 0
  | _ => 0

abbrev hbmTy0_0 (i : Nat) : BufTy := match i % 128 with
  | 0 => ⟨S4096x4096, .f32⟩
  | 1 => ⟨S2x65536, .i32⟩
  | 2 => ⟨S4096x256, .f32⟩
  | 3 => ⟨S256, .f32⟩
  | 4 => ⟨S4096x256, .f32⟩
  | 5 => ⟨S256x256, .f32⟩
  | 6 => ⟨S256, .f32⟩
  | 7 => ⟨S256x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x16384, .f32⟩
  | 14 => ⟨S16384, .f32⟩
  | 15 => ⟨S1x65536, .i32⟩
  | 16 => ⟨S65536, .i32⟩
  | 17 => ⟨S1x65536, .i32⟩
  | 18 => ⟨S65536, .i32⟩
  | 19 => ⟨S_, .f32⟩
  | 20 => ⟨S65536, .f32⟩
  | 21 => ⟨S_, .f32⟩
  | 22 => ⟨S4096, .f32⟩
  | 23 => ⟨S65536x1, .i32⟩
  | 24 => ⟨S4096, .f32⟩
  | 25 => ⟨S_, .i32⟩
  | 26 => ⟨S65536, .i32⟩
  | 27 => ⟨S65536, .i1⟩
  | 28 => ⟨S_, .i32⟩
  | 29 => ⟨S65536, .i32⟩
  | 30 => ⟨S65536, .i32⟩
  | 31 => ⟨S65536, .i32⟩
  | 32 => ⟨S65536x1, .i32⟩
  | 33 => ⟨S65536x4096, .f32⟩
  | 34 => ⟨S_, .f32⟩
  | 35 => ⟨S4096x4096, .f32⟩
  | 36 => ⟨S65536x1, .i32⟩
  | 37 => ⟨S4096x4096, .f32⟩
  | 38 => ⟨S_, .f32⟩
  | 39 => ⟨S4096, .f32⟩
  | 40 => ⟨S4096, .f32⟩
  | 41 => ⟨S4096x1, .f32⟩
  | 42 => ⟨S4096x4096, .f32⟩
  | 43 => ⟨S4096x4096, .f32⟩
  | 44 => ⟨S4096x256, .f32⟩
  | 45 => ⟨S1x256, .f32⟩
  | 46 => ⟨S4096x256, .f32⟩
  | 47 => ⟨S4096x256, .f32⟩
  | 48 => ⟨S4096x256, .f32⟩
  | 49 => ⟨S4096x256, .f32⟩
  | 50 => ⟨S_, .f32⟩
  | 51 => ⟨S4096x256, .f32⟩
  | 52 => ⟨S4096x256, .f32⟩
  | 53 => ⟨S4096x256, .f32⟩
  | 54 => ⟨S4096, .i32⟩
  | 55 => ⟨S69632, .i32⟩
  | 56 => ⟨S69632, .i32⟩
  | 57 => ⟨S_, .f32⟩
  | 58 => ⟨S69632, .f32⟩
  | 59 => ⟨S_, .f32⟩
  | 60 => ⟨S4096, .f32⟩
  | 61 => ⟨S69632x1, .i32⟩
  | 62 => ⟨S4096, .f32⟩
  | 63 => ⟨S_, .f32⟩
  | 64 => ⟨S4096, .f32⟩
  | 65 => ⟨S4096, .i1⟩
  | 66 => ⟨S_, .f32⟩
  | 67 => ⟨S4096, .f32⟩
  | 68 => ⟨S4096, .f32⟩
  | 69 => ⟨S_, .f32⟩
  | 70 => ⟨S_, .f32⟩
  | 71 => ⟨S4096, .f32⟩
  | 72 => ⟨S4096, .f32⟩
  | 73 => ⟨S_, .i32⟩
  | 74 => ⟨S69632, .i32⟩
  | 75 => ⟨S69632, .i1⟩
  | 76 => ⟨S_, .i32⟩
  | 77 => ⟨S69632, .i32⟩
  | 78 => ⟨S69632, .i32⟩
  | 79 => ⟨S69632, .i32⟩
  | 80 => ⟨S69632x1, .i32⟩
  | 81 => ⟨S69632, .f32⟩
  | 82 => ⟨S_, .i32⟩
  | 83 => ⟨S69632, .i32⟩
  | 84 => ⟨S69632, .i1⟩
  | 85 => ⟨S_, .i32⟩
  | 86 => ⟨S69632, .i32⟩
  | 87 => ⟨S69632, .i32⟩
  | 88 => ⟨S69632, .i32⟩
  | 89 => ⟨S69632x1, .i32⟩
  | 90 => ⟨S69632, .f32⟩
  | 91 => ⟨S69632, .f32⟩
  | 92 => ⟨S69632x1, .f32⟩
  | 93 => ⟨S_, .i32⟩
  | 94 => ⟨S69632, .i32⟩
  | 95 => ⟨S69632, .i1⟩
  | 96 => ⟨S_, .i32⟩
  | 97 => ⟨S69632, .i32⟩
  | 98 => ⟨S69632, .i32⟩
  | 99 => ⟨S69632, .i32⟩
  | 100 => ⟨S69632x1, .i32⟩
  | 101 => ⟨S69632x256, .f32⟩
  | 102 => ⟨S69632x256, .f32⟩
  | 103 => ⟨S69632x256, .f32⟩
  | 104 => ⟨S_, .f32⟩
  | 105 => ⟨S4096x256, .f32⟩
  | 106 => ⟨S69632x1, .i32⟩
  | 107 => ⟨S4096x256, .f32⟩
  | 108 => ⟨S1x256, .f32⟩
  | 109 => ⟨S4096x256, .f32⟩
  | 110 => ⟨S4096x256, .f32⟩
  | 111 => ⟨S_, .f32⟩
  | 112 => ⟨S4096x256, .f32⟩
  | 113 => ⟨S4096x256, .f32⟩
  | 114 => ⟨S4096x128, .f32⟩
  | 115 => ⟨S4096, .i32⟩
  | 116 => ⟨S69632, .i32⟩
  | 117 => ⟨S69632, .i32⟩
  | 118 => ⟨S_, .f32⟩
  | 119 => ⟨S69632, .f32⟩
  | 120 => ⟨S_, .f32⟩
  | 121 => ⟨S4096, .f32⟩
  | 122 => ⟨S69632x1, .i32⟩
  | 123 => ⟨S4096, .f32⟩
  | 124 => ⟨S_, .f32⟩
  | 125 => ⟨S4096, .f32⟩
  | 126 => ⟨S4096, .i1⟩
  | 127 => ⟨S_, .f32⟩
  | _ => ⟨S4096x4096, .f32⟩

abbrev hbmTy0_1 (i : Nat) : BufTy := match i % 128 with
  | 0 => ⟨S4096, .f32⟩
  | 1 => ⟨S4096, .f32⟩
  | 2 => ⟨S_, .f32⟩
  | 3 => ⟨S_, .f32⟩
  | 4 => ⟨S4096, .f32⟩
  | 5 => ⟨S4096, .f32⟩
  | 6 => ⟨S_, .i32⟩
  | 7 => ⟨S69632, .i32⟩
  | 8 => ⟨S69632, .i1⟩
  | 9 => ⟨S_, .i32⟩
  | 10 => ⟨S69632, .i32⟩
  | 11 => ⟨S69632, .i32⟩
  | 12 => ⟨S69632, .i32⟩
  | 13 => ⟨S69632x1, .i32⟩
  | 14 => ⟨S69632, .f32⟩
  | 15 => ⟨S_, .i32⟩
  | 16 => ⟨S69632, .i32⟩
  | 17 => ⟨S69632, .i1⟩
  | 18 => ⟨S_, .i32⟩
  | 19 => ⟨S69632, .i32⟩
  | 20 => ⟨S69632, .i32⟩
  | 21 => ⟨S69632, .i32⟩
  | 22 => ⟨S69632x1, .i32⟩
  | 23 => ⟨S69632, .f32⟩
  | 24 => ⟨S69632, .f32⟩
  | 25 => ⟨S69632x1, .f32⟩
  | 26 => ⟨S_, .i32⟩
  | 27 => ⟨S69632, .i32⟩
  | 28 => ⟨S69632, .i1⟩
  | 29 => ⟨S_, .i32⟩
  | 30 => ⟨S69632, .i32⟩
  | 31 => ⟨S69632, .i32⟩
  | 32 => ⟨S69632, .i32⟩
  | 33 => ⟨S69632x1, .i32⟩
  | 34 => ⟨S69632x128, .f32⟩
  | 35 => ⟨S69632x128, .f32⟩
  | 36 => ⟨S69632x128, .f32⟩
  | 37 => ⟨S_, .f32⟩
  | 38 => ⟨S4096x128, .f32⟩
  | 39 => ⟨S69632x1, .i32⟩
  | 40 => ⟨S4096x128, .f32⟩
  | 41 => ⟨S1x128, .f32⟩
  | 42 => ⟨S4096x128, .f32⟩
  | 43 => ⟨S4096x128, .f32⟩
  | 44 => ⟨S_, .f32⟩
  | 45 => ⟨S4096x128, .f32⟩
  | 46 => ⟨S4096x128, .f32⟩
  | 47 => ⟨S4096x128, .f32⟩
  | 48 => ⟨S1x128, .f32⟩
  | 49 => ⟨S4096x128, .f32⟩
  | 50 => ⟨S4096x128, .f32⟩
  | 51 => ⟨S_, .f32⟩
  | 52 => ⟨S4096x128, .f32⟩
  | 53 => ⟨S4096x128, .f32⟩
  | 54 => ⟨S4096x128, .f32⟩
  | 55 => ⟨S1x128, .f32⟩
  | 56 => ⟨S4096x128, .f32⟩
  | 57 => ⟨S4096x128, .f32⟩
  | 58 => ⟨S_, .f32⟩
  | 59 => ⟨S4096x128, .f32⟩
  | 60 => ⟨S4096x128, .f32⟩
  | 61 => ⟨S4096x16384, .f32⟩
  | 62 => ⟨S1x16384, .f32⟩
  | 63 => ⟨S4096x16384, .f32⟩
  | 64 => ⟨S4096x16384, .f32⟩
  | 65 => ⟨S4096x4x4096, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call0_cst : Ref sig .tc := ⟨.hbm, 50, rfl⟩
abbrev main_call0_v0 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_4 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_v41 : Ref sig .tc := ⟨.hbm, 68, rfl⟩
abbrev main_cst_8 : Ref sig .tc := ⟨.hbm, 69, rfl⟩
abbrev main_call1_v0 : Ref sig .tc := ⟨.hbm, 70, rfl⟩
abbrev main_call1_v1 : Ref sig .tc := ⟨.hbm, 71, rfl⟩
abbrev main_v42 : Ref sig .tc := ⟨.hbm, 72, rfl⟩
abbrev main_c_9 : Ref sig .tc := ⟨.hbm, 73, rfl⟩
abbrev main_v43 : Ref sig .tc := ⟨.hbm, 74, rfl⟩
abbrev main_v44 : Ref sig .tc := ⟨.hbm, 75, rfl⟩
abbrev main_c_10 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_11 : Ref sig .tc := ⟨.hbm, 82, rfl⟩
abbrev main_v50 : Ref sig .tc := ⟨.hbm, 83, rfl⟩
abbrev main_v51 : Ref sig .tc := ⟨.hbm, 84, rfl⟩
abbrev main_c_12 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_13 : Ref sig .tc := ⟨.hbm, 93, rfl⟩
abbrev main_v59 : Ref sig .tc := ⟨.hbm, 94, rfl⟩
abbrev main_v60 : Ref sig .tc := ⟨.hbm, 95, rfl⟩
abbrev main_c_14 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_15 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_call2_cst : Ref sig .tc := ⟨.hbm, 111, rfl⟩
abbrev main_call2_v0 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_16 : Ref sig .tc := ⟨.hbm, 118, rfl⟩
abbrev main_v79 : Ref sig .tc := ⟨.hbm, 119, rfl⟩
abbrev main_cst_17 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_18 : Ref sig .tc := ⟨.hbm, 124, rfl⟩
abbrev main_v83 : Ref sig .tc := ⟨.hbm, 125, rfl⟩
abbrev main_v84 : Ref sig .tc := ⟨.hbm, 126, rfl⟩
abbrev main_cst_19 : Ref sig .tc := ⟨.hbm, 127, rfl⟩
abbrev main_v85 : Ref sig .tc := ⟨.hbm, 128, rfl⟩
abbrev main_v86 : Ref sig .tc := ⟨.hbm, 129, rfl⟩
abbrev main_cst_20 : Ref sig .tc := ⟨.hbm, 130, rfl⟩
abbrev main_call3_v0 : Ref sig .tc := ⟨.hbm, 131, rfl⟩
abbrev main_call3_v1 : Ref sig .tc := ⟨.hbm, 132, rfl⟩
abbrev main_v87 : Ref sig .tc := ⟨.hbm, 133, rfl⟩
abbrev main_c_21 : Ref sig .tc := ⟨.hbm, 134, rfl⟩
abbrev main_v88 : Ref sig .tc := ⟨.hbm, 135, rfl⟩
abbrev main_v89 : Ref sig .tc := ⟨.hbm, 136, rfl⟩
abbrev main_c_22 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_c_23 : Ref sig .tc := ⟨.hbm, 143, rfl⟩
abbrev main_v95 : Ref sig .tc := ⟨.hbm, 144, rfl⟩
abbrev main_v96 : Ref sig .tc := ⟨.hbm, 145, rfl⟩
abbrev main_c_24 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_c_25 : Ref sig .tc := ⟨.hbm, 154, rfl⟩
abbrev main_v104 : Ref sig .tc := ⟨.hbm, 155, rfl⟩
abbrev main_v105 : Ref sig .tc := ⟨.hbm, 156, rfl⟩
abbrev main_c_26 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_cst_27 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_call4_cst : Ref sig .tc := ⟨.hbm, 172, rfl⟩
abbrev main_call4_v0 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_call5_cst : Ref sig .tc := ⟨.hbm, 179, rfl⟩
abbrev main_call5_v0 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_call6_cst : Ref sig .tc := ⟨.hbm, 186, rfl⟩
abbrev main_call6_v0 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩

abbrev nD : Nat := 1
abbrev τ : Topo := Topo.v7x

variable {F : FTy → Type} [FloatOps F]

class Facts₀ : Prop where
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S_S4096 : S_.BroadcastsInDim S4096 (![] : Fin 0 → Fin S4096.rank)
  bcast_S65536_S65536x1_0 : S65536.BroadcastsInDim S65536x1 (![0] : Fin 1 → Fin S65536x1.rank)
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  concatenates_S65536_S4096_S69632_d0 : Shape.Concatenates [S65536, S4096] S69632 0
  bcast_S_S69632 : S_.BroadcastsInDim S69632 (![] : Fin 0 → Fin S69632.rank)
  bcast_S69632_S69632x1_0 : S69632.BroadcastsInDim S69632x1 (![0] : Fin 1 → Fin S69632x1.rank)
  bcast_S69632x1_S69632x256_0_1 : S69632x1.BroadcastsInDim S69632x256 (![0, 1] : Fin 2 → Fin S69632x256.rank)
  bcast_S69632x1_S69632x128_0_1 : S69632x1.BroadcastsInDim S69632x128 (![0, 1] : Fin 2 → Fin S69632x128.rank)
  bcast_S_S4096x128 : S_.BroadcastsInDim S4096x128 (![] : Fin 0 → Fin S4096x128.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  shapeCasts_S4096x16384_S4096x4x4096 : S4096x16384.ShapeCasts S4096x4x4096
  scatter_S4096_S65536x1_S65536_n_0_0_1_wf : ScatterDims.WF S4096 S65536x1 S65536 [] [0] [0] 1
  gather_S4096x4096_S65536x1_S65536x4096_1_0_n_n_0_1_14096_wf : GatherDims.WF S4096x4096 S65536x1 S65536x4096 [1] [0] [] [0] [] 1 ![1, 4096]
  scatter_S4096x4096_S65536x1_S65536x4096_1_0_0_1_wf : ScatterDims.WF S4096x4096 S65536x1 S65536x4096 [1] [0] [0] 1
  dot_S4096x4096_S4096x256_S4096x256_1_0_0_1_n_n_wf : DotDims.WF S4096x4096 S4096x256 S4096x256 [1] [0] [0] [1] [] []
  dot_S4096x256_S256x256_S4096x256_1_0_0_1_n_n_wf : DotDims.WF S4096x256 S256x256 S4096x256 [1] [0] [0] [1] [] []
  scatter_S4096_S69632x1_S69632_n_0_0_1_wf : ScatterDims.WF S4096 S69632x1 S69632 [] [0] [0] 1
  gather_S4096_S69632x1_S69632_n_0_n_n_0_1_1_wf : GatherDims.WF S4096 S69632x1 S69632 [] [0] [] [0] [] 1 ![1]
  gather_S4096x256_S69632x1_S69632x256_1_0_n_n_0_1_1256_wf : GatherDims.WF S4096x256 S69632x1 S69632x256 [1] [0] [] [0] [] 1 ![1, 256]
  scatter_S4096x256_S69632x1_S69632x256_1_0_0_1_wf : ScatterDims.WF S4096x256 S69632x1 S69632x256 [1] [0] [0] 1
  dot_S4096x256_S256x128_S4096x128_1_0_0_1_n_n_wf : DotDims.WF S4096x256 S256x128 S4096x128 [1] [0] [0] [1] [] []
  gather_S4096x128_S69632x1_S69632x128_1_0_n_n_0_1_1128_wf : GatherDims.WF S4096x128 S69632x1 S69632x128 [1] [0] [] [0] [] 1 ![1, 128]
  scatter_S4096x128_S69632x1_S69632x128_1_0_0_1_wf : ScatterDims.WF S4096x128 S69632x1 S69632x128 [1] [0] [0] 1
  dot_S4096x128_S128x128_S4096x128_1_0_0_1_n_n_wf : DotDims.WF S4096x128 S128x128 S4096x128 [1] [0] [0] [1] [] []
  dot_S4096x128_S128x16384_S4096x16384_1_0_0_1_n_n_wf : DotDims.WF S4096x128 S128x16384 S4096x16384 [1] [0] [0] [1] [] []

variable [Facts₀]

def scatter_S4096_S65536x1_S65536_n_0_0_1 : ScatterDims S4096 S65536x1 S65536 where
  updateWindowDims := []
  insertedWindowDims := [0]
  scatterDimsToOperandDims := [0]
  indexVectorDim := 1
  wf := scatter_S4096_S65536x1_S65536_n_0_0_1_wf
def gather_S4096x4096_S65536x1_S65536x4096_1_0_n_n_0_1_14096 : GatherDims S4096x4096 S65536x1 S65536x4096 where
  offsetDims := [1]
  collapsedSliceDims := [0]
  operandBatchingDims := []
  startIndicesBatchingDims := []
  startIndexMap := [0]
  indexVectorDim := 1
  sliceSizes := ![1, 4096]
  wf := gather_S4096x4096_S65536x1_S65536x4096_1_0_n_n_0_1_14096_wf
def scatter_S4096x4096_S65536x1_S65536x4096_1_0_0_1 : ScatterDims S4096x4096 S65536x1 S65536x4096 where
  updateWindowDims := [1]
  insertedWindowDims := [0]
  scatterDimsToOperandDims := [0]
  indexVectorDim := 1
  wf := scatter_S4096x4096_S65536x1_S65536x4096_1_0_0_1_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def scatter_S4096_S69632x1_S69632_n_0_0_1 : ScatterDims S4096 S69632x1 S69632 where
  updateWindowDims := []
  insertedWindowDims := [0]
  scatterDimsToOperandDims := [0]
  indexVectorDim := 1
  wf := scatter_S4096_S69632x1_S69632_n_0_0_1_wf
def gather_S4096_S69632x1_S69632_n_0_n_n_0_1_1 : GatherDims S4096 S69632x1 S69632 where
  offsetDims := []
  collapsedSliceDims := [0]
  operandBatchingDims := []
  startIndicesBatchingDims := []
  startIndexMap := [0]
  indexVectorDim := 1
  sliceSizes := ![1]
  wf := gather_S4096_S69632x1_S69632_n_0_n_n_0_1_1_wf
def gather_S4096x256_S69632x1_S69632x256_1_0_n_n_0_1_1256 : GatherDims S4096x256 S69632x1 S69632x256 where
  offsetDims := [1]
  collapsedSliceDims := [0]
  operandBatchingDims := []
  startIndicesBatchingDims := []
  startIndexMap := [0]
  indexVectorDim := 1
  sliceSizes := ![1, 256]
  wf := gather_S4096x256_S69632x1_S69632x256_1_0_n_n_0_1_1256_wf
def scatter_S4096x256_S69632x1_S69632x256_1_0_0_1 : ScatterDims S4096x256 S69632x1 S69632x256 where
  updateWindowDims := [1]
  insertedWindowDims := [0]
  scatterDimsToOperandDims := [0]
  indexVectorDim := 1
  wf := scatter_S4096x256_S69632x1_S69632x256_1_0_0_1_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def gather_S4096x128_S69632x1_S69632x128_1_0_n_n_0_1_1128 : GatherDims S4096x128 S69632x1 S69632x128 where
  offsetDims := [1]
  collapsedSliceDims := [0]
  operandBatchingDims := []
  startIndicesBatchingDims := []
  startIndexMap := [0]
  indexVectorDim := 1
  sliceSizes := ![1, 128]
  wf := gather_S4096x128_S69632x1_S69632x128_1_0_n_n_0_1_1128_wf
def scatter_S4096x128_S69632x1_S69632x128_1_0_0_1 : ScatterDims S4096x128 S69632x1 S69632x128 where
  updateWindowDims := [1]
  insertedWindowDims := [0]
  scatterDimsToOperandDims := [0]
  indexVectorDim := 1
  wf := scatter_S4096x128_S69632x1_S69632x128_1_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x16384_S4096x16384_1_0_0_1_n_n : DotDims S4096x128 S128x16384 S4096x16384 where
  lhsContracting := [1]
  rhsContracting := [0]
  lhsNonContracting := [0]
  rhsNonContracting := [1]
  lhsBatch := []
  rhsBatch := []
  wf := dot_S4096x128_S128x16384_S4096x16384_1_0_0_1_n_n_wf

class Facts : Prop extends Facts₀ where

variable [Facts]
-- ==== Proof.RealVals.lean ====
/-
  FINITE VALUES. An extended real "is a real" when it is the coercion of one. The operations the two programs apply to
  finite data keep it finite: sums, products, finite sums, a maximum, a quotient by a nonzero real, a real power of a real;
  and an extended real whose absolute value is below `+∞` is a real.
-/
import Idealize.ShloMosaic.PureOps.Ideal
import Mathlib.Algebra.BigOperators.Group.Finset.Basic

noncomputable section

open scoped BigOperators

namespace Cert.RealVals

open Idealize.ShloMosaic

/-- `x` is the coercion of a real number. -/
def IsReal (x : EReal) : Prop := ∃ r : ℝ, x = (r : EReal)

theorem isReal_coe (r : ℝ) : IsReal (r : EReal) := ⟨r, rfl⟩

theorem isReal_zero : IsReal (0 : EReal) := ⟨0, by simp⟩

theorem isReal_one : IsReal (1 : EReal) := ⟨1, by simp⟩

theorem IsReal.add {x y : EReal} (hx : IsReal x) (hy : IsReal y) : IsReal (x + y) := by
  -- the sum of two coerced reals is the coerced real sum
  obtain ⟨a, rfl⟩ := hx
  obtain ⟨b, rfl⟩ := hy
  exact ⟨a + b, (EReal.coe_add a b).symm⟩

theorem IsReal.mul {x y : EReal} (hx : IsReal x) (hy : IsReal y) : IsReal (x * y) := by
  -- the product of two coerced reals is the coerced real product
  obtain ⟨a, rfl⟩ := hx
  obtain ⟨b, rfl⟩ := hy
  exact ⟨a * b, (EReal.coe_mul a b).symm⟩

theorem IsReal.max {x y : EReal} (hx : IsReal x) (hy : IsReal y) : IsReal (max x y) := by
  -- the maximum of two values is one of them
  rcases max_choice x y with h | h
  · rw [h]; exact hx
  · rw [h]; exact hy

theorem IsReal.sum {ι : Type*} (s : Finset ι) (f : ι → EReal) (h : ∀ i ∈ s, IsReal (f i)) : IsReal (∑ i ∈ s, f i) := by
  classical
  -- induction on the index set: the empty sum is `0`, and one more real term keeps the sum real
  revert h
  refine Finset.induction_on s ?_ ?_
  · intro _
    rw [Finset.sum_empty]
    exact isReal_zero
  · intro a t ha ih h
    rw [Finset.sum_insert ha]
    exact (h a (Finset.mem_insert_self a t)).add (ih (fun i hi => h i (Finset.mem_insert_of_mem hi)))

/-- A quotient by a nonzero real. -/
theorem IsReal.div {x : EReal} (hx : IsReal x) (d : ℝ) (hd : d ≠ 0) : IsReal (Ideal.div x (d : EReal)) := by
  -- off zero the quotient is the product with the real reciprocal `1 / d`
  obtain ⟨a, rfl⟩ := hx
  rw [Ideal.div_coe hd]
  exact ⟨a * (1 / d), (EReal.coe_mul a (1 / d)).symm⟩

/-- A real power of a real is a real. -/
theorem isReal_pow (x y : ℝ) : IsReal (Ideal.pow (x : EReal) (y : EReal)) := by
  -- at two reals the power is the real power
  exact ⟨Real.rpow x y, Ideal.pow_coe_coe x y⟩

/-- The float words of zero and one denote `0` and `1`. -/
theorem ofBits_zero : Ideal.ofBits .f32 0x00000000#32 = 0 := by
  -- sign 0, exponent field 0, fraction 0: the subnormal `0 · 2^(-149)`
  simp [Ideal.ofBits, Ideal.ieee]

theorem ofBits_one : Ideal.ofBits .f32 0x3F800000#32 = 1 := by
  -- sign 0, exponent field 127, fraction 0: `2^23 · 2^(127 - 127 - 23) = 1`
  simp [Ideal.ofBits, Ideal.ieee, -EReal.coe_mul]
  norm_num

/-- The float word of `-0.5` denotes the real `-1/2`. -/
theorem ofBits_neg_half : Ideal.ofBits .f32 0xBF000000#32 = (((-1 / 2 : ℝ)) : EReal) := by
  -- sign 1, exponent field 126, fraction 0: `-(2^23 · 2^(126 - 127 - 23)) = -1/2`
  simp [Ideal.ofBits, Ideal.ieee, -EReal.coe_mul]
  norm_num

/-- An extended real whose absolute value is below `+∞` is a real. -/
theorem isReal_of_abs_lt_top (x : EReal) (h : max x (-x) < ⊤) : IsReal x := by
  -- at either infinity one of `x`, `-x` is `⊤`, so the maximum is not below `⊤`
  induction x using EReal.rec with
  | bot => simp at h
  | coe r => exact ⟨r, rfl⟩
  | top => simp at h

/-- A family of reals is the pointwise coercion of a real family. -/
theorem exists_real_fun {ι : Type*} (v : ι → EReal) (h : ∀ i, IsReal (v i)) : ∃ r : ι → ℝ, v = fun i => ((r i : ℝ) : EReal) := by
  -- choose a real for every index
  choose r hr using h
  exact ⟨r, funext hr⟩

end Cert.RealVals

end
-- ==== Proof.PreFacts.lean ====
/-
  WHAT THE PRECONDITION SAYS, element by element. The precondition is one boolean: the conjunction, over the fourteen
  float inputs, of "every element's absolute value is below +∞", and of "every edge index is ≥ 0" and "every edge index
  is < 4096". When it is all ones, every float input is a family of reals and every edge index, read signed, lies in
  `[0, 4096)`.
-/
import proofs.«401099_j71683004170518_2_alg».proof.Pre_finite_inputs
import proofs.«401099_j71683004170518_2_alg».proof.Proof.Gen.Pre_finite_inputs
import proofs.«401099_j71683004170518_2_alg».proof.Proof.RealVals
import Idealize.ShloMosaic.Lib.ReduceAll
import Idealize.ShloMosaic.Lib.StableHlo.Predicate
import Idealize.ShloMosaic.Lib.ValueIdx

noncomputable section

namespace Cert.PreFacts

open Idealize.ShloMosaic Cert.Pre_finite_inputs Cert.RealVals

/-- The scalar shape has exactly one index. -/
private instance subsingleton_scalar_idx : Subsingleton S_.Idx := ⟨fun _ _ => funext fun d => d.elim0⟩

/-- The conjunction of two one-bit vectors is 1 at an index exactly when both are. -/
private theorem andi_one {s : Shape} (x y : IVec s 1) (j : s.Idx) : andi x y j = 1#1 ↔ x j = 1#1 ∧ y j = 1#1 :=
  IntOp.andi_eq_one

/-- An "all" (a reduction by `and` over every axis, from 1) that came out 1 met a 1 at every element. -/
private theorem all_one {s : Shape} {axes : List (Fin s.rank)} (x : IVec s 1) (init : IVec S_ 1)
    (hr : s.ReducesTo axes S_) (hu : 0 < S_.numel) (j : S_.Idx)
    (h : Host.reduce IntOp.andi x init hr hu j = 1#1) (i : s.Idx) : x i = 1#1 :=
  Host.reduce_andi_all x init hr hu j h i

/-- The f32 word `0x7F800000` (sign 0, exponent field all ones, fraction 0) denotes `+∞`. -/
private theorem ofBits_inf : Ideal.ofBits .f32 0x7F800000#32 = ⊤ := by
  simp [Ideal.ofBits, Ideal.ieee]

/-- An element whose absolute value compares below the broadcast `+∞` is a real. -/
private theorem real_of_mask {s : Shape} (a : FVec Ideal s .f32) (hb : S_.BroadcastsInDim s ![]) (i : s.Idx)
    (h : cmpf .olt (Host.absf a) (broadcastInDim s ![] hb (constant S_ .f32 0x7F800000#32)) i = 1#1) :
    IsReal (a i) := by
  apply isReal_of_abs_lt_top
  -- at the element: the comparison of `max x (-x)` with the constant's value, as a decided bit
  have h1 : BitVec.ofBool (decide (max (a i) (-(a i)) < Ideal.ofBits .f32 0x7F800000#32)) = 1#1 := h
  rw [ofBits_inf] at h1
  exact of_decide_eq_true ((StableHlo.Predicate.ofBool_eq_one_iff _).1 h1)

/-- An element that compares signed `≥` the broadcast 0 is non-negative read signed. -/
private theorem nonneg_of_mask {s : Shape} (a : IVec s 32) (hb : S_.BroadcastsInDim s ![]) (i : s.Idx)
    (h : cmpi .sge a (broadcastInDim s ![] hb (constantI S_ 32 0#32)) i = 1#1) : 0 ≤ (a i).toInt := by
  have h1 : BitVec.ofBool ((0#32 : BitVec 32).sle (a i)) = 1#1 := h
  have h2 := (StableHlo.Predicate.ofBool_eq_one_iff _).1 h1
  simp only [BitVec.sle, decide_eq_true_eq] at h2
  have z : (0#32 : BitVec 32).toInt = 0 := by decide
  rw [z] at h2
  exact h2

/-- An element that compares signed `<` the broadcast 4096 is below 4096 read signed. -/
private theorem lt_of_mask {s : Shape} (a : IVec s 32) (hb : S_.BroadcastsInDim s ![]) (i : s.Idx)
    (h : cmpi .slt a (broadcastInDim s ![] hb (constantI S_ 32 4096#32)) i = 1#1) : (a i).toInt < 4096 := by
  have h1 : BitVec.ofBool ((a i).slt (4096#32 : BitVec 32)) = 1#1 := h
  have h2 := (StableHlo.Predicate.ofBool_eq_one_iff _).1 h1
  simp only [BitVec.slt, decide_eq_true_eq] at h2
  have z : (4096#32 : BitVec 32).toInt = 4096 := by decide
  rw [z] at h2
  exact h2

/-- The last stretch of the conjunction: the two masks it is handed, and the two facts about the edge indices. -/
private theorem part4 (a1 : IVec S2x65536 32) (v63 v67 : IVec S_ 1) (j : S_.Idx)
    (h : fn_part4 (F := Ideal) a1 v63 v67 j = 1#1) :
    v63 j = 1#1 ∧ v67 j = 1#1 ∧ (∀ i, 0 ≤ (a1 i).toInt) ∧ (∀ i, (a1 i).toInt < 4096) := by
  dsimp only [fn_part4] at h
  obtain ⟨h72, h75⟩ := (andi_one _ _ j).1 h
  obtain ⟨h68, h71⟩ := (andi_one _ _ j).1 h72
  obtain ⟨h63, h67⟩ := (andi_one _ _ j).1 h68
  exact ⟨h63, h67, fun i => nonneg_of_mask a1 _ i (all_one _ _ _ _ j h71 i),
    fun i => lt_of_mask a1 _ i (all_one _ _ _ _ j h75 i)⟩

/-- The stretch before it: the mask it is handed, the comparison mask of `a11` handed to it unreduced, `a12`, `a13`,
    `a14`, and what the last stretch gives. -/
private theorem part3 (a1 : IVec S2x65536 32) (a12 : FVec Ideal S128 .f32) (a13 : FVec Ideal S128x16384 .f32)
    (a14 : FVec Ideal S16384 .f32) (v48 : IVec S_ 1) (v49 v50 : FVec Ideal S128x128 .f32) (j : S_.Idx)
    (h : fn_part3 (F := Ideal) a1 a12 a13 a14 v48 v49 v50 j = 1#1) :
    v48 j = 1#1 ∧ (∀ i, cmpf .olt v49 v50 i = 1#1) ∧ (∀ i, IsReal (a12 i)) ∧ (∀ i, IsReal (a13 i))
      ∧ (∀ i, IsReal (a14 i)) ∧ (∀ i, 0 ≤ (a1 i).toInt) ∧ (∀ i, (a1 i).toInt < 4096) := by
  dsimp only [fn_part3] at h
  obtain ⟨h63, h67, hge, hlt⟩ := part4 a1 _ _ j h
  obtain ⟨h58, h62⟩ := (andi_one _ _ j).1 h63
  obtain ⟨h53, h57⟩ := (andi_one _ _ j).1 h58
  obtain ⟨h48, h52⟩ := (andi_one _ _ j).1 h53
  exact ⟨h48, fun i => all_one _ _ _ _ j h52 i,
    fun i => real_of_mask a12 _ i (all_one _ _ _ _ j h57 i),
    fun i => real_of_mask a13 _ i (all_one _ _ _ _ j h62 i),
    fun i => real_of_mask a14 _ i (all_one _ _ _ _ j h67 i), hge, hlt⟩

/-- The stretch before that: the mask it is handed, `a8` … `a11`, and what the later stretches give. -/
private theorem part2 (a1 : IVec S2x65536 32) (a8 : FVec Ideal S128 .f32) (a9 : FVec Ideal S128x128 .f32)
    (a10 : FVec Ideal S128 .f32) (a11 : FVec Ideal S128x128 .f32) (a12 : FVec Ideal S128 .f32)
    (a13 : FVec Ideal S128x16384 .f32) (a14 : FVec Ideal S16384 .f32) (v33 : IVec S_ 1) (j : S_.Idx)
    (h : fn_part2 (F := Ideal) a1 a8 a9 a10 a11 a12 a13 a14 v33 j = 1#1) :
    v33 j = 1#1 ∧ (∀ i, IsReal (a8 i)) ∧ (∀ i, IsReal (a9 i)) ∧ (∀ i, IsReal (a10 i)) ∧ (∀ i, IsReal (a11 i))
      ∧ (∀ i, IsReal (a12 i)) ∧ (∀ i, IsReal (a13 i)) ∧ (∀ i, IsReal (a14 i))
      ∧ (∀ i, 0 ≤ (a1 i).toInt) ∧ (∀ i, (a1 i).toInt < 4096) := by
  dsimp only [fn_part2] at h
  obtain ⟨h48, h51, r12, r13, r14, hge, hlt⟩ := part3 a1 a12 a13 a14 _ _ _ j h
  obtain ⟨h43, h47⟩ := (andi_one _ _ j).1 h48
  obtain ⟨h38, h42⟩ := (andi_one _ _ j).1 h43
  obtain ⟨h33, h37⟩ := (andi_one _ _ j).1 h38
  exact ⟨h33, fun i => real_of_mask a8 _ i (all_one _ _ _ _ j h37 i),
    fun i => real_of_mask a9 _ i (all_one _ _ _ _ j h42 i),
    fun i => real_of_mask a10 _ i (all_one _ _ _ _ j h47 i),
    fun i => real_of_mask a11 _ i (h51 i), r12, r13, r14, hge, hlt⟩

/-- The first cut stretch: the mask it is handed, the comparison mask of `a4` handed to it unreduced, `a5`, `a6`,
    `a7`, and what the later stretches give. -/
private theorem part1 (a1 : IVec S2x65536 32) (a5 : FVec Ideal S256x256 .f32) (a6 : FVec Ideal S256 .f32)
    (a7 : FVec Ideal S256x128 .f32) (a8 : FVec Ideal S128 .f32) (a9 : FVec Ideal S128x128 .f32)
    (a10 : FVec Ideal S128 .f32) (a11 : FVec Ideal S128x128 .f32) (a12 : FVec Ideal S128 .f32)
    (a13 : FVec Ideal S128x16384 .f32) (a14 : FVec Ideal S16384 .f32) (v13 : IVec S_ 1) (v16 : IVec S4096x256 1)
    (j : S_.Idx)
    (h : fn_part1 (F := Ideal) a1 a5 a6 a7 a8 a9 a10 a11 a12 a13 a14 v13 v16 j = 1#1) :
    v13 j = 1#1 ∧ (∀ i, v16 i = 1#1) ∧ (∀ i, IsReal (a5 i)) ∧ (∀ i, IsReal (a6 i)) ∧ (∀ i, IsReal (a7 i))
      ∧ (∀ i, IsReal (a8 i)) ∧ (∀ i, IsReal (a9 i)) ∧ (∀ i, IsReal (a10 i)) ∧ (∀ i, IsReal (a11 i))
      ∧ (∀ i, IsReal (a12 i)) ∧ (∀ i, IsReal (a13 i)) ∧ (∀ i, IsReal (a14 i))
      ∧ (∀ i, 0 ≤ (a1 i).toInt) ∧ (∀ i, (a1 i).toInt < 4096) := by
  dsimp only [fn_part1] at h
  obtain ⟨h33, r8, r9, r10, r11, r12, r13, r14, hge, hlt⟩ := part2 a1 a8 a9 a10 a11 a12 a13 a14 _ j h
  obtain ⟨h28, h32⟩ := (andi_one _ _ j).1 h33
  obtain ⟨h23, h27⟩ := (andi_one _ _ j).1 h28
  obtain ⟨h18, h22⟩ := (andi_one _ _ j).1 h23
  obtain ⟨h13, h17⟩ := (andi_one _ _ j).1 h18
  exact ⟨h13, fun i => all_one _ _ _ _ j h17 i,
    fun i => real_of_mask a5 _ i (all_one _ _ _ _ j h22 i),
    fun i => real_of_mask a6 _ i (all_one _ _ _ _ j h27 i),
    fun i => real_of_mask a7 _ i (all_one _ _ _ _ j h32 i), r8, r9, r10, r11, r12, r13, r14, hge, hlt⟩

/-- The precondition all ones: every float input finite, every edge index in range. -/
theorem decode (a0 : FVec Ideal S4096x4096 .f32) (a1 : IVec S2x65536 32) (a2 : FVec Ideal S4096x256 .f32) (a3 : FVec Ideal S256 .f32)
    (a4 : FVec Ideal S4096x256 .f32) (a5 : FVec Ideal S256x256 .f32) (a6 : FVec Ideal S256 .f32) (a7 : FVec Ideal S256x128 .f32)
    (a8 : FVec Ideal S128 .f32) (a9 : FVec Ideal S128x128 .f32) (a10 : FVec Ideal S128 .f32) (a11 : FVec Ideal S128x128 .f32)
    (a12 : FVec Ideal S128 .f32) (a13 : FVec Ideal S128x16384 .f32) (a14 : FVec Ideal S16384 .f32)
    (h : Cert.Pre_finite_inputs.fn (F := Ideal) a0 a1 a2 a3 a4 a5 a6 a7 a8 a9 a10 a11 a12 a13 a14 = (fun _ => 1#1)) :
    (∀ i, IsReal (a0 i))
      ∧ (∀ i, IsReal (a2 i))
      ∧ (∀ i, IsReal (a3 i))
      ∧ (∀ i, IsReal (a4 i))
      ∧ (∀ i, IsReal (a5 i))
      ∧ (∀ i, IsReal (a6 i))
      ∧ (∀ i, IsReal (a7 i))
      ∧ (∀ i, IsReal (a8 i))
      ∧ (∀ i, IsReal (a9 i))
      ∧ (∀ i, IsReal (a10 i))
      ∧ (∀ i, IsReal (a11 i))
      ∧ (∀ i, IsReal (a12 i))
      ∧ (∀ i, IsReal (a13 i))
      ∧ (∀ i, IsReal (a14 i))
      ∧ (∀ i, 0 ≤ (a1 i).toInt ∧ (a1 i).toInt < 4096) := by
  -- the result is a rank-0 vector: read the claim at its one index
  have h0 : fn (F := Ideal) a0 a1 a2 a3 a4 a5 a6 a7 a8 a9 a10 a11 a12 a13 a14 ValueIdx.ix0 = 1#1 :=
    congrFun h ValueIdx.ix0
  dsimp only [fn] at h0
  obtain ⟨h13, h16, r5, r6, r7, r8, r9, r10, r11, r12, r13, r14, hge, hlt⟩ :=
    part1 a1 a5 a6 a7 a8 a9 a10 a11 a12 a13 a14 _ _ ValueIdx.ix0 h0
  obtain ⟨h8, h12⟩ := (andi_one _ _ ValueIdx.ix0).1 h13
  obtain ⟨h3, h7⟩ := (andi_one _ _ ValueIdx.ix0).1 h8
  exact ⟨fun i => real_of_mask a0 _ i (all_one _ _ _ _ ValueIdx.ix0 h3 i),
    fun i => real_of_mask a2 _ i (all_one _ _ _ _ ValueIdx.ix0 h7 i),
    fun i => real_of_mask a3 _ i (all_one _ _ _ _ ValueIdx.ix0 h12 i),
    fun i => real_of_mask a4 _ i (h16 i),
    r5, r6, r7, r8, r9, r10, r11, r12, r13, r14, fun i => ⟨hge i, hlt i⟩⟩

end Cert.PreFacts

end
-- ==== Proof.LibMatmul.lean ====
/-
  A RANK-2 CONTRACTION READ AT AN INDEX AS A SUM OVER THE SHARED AXIS, at any extents.

  For dimension numbers that contract axis 1 of `[M, K]` with axis 0 of `[K, N]` (no batch axes), the exact instance's
  contraction at `(p, q)` — the sum over the record's own contracted shape — is `∑ k : Fin K, lhs (p, k) * rhs (k, q)`,
  for the kernel's matrix product onto a zero accumulator and for the host's `dot_general` alike.
-/
import Idealize.ShloMosaic.Lib.ValueIdx
import Idealize.ShloMosaic.PureOps.Ideal.Laws

noncomputable section

open scoped BigOperators

namespace Cert.LibMatmul

open Idealize.ShloMosaic Idealize.ShloMosaic.ValueIdx

section
variable {M K N : Nat} {φ₁ φ₂ : FTy}

/-- An index read at two equal axis positions gives the same coordinate. -/
private theorem val_congr {s : Shape} (j : s.Idx) (a b : Nat) (ha : a < s.rank) (hb : b < s.rank) (h : a = b) :
    (j ⟨a, ha⟩).val = (j ⟨b, hb⟩).val := by
  subst h; rfl

/-- One contracted axis: the contracted shape has rank 1. -/
private theorem contr_rank (d : DotDims ⟨2, ![M, K]⟩ ⟨2, ![K, N]⟩ ⟨2, ![M, N]⟩) (h1 : d.lhsContracting = [1]) :
    d.contr.rank = 1 := by
  rw [d.rank_contr, h1]; rfl

/-- The contracted shape's one extent is the left operand's extent on axis 1, that is `K`. -/
private theorem contr_size (d : DotDims ⟨2, ![M, K]⟩ ⟨2, ![K, N]⟩ ⟨2, ![M, N]⟩) (h1 : d.lhsContracting = [1]) :
    d.contr.size ⟨0, by rw [contr_rank d h1]; exact Nat.one_pos⟩ = K := by
  rw [d.size_contr 0 (by rw [h1]; exact Nat.one_pos)]
  simp only [h1, List.getElem_cons_zero]
  rfl

/-- The left operand's row coordinate is the result's row coordinate: axis 0 is the left operand's one
    non-contracted axis, and with no batch axes it is the result's axis 0. -/
private theorem lhsIdx_row (d : DotDims ⟨2, ![M, K]⟩ ⟨2, ![K, N]⟩ ⟨2, ![M, N]⟩)
    (h3 : d.lhsNonContracting = [0]) (h5 : d.lhsBatch = [])
    (j : (⟨2, ![M, N]⟩ : Shape).Idx) (k : d.contr.Idx) : (d.lhsIdx j k 0).val = (j 0).val := by
  unfold DotDims.lhsIdx
  rw [dif_neg (by rw [h5]; exact List.not_mem_nil), dif_pos (by rw [h3]; exact List.mem_singleton.mpr rfl)]
  simp only [Fin.val_cast]
  exact val_congr j _ _ _ _ (by simp [h3, h5])

/-- The left operand's column coordinate is the contraction position's one coordinate. -/
private theorem lhsIdx_col (d : DotDims ⟨2, ![M, K]⟩ ⟨2, ![K, N]⟩ ⟨2, ![M, N]⟩) (h1 : d.lhsContracting = [1])
    (j : (⟨2, ![M, N]⟩ : Shape).Idx) (k : d.contr.Idx) :
    (d.lhsIdx j k 1).val = (k ⟨0, by rw [contr_rank d h1]; exact Nat.one_pos⟩).val :=
  d.lhsIdx_val_of_single h1 j k

/-- The right operand's row coordinate is the contraction position's one coordinate. -/
private theorem rhsIdx_row (d : DotDims ⟨2, ![M, K]⟩ ⟨2, ![K, N]⟩ ⟨2, ![M, N]⟩) (h1 : d.lhsContracting = [1])
    (h2 : d.rhsContracting = [0]) (j : (⟨2, ![M, N]⟩ : Shape).Idx) (k : d.contr.Idx) :
    (d.rhsIdx j k 0).val = (k ⟨0, by rw [contr_rank d h1]; exact Nat.one_pos⟩).val :=
  d.rhsIdx_val_of_single h2 j k

/-- The right operand's column coordinate is the result's column coordinate: axis 1 is the right operand's one
    non-contracted axis, placed after the left operand's one non-contracted axis in the result. -/
private theorem rhsIdx_col (d : DotDims ⟨2, ![M, K]⟩ ⟨2, ![K, N]⟩ ⟨2, ![M, N]⟩)
    (h3 : d.lhsNonContracting = [0]) (h4 : d.rhsNonContracting = [1]) (h5 : d.lhsBatch = []) (h6 : d.rhsBatch = [])
    (j : (⟨2, ![M, N]⟩ : Shape).Idx) (k : d.contr.Idx) : (d.rhsIdx j k 1).val = (j 1).val := by
  unfold DotDims.rhsIdx
  rw [dif_neg (by rw [h6]; exact List.not_mem_nil), dif_pos (by rw [h4]; exact List.mem_singleton.mpr rfl)]
  simp only [Fin.val_cast]
  exact val_congr j _ _ _ _ (by simp [h3, h4, h5])

/-- The contraction's sum over the record's contracted shape is the sum over the shared axis `Fin K`.
    The dimension numbers (`h1`–`h6`) contract the left operand's axis 1 with the right operand's axis 0, keep the
    left operand's axis 0 and the right operand's axis 1, and have no batch axes. Then the contracted shape has one
    axis, of extent `K`; a contraction position is its one coordinate `k`; and at the result index `(p, q)` and
    position `k` the left operand is read at `(p, k)` and the right operand at `(k, q)`. -/
theorem contr_sum (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂) (p : Fin M) (q : Fin N) :
    ∑ k : d.contr.Idx, lhs (d.lhsIdx (ix2 p q) k) * rhs (d.rhsIdx (ix2 p q) k)
      = ∑ k : Fin K, lhs (ix2 p k) * rhs (ix2 k q) := by
  have hr := contr_rank d h1
  have hs := contr_size d h1
  rw [← Equiv.sum_comp (contrEquiv1 d K hr hs).symm]
  refine Finset.sum_congr rfl fun c _ => ?_
  have hc := contrEquiv1_symm_val d K hr hs c
  have hl : d.lhsIdx (ix2 p q) ((contrEquiv1 d K hr hs).symm c) = ix2 p c := by
    funext a; apply Fin.ext
    match a with
    | ⟨0, _⟩ => exact lhsIdx_row d h3 h5 _ _
    | ⟨1, _⟩ => exact (lhsIdx_col d h1 _ _).trans hc
  have hrr : d.rhsIdx (ix2 p q) ((contrEquiv1 d K hr hs).symm c) = ix2 c q := by
    funext a; apply Fin.ext
    match a with
    | ⟨0, _⟩ => exact (rhsIdx_row d h1 h2 _ _).trans hc
    | ⟨1, _⟩ => exact rhsIdx_col d h3 h4 h5 h6 _ _
  rw [hl, hrr]

/-- THE KERNEL'S MATRIX PRODUCT ONTO A ZERO ACCUMULATOR, READ AT `(p, q)`. At the exact instance the product adds, to
    the accumulator's entry, the sum of the operands' products over the contracted shape; the zero constant contributes
    `0`, and the sum is `∑ k : Fin K, lhs (p, k) * rhs (k, q)` by `contr_sum`. -/
theorem matmul_zero_apply (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (lhs : FVec Ideal ⟨2, ![M, K]⟩ φ₁) (rhs : FVec Ideal ⟨2, ![K, N]⟩ φ₂) (p : Fin M) (q : Fin N) :
    matmul (F := Ideal) d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact contr_sum d h1 h2 h3 h4 h5 h6 lhs rhs p q

/-- THE HOST'S `dot_general`, READ AT `(p, q)`. At the exact instance it is the same contraction with no accumulator,
    so its entry is `∑ k : Fin K, lhs (p, k) * rhs (k, q)` by `contr_sum`. -/
theorem dotGeneral_apply2 (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (lhs : FVec Ideal ⟨2, ![M, K]⟩ φ₁) (rhs : FVec Ideal ⟨2, ![K, N]⟩ φ₂) (p : Fin M) (q : Fin N) :
    Host.dotGeneral (F := Ideal) d prec lhs rhs (ix2 p q)
      = ∑ k : Fin K, lhs (ix2 p k) * rhs (ix2 k q) := by
  show FloatOps.dotGeneral d prec .single lhs rhs (ix2 p q) = _
  rw [Ideal.dotGeneral_apply]
  exact contr_sum d h1 h2 h3 h4 h5 h6 lhs rhs p q

end

end Cert.LibMatmul

end
-- ==== Proof.MatmulSpec.lean ====
/-
  THE SCALED, SHIFTED MATRIX PRODUCT every region computes, as one function of four arrays: a left matrix `[M, K]`, a
  right matrix `[K, N]`, a column of row scales `[M, 1]` and a row of column shifts `[1, N]`:
  `mm a b s z (r, q) = (∑ k, a (r, k) · b (k, q)) · s (r, 0) + z (0, q)`; `mmRelu` clips it at zero from below.
-/
import Idealize.ShloMosaic.Lib.ValueIdx

noncomputable section

open scoped BigOperators

namespace Cert

/-- A buffer's contents read as a family of extended reals over a literal shape (a device buffer's element type is
    the extended reals only after its reference is unfolded; reading it through `fvec` fixes the type by name). -/
abbrev fvec (s : Idealize.ShloMosaic.Shape) (v : s.Idx → EReal) : s.Idx → EReal := v

end Cert

namespace Cert.MatmulSpec

open Idealize.ShloMosaic Idealize.ShloMosaic.ValueIdx

variable {M K N : Nat}

/-- The product's row `r`, column `q`, scaled by the row's scale and shifted by the column's shift. -/
def mm (a : (⟨2, ![M, K]⟩ : Shape).Idx → EReal) (b : (⟨2, ![K, N]⟩ : Shape).Idx → EReal)
    (s : (⟨2, ![M, 1]⟩ : Shape).Idx → EReal) (z : (⟨2, ![1, N]⟩ : Shape).Idx → EReal) :
    (⟨2, ![M, N]⟩ : Shape).Idx → EReal :=
  fun i => (∑ k : Fin K, a (ix2 (i 0) k) * b (ix2 k (i 1))) * s (ix2 (i 0) 0) + z (ix2 0 (i 1))

/-- The same, clipped at zero from below. -/
def mmRelu (a : (⟨2, ![M, K]⟩ : Shape).Idx → EReal) (b : (⟨2, ![K, N]⟩ : Shape).Idx → EReal)
    (s : (⟨2, ![M, 1]⟩ : Shape).Idx → EReal) (z : (⟨2, ![1, N]⟩ : Shape).Idx → EReal) :
    (⟨2, ![M, N]⟩ : Shape).Idx → EReal :=
  fun i => max (mm a b s z i) 0

theorem mm_apply (a : (⟨2, ![M, K]⟩ : Shape).Idx → EReal) (b : (⟨2, ![K, N]⟩ : Shape).Idx → EReal)
    (s : (⟨2, ![M, 1]⟩ : Shape).Idx → EReal) (z : (⟨2, ![1, N]⟩ : Shape).Idx → EReal) (p : Fin M) (q : Fin N) :
    mm a b s z (ix2 p q) = (∑ k : Fin K, a (ix2 p k) * b (ix2 k q)) * s (ix2 p 0) + z (ix2 0 q) := rfl

theorem mmRelu_apply (a : (⟨2, ![M, K]⟩ : Shape).Idx → EReal) (b : (⟨2, ![K, N]⟩ : Shape).Idx → EReal)
    (s : (⟨2, ![M, 1]⟩ : Shape).Idx → EReal) (z : (⟨2, ![1, N]⟩ : Shape).Idx → EReal) (p : Fin M) (q : Fin N) :
    mmRelu a b s z (ix2 p q) = max ((∑ k : Fin K, a (ix2 p k) * b (ix2 k q)) * s (ix2 p 0) + z (ix2 0 q)) 0 := rfl

end Cert.MatmulSpec

end
-- ==== Proof.Region0.lean ====
/-
  REGION 0: the dense aggregation product. The pallas_call tiles the output `[4096, 4096]` into blocks of `2048 × 512`
  over a grid `(2, 8)`; at grid point `(I, J)` the body reads rows `I` of the left matrix (all `4096` columns), columns `J`
  of the right matrix (all `4096` rows), rows `I` of the row-scale column and columns `J` of the bias row, and stores
  `(left_I · right_J) ∘ scale_I + bias_J`. The blocks tile the output, so the array ends holding ONE function of the
  four arrays the region finds: `mm a b s z (r, q) = (∑ k, a (r, k) · b (k, q)) · s (r, 0) + z (0, q)`.
-/
import proofs.«401099_j71683004170518_2_alg».proof.Proof.Gen.KernelIdeal.Frame
import proofs.«401099_j71683004170518_2_alg».proof.Proof.LibMatmul
import proofs.«401099_j71683004170518_2_alg».proof.Proof.MatmulSpec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region0

open Idealize.ShloMosaic Idealize.ShloMosaic.ValueIdx Idealize.ShloMosaic.TcCoe Idealize.SL.Sem
open Cert.KernelIdeal Cert.KernelIdeal.Gen

/-- The body's stored value at `(p, q)` of the block, from the blocks it loaded. -/
theorem pay_apply (x0 : Vec Ideal S2048x4096 .bf16) (x1 : Vec Ideal S4096x512 .bf16) (x2 : Vec Ideal S2048x1 .f32)
    (x3 : Vec Ideal S1x512 .f32) (p : Fin 2048) (q : Fin 512) :
    k0_pay1 x0 x1 x2 x3 (ix2 p q)
      = (∑ k : Fin 4096, x0 (ix2 p k) * x1 (ix2 k q)) * x2 (ix2 p 0) + x3 (ix2 0 q) := by
  unfold k0_pay1
  rw [truncf_apply, addf_apply, mulf_apply]
  simp only [shapeCast_self]
  rw [LibMatmul.matmul_zero_apply dot_S2048x4096_S4096x512_S2048x512_1_0_0_1_n_n rfl rfl rfl rfl rfl rfl none x0 x1 p q]
  congr 1
  · congr 1
    refine broadcastTo_apply x2 broadcasts_S2048x1_S2048x512 (ix2 p q) (ix2 p 0) (fun a => ?_)
    match a with
    | ⟨0, _⟩ => rfl
    | ⟨1, _⟩ => rfl
  · refine broadcastTo_apply x3 broadcasts_S1x512_S2048x512 (ix2 p q) (ix2 0 q) (fun a => ?_)
    match a with
    | ⟨0, _⟩ => rfl
    | ⟨1, _⟩ => rfl

variable (V : (c : Dev nD) → (b : Ref sig .tc) → Buf (Elt Ideal) ((c : Thread nD τ).loc b))

/-! ## From blocks to the array -/

/-- The zero offsets of an access to a whole buffer, as a constant function. -/
theorem zero_offsets : (![0, 0] : Fin 2 → Nat) = fun _ => 0 :=
  funext fun a => match a with
    | ⟨0, _⟩ => rfl
    | ⟨1, _⟩ => rfl

/-- The index maps, decided over the grid: the left matrix and the row scales move with the output's block row and stay at
    block column 0; the right matrix and the column shifts move with the output's block column and stay at block row 0;
    the output's block indices stay in their ranges. -/
theorem index_maps : ∀ t : Fin cfg0.N,
    win0_0.index t (0 : Fin 2) = win0_4.index t (0 : Fin 2)
    ∧ win0_0.index t (1 : Fin 2) = 0
    ∧ win0_1.index t (0 : Fin 2) = 0
    ∧ win0_1.index t (1 : Fin 2) = win0_4.index t (1 : Fin 2)
    ∧ win0_2.index t (0 : Fin 2) = win0_4.index t (0 : Fin 2)
    ∧ win0_2.index t (1 : Fin 2) = 0
    ∧ win0_3.index t (0 : Fin 2) = 0
    ∧ win0_3.index t (1 : Fin 2) = win0_4.index t (1 : Fin 2)
    ∧ win0_4.index t (0 : Fin 2) ≤ 1
    ∧ win0_4.index t (1 : Fin 2) ≤ 7 :=
  (by decide +kernel : ∀ t : Fin grid0.N, _)

/-- Every block of the output is SOME point's. -/
theorem index_onto : ∀
    (q0 : Fin 2)
    (q1 : Fin 8),
    ∃ t : Fin cfg0.N, win0_4.index t = ![q0.val, q1.val] :=
  (by decide +kernel : ∀
    (q0 : Fin 2)
    (q1 : Fin 8),
    ∃ t : Fin grid0.N, win0_4.index t = ![q0.val, q1.val])

/-- The left matrix's block at point `t`: rows of the output's block row, every column. -/
theorem left_block_apply (c : Dev nD) (t : Fin cfg0.N)
    (p : Fin 2048)
    (k : Fin 4096)
    (r : Fin 4096)
    (hr : r.val = win0_4.index t (0 : Fin 2) * 2048 + p.val) :
    (iblk0 V c 0 t : Vec Ideal S2048x4096 .bf16) (ix2 p k)
      = (V c main_v20 : S4096x4096.Idx → EReal) (ix2 r k) := by
  obtain ⟨e0, e1, -⟩ := index_maps t
  unfold iblk0
  show V c main_v20 (((cfg0.win 0).blk t).view.emb (ix2 p k)) = V c main_v20 (ix2 r k)
  congr 1
  funext a
  apply Fin.ext
  match a with
  | ⟨0, _⟩ =>
    show win0_0.index t (0 : Fin 2) * 2048 + 1 * p.val = r.val
    omega
  | ⟨1, _⟩ =>
    show win0_0.index t (1 : Fin 2) * 4096 + 1 * k.val = k.val
    omega

/-- The right matrix's block at point `t`: every row, columns of the output's block column. -/
theorem right_block_apply (c : Dev nD) (t : Fin cfg0.N)
    (k : Fin 4096)
    (q : Fin 512)
    (s : Fin 4096)
    (hs : s.val = win0_4.index t (1 : Fin 2) * 512 + q.val) :
    (iblk0 V c 1 t : Vec Ideal S4096x512 .bf16) (ix2 k q)
      = (V c main_v32 : S4096x4096.Idx → EReal) (ix2 k s) := by
  obtain ⟨-, -, e2, e3, -⟩ := index_maps t
  unfold iblk0
  show V c main_v32 (((cfg0.win 1).blk t).view.emb (ix2 k q)) = V c main_v32 (ix2 k s)
  congr 1
  funext a
  apply Fin.ext
  match a with
  | ⟨0, _⟩ =>
    show win0_1.index t (0 : Fin 2) * 4096 + 1 * k.val = k.val
    omega
  | ⟨1, _⟩ =>
    show win0_1.index t (1 : Fin 2) * 512 + 1 * q.val = s.val
    omega

/-- The row scales' block at point `t`: rows of the output's block row, the one column. -/
theorem scale_block_apply (c : Dev nD) (t : Fin cfg0.N)
    (p : Fin 2048)
    (r : Fin 4096)
    (hr : r.val = win0_4.index t (0 : Fin 2) * 2048 + p.val) :
    (iblk0 V c 2 t : Vec Ideal S2048x1 .f32) (ix2 p 0)
      = (V c main_v33 : S4096x1.Idx → EReal) (ix2 r 0) := by
  obtain ⟨-, -, -, -, e4, e5, -⟩ := index_maps t
  unfold iblk0
  show V c main_v33 (((cfg0.win 2).blk t).view.emb (ix2 p 0)) = V c main_v33 (ix2 r 0)
  congr 1
  funext a
  apply Fin.ext
  match a with
  | ⟨0, _⟩ =>
    show win0_2.index t (0 : Fin 2) * 2048 + 1 * p.val = r.val
    omega
  | ⟨1, _⟩ =>
    show win0_2.index t (1 : Fin 2) * 1 + 1 * 0 = 0
    omega

/-- The column shifts' block at point `t`: the one row, columns of the output's block column. -/
theorem shift_block_apply (c : Dev nD) (t : Fin cfg0.N)
    (q : Fin 512)
    (s : Fin 4096)
    (hs : s.val = win0_4.index t (1 : Fin 2) * 512 + q.val) :
    (iblk0 V c 3 t : Vec Ideal S1x512 .f32) (ix2 0 q)
      = (V c main_v34 : S1x4096.Idx → EReal) (ix2 0 s) := by
  obtain ⟨-, -, -, -, -, -, e6, e7, -⟩ := index_maps t
  unfold iblk0
  show V c main_v34 (((cfg0.win 3).blk t).view.emb (ix2 0 q)) = V c main_v34 (ix2 0 s)
  congr 1
  funext a
  apply Fin.ext
  match a with
  | ⟨0, _⟩ =>
    show win0_3.index t (0 : Fin 2) * 1 + 1 * 0 = 0
    omega
  | ⟨1, _⟩ =>
    show win0_3.index t (1 : Fin 2) * 512 + 1 * q.val = s.val
    omega

/-- A function of the whole output array, read through point `t`'s block: element `(p, q)` of the block is the array's
    element at the block's row offset plus `p`, column offset plus `q`. -/
theorem array_block_apply (G : S4096x4096.Idx → EReal) (t : Fin cfg0.N)
    (p : Fin 2048)
    (q : Fin 512)
    (r : Fin 4096)
    (s : Fin 4096)
    (hr : r.val = win0_4.index t (0 : Fin 2) * 2048 + p.val)
    (hs : s.val = win0_4.index t (1 : Fin 2) * 512 + q.val) :
    ((cfg0.win 4).blk t).view.read (Elt Ideal) G (ix2 p q) = G (ix2 r s) := by
  show G (((cfg0.win 4).blk t).view.emb (ix2 p q)) = G (ix2 r s)
  congr 1
  funext a
  apply Fin.ext
  match a with
  | ⟨0, _⟩ =>
    show win0_4.index t (0 : Fin 2) * 2048 + 1 * p.val = r.val
    omega
  | ⟨1, _⟩ =>
    show win0_4.index t (1 : Fin 2) * 512 + 1 * q.val = s.val
    omega

/-- WHAT POINT `t` WRITES BACK is block `t` of the scaled, shifted product of the four arrays the region finds. -/
theorem flushed_eq (c : Dev nD) (t : Fin cfg0.N) :
    (dat0 (F := Ideal) V c).flushed 4 t
      = ((cfg0.win 4).blk t).view.read (Elt Ideal)
          (Cert.MatmulSpec.mm (V c main_v20) (V c main_v32) (V c main_v33) (V c main_v34)) := by
  show (cfg0.win 4).cut (grid0.coords t) ((dat0 V c).after 4 t) = _
  rw [after0_4]
  unfold out0_4
  rw [View.canon_unit_zero zero_offsets]
  simp only [View.ld_unit_zero (S := S2048x4096) zero_offsets,
    View.ld_unit_zero (S := S4096x512) zero_offsets,
    View.ld_unit_zero (S := S2048x1) zero_offsets,
    View.ld_unit_zero (S := S1x512) zero_offsets]
  funext j
  obtain ⟨p, q, rfl⟩ : ∃
      (p : Fin 2048)
      (q : Fin 512),
      j = ix2 p q := ⟨j 0, j 1, eq_ix2 j⟩
  obtain ⟨-, -, -, -, -, -, -, -, b0, b1⟩ := index_maps t
  have hp : p.val < 2048 := p.isLt
  have hq : q.val < 512 := q.isLt
  obtain ⟨r, hr⟩ : ∃
      r : Fin 4096,
      r.val = win0_4.index t (0 : Fin 2) * 2048 + p.val :=
    ⟨⟨win0_4.index t (0 : Fin 2) * 2048 + p.val, by omega⟩, rfl⟩
  obtain ⟨s, hs⟩ : ∃
      s : Fin 4096,
      s.val = win0_4.index t (1 : Fin 2) * 512 + q.val :=
    ⟨⟨win0_4.index t (1 : Fin 2) * 512 + q.val, by omega⟩, rfl⟩
  show k0_pay1 (iblk0 V c 0 t) (iblk0 V c 1 t) (iblk0 V c 2 t) (iblk0 V c 3 t) (ix2 p q) = _
  refine (pay_apply _ _ _ _ p q).trans ?_
  refine Eq.trans ?_ (array_block_apply _ t p q r s hr hs).symm
  rw [Cert.MatmulSpec.mm_apply]
  congr 1
  · congr 1
    · refine Finset.sum_congr rfl fun k _ => ?_
      exact congrArg₂ (· * ·) (left_block_apply V c t p k r hr) (right_block_apply V c t k q s hs)
    · exact scale_block_apply V c t p r hr
  · exact shift_block_apply V c t q s hs

/-- An index of the array is in point `t`'s block iff each coordinate is in the block's range on its axis. -/
theorem mem_block (t : Fin cfg0.N) (i : S4096x4096.Idx) :
    i ∈ ((cfg0.win 4).blk t).view.set ↔ ∀ a : Fin 2, win0_4.index t a * S2048x512.size a ≤ (i a).val
      ∧ (i a).val < win0_4.index t a * S2048x512.size a + S2048x512.size a := by
  show i ∈ ((View.whole main_v35).slice (win0_4.rect t)).set ↔ _
  rw [View.set_slice_whole, Rect.mem_set_unit]
  exact Iff.rfl

/-- THE BLOCKS TILE THE ARRAY: row `r` lies in block row `r / 2048`,
    column `s` in block column `s / 512`,
    and that block is some point's, which writes it back. -/
theorem blocks_cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := index_onto
    ⟨(i 0).val / 2048, by omega⟩
    ⟨(i 1).val / 512, by omega⟩
  have q0 : win0_4.index t (0 : Fin 2) = (i 0).val / 2048 := congrFun ht 0
  have q1 : win0_4.index t (1 : Fin 2) = (i 1).val / 512 := congrFun ht 1
  refine ⟨t, flush0_4 t, ?_⟩
  rw [mem_block]
  intro a
  match a with
  | ⟨0, _⟩ =>
    show win0_4.index t (0 : Fin 2) * 2048 ≤ (i 0).val
      ∧ (i 0).val < win0_4.index t (0 : Fin 2) * 2048 + 2048
    omega
  | ⟨1, _⟩ =>
    show win0_4.index t (1 : Fin 2) * 512 ≤ (i 1).val
      ∧ (i 1).val < win0_4.index t (1 : Fin 2) * 512 + 512
    omega

/-- THE REGION'S VALUE: the output array ends holding the scaled, shifted product of the four arrays the region finds
    (its blocks tile the array). -/
theorem value (c : Dev nD) :
    (dat0 (F := Ideal) V c).arrAt 4 cfg0.N
      = Cert.MatmulSpec.mm (V c main_v20) (V c main_v32) (V c main_v33) (V c main_v34) := by
  exact (dat0 (F := Ideal) V c).arrAt_eq_of_cover 4 _ (fun t _ => flushed_eq V c t) blocks_cover

end Cert.KernelIdeal.Region0

end
-- ==== Proof.Region1.lean ====
/-
  REGION 1: the first layer's neighbour term: the mean-aggregated features through the neighbour weights, plus the bias. The pallas_call tiles the output `[4096, 256]` into blocks of `2048 × 256` over a grid `(2, 1)`;
  at grid point `(I, J)` the body reads rows `I` of the left matrix (all `4096` columns), columns `J` of the right matrix, rows `I` of the
  row-scale column and columns `J` of the shift row, and stores `(left_I · right_J) ∘ scale_I + shift_J`. The blocks
  tile the output, so the array ends holding ONE function of the four arrays the region finds.
-/
import proofs.«401099_j71683004170518_2_alg».proof.Proof.Gen.KernelIdeal.Frame
import proofs.«401099_j71683004170518_2_alg».proof.Proof.LibMatmul
import proofs.«401099_j71683004170518_2_alg».proof.Proof.MatmulSpec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region1

open Idealize.ShloMosaic Idealize.ShloMosaic.ValueIdx Idealize.ShloMosaic.TcCoe Idealize.SL.Sem
open Cert.KernelIdeal Cert.KernelIdeal.Gen

/-- The body's stored value at `(p, q)` of the block, from the blocks it loaded. -/
theorem pay_apply (x0 : Vec Ideal S2048x4096 .bf16) (x1 : Vec Ideal S4096x256 .f32) (x2 : Vec Ideal S2048x1 .f32)
    (x3 : Vec Ideal S1x256 .f32) (p : Fin 2048) (q : Fin 256) :
    k1_pay1 x0 x1 x2 x3 (ix2 p q)
      = (∑ k : Fin 4096, x0 (ix2 p k) * x1 (ix2 k q)) * x2 (ix2 p 0) + x3 (ix2 0 q) := by
  unfold k1_pay1
  rw [addf_apply, mulf_apply]
  simp only [shapeCast_self]
  rw [LibMatmul.matmul_zero_apply dot_S2048x4096_S4096x256_S2048x256_1_0_0_1_n_n rfl rfl rfl rfl rfl rfl none _ _ p q]
  simp only [truncf_apply]
  congr 1
  · congr 1
    refine broadcastTo_apply x2 broadcasts_S2048x1_S2048x256 (ix2 p q) (ix2 p 0) (fun a => ?_)
    match a with
    | ⟨0, _⟩ => rfl
    | ⟨1, _⟩ => rfl
  · refine broadcastTo_apply x3 broadcasts_S1x256_S2048x256 (ix2 p q) (ix2 0 q) (fun a => ?_)
    match a with
    | ⟨0, _⟩ => rfl
    | ⟨1, _⟩ => rfl

variable (V : (c : Dev nD) → (b : Ref sig .tc) → Buf (Elt Ideal) ((c : Thread nD τ).loc b))

/-! ## From blocks to the array -/

/-- The zero offsets of an access to a whole buffer, as a constant function. -/
theorem zero_offsets : (![0, 0] : Fin 2 → Nat) = fun _ => 0 :=
  funext fun a => match a with
    | ⟨0, _⟩ => rfl
    | ⟨1, _⟩ => rfl

/-- The index maps, decided over the grid: the left matrix and the row scales move with the output's block row and stay at
    block column 0; the right matrix and the column shifts move with the output's block column and stay at block row 0;
    the output's block indices stay in their ranges. -/
theorem index_maps : ∀ t : Fin cfg1.N,
    win1_0.index t (0 : Fin 2) = win1_4.index t (0 : Fin 2)
    ∧ win1_0.index t (1 : Fin 2) = 0
    ∧ win1_1.index t (0 : Fin 2) = 0
    ∧ win1_1.index t (1 : Fin 2) = win1_4.index t (1 : Fin 2)
    ∧ win1_2.index t (0 : Fin 2) = win1_4.index t (0 : Fin 2)
    ∧ win1_2.index t (1 : Fin 2) = 0
    ∧ win1_3.index t (0 : Fin 2) = 0
    ∧ win1_3.index t (1 : Fin 2) = win1_4.index t (1 : Fin 2)
    ∧ win1_4.index t (0 : Fin 2) ≤ 1
    ∧ win1_4.index t (1 : Fin 2) ≤ 0 :=
  (by decide +kernel : ∀ t : Fin grid1.N, _)

/-- Every block of the output is SOME point's. -/
theorem index_onto : ∀
    (q0 : Fin 2)
    (q1 : Fin 1),
    ∃ t : Fin cfg1.N, win1_4.index t = ![q0.val, q1.val] :=
  (by decide +kernel : ∀
    (q0 : Fin 2)
    (q1 : Fin 1),
    ∃ t : Fin grid1.N, win1_4.index t = ![q0.val, q1.val])

/-- The left matrix's block at point `t`: rows of the output's block row, every column. -/
theorem left_block_apply (c : Dev nD) (t : Fin cfg1.N)
    (p : Fin 2048)
    (k : Fin 4096)
    (r : Fin 4096)
    (hr : r.val = win1_4.index t (0 : Fin 2) * 2048 + p.val) :
    (iblk1 V c 0 t : Vec Ideal S2048x4096 .bf16) (ix2 p k)
      = (V c main_v35 : S4096x4096.Idx → EReal) (ix2 r k) := by
  obtain ⟨e0, e1, -⟩ := index_maps t
  unfold iblk1
  show V c main_v35 (((cfg1.win 0).blk t).view.emb (ix2 p k)) = V c main_v35 (ix2 r k)
  congr 1
  funext a
  apply Fin.ext
  match a with
  | ⟨0, _⟩ =>
    show win1_0.index t (0 : Fin 2) * 2048 + 1 * p.val = r.val
    omega
  | ⟨1, _⟩ =>
    show win1_0.index t (1 : Fin 2) * 4096 + 1 * k.val = k.val
    omega

/-- The right matrix's block at point `t`: every row, columns of the output's block column. -/
theorem right_block_apply (c : Dev nD) (t : Fin cfg1.N)
    (k : Fin 4096)
    (q : Fin 256)
    (s : Fin 256)
    (hs : s.val = win1_4.index t (1 : Fin 2) * 256 + q.val) :
    (iblk1 V c 1 t : Vec Ideal S4096x256 .bf16) (ix2 k q)
      = (V c main_arg2 : S4096x256.Idx → EReal) (ix2 k s) := by
  obtain ⟨-, -, e2, e3, -⟩ := index_maps t
  unfold iblk1
  show V c main_arg2 (((cfg1.win 1).blk t).view.emb (ix2 k q)) = V c main_arg2 (ix2 k s)
  congr 1
  funext a
  apply Fin.ext
  match a with
  | ⟨0, _⟩ =>
    show win1_1.index t (0 : Fin 2) * 4096 + 1 * k.val = k.val
    omega
  | ⟨1, _⟩ =>
    show win1_1.index t (1 : Fin 2) * 256 + 1 * q.val = s.val
    omega

/-- The row scales' block at point `t`: rows of the output's block row, the one column. -/
theorem scale_block_apply (c : Dev nD) (t : Fin cfg1.N)
    (p : Fin 2048)
    (r : Fin 4096)
    (hr : r.val = win1_4.index t (0 : Fin 2) * 2048 + p.val) :
    (iblk1 V c 2 t : Vec Ideal S2048x1 .f32) (ix2 p 0)
      = (V c main_v36 : S4096x1.Idx → EReal) (ix2 r 0) := by
  obtain ⟨-, -, -, -, e4, e5, -⟩ := index_maps t
  unfold iblk1
  show V c main_v36 (((cfg1.win 2).blk t).view.emb (ix2 p 0)) = V c main_v36 (ix2 r 0)
  congr 1
  funext a
  apply Fin.ext
  match a with
  | ⟨0, _⟩ =>
    show win1_2.index t (0 : Fin 2) * 2048 + 1 * p.val = r.val
    omega
  | ⟨1, _⟩ =>
    show win1_2.index t (1 : Fin 2) * 1 + 1 * 0 = 0
    omega

/-- The column shifts' block at point `t`: the one row, columns of the output's block column. -/
theorem shift_block_apply (c : Dev nD) (t : Fin cfg1.N)
    (q : Fin 256)
    (s : Fin 256)
    (hs : s.val = win1_4.index t (1 : Fin 2) * 256 + q.val) :
    (iblk1 V c 3 t : Vec Ideal S1x256 .f32) (ix2 0 q)
      = (V c main_v37 : S1x256.Idx → EReal) (ix2 0 s) := by
  obtain ⟨-, -, -, -, -, -, e6, e7, -⟩ := index_maps t
  unfold iblk1
  show V c main_v37 (((cfg1.win 3).blk t).view.emb (ix2 0 q)) = V c main_v37 (ix2 0 s)
  congr 1
  funext a
  apply Fin.ext
  match a with
  | ⟨0, _⟩ =>
    show win1_3.index t (0 : Fin 2) * 1 + 1 * 0 = 0
    omega
  | ⟨1, _⟩ =>
    show win1_3.index t (1 : Fin 2) * 256 + 1 * q.val = s.val
    omega

/-- A function of the whole output array, read through point `t`'s block: element `(p, q)` of the block is the array's
    element at the block's row offset plus `p`, column offset plus `q`. -/
theorem array_block_apply (G : S4096x256.Idx → EReal) (t : Fin cfg1.N)
    (p : Fin 2048)
    (q : Fin 256)
    (r : Fin 4096)
    (s : Fin 256)
    (hr : r.val = win1_4.index t (0 : Fin 2) * 2048 + p.val)
    (hs : s.val = win1_4.index t (1 : Fin 2) * 256 + q.val) :
    ((cfg1.win 4).blk t).view.read (Elt Ideal) G (ix2 p q) = G (ix2 r s) := by
  show G (((cfg1.win 4).blk t).view.emb (ix2 p q)) = G (ix2 r s)
  congr 1
  funext a
  apply Fin.ext
  match a with
  | ⟨0, _⟩ =>
    show win1_4.index t (0 : Fin 2) * 2048 + 1 * p.val = r.val
    omega
  | ⟨1, _⟩ =>
    show win1_4.index t (1 : Fin 2) * 256 + 1 * q.val = s.val
    omega

/-- WHAT POINT `t` WRITES BACK is block `t` of the scaled, shifted product of the four arrays the region finds. -/
theorem flushed_eq (c : Dev nD) (t : Fin cfg1.N) :
    (dat1 (F := Ideal) V c).flushed 4 t
      = ((cfg1.win 4).blk t).view.read (Elt Ideal)
          (Cert.MatmulSpec.mm (V c main_v35) (V c main_arg2) (V c main_v36) (V c main_v37)) := by
  show (cfg1.win 4).cut (grid1.coords t) ((dat1 V c).after 4 t) = _
  rw [after1_4]
  unfold out1_4
  rw [View.canon_unit_zero zero_offsets]
  simp only [View.ld_unit_zero (S := S2048x4096) zero_offsets,
    View.ld_unit_zero (S := S4096x256) zero_offsets,
    View.ld_unit_zero (S := S2048x1) zero_offsets,
    View.ld_unit_zero (S := S1x256) zero_offsets]
  funext j
  obtain ⟨p, q, rfl⟩ : ∃
      (p : Fin 2048)
      (q : Fin 256),
      j = ix2 p q := ⟨j 0, j 1, eq_ix2 j⟩
  obtain ⟨-, -, -, -, -, -, -, -, b0, b1⟩ := index_maps t
  have hp : p.val < 2048 := p.isLt
  have hq : q.val < 256 := q.isLt
  obtain ⟨r, hr⟩ : ∃
      r : Fin 4096,
      r.val = win1_4.index t (0 : Fin 2) * 2048 + p.val :=
    ⟨⟨win1_4.index t (0 : Fin 2) * 2048 + p.val, by omega⟩, rfl⟩
  obtain ⟨s, hs⟩ : ∃
      s : Fin 256,
      s.val = win1_4.index t (1 : Fin 2) * 256 + q.val :=
    ⟨⟨win1_4.index t (1 : Fin 2) * 256 + q.val, by omega⟩, rfl⟩
  show k1_pay1 (iblk1 V c 0 t) (iblk1 V c 1 t) (iblk1 V c 2 t) (iblk1 V c 3 t) (ix2 p q) = _
  refine (pay_apply _ _ _ _ p q).trans ?_
  refine Eq.trans ?_ (array_block_apply _ t p q r s hr hs).symm
  rw [Cert.MatmulSpec.mm_apply]
  congr 1
  · congr 1
    · refine Finset.sum_congr rfl fun k _ => ?_
      exact congrArg₂ (· * ·) (left_block_apply V c t p k r hr) (right_block_apply V c t k q s hs)
    · exact scale_block_apply V c t p r hr
  · exact shift_block_apply V c t q s hs

/-- An index of the array is in point `t`'s block iff each coordinate is in the block's range on its axis. -/
theorem mem_block (t : Fin cfg1.N) (i : S4096x256.Idx) :
    i ∈ ((cfg1.win 4).blk t).view.set ↔ ∀ a : Fin 2, win1_4.index t a * S2048x256.size a ≤ (i a).val
      ∧ (i a).val < win1_4.index t a * S2048x256.size a + S2048x256.size a := by
  show i ∈ ((View.whole main_v38).slice (win1_4.rect t)).set ↔ _
  rw [View.set_slice_whole, Rect.mem_set_unit]
  exact Iff.rfl

/-- THE BLOCKS TILE THE ARRAY: row `r` lies in block row `r / 2048`,
    column `s` in block column `s / 256`,
    and that block is some point's, which writes it back. -/
theorem blocks_cover (i : S4096x256.Idx) :
    ∃ t : Fin cfg1.N, (cfg1.win 4).flush t = true ∧ i ∈ ((cfg1.win 4).blk t).view.set := by
  have hi0 : (i 0).val < 4096 := (i 0).isLt
  have hi1 : (i 1).val < 256 := (i 1).isLt
  obtain ⟨t, ht⟩ := index_onto
    ⟨(i 0).val / 2048, by omega⟩
    ⟨(i 1).val / 256, by omega⟩
  have q0 : win1_4.index t (0 : Fin 2) = (i 0).val / 2048 := congrFun ht 0
  have q1 : win1_4.index t (1 : Fin 2) = (i 1).val / 256 := congrFun ht 1
  refine ⟨t, flush1_4 t, ?_⟩
  rw [mem_block]
  intro a
  match a with
  | ⟨0, _⟩ =>
    show win1_4.index t (0 : Fin 2) * 2048 ≤ (i 0).val
      ∧ (i 0).val < win1_4.index t (0 : Fin 2) * 2048 + 2048
    omega
  | ⟨1, _⟩ =>
    show win1_4.index t (1 : Fin 2) * 256 ≤ (i 1).val
      ∧ (i 1).val < win1_4.index t (1 : Fin 2) * 256 + 256
    omega

/-- THE REGION'S VALUE: the output array ends holding the scaled, shifted product of the four arrays the region finds
    (its blocks tile the array). -/
theorem value (c : Dev nD) :
    (dat1 (F := Ideal) V c).arrAt 4 cfg1.N
      = Cert.MatmulSpec.mm (V c main_v35) (V c main_arg2) (V c main_v36) (V c main_v37) := by
  exact (dat1 (F := Ideal) V c).arrAt_eq_of_cover 4 _ (fun t _ => flushed_eq V c t) blocks_cover

end Cert.KernelIdeal.Region1

end
-- ==== Proof.Region2.lean ====
/-
  REGION 2: the first layer's root term: the node features through the root weights. The pallas_call tiles the output `[4096, 256]` into blocks of `2048 × 256` over a grid `(2, 1)`;
  at grid point `(I, J)` the body reads rows `I` of the left matrix (all `4096` columns), columns `J` of the right matrix, rows `I` of the
  row-scale column and columns `J` of the shift row, and stores `(left_I · right_J) ∘ scale_I + shift_J`. The blocks
  tile the output, so the array ends holding ONE function of the four arrays the region finds.
-/
import proofs.«401099_j71683004170518_2_alg».proof.Proof.Gen.KernelIdeal.Frame
import proofs.«401099_j71683004170518_2_alg».proof.Proof.LibMatmul
import proofs.«401099_j71683004170518_2_alg».proof.Proof.MatmulSpec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region2

open Idealize.ShloMosaic Idealize.ShloMosaic.ValueIdx Idealize.ShloMosaic.TcCoe Idealize.SL.Sem
open Cert.KernelIdeal Cert.KernelIdeal.Gen

/-- The body's stored value at `(p, q)` of the block, from the blocks it loaded. -/
theorem pay_apply (x0 : Vec Ideal S2048x4096 .bf16) (x1 : Vec Ideal S4096x256 .f32) (x2 : Vec Ideal S2048x1 .f32)
    (x3 : Vec Ideal S1x256 .f32) (p : Fin 2048) (q : Fin 256) :
    k2_pay1 x0 x1 x2 x3 (ix2 p q)
      = (∑ k : Fin 4096, x0 (ix2 p k) * x1 (ix2 k q)) * x2 (ix2 p 0) + x3 (ix2 0 q) := by
  unfold k2_pay1
  rw [addf_apply, mulf_apply]
  simp only [shapeCast_self]
  rw [LibMatmul.matmul_zero_apply dot_S2048x4096_S4096x256_S2048x256_1_0_0_1_n_n rfl rfl rfl rfl rfl rfl none _ _ p q]
  simp only [truncf_apply]
  congr 1
  · congr 1
    refine broadcastTo_apply x2 broadcasts_S2048x1_S2048x256 (ix2 p q) (ix2 p 0) (fun a => ?_)
    match a with
    | ⟨0, _⟩ => rfl
    | ⟨1, _⟩ => rfl
  · refine broadcastTo_apply x3 broadcasts_S1x256_S2048x256 (ix2 p q) (ix2 0 q) (fun a => ?_)
    match a with
    | ⟨0, _⟩ => rfl
    | ⟨1, _⟩ => rfl

variable (V : (c : Dev nD) → (b : Ref sig .tc) → Buf (Elt Ideal) ((c : Thread nD τ).loc b))

/-! ## From blocks to the array -/

/-- The zero offsets of an access to a whole buffer, as a constant function. -/
theorem zero_offsets : (![0, 0] : Fin 2 → Nat) = fun _ => 0 :=
  funext fun a => match a with
    | ⟨0, _⟩ => rfl
    | ⟨1, _⟩ => rfl

/-- The index maps, decided over the grid: the left matrix and the row scales move with the output's block row and stay at
    block column 0; the right matrix and the column shifts move with the output's block column and stay at block row 0;
    the output's block indices stay in their ranges. -/
theorem index_maps : ∀ t : Fin cfg2.N,
    win2_0.index t (0 : Fin 2) = win2_4.index t (0 : Fin 2)
    ∧ win2_0.index t (1 : Fin 2) = 0
    ∧ win2_1.index t (0 : Fin 2) = 0
    ∧ win2_1.index t (1 : Fin 2) = win2_4.index t (1 : Fin 2)
    ∧ win2_2.index t (0 : Fin 2) = win2_4.index t (0 : Fin 2)
    ∧ win2_2.index t (1 : Fin 2) = 0
    ∧ win2_3.index t (0 : Fin 2) = 0
    ∧ win2_3.index t (1 : Fin 2) = win2_4.index t (1 : Fin 2)
    ∧ win2_4.index t (0 : Fin 2) ≤ 1
    ∧ win2_4.index t (1 : Fin 2) ≤ 0 :=
  (by decide +kernel : ∀ t : Fin grid2.N, _)

/-- Every block of the output is SOME point's. -/
theorem index_onto : ∀
    (q0 : Fin 2)
    (q1 : Fin 1),
    ∃ t : Fin cfg2.N, win2_4.index t = ![q0.val, q1.val] :=
  (by decide +kernel : ∀
    (q0 : Fin 2)
    (q1 : Fin 1),
    ∃ t : Fin grid2.N, win2_4.index t = ![q0.val, q1.val])

/-- The left matrix's block at point `t`: rows of the output's block row, every column. -/
theorem left_block_apply (c : Dev nD) (t : Fin cfg2.N)
    (p : Fin 2048)
    (k : Fin 4096)
    (r : Fin 4096)
    (hr : r.val = win2_4.index t (0 : Fin 2) * 2048 + p.val) :
    (iblk2 V c 0 t : Vec Ideal S2048x4096 .bf16) (ix2 p k)
      = (V c main_v32 : S4096x4096.Idx → EReal) (ix2 r k) := by
  obtain ⟨e0, e1, -⟩ := index_maps t
  unfold iblk2
  show V c main_v32 (((cfg2.win 0).blk t).view.emb (ix2 p k)) = V c main_v32 (ix2 r k)
  congr 1
  funext a
  apply Fin.ext
  match a with
  | ⟨0, _⟩ =>
    show win2_0.index t (0 : Fin 2) * 2048 + 1 * p.val = r.val
    omega
  | ⟨1, _⟩ =>
    show win2_0.index t (1 : Fin 2) * 4096 + 1 * k.val = k.val
    omega

/-- The right matrix's block at point `t`: every row, columns of the output's block column. -/
theorem right_block_apply (c : Dev nD) (t : Fin cfg2.N)
    (k : Fin 4096)
    (q : Fin 256)
    (s : Fin 256)
    (hs : s.val = win2_4.index t (1 : Fin 2) * 256 + q.val) :
    (iblk2 V c 1 t : Vec Ideal S4096x256 .bf16) (ix2 k q)
      = (V c main_arg4 : S4096x256.Idx → EReal) (ix2 k s) := by
  obtain ⟨-, -, e2, e3, -⟩ := index_maps t
  unfold iblk2
  show V c main_arg4 (((cfg2.win 1).blk t).view.emb (ix2 k q)) = V c main_arg4 (ix2 k s)
  congr 1
  funext a
  apply Fin.ext
  match a with
  | ⟨0, _⟩ =>
    show win2_1.index t (0 : Fin 2) * 4096 + 1 * k.val = k.val
    omega
  | ⟨1, _⟩ =>
    show win2_1.index t (1 : Fin 2) * 256 + 1 * q.val = s.val
    omega

/-- The row scales' block at point `t`: rows of the output's block row, the one column. -/
theorem scale_block_apply (c : Dev nD) (t : Fin cfg2.N)
    (p : Fin 2048)
    (r : Fin 4096)
    (hr : r.val = win2_4.index t (0 : Fin 2) * 2048 + p.val) :
    (iblk2 V c 2 t : Vec Ideal S2048x1 .f32) (ix2 p 0)
      = (V c main_v39 : S4096x1.Idx → EReal) (ix2 r 0) := by
  obtain ⟨-, -, -, -, e4, e5, -⟩ := index_maps t
  unfold iblk2
  show V c main_v39 (((cfg2.win 2).blk t).view.emb (ix2 p 0)) = V c main_v39 (ix2 r 0)
  congr 1
  funext a
  apply Fin.ext
  match a with
  | ⟨0, _⟩ =>
    show win2_2.index t (0 : Fin 2) * 2048 + 1 * p.val = r.val
    omega
  | ⟨1, _⟩ =>
    show win2_2.index t (1 : Fin 2) * 1 + 1 * 0 = 0
    omega

/-- The column shifts' block at point `t`: the one row, columns of the output's block column. -/
theorem shift_block_apply (c : Dev nD) (t : Fin cfg2.N)
    (q : Fin 256)
    (s : Fin 256)
    (hs : s.val = win2_4.index t (1 : Fin 2) * 256 + q.val) :
    (iblk2 V c 3 t : Vec Ideal S1x256 .f32) (ix2 0 q)
      = (V c main_v40 : S1x256.Idx → EReal) (ix2 0 s) := by
  obtain ⟨-, -, -, -, -, -, e6, e7, -⟩ := index_maps t
  unfold iblk2
  show V c main_v40 (((cfg2.win 3).blk t).view.emb (ix2 0 q)) = V c main_v40 (ix2 0 s)
  congr 1
  funext a
  apply Fin.ext
  match a with
  | ⟨0, _⟩ =>
    show win2_3.index t (0 : Fin 2) * 1 + 1 * 0 = 0
    omega
  | ⟨1, _⟩ =>
    show win2_3.index t (1 : Fin 2) * 256 + 1 * q.val = s.val
    omega

/-- A function of the whole output array, read through point `t`'s block: element `(p, q)` of the block is the array's
    element at the block's row offset plus `p`, column offset plus `q`. -/
theorem array_block_apply (G : S4096x256.Idx → EReal) (t : Fin cfg2.N)
    (p : Fin 2048)
    (q : Fin 256)
    (r : Fin 4096)
    (s : Fin 256)
    (hr : r.val = win2_4.index t (0 : Fin 2) * 2048 + p.val)
    (hs : s.val = win2_4.index t (1 : Fin 2) * 256 + q.val) :
    ((cfg2.win 4).blk t).view.read (Elt Ideal) G (ix2 p q) = G (ix2 r s) := by
  show G (((cfg2.win 4).blk t).view.emb (ix2 p q)) = G (ix2 r s)
  congr 1
  funext a
  apply Fin.ext
  match a with
  | ⟨0, _⟩ =>
    show win2_4.index t (0 : Fin 2) * 2048 + 1 * p.val = r.val
    omega
  | ⟨1, _⟩ =>
    show win2_4.index t (1 : Fin 2) * 256 + 1 * q.val = s.val
    omega

/-- WHAT POINT `t` WRITES BACK is block `t` of the scaled, shifted product of the four arrays the region finds. -/
theorem flushed_eq (c : Dev nD) (t : Fin cfg2.N) :
    (dat2 (F := Ideal) V c).flushed 4 t
      = ((cfg2.win 4).blk t).view.read (Elt Ideal)
          (Cert.MatmulSpec.mm (V c main_v32) (V c main_arg4) (V c main_v39) (V c main_v40)) := by
  show (cfg2.win 4).cut (grid2.coords t) ((dat2 V c).after 4 t) = _
  rw [after2_4]
  unfold out2_4
  rw [View.canon_unit_zero zero_offsets]
  simp only [View.ld_unit_zero (S := S2048x4096) zero_offsets,
    View.ld_unit_zero (S := S4096x256) zero_offsets,
    View.ld_unit_zero (S := S2048x1) zero_offsets,
    View.ld_unit_zero (S := S1x256) zero_offsets]
  funext j
  obtain ⟨p, q, rfl⟩ : ∃
      (p : Fin 2048)
      (q : Fin 256),
      j = ix2 p q := ⟨j 0, j 1, eq_ix2 j⟩
  obtain ⟨-, -, -, -, -, -, -, -, b0, b1⟩ := index_maps t
  have hp : p.val < 2048 := p.isLt
  have hq : q.val < 256 := q.isLt
  obtain ⟨r, hr⟩ : ∃
      r : Fin 4096,
      r.val = win2_4.index t (0 : Fin 2) * 2048 + p.val :=
    ⟨⟨win2_4.index t (0 : Fin 2) * 2048 + p.val, by omega⟩, rfl⟩
  obtain ⟨s, hs⟩ : ∃
      s : Fin 256,
      s.val = win2_4.index t (1 : Fin 2) * 256 + q.val :=
    ⟨⟨win2_4.index t (1 : Fin 2) * 256 + q.val, by omega⟩, rfl⟩
  show k2_pay1 (iblk2 V c 0 t) (iblk2 V c 1 t) (iblk2 V c 2 t) (iblk2 V c 3 t) (ix2 p q) = _
  refine (pay_apply _ _ _ _ p q).trans ?_
  refine Eq.trans ?_ (array_block_apply _ t p q r s hr hs).symm
  rw [Cert.MatmulSpec.mm_apply]
  congr 1
  · congr 1
    · refine Finset.sum_congr rfl fun k _ => ?_
      exact congrArg₂ (· * ·) (left_block_apply V c t p k r hr) (right_block_apply V c t k q s hs)
    · exact scale_block_apply V c t p r hr
  · exact shift_block_apply V c t q s hs

/-- An index of the array is in point `t`'s block iff each coordinate is in the block's range on its axis. -/
theorem mem_block (t : Fin cfg2.N) (i : S4096x256.Idx) :
    i ∈ ((cfg2.win 4).blk t).view.set ↔ ∀ a : Fin 2, win2_4.index t a * S2048x256.size a ≤ (i a).val
      ∧ (i a).val < win2_4.index t a * S2048x256.size a + S2048x256.size a := by
  show i ∈ ((View.whole main_v41).slice (win2_4.rect t)).set ↔ _
  rw [View.set_slice_whole, Rect.mem_set_unit]
  exact Iff.rfl

/-- THE BLOCKS TILE THE ARRAY: row `r` lies in block row `r / 2048`,
    column `s` in block column `s / 256`,
    and that block is some point's, which writes it back. -/
theorem blocks_cover (i : S4096x256.Idx) :
    ∃ t : Fin cfg2.N, (cfg2.win 4).flush t = true ∧ i ∈ ((cfg2.win 4).blk t).view.set := by
  have hi0 : (i 0).val < 4096 := (i 0).isLt
  have hi1 : (i 1).val < 256 := (i 1).isLt
  obtain ⟨t, ht⟩ := index_onto
    ⟨(i 0).val / 2048, by omega⟩
    ⟨(i 1).val / 256, by omega⟩
  have q0 : win2_4.index t (0 : Fin 2) = (i 0).val / 2048 := congrFun ht 0
  have q1 : win2_4.index t (1 : Fin 2) = (i 1).val / 256 := congrFun ht 1
  refine ⟨t, flush2_4 t, ?_⟩
  rw [mem_block]
  intro a
  match a with
  | ⟨0, _⟩ =>
    show win2_4.index t (0 : Fin 2) * 2048 ≤ (i 0).val
      ∧ (i 0).val < win2_4.index t (0 : Fin 2) * 2048 + 2048
    omega
  | ⟨1, _⟩ =>
    show win2_4.index t (1 : Fin 2) * 256 ≤ (i 1).val
      ∧ (i 1).val < win2_4.index t (1 : Fin 2) * 256 + 256
    omega

/-- THE REGION'S VALUE: the output array ends holding the scaled, shifted product of the four arrays the region finds
    (its blocks tile the array). -/
theorem value (c : Dev nD) :
    (dat2 (F := Ideal) V c).arrAt 4 cfg2.N
      = Cert.MatmulSpec.mm (V c main_v32) (V c main_arg4) (V c main_v39) (V c main_v40) := by
  exact (dat2 (F := Ideal) V c).arrAt_eq_of_cover 4 _ (fun t _ => flushed_eq V c t) blocks_cover

end Cert.KernelIdeal.Region2

end
-- ==== Proof.Region3.lean ====
/-
  REGION 3: the first normalisation layer's linear map. The pallas_call tiles the output `[4096, 256]` into blocks of `2048 × 256` over a grid `(2, 1)`;
  at grid point `(I, J)` the body reads rows `I` of the left matrix (all `256` columns), columns `J` of the right matrix, rows `I` of the
  row-scale column and columns `J` of the shift row, and stores `(left_I · right_J) ∘ scale_I + shift_J`. The blocks
  tile the output, so the array ends holding ONE function of the four arrays the region finds.
-/
import proofs.«401099_j71683004170518_2_alg».proof.Proof.Gen.KernelIdeal.Frame
import proofs.«401099_j71683004170518_2_alg».proof.Proof.LibMatmul
import proofs.«401099_j71683004170518_2_alg».proof.Proof.MatmulSpec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region3

open Idealize.ShloMosaic Idealize.ShloMosaic.ValueIdx Idealize.ShloMosaic.TcCoe Idealize.SL.Sem
open Cert.KernelIdeal Cert.KernelIdeal.Gen

/-- The body's stored value at `(p, q)` of the block, from the blocks it loaded. -/
theorem pay_apply (x0 : Vec Ideal S2048x256 .f32) (x1 : Vec Ideal S256x256 .f32) (x2 : Vec Ideal S2048x1 .f32)
    (x3 : Vec Ideal S1x256 .f32) (p : Fin 2048) (q : Fin 256) :
    k3_pay1 x0 x1 x2 x3 (ix2 p q)
      = (∑ k : Fin 256, x0 (ix2 p k) * x1 (ix2 k q)) * x2 (ix2 p 0) + x3 (ix2 0 q) := by
  unfold k3_pay1
  rw [addf_apply, mulf_apply]
  simp only [shapeCast_self]
  rw [LibMatmul.matmul_zero_apply dot_S2048x256_S256x256_S2048x256_1_0_0_1_n_n rfl rfl rfl rfl rfl rfl none _ _ p q]
  simp only [truncf_apply]
  congr 1
  · congr 1
    refine broadcastTo_apply x2 broadcasts_S2048x1_S2048x256 (ix2 p q) (ix2 p 0) (fun a => ?_)
    match a with
    | ⟨0, _⟩ => rfl
    | ⟨1, _⟩ => rfl
  · refine broadcastTo_apply x3 broadcasts_S1x256_S2048x256 (ix2 p q) (ix2 0 q) (fun a => ?_)
    match a with
    | ⟨0, _⟩ => rfl
    | ⟨1, _⟩ => rfl

variable (V : (c : Dev nD) → (b : Ref sig .tc) → Buf (Elt Ideal) ((c : Thread nD τ).loc b))

/-! ## From blocks to the array -/

/-- The zero offsets of an access to a whole buffer, as a constant function. -/
theorem zero_offsets : (![0, 0] : Fin 2 → Nat) = fun _ => 0 :=
  funext fun a => match a with
    | ⟨0, _⟩ => rfl
    | ⟨1, _⟩ => rfl

/-- The index maps, decided over the grid: the left matrix and the row scales move with the output's block row and stay at
    block column 0; the right matrix and the column shifts move with the output's block column and stay at block row 0;
    the output's block indices stay in their ranges. -/
theorem index_maps : ∀ t : Fin cfg3.N,
    win3_0.index t (0 : Fin 2) = win3_4.index t (0 : Fin 2)
    ∧ win3_0.index t (1 : Fin 2) = 0
    ∧ win3_1.index t (0 : Fin 2) = 0
    ∧ win3_1.index t (1 : Fin 2) = win3_4.index t (1 : Fin 2)
    ∧ win3_2.index t (0 : Fin 2) = win3_4.index t (0 : Fin 2)
    ∧ win3_2.index t (1 : Fin 2) = 0
    ∧ win3_3.index t (0 : Fin 2) = 0
    ∧ win3_3.index t (1 : Fin 2) = win3_4.index t (1 : Fin 2)
    ∧ win3_4.index t (0 : Fin 2) ≤ 1
    ∧ win3_4.index t (1 : Fin 2) ≤ 0 :=
  (by decide +kernel : ∀ t : Fin grid3.N, _)

/-- Every block of the output is SOME point's. -/
theorem index_onto : ∀
    (q0 : Fin 2)
    (q1 : Fin 1),
    ∃ t : Fin cfg3.N, win3_4.index t = ![q0.val, q1.val] :=
  (by decide +kernel : ∀
    (q0 : Fin 2)
    (q1 : Fin 1),
    ∃ t : Fin grid3.N, win3_4.index t = ![q0.val, q1.val])

/-- The left matrix's block at point `t`: rows of the output's block row, every column. -/
theorem left_block_apply (c : Dev nD) (t : Fin cfg3.N)
    (p : Fin 2048)
    (k : Fin 256)
    (r : Fin 4096)
    (hr : r.val = win3_4.index t (0 : Fin 2) * 2048 + p.val) :
    (iblk3 V c 0 t : Vec Ideal S2048x256 .bf16) (ix2 p k)
      = (V c main_v44 : S4096x256.Idx → EReal) (ix2 r k) := by
  obtain ⟨e0, e1, -⟩ := index_maps t
  unfold iblk3
  show V c main_v44 (((cfg3.win 0).blk t).view.emb (ix2 p k)) = V c main_v44 (ix2 r k)
  congr 1
  funext a
  apply Fin.ext
  match a with
  | ⟨0, _⟩ =>
    show win3_0.index t (0 : Fin 2) * 2048 + 1 * p.val = r.val
    omega
  | ⟨1, _⟩ =>
    show win3_0.index t (1 : Fin 2) * 256 + 1 * k.val = k.val
    omega

/-- The right matrix's block at point `t`: every row, columns of the output's block column. -/
theorem right_block_apply (c : Dev nD) (t : Fin cfg3.N)
    (k : Fin 256)
    (q : Fin 256)
    (s : Fin 256)
    (hs : s.val = win3_4.index t (1 : Fin 2) * 256 + q.val) :
    (iblk3 V c 1 t : Vec Ideal S256x256 .bf16) (ix2 k q)
      = (V c main_arg5 : S256x256.Idx → EReal) (ix2 k s) := by
  obtain ⟨-, -, e2, e3, -⟩ := index_maps t
  unfold iblk3
  show V c main_arg5 (((cfg3.win 1).blk t).view.emb (ix2 k q)) = V c main_arg5 (ix2 k s)
  congr 1
  funext a
  apply Fin.ext
  match a with
  | ⟨0, _⟩ =>
    show win3_1.index t (0 : Fin 2) * 256 + 1 * k.val = k.val
    omega
  | ⟨1, _⟩ =>
    show win3_1.index t (1 : Fin 2) * 256 + 1 * q.val = s.val
    omega

/-- The row scales' block at point `t`: rows of the output's block row, the one column. -/
theorem scale_block_apply (c : Dev nD) (t : Fin cfg3.N)
    (p : Fin 2048)
    (r : Fin 4096)
    (hr : r.val = win3_4.index t (0 : Fin 2) * 2048 + p.val) :
    (iblk3 V c 2 t : Vec Ideal S2048x1 .f32) (ix2 p 0)
      = (V c main_v45 : S4096x1.Idx → EReal) (ix2 r 0) := by
  obtain ⟨-, -, -, -, e4, e5, -⟩ := index_maps t
  unfold iblk3
  show V c main_v45 (((cfg3.win 2).blk t).view.emb (ix2 p 0)) = V c main_v45 (ix2 r 0)
  congr 1
  funext a
  apply Fin.ext
  match a with
  | ⟨0, _⟩ =>
    show win3_2.index t (0 : Fin 2) * 2048 + 1 * p.val = r.val
    omega
  | ⟨1, _⟩ =>
    show win3_2.index t (1 : Fin 2) * 1 + 1 * 0 = 0
    omega

/-- The column shifts' block at point `t`: the one row, columns of the output's block column. -/
theorem shift_block_apply (c : Dev nD) (t : Fin cfg3.N)
    (q : Fin 256)
    (s : Fin 256)
    (hs : s.val = win3_4.index t (1 : Fin 2) * 256 + q.val) :
    (iblk3 V c 3 t : Vec Ideal S1x256 .f32) (ix2 0 q)
      = (V c main_v46 : S1x256.Idx → EReal) (ix2 0 s) := by
  obtain ⟨-, -, -, -, -, -, e6, e7, -⟩ := index_maps t
  unfold iblk3
  show V c main_v46 (((cfg3.win 3).blk t).view.emb (ix2 0 q)) = V c main_v46 (ix2 0 s)
  congr 1
  funext a
  apply Fin.ext
  match a with
  | ⟨0, _⟩ =>
    show win3_3.index t (0 : Fin 2) * 1 + 1 * 0 = 0
    omega
  | ⟨1, _⟩ =>
    show win3_3.index t (1 : Fin 2) * 256 + 1 * q.val = s.val
    omega

/-- A function of the whole output array, read through point `t`'s block: element `(p, q)` of the block is the array's
    element at the block's row offset plus `p`, column offset plus `q`. -/
theorem array_block_apply (G : S4096x256.Idx → EReal) (t : Fin cfg3.N)
    (p : Fin 2048)
    (q : Fin 256)
    (r : Fin 4096)
    (s : Fin 256)
    (hr : r.val = win3_4.index t (0 : Fin 2) * 2048 + p.val)
    (hs : s.val = win3_4.index t (1 : Fin 2) * 256 + q.val) :
    ((cfg3.win 4).blk t).view.read (Elt Ideal) G (ix2 p q) = G (ix2 r s) := by
  show G (((cfg3.win 4).blk t).view.emb (ix2 p q)) = G (ix2 r s)
  congr 1
  funext a
  apply Fin.ext
  match a with
  | ⟨0, _⟩ =>
    show win3_4.index t (0 : Fin 2) * 2048 + 1 * p.val = r.val
    omega
  | ⟨1, _⟩ =>
    show win3_4.index t (1 : Fin 2) * 256 + 1 * q.val = s.val
    omega

/-- WHAT POINT `t` WRITES BACK is block `t` of the scaled, shifted product of the four arrays the region finds. -/
theorem flushed_eq (c : Dev nD) (t : Fin cfg3.N) :
    (dat3 (F := Ideal) V c).flushed 4 t
      = ((cfg3.win 4).blk t).view.read (Elt Ideal)
          (Cert.MatmulSpec.mm (V c main_v44) (V c main_arg5) (V c main_v45) (V c main_v46)) := by
  show (cfg3.win 4).cut (grid3.coords t) ((dat3 V c).after 4 t) = _
  rw [after3_4]
  unfold out3_4
  rw [View.canon_unit_zero zero_offsets]
  simp only [View.ld_unit_zero (S := S2048x256) zero_offsets,
    View.ld_unit_zero (S := S256x256) zero_offsets,
    View.ld_unit_zero (S := S2048x1) zero_offsets,
    View.ld_unit_zero (S := S1x256) zero_offsets]
  funext j
  obtain ⟨p, q, rfl⟩ : ∃
      (p : Fin 2048)
      (q : Fin 256),
      j = ix2 p q := ⟨j 0, j 1, eq_ix2 j⟩
  obtain ⟨-, -, -, -, -, -, -, -, b0, b1⟩ := index_maps t
  have hp : p.val < 2048 := p.isLt
  have hq : q.val < 256 := q.isLt
  obtain ⟨r, hr⟩ : ∃
      r : Fin 4096,
      r.val = win3_4.index t (0 : Fin 2) * 2048 + p.val :=
    ⟨⟨win3_4.index t (0 : Fin 2) * 2048 + p.val, by omega⟩, rfl⟩
  obtain ⟨s, hs⟩ : ∃
      s : Fin 256,
      s.val = win3_4.index t (1 : Fin 2) * 256 + q.val :=
    ⟨⟨win3_4.index t (1 : Fin 2) * 256 + q.val, by omega⟩, rfl⟩
  show k3_pay1 (iblk3 V c 0 t) (iblk3 V c 1 t) (iblk3 V c 2 t) (iblk3 V c 3 t) (ix2 p q) = _
  refine (pay_apply _ _ _ _ p q).trans ?_
  refine Eq.trans ?_ (array_block_apply _ t p q r s hr hs).symm
  rw [Cert.MatmulSpec.mm_apply]
  congr 1
  · congr 1
    · refine Finset.sum_congr rfl fun k _ => ?_
      exact congrArg₂ (· * ·) (left_block_apply V c t p k r hr) (right_block_apply V c t k q s hs)
    · exact scale_block_apply V c t p r hr
  · exact shift_block_apply V c t q s hs

/-- An index of the array is in point `t`'s block iff each coordinate is in the block's range on its axis. -/
theorem mem_block (t : Fin cfg3.N) (i : S4096x256.Idx) :
    i ∈ ((cfg3.win 4).blk t).view.set ↔ ∀ a : Fin 2, win3_4.index t a * S2048x256.size a ≤ (i a).val
      ∧ (i a).val < win3_4.index t a * S2048x256.size a + S2048x256.size a := by
  show i ∈ ((View.whole main_v47).slice (win3_4.rect t)).set ↔ _
  rw [View.set_slice_whole, Rect.mem_set_unit]
  exact Iff.rfl

/-- THE BLOCKS TILE THE ARRAY: row `r` lies in block row `r / 2048`,
    column `s` in block column `s / 256`,
    and that block is some point's, which writes it back. -/
theorem blocks_cover (i : S4096x256.Idx) :
    ∃ t : Fin cfg3.N, (cfg3.win 4).flush t = true ∧ i ∈ ((cfg3.win 4).blk t).view.set := by
  have hi0 : (i 0).val < 4096 := (i 0).isLt
  have hi1 : (i 1).val < 256 := (i 1).isLt
  obtain ⟨t, ht⟩ := index_onto
    ⟨(i 0).val / 2048, by omega⟩
    ⟨(i 1).val / 256, by omega⟩
  have q0 : win3_4.index t (0 : Fin 2) = (i 0).val / 2048 := congrFun ht 0
  have q1 : win3_4.index t (1 : Fin 2) = (i 1).val / 256 := congrFun ht 1
  refine ⟨t, flush3_4 t, ?_⟩
  rw [mem_block]
  intro a
  match a with
  | ⟨0, _⟩ =>
    show win3_4.index t (0 : Fin 2) * 2048 ≤ (i 0).val
      ∧ (i 0).val < win3_4.index t (0 : Fin 2) * 2048 + 2048
    omega
  | ⟨1, _⟩ =>
    show win3_4.index t (1 : Fin 2) * 256 ≤ (i 1).val
      ∧ (i 1).val < win3_4.index t (1 : Fin 2) * 256 + 256
    omega

/-- THE REGION'S VALUE: the output array ends holding the scaled, shifted product of the four arrays the region finds
    (its blocks tile the array). -/
theorem value (c : Dev nD) :
    (dat3 (F := Ideal) V c).arrAt 4 cfg3.N
      = Cert.MatmulSpec.mm (V c main_v44) (V c main_arg5) (V c main_v45) (V c main_v46) := by
  exact (dat3 (F := Ideal) V c).arrAt_eq_of_cover 4 _ (fun t _ => flushed_eq V c t) blocks_cover

end Cert.KernelIdeal.Region3

end
-- ==== Proof.Region4.lean ====
/-
  REGION 4: the first normalisation layer's dense aggregation, its rows scaled by the node weights. The pallas_call tiles the output `[4096, 256]` into blocks of `2048 × 256` over a grid `(2, 1)`;
  at grid point `(I, J)` the body reads rows `I` of the left matrix (all `4096` columns), columns `J` of the right matrix, rows `I` of the
  row-scale column and columns `J` of the shift row, and stores `(left_I · right_J) ∘ scale_I + shift_J`. The blocks
  tile the output, so the array ends holding ONE function of the four arrays the region finds.
-/
import proofs.«401099_j71683004170518_2_alg».proof.Proof.Gen.KernelIdeal.Frame
import proofs.«401099_j71683004170518_2_alg».proof.Proof.LibMatmul
import proofs.«401099_j71683004170518_2_alg».proof.Proof.MatmulSpec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region4

open Idealize.ShloMosaic Idealize.ShloMosaic.ValueIdx Idealize.ShloMosaic.TcCoe Idealize.SL.Sem
open Cert.KernelIdeal Cert.KernelIdeal.Gen

/-- The body's stored value at `(p, q)` of the block, from the blocks it loaded. -/
theorem pay_apply (x0 : Vec Ideal S2048x4096 .bf16) (x1 : Vec Ideal S4096x256 .bf16) (x2 : Vec Ideal S2048x1 .f32)
    (x3 : Vec Ideal S1x256 .f32) (p : Fin 2048) (q : Fin 256) :
    k4_pay1 x0 x1 x2 x3 (ix2 p q)
      = (∑ k : Fin 4096, x0 (ix2 p k) * x1 (ix2 k q)) * x2 (ix2 p 0) + x3 (ix2 0 q) := by
  unfold k4_pay1
  rw [addf_apply, mulf_apply]
  simp only [shapeCast_self]
  rw [LibMatmul.matmul_zero_apply dot_S2048x4096_S4096x256_S2048x256_1_0_0_1_n_n rfl rfl rfl rfl rfl rfl none _ _ p q]
  congr 1
  · congr 1
    refine broadcastTo_apply x2 broadcasts_S2048x1_S2048x256 (ix2 p q) (ix2 p 0) (fun a => ?_)
    match a with
    | ⟨0, _⟩ => rfl
    | ⟨1, _⟩ => rfl
  · refine broadcastTo_apply x3 broadcasts_S1x256_S2048x256 (ix2 p q) (ix2 0 q) (fun a => ?_)
    match a with
    | ⟨0, _⟩ => rfl
    | ⟨1, _⟩ => rfl

variable (V : (c : Dev nD) → (b : Ref sig .tc) → Buf (Elt Ideal) ((c : Thread nD τ).loc b))

/-! ## From blocks to the array -/

/-- The zero offsets of an access to a whole buffer, as a constant function. -/
theorem zero_offsets : (![0, 0] : Fin 2 → Nat) = fun _ => 0 :=
  funext fun a => match a with
    | ⟨0, _⟩ => rfl
    | ⟨1, _⟩ => rfl

/-- The index maps, decided over the grid: the left matrix and the row scales move with the output's block row and stay at
    block column 0; the right matrix and the column shifts move with the output's block column and stay at block row 0;
    the output's block indices stay in their ranges. -/
theorem index_maps : ∀ t : Fin cfg4.N,
    win4_0.index t (0 : Fin 2) = win4_4.index t (0 : Fin 2)
    ∧ win4_0.index t (1 : Fin 2) = 0
    ∧ win4_1.index t (0 : Fin 2) = 0
    ∧ win4_1.index t (1 : Fin 2) = win4_4.index t (1 : Fin 2)
    ∧ win4_2.index t (0 : Fin 2) = win4_4.index t (0 : Fin 2)
    ∧ win4_2.index t (1 : Fin 2) = 0
    ∧ win4_3.index t (0 : Fin 2) = 0
    ∧ win4_3.index t (1 : Fin 2) = win4_4.index t (1 : Fin 2)
    ∧ win4_4.index t (0 : Fin 2) ≤ 1
    ∧ win4_4.index t (1 : Fin 2) ≤ 0 :=
  (by decide +kernel : ∀ t : Fin grid4.N, _)

/-- Every block of the output is SOME point's. -/
theorem index_onto : ∀
    (q0 : Fin 2)
    (q1 : Fin 1),
    ∃ t : Fin cfg4.N, win4_4.index t = ![q0.val, q1.val] :=
  (by decide +kernel : ∀
    (q0 : Fin 2)
    (q1 : Fin 1),
    ∃ t : Fin grid4.N, win4_4.index t = ![q0.val, q1.val])

/-- The left matrix's block at point `t`: rows of the output's block row, every column. -/
theorem left_block_apply (c : Dev nD) (t : Fin cfg4.N)
    (p : Fin 2048)
    (k : Fin 4096)
    (r : Fin 4096)
    (hr : r.val = win4_4.index t (0 : Fin 2) * 2048 + p.val) :
    (iblk4 V c 0 t : Vec Ideal S2048x4096 .bf16) (ix2 p k)
      = (V c main_v20 : S4096x4096.Idx → EReal) (ix2 r k) := by
  obtain ⟨e0, e1, -⟩ := index_maps t
  unfold iblk4
  show V c main_v20 (((cfg4.win 0).blk t).view.emb (ix2 p k)) = V c main_v20 (ix2 r k)
  congr 1
  funext a
  apply Fin.ext
  match a with
  | ⟨0, _⟩ =>
    show win4_0.index t (0 : Fin 2) * 2048 + 1 * p.val = r.val
    omega
  | ⟨1, _⟩ =>
    show win4_0.index t (1 : Fin 2) * 4096 + 1 * k.val = k.val
    omega

/-- The right matrix's block at point `t`: every row, columns of the output's block column. -/
theorem right_block_apply (c : Dev nD) (t : Fin cfg4.N)
    (k : Fin 4096)
    (q : Fin 256)
    (s : Fin 256)
    (hs : s.val = win4_4.index t (1 : Fin 2) * 256 + q.val) :
    (iblk4 V c 1 t : Vec Ideal S4096x256 .bf16) (ix2 k q)
      = (V c main_v51 : S4096x256.Idx → EReal) (ix2 k s) := by
  obtain ⟨-, -, e2, e3, -⟩ := index_maps t
  unfold iblk4
  show V c main_v51 (((cfg4.win 1).blk t).view.emb (ix2 k q)) = V c main_v51 (ix2 k s)
  congr 1
  funext a
  apply Fin.ext
  match a with
  | ⟨0, _⟩ =>
    show win4_1.index t (0 : Fin 2) * 4096 + 1 * k.val = k.val
    omega
  | ⟨1, _⟩ =>
    show win4_1.index t (1 : Fin 2) * 256 + 1 * q.val = s.val
    omega

/-- The row scales' block at point `t`: rows of the output's block row, the one column. -/
theorem scale_block_apply (c : Dev nD) (t : Fin cfg4.N)
    (p : Fin 2048)
    (r : Fin 4096)
    (hr : r.val = win4_4.index t (0 : Fin 2) * 2048 + p.val) :
    (iblk4 V c 2 t : Vec Ideal S2048x1 .f32) (ix2 p 0)
      = (V c main_v52 : S4096x1.Idx → EReal) (ix2 r 0) := by
  obtain ⟨-, -, -, -, e4, e5, -⟩ := index_maps t
  unfold iblk4
  show V c main_v52 (((cfg4.win 2).blk t).view.emb (ix2 p 0)) = V c main_v52 (ix2 r 0)
  congr 1
  funext a
  apply Fin.ext
  match a with
  | ⟨0, _⟩ =>
    show win4_2.index t (0 : Fin 2) * 2048 + 1 * p.val = r.val
    omega
  | ⟨1, _⟩ =>
    show win4_2.index t (1 : Fin 2) * 1 + 1 * 0 = 0
    omega

/-- The column shifts' block at point `t`: the one row, columns of the output's block column. -/
theorem shift_block_apply (c : Dev nD) (t : Fin cfg4.N)
    (q : Fin 256)
    (s : Fin 256)
    (hs : s.val = win4_4.index t (1 : Fin 2) * 256 + q.val) :
    (iblk4 V c 3 t : Vec Ideal S1x256 .f32) (ix2 0 q)
      = (V c main_v53 : S1x256.Idx → EReal) (ix2 0 s) := by
  obtain ⟨-, -, -, -, -, -, e6, e7, -⟩ := index_maps t
  unfold iblk4
  show V c main_v53 (((cfg4.win 3).blk t).view.emb (ix2 0 q)) = V c main_v53 (ix2 0 s)
  congr 1
  funext a
  apply Fin.ext
  match a with
  | ⟨0, _⟩ =>
    show win4_3.index t (0 : Fin 2) * 1 + 1 * 0 = 0
    omega
  | ⟨1, _⟩ =>
    show win4_3.index t (1 : Fin 2) * 256 + 1 * q.val = s.val
    omega

/-- A function of the whole output array, read through point `t`'s block: element `(p, q)` of the block is the array's
    element at the block's row offset plus `p`, column offset plus `q`. -/
theorem array_block_apply (G : S4096x256.Idx → EReal) (t : Fin cfg4.N)
    (p : Fin 2048)
    (q : Fin 256)
    (r : Fin 4096)
    (s : Fin 256)
    (hr : r.val = win4_4.index t (0 : Fin 2) * 2048 + p.val)
    (hs : s.val = win4_4.index t (1 : Fin 2) * 256 + q.val) :
    ((cfg4.win 4).blk t).view.read (Elt Ideal) G (ix2 p q) = G (ix2 r s) := by
  show G (((cfg4.win 4).blk t).view.emb (ix2 p q)) = G (ix2 r s)
  congr 1
  funext a
  apply Fin.ext
  match a with
  | ⟨0, _⟩ =>
    show win4_4.index t (0 : Fin 2) * 2048 + 1 * p.val = r.val
    omega
  | ⟨1, _⟩ =>
    show win4_4.index t (1 : Fin 2) * 256 + 1 * q.val = s.val
    omega

/-- WHAT POINT `t` WRITES BACK is block `t` of the scaled, shifted product of the four arrays the region finds. -/
theorem flushed_eq (c : Dev nD) (t : Fin cfg4.N) :
    (dat4 (F := Ideal) V c).flushed 4 t
      = ((cfg4.win 4).blk t).view.read (Elt Ideal)
          (Cert.MatmulSpec.mm (V c main_v20) (V c main_v51) (V c main_v52) (V c main_v53)) := by
  show (cfg4.win 4).cut (grid4.coords t) ((dat4 V c).after 4 t) = _
  rw [after4_4]
  unfold out4_4
  rw [View.canon_unit_zero zero_offsets]
  simp only [View.ld_unit_zero (S := S2048x4096) zero_offsets,
    View.ld_unit_zero (S := S4096x256) zero_offsets,
    View.ld_unit_zero (S := S2048x1) zero_offsets,
    View.ld_unit_zero (S := S1x256) zero_offsets]
  funext j
  obtain ⟨p, q, rfl⟩ : ∃
      (p : Fin 2048)
      (q : Fin 256),
      j = ix2 p q := ⟨j 0, j 1, eq_ix2 j⟩
  obtain ⟨-, -, -, -, -, -, -, -, b0, b1⟩ := index_maps t
  have hp : p.val < 2048 := p.isLt
  have hq : q.val < 256 := q.isLt
  obtain ⟨r, hr⟩ : ∃
      r : Fin 4096,
      r.val = win4_4.index t (0 : Fin 2) * 2048 + p.val :=
    ⟨⟨win4_4.index t (0 : Fin 2) * 2048 + p.val, by omega⟩, rfl⟩
  obtain ⟨s, hs⟩ : ∃
      s : Fin 256,
      s.val = win4_4.index t (1 : Fin 2) * 256 + q.val :=
    ⟨⟨win4_4.index t (1 : Fin 2) * 256 + q.val, by omega⟩, rfl⟩
  show k4_pay1 (iblk4 V c 0 t) (iblk4 V c 1 t) (iblk4 V c 2 t) (iblk4 V c 3 t) (ix2 p q) = _
  refine (pay_apply _ _ _ _ p q).trans ?_
  refine Eq.trans ?_ (array_block_apply _ t p q r s hr hs).symm
  rw [Cert.MatmulSpec.mm_apply]
  congr 1
  · congr 1
    · refine Finset.sum_congr rfl fun k _ => ?_
      exact congrArg₂ (· * ·) (left_block_apply V c t p k r hr) (right_block_apply V c t k q s hs)
    · exact scale_block_apply V c t p r hr
  · exact shift_block_apply V c t q s hs

/-- An index of the array is in point `t`'s block iff each coordinate is in the block's range on its axis. -/
theorem mem_block (t : Fin cfg4.N) (i : S4096x256.Idx) :
    i ∈ ((cfg4.win 4).blk t).view.set ↔ ∀ a : Fin 2, win4_4.index t a * S2048x256.size a ≤ (i a).val
      ∧ (i a).val < win4_4.index t a * S2048x256.size a + S2048x256.size a := by
  show i ∈ ((View.whole main_v54).slice (win4_4.rect t)).set ↔ _
  rw [View.set_slice_whole, Rect.mem_set_unit]
  exact Iff.rfl

/-- THE BLOCKS TILE THE ARRAY: row `r` lies in block row `r / 2048`,
    column `s` in block column `s / 256`,
    and that block is some point's, which writes it back. -/
theorem blocks_cover (i : S4096x256.Idx) :
    ∃ t : Fin cfg4.N, (cfg4.win 4).flush t = true ∧ i ∈ ((cfg4.win 4).blk t).view.set := by
  have hi0 : (i 0).val < 4096 := (i 0).isLt
  have hi1 : (i 1).val < 256 := (i 1).isLt
  obtain ⟨t, ht⟩ := index_onto
    ⟨(i 0).val / 2048, by omega⟩
    ⟨(i 1).val / 256, by omega⟩
  have q0 : win4_4.index t (0 : Fin 2) = (i 0).val / 2048 := congrFun ht 0
  have q1 : win4_4.index t (1 : Fin 2) = (i 1).val / 256 := congrFun ht 1
  refine ⟨t, flush4_4 t, ?_⟩
  rw [mem_block]
  intro a
  match a with
  | ⟨0, _⟩ =>
    show win4_4.index t (0 : Fin 2) * 2048 ≤ (i 0).val
      ∧ (i 0).val < win4_4.index t (0 : Fin 2) * 2048 + 2048
    omega
  | ⟨1, _⟩ =>
    show win4_4.index t (1 : Fin 2) * 256 ≤ (i 1).val
      ∧ (i 1).val < win4_4.index t (1 : Fin 2) * 256 + 256
    omega

/-- THE REGION'S VALUE: the output array ends holding the scaled, shifted product of the four arrays the region finds
    (its blocks tile the array). -/
theorem value (c : Dev nD) :
    (dat4 (F := Ideal) V c).arrAt 4 cfg4.N
      = Cert.MatmulSpec.mm (V c main_v20) (V c main_v51) (V c main_v52) (V c main_v53) := by
  exact (dat4 (F := Ideal) V c).arrAt_eq_of_cover 4 _ (fun t _ => flushed_eq V c t) blocks_cover

end Cert.KernelIdeal.Region4

end
-- ==== Proof.Region5.lean ====
/-
  REGION 5: the second normalisation layer's linear map. The pallas_call tiles the output `[4096, 128]` into blocks of `2048 × 128` over a grid `(2, 1)`;
  at grid point `(I, J)` the body reads rows `I` of the left matrix (all `256` columns), columns `J` of the right matrix, rows `I` of the
  row-scale column and columns `J` of the shift row, and stores `(left_I · right_J) ∘ scale_I + shift_J`. The blocks
  tile the output, so the array ends holding ONE function of the four arrays the region finds.
-/
import proofs.«401099_j71683004170518_2_alg».proof.Proof.Gen.KernelIdeal.Frame
import proofs.«401099_j71683004170518_2_alg».proof.Proof.LibMatmul
import proofs.«401099_j71683004170518_2_alg».proof.Proof.MatmulSpec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region5

open Idealize.ShloMosaic Idealize.ShloMosaic.ValueIdx Idealize.ShloMosaic.TcCoe Idealize.SL.Sem
open Cert.KernelIdeal Cert.KernelIdeal.Gen

/-- The body's stored value at `(p, q)` of the block, from the blocks it loaded. -/
theorem pay_apply (x0 : Vec Ideal S2048x256 .f32) (x1 : Vec Ideal S256x128 .f32) (x2 : Vec Ideal S2048x1 .f32)
    (x3 : Vec Ideal S1x128 .f32) (p : Fin 2048) (q : Fin 128) :
    k5_pay1 x0 x1 x2 x3 (ix2 p q)
      = (∑ k : Fin 256, x0 (ix2 p k) * x1 (ix2 k q)) * x2 (ix2 p 0) + x3 (ix2 0 q) := by
  unfold k5_pay1
  rw [addf_apply, mulf_apply]
  simp only [shapeCast_self]
  rw [LibMatmul.matmul_zero_apply dot_S2048x256_S256x128_S2048x128_1_0_0_1_n_n rfl rfl rfl rfl rfl rfl none _ _ p q]
  simp only [truncf_apply]
  congr 1
  · congr 1
    refine broadcastTo_apply x2 broadcasts_S2048x1_S2048x128 (ix2 p q) (ix2 p 0) (fun a => ?_)
    match a with
    | ⟨0, _⟩ => rfl
    | ⟨1, _⟩ => rfl
  · refine broadcastTo_apply x3 broadcasts_S1x128_S2048x128 (ix2 p q) (ix2 0 q) (fun a => ?_)
    match a with
    | ⟨0, _⟩ => rfl
    | ⟨1, _⟩ => rfl

variable (V : (c : Dev nD) → (b : Ref sig .tc) → Buf (Elt Ideal) ((c : Thread nD τ).loc b))

/-! ## From blocks to the array -/

/-- The zero offsets of an access to a whole buffer, as a constant function. -/
theorem zero_offsets : (![0, 0] : Fin 2 → Nat) = fun _ => 0 :=
  funext fun a => match a with
    | ⟨0, _⟩ => rfl
    | ⟨1, _⟩ => rfl

/-- The index maps, decided over the grid: the left matrix and the row scales move with the output's block row and stay at
    block column 0; the right matrix and the column shifts move with the output's block column and stay at block row 0;
    the output's block indices stay in their ranges. -/
theorem index_maps : ∀ t : Fin cfg5.N,
    win5_0.index t (0 : Fin 2) = win5_4.index t (0 : Fin 2)
    ∧ win5_0.index t (1 : Fin 2) = 0
    ∧ win5_1.index t (0 : Fin 2) = 0
    ∧ win5_1.index t (1 : Fin 2) = win5_4.index t (1 : Fin 2)
    ∧ win5_2.index t (0 : Fin 2) = win5_4.index t (0 : Fin 2)
    ∧ win5_2.index t (1 : Fin 2) = 0
    ∧ win5_3.index t (0 : Fin 2) = 0
    ∧ win5_3.index t (1 : Fin 2) = win5_4.index t (1 : Fin 2)
    ∧ win5_4.index t (0 : Fin 2) ≤ 1
    ∧ win5_4.index t (1 : Fin 2) ≤ 0 :=
  (by decide +kernel : ∀ t : Fin grid5.N, _)

/-- Every block of the output is SOME point's. -/
theorem index_onto : ∀
    (q0 : Fin 2)
    (q1 : Fin 1),
    ∃ t : Fin cfg5.N, win5_4.index t = ![q0.val, q1.val] :=
  (by decide +kernel : ∀
    (q0 : Fin 2)
    (q1 : Fin 1),
    ∃ t : Fin grid5.N, win5_4.index t = ![q0.val, q1.val])

/-- The left matrix's block at point `t`: rows of the output's block row, every column. -/
theorem left_block_apply (c : Dev nD) (t : Fin cfg5.N)
    (p : Fin 2048)
    (k : Fin 256)
    (r : Fin 4096)
    (hr : r.val = win5_4.index t (0 : Fin 2) * 2048 + p.val) :
    (iblk5 V c 0 t : Vec Ideal S2048x256 .bf16) (ix2 p k)
      = (V c main_v64 : S4096x256.Idx → EReal) (ix2 r k) := by
  obtain ⟨e0, e1, -⟩ := index_maps t
  unfold iblk5
  show V c main_v64 (((cfg5.win 0).blk t).view.emb (ix2 p k)) = V c main_v64 (ix2 r k)
  congr 1
  funext a
  apply Fin.ext
  match a with
  | ⟨0, _⟩ =>
    show win5_0.index t (0 : Fin 2) * 2048 + 1 * p.val = r.val
    omega
  | ⟨1, _⟩ =>
    show win5_0.index t (1 : Fin 2) * 256 + 1 * k.val = k.val
    omega

/-- The right matrix's block at point `t`: every row, columns of the output's block column. -/
theorem right_block_apply (c : Dev nD) (t : Fin cfg5.N)
    (k : Fin 256)
    (q : Fin 128)
    (s : Fin 128)
    (hs : s.val = win5_4.index t (1 : Fin 2) * 128 + q.val) :
    (iblk5 V c 1 t : Vec Ideal S256x128 .bf16) (ix2 k q)
      = (V c main_arg7 : S256x128.Idx → EReal) (ix2 k s) := by
  obtain ⟨-, -, e2, e3, -⟩ := index_maps t
  unfold iblk5
  show V c main_arg7 (((cfg5.win 1).blk t).view.emb (ix2 k q)) = V c main_arg7 (ix2 k s)
  congr 1
  funext a
  apply Fin.ext
  match a with
  | ⟨0, _⟩ =>
    show win5_1.index t (0 : Fin 2) * 256 + 1 * k.val = k.val
    omega
  | ⟨1, _⟩ =>
    show win5_1.index t (1 : Fin 2) * 128 + 1 * q.val = s.val
    omega

/-- The row scales' block at point `t`: rows of the output's block row, the one column. -/
theorem scale_block_apply (c : Dev nD) (t : Fin cfg5.N)
    (p : Fin 2048)
    (r : Fin 4096)
    (hr : r.val = win5_4.index t (0 : Fin 2) * 2048 + p.val) :
    (iblk5 V c 2 t : Vec Ideal S2048x1 .f32) (ix2 p 0)
      = (V c main_v65 : S4096x1.Idx → EReal) (ix2 r 0) := by
  obtain ⟨-, -, -, -, e4, e5, -⟩ := index_maps t
  unfold iblk5
  show V c main_v65 (((cfg5.win 2).blk t).view.emb (ix2 p 0)) = V c main_v65 (ix2 r 0)
  congr 1
  funext a
  apply Fin.ext
  match a with
  | ⟨0, _⟩ =>
    show win5_2.index t (0 : Fin 2) * 2048 + 1 * p.val = r.val
    omega
  | ⟨1, _⟩ =>
    show win5_2.index t (1 : Fin 2) * 1 + 1 * 0 = 0
    omega

/-- The column shifts' block at point `t`: the one row, columns of the output's block column. -/
theorem shift_block_apply (c : Dev nD) (t : Fin cfg5.N)
    (q : Fin 128)
    (s : Fin 128)
    (hs : s.val = win5_4.index t (1 : Fin 2) * 128 + q.val) :
    (iblk5 V c 3 t : Vec Ideal S1x128 .f32) (ix2 0 q)
      = (V c main_v66 : S1x128.Idx → EReal) (ix2 0 s) := by
  obtain ⟨-, -, -, -, -, -, e6, e7, -⟩ := index_maps t
  unfold iblk5
  show V c main_v66 (((cfg5.win 3).blk t).view.emb (ix2 0 q)) = V c main_v66 (ix2 0 s)
  congr 1
  funext a
  apply Fin.ext
  match a with
  | ⟨0, _⟩ =>
    show win5_3.index t (0 : Fin 2) * 1 + 1 * 0 = 0
    omega
  | ⟨1, _⟩ =>
    show win5_3.index t (1 : Fin 2) * 128 + 1 * q.val = s.val
    omega

/-- A function of the whole output array, read through point `t`'s block: element `(p, q)` of the block is the array's
    element at the block's row offset plus `p`, column offset plus `q`. -/
theorem array_block_apply (G : S4096x128.Idx → EReal) (t : Fin cfg5.N)
    (p : Fin 2048)
    (q : Fin 128)
    (r : Fin 4096)
    (s : Fin 128)
    (hr : r.val = win5_4.index t (0 : Fin 2) * 2048 + p.val)
    (hs : s.val = win5_4.index t (1 : Fin 2) * 128 + q.val) :
    ((cfg5.win 4).blk t).view.read (Elt Ideal) G (ix2 p q) = G (ix2 r s) := by
  show G (((cfg5.win 4).blk t).view.emb (ix2 p q)) = G (ix2 r s)
  congr 1
  funext a
  apply Fin.ext
  match a with
  | ⟨0, _⟩ =>
    show win5_4.index t (0 : Fin 2) * 2048 + 1 * p.val = r.val
    omega
  | ⟨1, _⟩ =>
    show win5_4.index t (1 : Fin 2) * 128 + 1 * q.val = s.val
    omega

/-- WHAT POINT `t` WRITES BACK is block `t` of the scaled, shifted product of the four arrays the region finds. -/
theorem flushed_eq (c : Dev nD) (t : Fin cfg5.N) :
    (dat5 (F := Ideal) V c).flushed 4 t
      = ((cfg5.win 4).blk t).view.read (Elt Ideal)
          (Cert.MatmulSpec.mm (V c main_v64) (V c main_arg7) (V c main_v65) (V c main_v66)) := by
  show (cfg5.win 4).cut (grid5.coords t) ((dat5 V c).after 4 t) = _
  rw [after5_4]
  unfold out5_4
  rw [View.canon_unit_zero zero_offsets]
  simp only [View.ld_unit_zero (S := S2048x256) zero_offsets,
    View.ld_unit_zero (S := S256x128) zero_offsets,
    View.ld_unit_zero (S := S2048x1) zero_offsets,
    View.ld_unit_zero (S := S1x128) zero_offsets]
  funext j
  obtain ⟨p, q, rfl⟩ : ∃
      (p : Fin 2048)
      (q : Fin 128),
      j = ix2 p q := ⟨j 0, j 1, eq_ix2 j⟩
  obtain ⟨-, -, -, -, -, -, -, -, b0, b1⟩ := index_maps t
  have hp : p.val < 2048 := p.isLt
  have hq : q.val < 128 := q.isLt
  obtain ⟨r, hr⟩ : ∃
      r : Fin 4096,
      r.val = win5_4.index t (0 : Fin 2) * 2048 + p.val :=
    ⟨⟨win5_4.index t (0 : Fin 2) * 2048 + p.val, by omega⟩, rfl⟩
  obtain ⟨s, hs⟩ : ∃
      s : Fin 128,
      s.val = win5_4.index t (1 : Fin 2) * 128 + q.val :=
    ⟨⟨win5_4.index t (1 : Fin 2) * 128 + q.val, by omega⟩, rfl⟩
  show k5_pay1 (iblk5 V c 0 t) (iblk5 V c 1 t) (iblk5 V c 2 t) (iblk5 V c 3 t) (ix2 p q) = _
  refine (pay_apply _ _ _ _ p q).trans ?_
  refine Eq.trans ?_ (array_block_apply _ t p q r s hr hs).symm
  rw [Cert.MatmulSpec.mm_apply]
  congr 1
  · congr 1
    · refine Finset.sum_congr rfl fun k _ => ?_
      exact congrArg₂ (· * ·) (left_block_apply V c t p k r hr) (right_block_apply V c t k q s hs)
    · exact scale_block_apply V c t p r hr
  · exact shift_block_apply V c t q s hs

/-- An index of the array is in point `t`'s block iff each coordinate is in the block's range on its axis. -/
theorem mem_block (t : Fin cfg5.N) (i : S4096x128.Idx) :
    i ∈ ((cfg5.win 4).blk t).view.set ↔ ∀ a : Fin 2, win5_4.index t a * S2048x128.size a ≤ (i a).val
      ∧ (i a).val < win5_4.index t a * S2048x128.size a + S2048x128.size a := by
  show i ∈ ((View.whole main_v67).slice (win5_4.rect t)).set ↔ _
  rw [View.set_slice_whole, Rect.mem_set_unit]
  exact Iff.rfl

/-- THE BLOCKS TILE THE ARRAY: row `r` lies in block row `r / 2048`,
    column `s` in block column `s / 128`,
    and that block is some point's, which writes it back. -/
theorem blocks_cover (i : S4096x128.Idx) :
    ∃ t : Fin cfg5.N, (cfg5.win 4).flush t = true ∧ i ∈ ((cfg5.win 4).blk t).view.set := by
  have hi0 : (i 0).val < 4096 := (i 0).isLt
  have hi1 : (i 1).val < 128 := (i 1).isLt
  obtain ⟨t, ht⟩ := index_onto
    ⟨(i 0).val / 2048, by omega⟩
    ⟨(i 1).val / 128, by omega⟩
  have q0 : win5_4.index t (0 : Fin 2) = (i 0).val / 2048 := congrFun ht 0
  have q1 : win5_4.index t (1 : Fin 2) = (i 1).val / 128 := congrFun ht 1
  refine ⟨t, flush5_4 t, ?_⟩
  rw [mem_block]
  intro a
  match a with
  | ⟨0, _⟩ =>
    show win5_4.index t (0 : Fin 2) * 2048 ≤ (i 0).val
      ∧ (i 0).val < win5_4.index t (0 : Fin 2) * 2048 + 2048
    omega
  | ⟨1, _⟩ =>
    show win5_4.index t (1 : Fin 2) * 128 ≤ (i 1).val
      ∧ (i 1).val < win5_4.index t (1 : Fin 2) * 128 + 128
    omega

/-- THE REGION'S VALUE: the output array ends holding the scaled, shifted product of the four arrays the region finds
    (its blocks tile the array). -/
theorem value (c : Dev nD) :
    (dat5 (F := Ideal) V c).arrAt 4 cfg5.N
      = Cert.MatmulSpec.mm (V c main_v64) (V c main_arg7) (V c main_v65) (V c main_v66) := by
  exact (dat5 (F := Ideal) V c).arrAt_eq_of_cover 4 _ (fun t _ => flushed_eq V c t) blocks_cover

end Cert.KernelIdeal.Region5

end
-- ==== Proof.Region6.lean ====
/-
  REGION 6: the second normalisation layer's dense aggregation, its rows scaled by the node weights. The pallas_call tiles the output `[4096, 128]` into blocks of `2048 × 128` over a grid `(2, 1)`;
  at grid point `(I, J)` the body reads rows `I` of the left matrix (all `4096` columns), columns `J` of the right matrix, rows `I` of the
  row-scale column and columns `J` of the shift row, and stores `(left_I · right_J) ∘ scale_I + shift_J`. The blocks
  tile the output, so the array ends holding ONE function of the four arrays the region finds.
-/
import proofs.«401099_j71683004170518_2_alg».proof.Proof.Gen.KernelIdeal.Frame
import proofs.«401099_j71683004170518_2_alg».proof.Proof.LibMatmul
import proofs.«401099_j71683004170518_2_alg».proof.Proof.MatmulSpec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region6

open Idealize.ShloMosaic Idealize.ShloMosaic.ValueIdx Idealize.ShloMosaic.TcCoe Idealize.SL.Sem
open Cert.KernelIdeal Cert.KernelIdeal.Gen

/-- The body's stored value at `(p, q)` of the block, from the blocks it loaded. -/
theorem pay_apply (x0 : Vec Ideal S2048x4096 .bf16) (x1 : Vec Ideal S4096x128 .bf16) (x2 : Vec Ideal S2048x1 .f32)
    (x3 : Vec Ideal S1x128 .f32) (p : Fin 2048) (q : Fin 128) :
    k6_pay1 x0 x1 x2 x3 (ix2 p q)
      = (∑ k : Fin 4096, x0 (ix2 p k) * x1 (ix2 k q)) * x2 (ix2 p 0) + x3 (ix2 0 q) := by
  unfold k6_pay1
  rw [addf_apply, mulf_apply]
  simp only [shapeCast_self]
  rw [LibMatmul.matmul_zero_apply dot_S2048x4096_S4096x128_S2048x128_1_0_0_1_n_n rfl rfl rfl rfl rfl rfl none _ _ p q]
  congr 1
  · congr 1
    refine broadcastTo_apply x2 broadcasts_S2048x1_S2048x128 (ix2 p q) (ix2 p 0) (fun a => ?_)
    match a with
    | ⟨0, _⟩ => rfl
    | ⟨1, _⟩ => rfl
  · refine broadcastTo_apply x3 broadcasts_S1x128_S2048x128 (ix2 p q) (ix2 0 q) (fun a => ?_)
    match a with
    | ⟨0, _⟩ => rfl
    | ⟨1, _⟩ => rfl

variable (V : (c : Dev nD) → (b : Ref sig .tc) → Buf (Elt Ideal) ((c : Thread nD τ).loc b))

/-! ## From blocks to the array -/

/-- The zero offsets of an access to a whole buffer, as a constant function. -/
theorem zero_offsets : (![0, 0] : Fin 2 → Nat) = fun _ => 0 :=
  funext fun a => match a with
    | ⟨0, _⟩ => rfl
    | ⟨1, _⟩ => rfl

/-- The index maps, decided over the grid: the left matrix and the row scales move with the output's block row and stay at
    block column 0; the right matrix and the column shifts move with the output's block column and stay at block row 0;
    the output's block indices stay in their ranges. -/
theorem index_maps : ∀ t : Fin cfg6.N,
    win6_0.index t (0 : Fin 2) = win6_4.index t (0 : Fin 2)
    ∧ win6_0.index t (1 : Fin 2) = 0
    ∧ win6_1.index t (0 : Fin 2) = 0
    ∧ win6_1.index t (1 : Fin 2) = win6_4.index t (1 : Fin 2)
    ∧ win6_2.index t (0 : Fin 2) = win6_4.index t (0 : Fin 2)
    ∧ win6_2.index t (1 : Fin 2) = 0
    ∧ win6_3.index t (0 : Fin 2) = 0
    ∧ win6_3.index t (1 : Fin 2) = win6_4.index t (1 : Fin 2)
    ∧ win6_4.index t (0 : Fin 2) ≤ 1
    ∧ win6_4.index t (1 : Fin 2) ≤ 0 :=
  (by decide +kernel : ∀ t : Fin grid6.N, _)

/-- Every block of the output is SOME point's. -/
theorem index_onto : ∀
    (q0 : Fin 2)
    (q1 : Fin 1),
    ∃ t : Fin cfg6.N, win6_4.index t = ![q0.val, q1.val] :=
  (by decide +kernel : ∀
    (q0 : Fin 2)
    (q1 : Fin 1),
    ∃ t : Fin grid6.N, win6_4.index t = ![q0.val, q1.val])

/-- The left matrix's block at point `t`: rows of the output's block row, every column. -/
theorem left_block_apply (c : Dev nD) (t : Fin cfg6.N)
    (p : Fin 2048)
    (k : Fin 4096)
    (r : Fin 4096)
    (hr : r.val = win6_4.index t (0 : Fin 2) * 2048 + p.val) :
    (iblk6 V c 0 t : Vec Ideal S2048x4096 .bf16) (ix2 p k)
      = (V c main_v20 : S4096x4096.Idx → EReal) (ix2 r k) := by
  obtain ⟨e0, e1, -⟩ := index_maps t
  unfold iblk6
  show V c main_v20 (((cfg6.win 0).blk t).view.emb (ix2 p k)) = V c main_v20 (ix2 r k)
  congr 1
  funext a
  apply Fin.ext
  match a with
  | ⟨0, _⟩ =>
    show win6_0.index t (0 : Fin 2) * 2048 + 1 * p.val = r.val
    omega
  | ⟨1, _⟩ =>
    show win6_0.index t (1 : Fin 2) * 4096 + 1 * k.val = k.val
    omega

/-- The right matrix's block at point `t`: every row, columns of the output's block column. -/
theorem right_block_apply (c : Dev nD) (t : Fin cfg6.N)
    (k : Fin 4096)
    (q : Fin 128)
    (s : Fin 128)
    (hs : s.val = win6_4.index t (1 : Fin 2) * 128 + q.val) :
    (iblk6 V c 1 t : Vec Ideal S4096x128 .bf16) (ix2 k q)
      = (V c main_v71 : S4096x128.Idx → EReal) (ix2 k s) := by
  obtain ⟨-, -, e2, e3, -⟩ := index_maps t
  unfold iblk6
  show V c main_v71 (((cfg6.win 1).blk t).view.emb (ix2 k q)) = V c main_v71 (ix2 k s)
  congr 1
  funext a
  apply Fin.ext
  match a with
  | ⟨0, _⟩ =>
    show win6_1.index t (0 : Fin 2) * 4096 + 1 * k.val = k.val
    omega
  | ⟨1, _⟩ =>
    show win6_1.index t (1 : Fin 2) * 128 + 1 * q.val = s.val
    omega

/-- The row scales' block at point `t`: rows of the output's block row, the one column. -/
theorem scale_block_apply (c : Dev nD) (t : Fin cfg6.N)
    (p : Fin 2048)
    (r : Fin 4096)
    (hr : r.val = win6_4.index t (0 : Fin 2) * 2048 + p.val) :
    (iblk6 V c 2 t : Vec Ideal S2048x1 .f32) (ix2 p 0)
      = (V c main_v72 : S4096x1.Idx → EReal) (ix2 r 0) := by
  obtain ⟨-, -, -, -, e4, e5, -⟩ := index_maps t
  unfold iblk6
  show V c main_v72 (((cfg6.win 2).blk t).view.emb (ix2 p 0)) = V c main_v72 (ix2 r 0)
  congr 1
  funext a
  apply Fin.ext
  match a with
  | ⟨0, _⟩ =>
    show win6_2.index t (0 : Fin 2) * 2048 + 1 * p.val = r.val
    omega
  | ⟨1, _⟩ =>
    show win6_2.index t (1 : Fin 2) * 1 + 1 * 0 = 0
    omega

/-- The column shifts' block at point `t`: the one row, columns of the output's block column. -/
theorem shift_block_apply (c : Dev nD) (t : Fin cfg6.N)
    (q : Fin 128)
    (s : Fin 128)
    (hs : s.val = win6_4.index t (1 : Fin 2) * 128 + q.val) :
    (iblk6 V c 3 t : Vec Ideal S1x128 .f32) (ix2 0 q)
      = (V c main_v73 : S1x128.Idx → EReal) (ix2 0 s) := by
  obtain ⟨-, -, -, -, -, -, e6, e7, -⟩ := index_maps t
  unfold iblk6
  show V c main_v73 (((cfg6.win 3).blk t).view.emb (ix2 0 q)) = V c main_v73 (ix2 0 s)
  congr 1
  funext a
  apply Fin.ext
  match a with
  | ⟨0, _⟩ =>
    show win6_3.index t (0 : Fin 2) * 1 + 1 * 0 = 0
    omega
  | ⟨1, _⟩ =>
    show win6_3.index t (1 : Fin 2) * 128 + 1 * q.val = s.val
    omega

/-- A function of the whole output array, read through point `t`'s block: element `(p, q)` of the block is the array's
    element at the block's row offset plus `p`, column offset plus `q`. -/
theorem array_block_apply (G : S4096x128.Idx → EReal) (t : Fin cfg6.N)
    (p : Fin 2048)
    (q : Fin 128)
    (r : Fin 4096)
    (s : Fin 128)
    (hr : r.val = win6_4.index t (0 : Fin 2) * 2048 + p.val)
    (hs : s.val = win6_4.index t (1 : Fin 2) * 128 + q.val) :
    ((cfg6.win 4).blk t).view.read (Elt Ideal) G (ix2 p q) = G (ix2 r s) := by
  show G (((cfg6.win 4).blk t).view.emb (ix2 p q)) = G (ix2 r s)
  congr 1
  funext a
  apply Fin.ext
  match a with
  | ⟨0, _⟩ =>
    show win6_4.index t (0 : Fin 2) * 2048 + 1 * p.val = r.val
    omega
  | ⟨1, _⟩ =>
    show win6_4.index t (1 : Fin 2) * 128 + 1 * q.val = s.val
    omega

/-- WHAT POINT `t` WRITES BACK is block `t` of the scaled, shifted product of the four arrays the region finds. -/
theorem flushed_eq (c : Dev nD) (t : Fin cfg6.N) :
    (dat6 (F := Ideal) V c).flushed 4 t
      = ((cfg6.win 4).blk t).view.read (Elt Ideal)
          (Cert.MatmulSpec.mm (V c main_v20) (V c main_v71) (V c main_v72) (V c main_v73)) := by
  show (cfg6.win 4).cut (grid6.coords t) ((dat6 V c).after 4 t) = _
  rw [after6_4]
  unfold out6_4
  rw [View.canon_unit_zero zero_offsets]
  simp only [View.ld_unit_zero (S := S2048x4096) zero_offsets,
    View.ld_unit_zero (S := S4096x128) zero_offsets,
    View.ld_unit_zero (S := S2048x1) zero_offsets,
    View.ld_unit_zero (S := S1x128) zero_offsets]
  funext j
  obtain ⟨p, q, rfl⟩ : ∃
      (p : Fin 2048)
      (q : Fin 128),
      j = ix2 p q := ⟨j 0, j 1, eq_ix2 j⟩
  obtain ⟨-, -, -, -, -, -, -, -, b0, b1⟩ := index_maps t
  have hp : p.val < 2048 := p.isLt
  have hq : q.val < 128 := q.isLt
  obtain ⟨r, hr⟩ : ∃
      r : Fin 4096,
      r.val = win6_4.index t (0 : Fin 2) * 2048 + p.val :=
    ⟨⟨win6_4.index t (0 : Fin 2) * 2048 + p.val, by omega⟩, rfl⟩
  obtain ⟨s, hs⟩ : ∃
      s : Fin 128,
      s.val = win6_4.index t (1 : Fin 2) * 128 + q.val :=
    ⟨⟨win6_4.index t (1 : Fin 2) * 128 + q.val, by omega⟩, rfl⟩
  show k6_pay1 (iblk6 V c 0 t) (iblk6 V c 1 t) (iblk6 V c 2 t) (iblk6 V c 3 t) (ix2 p q) = _
  refine (pay_apply _ _ _ _ p q).trans ?_
  refine Eq.trans ?_ (array_block_apply _ t p q r s hr hs).symm
  rw [Cert.MatmulSpec.mm_apply]
  congr 1
  · congr 1
    · refine Finset.sum_congr rfl fun k _ => ?_
      exact congrArg₂ (· * ·) (left_block_apply V c t p k r hr) (right_block_apply V c t k q s hs)
    · exact scale_block_apply V c t p r hr
  · exact shift_block_apply V c t q s hs

/-- An index of the array is in point `t`'s block iff each coordinate is in the block's range on its axis. -/
theorem mem_block (t : Fin cfg6.N) (i : S4096x128.Idx) :
    i ∈ ((cfg6.win 4).blk t).view.set ↔ ∀ a : Fin 2, win6_4.index t a * S2048x128.size a ≤ (i a).val
      ∧ (i a).val < win6_4.index t a * S2048x128.size a + S2048x128.size a := by
  show i ∈ ((View.whole main_v74).slice (win6_4.rect t)).set ↔ _
  rw [View.set_slice_whole, Rect.mem_set_unit]
  exact Iff.rfl

/-- THE BLOCKS TILE THE ARRAY: row `r` lies in block row `r / 2048`,
    column `s` in block column `s / 128`,
    and that block is some point's, which writes it back. -/
theorem blocks_cover (i : S4096x128.Idx) :
    ∃ t : Fin cfg6.N, (cfg6.win 4).flush t = true ∧ i ∈ ((cfg6.win 4).blk t).view.set := by
  have hi0 : (i 0).val < 4096 := (i 0).isLt
  have hi1 : (i 1).val < 128 := (i 1).isLt
  obtain ⟨t, ht⟩ := index_onto
    ⟨(i 0).val / 2048, by omega⟩
    ⟨(i 1).val / 128, by omega⟩
  have q0 : win6_4.index t (0 : Fin 2) = (i 0).val / 2048 := congrFun ht 0
  have q1 : win6_4.index t (1 : Fin 2) = (i 1).val / 128 := congrFun ht 1
  refine ⟨t, flush6_4 t, ?_⟩
  rw [mem_block]
  intro a
  match a with
  | ⟨0, _⟩ =>
    show win6_4.index t (0 : Fin 2) * 2048 ≤ (i 0).val
      ∧ (i 0).val < win6_4.index t (0 : Fin 2) * 2048 + 2048
    omega
  | ⟨1, _⟩ =>
    show win6_4.index t (1 : Fin 2) * 128 ≤ (i 1).val
      ∧ (i 1).val < win6_4.index t (1 : Fin 2) * 128 + 128
    omega

/-- THE REGION'S VALUE: the output array ends holding the scaled, shifted product of the four arrays the region finds
    (its blocks tile the array). -/
theorem value (c : Dev nD) :
    (dat6 (F := Ideal) V c).arrAt 4 cfg6.N
      = Cert.MatmulSpec.mm (V c main_v20) (V c main_v71) (V c main_v72) (V c main_v73) := by
  exact (dat6 (F := Ideal) V c).arrAt_eq_of_cover 4 _ (fun t _ => flushed_eq V c t) blocks_cover

end Cert.KernelIdeal.Region6

end
-- ==== Proof.Region7.lean ====
/-
  REGION 7: the head's first dense layer, rectified. The pallas_call tiles the output `[4096, 128]` into blocks of `2048 × 128` over a grid `(2, 1)`;
  at grid point `(I, J)` the body reads rows `I` of the left matrix (all `128` columns), columns `J` of the right matrix, rows `I` of the
  row-scale column and columns `J` of the shift row, and stores `(left_I · right_J) ∘ scale_I + shift_J`, clipped at zero from below. The blocks
  tile the output, so the array ends holding ONE function of the four arrays the region finds.
-/
import proofs.«401099_j71683004170518_2_alg».proof.Proof.Gen.KernelIdeal.Frame
import proofs.«401099_j71683004170518_2_alg».proof.Proof.LibMatmul
import proofs.«401099_j71683004170518_2_alg».proof.Proof.MatmulSpec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region7

open Idealize.ShloMosaic Idealize.ShloMosaic.ValueIdx Idealize.ShloMosaic.TcCoe Idealize.SL.Sem
open Cert.KernelIdeal Cert.KernelIdeal.Gen

/-- The body's stored value at `(p, q)` of the block, from the blocks it loaded. -/
theorem pay_apply (x0 : Vec Ideal S2048x128 .f32) (x1 : Vec Ideal S128x128 .f32) (x2 : Vec Ideal S2048x1 .f32)
    (x3 : Vec Ideal S1x128 .f32) (p : Fin 2048) (q : Fin 128) :
    k7_pay1 x0 x1 x2 x3 (ix2 p q)
      = max ((∑ k : Fin 128, x0 (ix2 p k) * x1 (ix2 k q)) * x2 (ix2 p 0) + x3 (ix2 0 q)) 0 := by
  unfold k7_pay1
  rw [maximumf_apply, broadcast_apply, addf_apply, mulf_apply]
  simp only [shapeCast_self]
  rw [LibMatmul.matmul_zero_apply dot_S2048x128_S128x128_S2048x128_1_0_0_1_n_n rfl rfl rfl rfl rfl rfl none _ _ p q]
  simp only [truncf_apply]
  refine congrArg₂ max ?_ Ideal.ofBits_zero_f32
  congr 1
  · congr 1
    refine broadcastTo_apply x2 broadcasts_S2048x1_S2048x128 (ix2 p q) (ix2 p 0) (fun a => ?_)
    match a with
    | ⟨0, _⟩ => rfl
    | ⟨1, _⟩ => rfl
  · refine broadcastTo_apply x3 broadcasts_S1x128_S2048x128 (ix2 p q) (ix2 0 q) (fun a => ?_)
    match a with
    | ⟨0, _⟩ => rfl
    | ⟨1, _⟩ => rfl

variable (V : (c : Dev nD) → (b : Ref sig .tc) → Buf (Elt Ideal) ((c : Thread nD τ).loc b))

/-! ## From blocks to the array -/

/-- The zero offsets of an access to a whole buffer, as a constant function. -/
theorem zero_offsets : (![0, 0] : Fin 2 → Nat) = fun _ => 0 :=
  funext fun a => match a with
    | ⟨0, _⟩ => rfl
    | ⟨1, _⟩ => rfl

/-- The index maps, decided over the grid: the left matrix and the row scales move with the output's block row and stay at
    block column 0; the right matrix and the column shifts move with the output's block column and stay at block row 0;
    the output's block indices stay in their ranges. -/
theorem index_maps : ∀ t : Fin cfg7.N,
    win7_0.index t (0 : Fin 2) = win7_4.index t (0 : Fin 2)
    ∧ win7_0.index t (1 : Fin 2) = 0
    ∧ win7_1.index t (0 : Fin 2) = 0
    ∧ win7_1.index t (1 : Fin 2) = win7_4.index t (1 : Fin 2)
    ∧ win7_2.index t (0 : Fin 2) = win7_4.index t (0 : Fin 2)
    ∧ win7_2.index t (1 : Fin 2) = 0
    ∧ win7_3.index t (0 : Fin 2) = 0
    ∧ win7_3.index t (1 : Fin 2) = win7_4.index t (1 : Fin 2)
    ∧ win7_4.index t (0 : Fin 2) ≤ 1
    ∧ win7_4.index t (1 : Fin 2) ≤ 0 :=
  (by decide +kernel : ∀ t : Fin grid7.N, _)

/-- Every block of the output is SOME point's. -/
theorem index_onto : ∀
    (q0 : Fin 2)
    (q1 : Fin 1),
    ∃ t : Fin cfg7.N, win7_4.index t = ![q0.val, q1.val] :=
  (by decide +kernel : ∀
    (q0 : Fin 2)
    (q1 : Fin 1),
    ∃ t : Fin grid7.N, win7_4.index t = ![q0.val, q1.val])

/-- The left matrix's block at point `t`: rows of the output's block row, every column. -/
theorem left_block_apply (c : Dev nD) (t : Fin cfg7.N)
    (p : Fin 2048)
    (k : Fin 128)
    (r : Fin 4096)
    (hr : r.val = win7_4.index t (0 : Fin 2) * 2048 + p.val) :
    (iblk7 V c 0 t : Vec Ideal S2048x128 .bf16) (ix2 p k)
      = (V c main_v84 : S4096x128.Idx → EReal) (ix2 r k) := by
  obtain ⟨e0, e1, -⟩ := index_maps t
  unfold iblk7
  show V c main_v84 (((cfg7.win 0).blk t).view.emb (ix2 p k)) = V c main_v84 (ix2 r k)
  congr 1
  funext a
  apply Fin.ext
  match a with
  | ⟨0, _⟩ =>
    show win7_0.index t (0 : Fin 2) * 2048 + 1 * p.val = r.val
    omega
  | ⟨1, _⟩ =>
    show win7_0.index t (1 : Fin 2) * 128 + 1 * k.val = k.val
    omega

/-- The right matrix's block at point `t`: every row, columns of the output's block column. -/
theorem right_block_apply (c : Dev nD) (t : Fin cfg7.N)
    (k : Fin 128)
    (q : Fin 128)
    (s : Fin 128)
    (hs : s.val = win7_4.index t (1 : Fin 2) * 128 + q.val) :
    (iblk7 V c 1 t : Vec Ideal S128x128 .bf16) (ix2 k q)
      = (V c main_arg9 : S128x128.Idx → EReal) (ix2 k s) := by
  obtain ⟨-, -, e2, e3, -⟩ := index_maps t
  unfold iblk7
  show V c main_arg9 (((cfg7.win 1).blk t).view.emb (ix2 k q)) = V c main_arg9 (ix2 k s)
  congr 1
  funext a
  apply Fin.ext
  match a with
  | ⟨0, _⟩ =>
    show win7_1.index t (0 : Fin 2) * 128 + 1 * k.val = k.val
    omega
  | ⟨1, _⟩ =>
    show win7_1.index t (1 : Fin 2) * 128 + 1 * q.val = s.val
    omega

/-- The row scales' block at point `t`: rows of the output's block row, the one column. -/
theorem scale_block_apply (c : Dev nD) (t : Fin cfg7.N)
    (p : Fin 2048)
    (r : Fin 4096)
    (hr : r.val = win7_4.index t (0 : Fin 2) * 2048 + p.val) :
    (iblk7 V c 2 t : Vec Ideal S2048x1 .f32) (ix2 p 0)
      = (V c main_v85 : S4096x1.Idx → EReal) (ix2 r 0) := by
  obtain ⟨-, -, -, -, e4, e5, -⟩ := index_maps t
  unfold iblk7
  show V c main_v85 (((cfg7.win 2).blk t).view.emb (ix2 p 0)) = V c main_v85 (ix2 r 0)
  congr 1
  funext a
  apply Fin.ext
  match a with
  | ⟨0, _⟩ =>
    show win7_2.index t (0 : Fin 2) * 2048 + 1 * p.val = r.val
    omega
  | ⟨1, _⟩ =>
    show win7_2.index t (1 : Fin 2) * 1 + 1 * 0 = 0
    omega

/-- The column shifts' block at point `t`: the one row, columns of the output's block column. -/
theorem shift_block_apply (c : Dev nD) (t : Fin cfg7.N)
    (q : Fin 128)
    (s : Fin 128)
    (hs : s.val = win7_4.index t (1 : Fin 2) * 128 + q.val) :
    (iblk7 V c 3 t : Vec Ideal S1x128 .f32) (ix2 0 q)
      = (V c main_v86 : S1x128.Idx → EReal) (ix2 0 s) := by
  obtain ⟨-, -, -, -, -, -, e6, e7, -⟩ := index_maps t
  unfold iblk7
  show V c main_v86 (((cfg7.win 3).blk t).view.emb (ix2 0 q)) = V c main_v86 (ix2 0 s)
  congr 1
  funext a
  apply Fin.ext
  match a with
  | ⟨0, _⟩ =>
    show win7_3.index t (0 : Fin 2) * 1 + 1 * 0 = 0
    omega
  | ⟨1, _⟩ =>
    show win7_3.index t (1 : Fin 2) * 128 + 1 * q.val = s.val
    omega

/-- A function of the whole output array, read through point `t`'s block: element `(p, q)` of the block is the array's
    element at the block's row offset plus `p`, column offset plus `q`. -/
theorem array_block_apply (G : S4096x128.Idx → EReal) (t : Fin cfg7.N)
    (p : Fin 2048)
    (q : Fin 128)
    (r : Fin 4096)
    (s : Fin 128)
    (hr : r.val = win7_4.index t (0 : Fin 2) * 2048 + p.val)
    (hs : s.val = win7_4.index t (1 : Fin 2) * 128 + q.val) :
    ((cfg7.win 4).blk t).view.read (Elt Ideal) G (ix2 p q) = G (ix2 r s) := by
  show G (((cfg7.win 4).blk t).view.emb (ix2 p q)) = G (ix2 r s)
  congr 1
  funext a
  apply Fin.ext
  match a with
  | ⟨0, _⟩ =>
    show win7_4.index t (0 : Fin 2) * 2048 + 1 * p.val = r.val
    omega
  | ⟨1, _⟩ =>
    show win7_4.index t (1 : Fin 2) * 128 + 1 * q.val = s.val
    omega

/-- WHAT POINT `t` WRITES BACK is block `t` of the scaled, shifted product of the four arrays the region finds. -/
theorem flushed_eq (c : Dev nD) (t : Fin cfg7.N) :
    (dat7 (F := Ideal) V c).flushed 4 t
      = ((cfg7.win 4).blk t).view.read (Elt Ideal)
          (Cert.MatmulSpec.mmRelu (V c main_v84) (V c main_arg9) (V c main_v85) (V c main_v86)) := by
  show (cfg7.win 4).cut (grid7.coords t) ((dat7 V c).after 4 t) = _
  rw [after7_4]
  unfold out7_4
  rw [View.canon_unit_zero zero_offsets]
  simp only [View.ld_unit_zero (S := S2048x128) zero_offsets,
    View.ld_unit_zero (S := S128x128) zero_offsets,
    View.ld_unit_zero (S := S2048x1) zero_offsets,
    View.ld_unit_zero (S := S1x128) zero_offsets]
  funext j
  obtain ⟨p, q, rfl⟩ : ∃
      (p : Fin 2048)
      (q : Fin 128),
      j = ix2 p q := ⟨j 0, j 1, eq_ix2 j⟩
  obtain ⟨-, -, -, -, -, -, -, -, b0, b1⟩ := index_maps t
  have hp : p.val < 2048 := p.isLt
  have hq : q.val < 128 := q.isLt
  obtain ⟨r, hr⟩ : ∃
      r : Fin 4096,
      r.val = win7_4.index t (0 : Fin 2) * 2048 + p.val :=
    ⟨⟨win7_4.index t (0 : Fin 2) * 2048 + p.val, by omega⟩, rfl⟩
  obtain ⟨s, hs⟩ : ∃
      s : Fin 128,
      s.val = win7_4.index t (1 : Fin 2) * 128 + q.val :=
    ⟨⟨win7_4.index t (1 : Fin 2) * 128 + q.val, by omega⟩, rfl⟩
  show k7_pay1 (iblk7 V c 0 t) (iblk7 V c 1 t) (iblk7 V c 2 t) (iblk7 V c 3 t) (ix2 p q) = _
  refine (pay_apply _ _ _ _ p q).trans ?_
  refine Eq.trans ?_ (array_block_apply _ t p q r s hr hs).symm
  rw [Cert.MatmulSpec.mmRelu_apply]
  refine congrArg (fun v => max v (0 : EReal)) ?_
  congr 1
  · congr 1
    · refine Finset.sum_congr rfl fun k _ => ?_
      exact congrArg₂ (· * ·) (left_block_apply V c t p k r hr) (right_block_apply V c t k q s hs)
    · exact scale_block_apply V c t p r hr
  · exact shift_block_apply V c t q s hs

/-- An index of the array is in point `t`'s block iff each coordinate is in the block's range on its axis. -/
theorem mem_block (t : Fin cfg7.N) (i : S4096x128.Idx) :
    i ∈ ((cfg7.win 4).blk t).view.set ↔ ∀ a : Fin 2, win7_4.index t a * S2048x128.size a ≤ (i a).val
      ∧ (i a).val < win7_4.index t a * S2048x128.size a + S2048x128.size a := by
  show i ∈ ((View.whole main_v87).slice (win7_4.rect t)).set ↔ _
  rw [View.set_slice_whole, Rect.mem_set_unit]
  exact Iff.rfl

/-- THE BLOCKS TILE THE ARRAY: row `r` lies in block row `r / 2048`,
    column `s` in block column `s / 128`,
    and that block is some point's, which writes it back. -/
theorem blocks_cover (i : S4096x128.Idx) :
    ∃ t : Fin cfg7.N, (cfg7.win 4).flush t = true ∧ i ∈ ((cfg7.win 4).blk t).view.set := by
  have hi0 : (i 0).val < 4096 := (i 0).isLt
  have hi1 : (i 1).val < 128 := (i 1).isLt
  obtain ⟨t, ht⟩ := index_onto
    ⟨(i 0).val / 2048, by omega⟩
    ⟨(i 1).val / 128, by omega⟩
  have q0 : win7_4.index t (0 : Fin 2) = (i 0).val / 2048 := congrFun ht 0
  have q1 : win7_4.index t (1 : Fin 2) = (i 1).val / 128 := congrFun ht 1
  refine ⟨t, flush7_4 t, ?_⟩
  rw [mem_block]
  intro a
  match a with
  | ⟨0, _⟩ =>
    show win7_4.index t (0 : Fin 2) * 2048 ≤ (i 0).val
      ∧ (i 0).val < win7_4.index t (0 : Fin 2) * 2048 + 2048
    omega
  | ⟨1, _⟩ =>
    show win7_4.index t (1 : Fin 2) * 128 ≤ (i 1).val
      ∧ (i 1).val < win7_4.index t (1 : Fin 2) * 128 + 128
    omega

/-- THE REGION'S VALUE: the output array ends holding the scaled, shifted product of the four arrays the region finds
    (its blocks tile the array). -/
theorem value (c : Dev nD) :
    (dat7 (F := Ideal) V c).arrAt 4 cfg7.N
      = Cert.MatmulSpec.mmRelu (V c main_v84) (V c main_arg9) (V c main_v85) (V c main_v86) := by
  exact (dat7 (F := Ideal) V c).arrAt_eq_of_cover 4 _ (fun t _ => flushed_eq V c t) blocks_cover

end Cert.KernelIdeal.Region7

end
-- ==== Proof.Region8.lean ====
/-
  REGION 8: the head's second dense layer, rectified. The pallas_call tiles the output `[4096, 128]` into blocks of `2048 × 128` over a grid `(2, 1)`;
  at grid point `(I, J)` the body reads rows `I` of the left matrix (all `128` columns), columns `J` of the right matrix, rows `I` of the
  row-scale column and columns `J` of the shift row, and stores `(left_I · right_J) ∘ scale_I + shift_J`, clipped at zero from below. The blocks
  tile the output, so the array ends holding ONE function of the four arrays the region finds.
-/
import proofs.«401099_j71683004170518_2_alg».proof.Proof.Gen.KernelIdeal.Frame
import proofs.«401099_j71683004170518_2_alg».proof.Proof.LibMatmul
import proofs.«401099_j71683004170518_2_alg».proof.Proof.MatmulSpec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region8

open Idealize.ShloMosaic Idealize.ShloMosaic.ValueIdx Idealize.ShloMosaic.TcCoe Idealize.SL.Sem
open Cert.KernelIdeal Cert.KernelIdeal.Gen

/-- The body's stored value at `(p, q)` of the block, from the blocks it loaded. -/
theorem pay_apply (x0 : Vec Ideal S2048x128 .f32) (x1 : Vec Ideal S128x128 .f32) (x2 : Vec Ideal S2048x1 .f32)
    (x3 : Vec Ideal S1x128 .f32) (p : Fin 2048) (q : Fin 128) :
    k8_pay1 x0 x1 x2 x3 (ix2 p q)
      = max ((∑ k : Fin 128, x0 (ix2 p k) * x1 (ix2 k q)) * x2 (ix2 p 0) + x3 (ix2 0 q)) 0 := by
  unfold k8_pay1
  rw [maximumf_apply, broadcast_apply, addf_apply, mulf_apply]
  simp only [shapeCast_self]
  rw [LibMatmul.matmul_zero_apply dot_S2048x128_S128x128_S2048x128_1_0_0_1_n_n rfl rfl rfl rfl rfl rfl none _ _ p q]
  simp only [truncf_apply]
  refine congrArg₂ max ?_ Ideal.ofBits_zero_f32
  congr 1
  · congr 1
    refine broadcastTo_apply x2 broadcasts_S2048x1_S2048x128 (ix2 p q) (ix2 p 0) (fun a => ?_)
    match a with
    | ⟨0, _⟩ => rfl
    | ⟨1, _⟩ => rfl
  · refine broadcastTo_apply x3 broadcasts_S1x128_S2048x128 (ix2 p q) (ix2 0 q) (fun a => ?_)
    match a with
    | ⟨0, _⟩ => rfl
    | ⟨1, _⟩ => rfl

variable (V : (c : Dev nD) → (b : Ref sig .tc) → Buf (Elt Ideal) ((c : Thread nD τ).loc b))

/-! ## From blocks to the array -/

/-- The zero offsets of an access to a whole buffer, as a constant function. -/
theorem zero_offsets : (![0, 0] : Fin 2 → Nat) = fun _ => 0 :=
  funext fun a => match a with
    | ⟨0, _⟩ => rfl
    | ⟨1, _⟩ => rfl

/-- The index maps, decided over the grid: the left matrix and the row scales move with the output's block row and stay at
    block column 0; the right matrix and the column shifts move with the output's block column and stay at block row 0;
    the output's block indices stay in their ranges. -/
theorem index_maps : ∀ t : Fin cfg8.N,
    win8_0.index t (0 : Fin 2) = win8_4.index t (0 : Fin 2)
    ∧ win8_0.index t (1 : Fin 2) = 0
    ∧ win8_1.index t (0 : Fin 2) = 0
    ∧ win8_1.index t (1 : Fin 2) = win8_4.index t (1 : Fin 2)
    ∧ win8_2.index t (0 : Fin 2) = win8_4.index t (0 : Fin 2)
    ∧ win8_2.index t (1 : Fin 2) = 0
    ∧ win8_3.index t (0 : Fin 2) = 0
    ∧ win8_3.index t (1 : Fin 2) = win8_4.index t (1 : Fin 2)
    ∧ win8_4.index t (0 : Fin 2) ≤ 1
    ∧ win8_4.index t (1 : Fin 2) ≤ 0 :=
  (by decide +kernel : ∀ t : Fin grid8.N, _)

/-- Every block of the output is SOME point's. -/
theorem index_onto : ∀
    (q0 : Fin 2)
    (q1 : Fin 1),
    ∃ t : Fin cfg8.N, win8_4.index t = ![q0.val, q1.val] :=
  (by decide +kernel : ∀
    (q0 : Fin 2)
    (q1 : Fin 1),
    ∃ t : Fin grid8.N, win8_4.index t = ![q0.val, q1.val])

/-- The left matrix's block at point `t`: rows of the output's block row, every column. -/
theorem left_block_apply (c : Dev nD) (t : Fin cfg8.N)
    (p : Fin 2048)
    (k : Fin 128)
    (r : Fin 4096)
    (hr : r.val = win8_4.index t (0 : Fin 2) * 2048 + p.val) :
    (iblk8 V c 0 t : Vec Ideal S2048x128 .bf16) (ix2 p k)
      = (V c main_v87 : S4096x128.Idx → EReal) (ix2 r k) := by
  obtain ⟨e0, e1, -⟩ := index_maps t
  unfold iblk8
  show V c main_v87 (((cfg8.win 0).blk t).view.emb (ix2 p k)) = V c main_v87 (ix2 r k)
  congr 1
  funext a
  apply Fin.ext
  match a with
  | ⟨0, _⟩ =>
    show win8_0.index t (0 : Fin 2) * 2048 + 1 * p.val = r.val
    omega
  | ⟨1, _⟩ =>
    show win8_0.index t (1 : Fin 2) * 128 + 1 * k.val = k.val
    omega

/-- The right matrix's block at point `t`: every row, columns of the output's block column. -/
theorem right_block_apply (c : Dev nD) (t : Fin cfg8.N)
    (k : Fin 128)
    (q : Fin 128)
    (s : Fin 128)
    (hs : s.val = win8_4.index t (1 : Fin 2) * 128 + q.val) :
    (iblk8 V c 1 t : Vec Ideal S128x128 .bf16) (ix2 k q)
      = (V c main_arg11 : S128x128.Idx → EReal) (ix2 k s) := by
  obtain ⟨-, -, e2, e3, -⟩ := index_maps t
  unfold iblk8
  show V c main_arg11 (((cfg8.win 1).blk t).view.emb (ix2 k q)) = V c main_arg11 (ix2 k s)
  congr 1
  funext a
  apply Fin.ext
  match a with
  | ⟨0, _⟩ =>
    show win8_1.index t (0 : Fin 2) * 128 + 1 * k.val = k.val
    omega
  | ⟨1, _⟩ =>
    show win8_1.index t (1 : Fin 2) * 128 + 1 * q.val = s.val
    omega

/-- The row scales' block at point `t`: rows of the output's block row, the one column. -/
theorem scale_block_apply (c : Dev nD) (t : Fin cfg8.N)
    (p : Fin 2048)
    (r : Fin 4096)
    (hr : r.val = win8_4.index t (0 : Fin 2) * 2048 + p.val) :
    (iblk8 V c 2 t : Vec Ideal S2048x1 .f32) (ix2 p 0)
      = (V c main_v88 : S4096x1.Idx → EReal) (ix2 r 0) := by
  obtain ⟨-, -, -, -, e4, e5, -⟩ := index_maps t
  unfold iblk8
  show V c main_v88 (((cfg8.win 2).blk t).view.emb (ix2 p 0)) = V c main_v88 (ix2 r 0)
  congr 1
  funext a
  apply Fin.ext
  match a with
  | ⟨0, _⟩ =>
    show win8_2.index t (0 : Fin 2) * 2048 + 1 * p.val = r.val
    omega
  | ⟨1, _⟩ =>
    show win8_2.index t (1 : Fin 2) * 1 + 1 * 0 = 0
    omega

/-- The column shifts' block at point `t`: the one row, columns of the output's block column. -/
theorem shift_block_apply (c : Dev nD) (t : Fin cfg8.N)
    (q : Fin 128)
    (s : Fin 128)
    (hs : s.val = win8_4.index t (1 : Fin 2) * 128 + q.val) :
    (iblk8 V c 3 t : Vec Ideal S1x128 .f32) (ix2 0 q)
      = (V c main_v89 : S1x128.Idx → EReal) (ix2 0 s) := by
  obtain ⟨-, -, -, -, -, -, e6, e7, -⟩ := index_maps t
  unfold iblk8
  show V c main_v89 (((cfg8.win 3).blk t).view.emb (ix2 0 q)) = V c main_v89 (ix2 0 s)
  congr 1
  funext a
  apply Fin.ext
  match a with
  | ⟨0, _⟩ =>
    show win8_3.index t (0 : Fin 2) * 1 + 1 * 0 = 0
    omega
  | ⟨1, _⟩ =>
    show win8_3.index t (1 : Fin 2) * 128 + 1 * q.val = s.val
    omega

/-- A function of the whole output array, read through point `t`'s block: element `(p, q)` of the block is the array's
    element at the block's row offset plus `p`, column offset plus `q`. -/
theorem array_block_apply (G : S4096x128.Idx → EReal) (t : Fin cfg8.N)
    (p : Fin 2048)
    (q : Fin 128)
    (r : Fin 4096)
    (s : Fin 128)
    (hr : r.val = win8_4.index t (0 : Fin 2) * 2048 + p.val)
    (hs : s.val = win8_4.index t (1 : Fin 2) * 128 + q.val) :
    ((cfg8.win 4).blk t).view.read (Elt Ideal) G (ix2 p q) = G (ix2 r s) := by
  show G (((cfg8.win 4).blk t).view.emb (ix2 p q)) = G (ix2 r s)
  congr 1
  funext a
  apply Fin.ext
  match a with
  | ⟨0, _⟩ =>
    show win8_4.index t (0 : Fin 2) * 2048 + 1 * p.val = r.val
    omega
  | ⟨1, _⟩ =>
    show win8_4.index t (1 : Fin 2) * 128 + 1 * q.val = s.val
    omega

/-- WHAT POINT `t` WRITES BACK is block `t` of the scaled, shifted product of the four arrays the region finds. -/
theorem flushed_eq (c : Dev nD) (t : Fin cfg8.N) :
    (dat8 (F := Ideal) V c).flushed 4 t
      = ((cfg8.win 4).blk t).view.read (Elt Ideal)
          (Cert.MatmulSpec.mmRelu (V c main_v87) (V c main_arg11) (V c main_v88) (V c main_v89)) := by
  show (cfg8.win 4).cut (grid8.coords t) ((dat8 V c).after 4 t) = _
  rw [after8_4]
  unfold out8_4
  rw [View.canon_unit_zero zero_offsets]
  simp only [View.ld_unit_zero (S := S2048x128) zero_offsets,
    View.ld_unit_zero (S := S128x128) zero_offsets,
    View.ld_unit_zero (S := S2048x1) zero_offsets,
    View.ld_unit_zero (S := S1x128) zero_offsets]
  funext j
  obtain ⟨p, q, rfl⟩ : ∃
      (p : Fin 2048)
      (q : Fin 128),
      j = ix2 p q := ⟨j 0, j 1, eq_ix2 j⟩
  obtain ⟨-, -, -, -, -, -, -, -, b0, b1⟩ := index_maps t
  have hp : p.val < 2048 := p.isLt
  have hq : q.val < 128 := q.isLt
  obtain ⟨r, hr⟩ : ∃
      r : Fin 4096,
      r.val = win8_4.index t (0 : Fin 2) * 2048 + p.val :=
    ⟨⟨win8_4.index t (0 : Fin 2) * 2048 + p.val, by omega⟩, rfl⟩
  obtain ⟨s, hs⟩ : ∃
      s : Fin 128,
      s.val = win8_4.index t (1 : Fin 2) * 128 + q.val :=
    ⟨⟨win8_4.index t (1 : Fin 2) * 128 + q.val, by omega⟩, rfl⟩
  show k8_pay1 (iblk8 V c 0 t) (iblk8 V c 1 t) (iblk8 V c 2 t) (iblk8 V c 3 t) (ix2 p q) = _
  refine (pay_apply _ _ _ _ p q).trans ?_
  refine Eq.trans ?_ (array_block_apply _ t p q r s hr hs).symm
  rw [Cert.MatmulSpec.mmRelu_apply]
  refine congrArg (fun v => max v (0 : EReal)) ?_
  congr 1
  · congr 1
    · refine Finset.sum_congr rfl fun k _ => ?_
      exact congrArg₂ (· * ·) (left_block_apply V c t p k r hr) (right_block_apply V c t k q s hs)
    · exact scale_block_apply V c t p r hr
  · exact shift_block_apply V c t q s hs

/-- An index of the array is in point `t`'s block iff each coordinate is in the block's range on its axis. -/
theorem mem_block (t : Fin cfg8.N) (i : S4096x128.Idx) :
    i ∈ ((cfg8.win 4).blk t).view.set ↔ ∀ a : Fin 2, win8_4.index t a * S2048x128.size a ≤ (i a).val
      ∧ (i a).val < win8_4.index t a * S2048x128.size a + S2048x128.size a := by
  show i ∈ ((View.whole main_v90).slice (win8_4.rect t)).set ↔ _
  rw [View.set_slice_whole, Rect.mem_set_unit]
  exact Iff.rfl

/-- THE BLOCKS TILE THE ARRAY: row `r` lies in block row `r / 2048`,
    column `s` in block column `s / 128`,
    and that block is some point's, which writes it back. -/
theorem blocks_cover (i : S4096x128.Idx) :
    ∃ t : Fin cfg8.N, (cfg8.win 4).flush t = true ∧ i ∈ ((cfg8.win 4).blk t).view.set := by
  have hi0 : (i 0).val < 4096 := (i 0).isLt
  have hi1 : (i 1).val < 128 := (i 1).isLt
  obtain ⟨t, ht⟩ := index_onto
    ⟨(i 0).val / 2048, by omega⟩
    ⟨(i 1).val / 128, by omega⟩
  have q0 : win8_4.index t (0 : Fin 2) = (i 0).val / 2048 := congrFun ht 0
  have q1 : win8_4.index t (1 : Fin 2) = (i 1).val / 128 := congrFun ht 1
  refine ⟨t, flush8_4 t, ?_⟩
  rw [mem_block]
  intro a
  match a with
  | ⟨0, _⟩ =>
    show win8_4.index t (0 : Fin 2) * 2048 ≤ (i 0).val
      ∧ (i 0).val < win8_4.index t (0 : Fin 2) * 2048 + 2048
    omega
  | ⟨1, _⟩ =>
    show win8_4.index t (1 : Fin 2) * 128 ≤ (i 1).val
      ∧ (i 1).val < win8_4.index t (1 : Fin 2) * 128 + 128
    omega

/-- THE REGION'S VALUE: the output array ends holding the scaled, shifted product of the four arrays the region finds
    (its blocks tile the array). -/
theorem value (c : Dev nD) :
    (dat8 (F := Ideal) V c).arrAt 4 cfg8.N
      = Cert.MatmulSpec.mmRelu (V c main_v87) (V c main_arg11) (V c main_v88) (V c main_v89) := by
  exact (dat8 (F := Ideal) V c).arrAt_eq_of_cover 4 _ (fun t _ => flushed_eq V c t) blocks_cover

end Cert.KernelIdeal.Region8

end
-- ==== Proof.Region9.lean ====
/-
  REGION 9: the output layer. The pallas_call tiles the output `[4096, 16384]` into blocks of `1024 × 4096` over a grid `(4, 4)`;
  at grid point `(I, J)` the body reads rows `I` of the left matrix (all `128` columns), columns `J` of the right matrix, rows `I` of the
  row-scale column and columns `J` of the shift row, and stores `(left_I · right_J) ∘ scale_I + shift_J`. The blocks
  tile the output, so the array ends holding ONE function of the four arrays the region finds.
-/
import proofs.«401099_j71683004170518_2_alg».proof.Proof.Gen.KernelIdeal.Frame
import proofs.«401099_j71683004170518_2_alg».proof.Proof.LibMatmul
import proofs.«401099_j71683004170518_2_alg».proof.Proof.MatmulSpec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region9

open Idealize.ShloMosaic Idealize.ShloMosaic.ValueIdx Idealize.ShloMosaic.TcCoe Idealize.SL.Sem
open Cert.KernelIdeal Cert.KernelIdeal.Gen

/-- The body's stored value at `(p, q)` of the block, from the blocks it loaded. -/
theorem pay_apply (x0 : Vec Ideal S1024x128 .f32) (x1 : Vec Ideal S128x4096 .f32) (x2 : Vec Ideal S1024x1 .f32)
    (x3 : Vec Ideal S1x4096 .f32) (p : Fin 1024) (q : Fin 4096) :
    k9_pay1 x0 x1 x2 x3 (ix2 p q)
      = (∑ k : Fin 128, x0 (ix2 p k) * x1 (ix2 k q)) * x2 (ix2 p 0) + x3 (ix2 0 q) := by
  unfold k9_pay1
  rw [addf_apply, mulf_apply]
  simp only [shapeCast_self]
  rw [LibMatmul.matmul_zero_apply dot_S1024x128_S128x4096_S1024x4096_1_0_0_1_n_n rfl rfl rfl rfl rfl rfl none _ _ p q]
  simp only [truncf_apply]
  congr 1
  · congr 1
    refine broadcastTo_apply x2 broadcasts_S1024x1_S1024x4096 (ix2 p q) (ix2 p 0) (fun a => ?_)
    match a with
    | ⟨0, _⟩ => rfl
    | ⟨1, _⟩ => rfl
  · refine broadcastTo_apply x3 broadcasts_S1x4096_S1024x4096 (ix2 p q) (ix2 0 q) (fun a => ?_)
    match a with
    | ⟨0, _⟩ => rfl
    | ⟨1, _⟩ => rfl

variable (V : (c : Dev nD) → (b : Ref sig .tc) → Buf (Elt Ideal) ((c : Thread nD τ).loc b))

/-! ## From blocks to the array -/

/-- The zero offsets of an access to a whole buffer, as a constant function. -/
theorem zero_offsets : (![0, 0] : Fin 2 → Nat) = fun _ => 0 :=
  funext fun a => match a with
    | ⟨0, _⟩ => rfl
    | ⟨1, _⟩ => rfl

/-- The index maps, decided over the grid: the left matrix and the row scales move with the output's block row and stay at
    block column 0; the right matrix and the column shifts move with the output's block column and stay at block row 0;
    the output's block indices stay in their ranges. -/
theorem index_maps : ∀ t : Fin cfg9.N,
    win9_0.index t (0 : Fin 2) = win9_4.index t (0 : Fin 2)
    ∧ win9_0.index t (1 : Fin 2) = 0
    ∧ win9_1.index t (0 : Fin 2) = 0
    ∧ win9_1.index t (1 : Fin 2) = win9_4.index t (1 : Fin 2)
    ∧ win9_2.index t (0 : Fin 2) = win9_4.index t (0 : Fin 2)
    ∧ win9_2.index t (1 : Fin 2) = 0
    ∧ win9_3.index t (0 : Fin 2) = 0
    ∧ win9_3.index t (1 : Fin 2) = win9_4.index t (1 : Fin 2)
    ∧ win9_4.index t (0 : Fin 2) ≤ 3
    ∧ win9_4.index t (1 : Fin 2) ≤ 3 :=
  (by decide +kernel : ∀ t : Fin grid9.N, _)

/-- Every block of the output is SOME point's. -/
theorem index_onto : ∀
    (q0 : Fin 4)
    (q1 : Fin 4),
    ∃ t : Fin cfg9.N, win9_4.index t = ![q0.val, q1.val] :=
  (by decide +kernel : ∀
    (q0 : Fin 4)
    (q1 : Fin 4),
    ∃ t : Fin grid9.N, win9_4.index t = ![q0.val, q1.val])

/-- The left matrix's block at point `t`: rows of the output's block row, every column. -/
theorem left_block_apply (c : Dev nD) (t : Fin cfg9.N)
    (p : Fin 1024)
    (k : Fin 128)
    (r : Fin 4096)
    (hr : r.val = win9_4.index t (0 : Fin 2) * 1024 + p.val) :
    (iblk9 V c 0 t : Vec Ideal S1024x128 .bf16) (ix2 p k)
      = (V c main_v90 : S4096x128.Idx → EReal) (ix2 r k) := by
  obtain ⟨e0, e1, -⟩ := index_maps t
  unfold iblk9
  show V c main_v90 (((cfg9.win 0).blk t).view.emb (ix2 p k)) = V c main_v90 (ix2 r k)
  congr 1
  funext a
  apply Fin.ext
  match a with
  | ⟨0, _⟩ =>
    show win9_0.index t (0 : Fin 2) * 1024 + 1 * p.val = r.val
    omega
  | ⟨1, _⟩ =>
    show win9_0.index t (1 : Fin 2) * 128 + 1 * k.val = k.val
    omega

/-- The right matrix's block at point `t`: every row, columns of the output's block column. -/
theorem right_block_apply (c : Dev nD) (t : Fin cfg9.N)
    (k : Fin 128)
    (q : Fin 4096)
    (s : Fin 16384)
    (hs : s.val = win9_4.index t (1 : Fin 2) * 4096 + q.val) :
    (iblk9 V c 1 t : Vec Ideal S128x4096 .bf16) (ix2 k q)
      = (V c main_arg13 : S128x16384.Idx → EReal) (ix2 k s) := by
  obtain ⟨-, -, e2, e3, -⟩ := index_maps t
  unfold iblk9
  show V c main_arg13 (((cfg9.win 1).blk t).view.emb (ix2 k q)) = V c main_arg13 (ix2 k s)
  congr 1
  funext a
  apply Fin.ext
  match a with
  | ⟨0, _⟩ =>
    show win9_1.index t (0 : Fin 2) * 128 + 1 * k.val = k.val
    omega
  | ⟨1, _⟩ =>
    show win9_1.index t (1 : Fin 2) * 4096 + 1 * q.val = s.val
    omega

/-- The row scales' block at point `t`: rows of the output's block row, the one column. -/
theorem scale_block_apply (c : Dev nD) (t : Fin cfg9.N)
    (p : Fin 1024)
    (r : Fin 4096)
    (hr : r.val = win9_4.index t (0 : Fin 2) * 1024 + p.val) :
    (iblk9 V c 2 t : Vec Ideal S1024x1 .f32) (ix2 p 0)
      = (V c main_v91 : S4096x1.Idx → EReal) (ix2 r 0) := by
  obtain ⟨-, -, -, -, e4, e5, -⟩ := index_maps t
  unfold iblk9
  show V c main_v91 (((cfg9.win 2).blk t).view.emb (ix2 p 0)) = V c main_v91 (ix2 r 0)
  congr 1
  funext a
  apply Fin.ext
  match a with
  | ⟨0, _⟩ =>
    show win9_2.index t (0 : Fin 2) * 1024 + 1 * p.val = r.val
    omega
  | ⟨1, _⟩ =>
    show win9_2.index t (1 : Fin 2) * 1 + 1 * 0 = 0
    omega

/-- The column shifts' block at point `t`: the one row, columns of the output's block column. -/
theorem shift_block_apply (c : Dev nD) (t : Fin cfg9.N)
    (q : Fin 4096)
    (s : Fin 16384)
    (hs : s.val = win9_4.index t (1 : Fin 2) * 4096 + q.val) :
    (iblk9 V c 3 t : Vec Ideal S1x4096 .f32) (ix2 0 q)
      = (V c main_v92 : S1x16384.Idx → EReal) (ix2 0 s) := by
  obtain ⟨-, -, -, -, -, -, e6, e7, -⟩ := index_maps t
  unfold iblk9
  show V c main_v92 (((cfg9.win 3).blk t).view.emb (ix2 0 q)) = V c main_v92 (ix2 0 s)
  congr 1
  funext a
  apply Fin.ext
  match a with
  | ⟨0, _⟩ =>
    show win9_3.index t (0 : Fin 2) * 1 + 1 * 0 = 0
    omega
  | ⟨1, _⟩ =>
    show win9_3.index t (1 : Fin 2) * 4096 + 1 * q.val = s.val
    omega

/-- A function of the whole output array, read through point `t`'s block: element `(p, q)` of the block is the array's
    element at the block's row offset plus `p`, column offset plus `q`. -/
theorem array_block_apply (G : S4096x16384.Idx → EReal) (t : Fin cfg9.N)
    (p : Fin 1024)
    (q : Fin 4096)
    (r : Fin 4096)
    (s : Fin 16384)
    (hr : r.val = win9_4.index t (0 : Fin 2) * 1024 + p.val)
    (hs : s.val = win9_4.index t (1 : Fin 2) * 4096 + q.val) :
    ((cfg9.win 4).blk t).view.read (Elt Ideal) G (ix2 p q) = G (ix2 r s) := by
  show G (((cfg9.win 4).blk t).view.emb (ix2 p q)) = G (ix2 r s)
  congr 1
  funext a
  apply Fin.ext
  match a with
  | ⟨0, _⟩ =>
    show win9_4.index t (0 : Fin 2) * 1024 + 1 * p.val = r.val
    omega
  | ⟨1, _⟩ =>
    show win9_4.index t (1 : Fin 2) * 4096 + 1 * q.val = s.val
    omega

/-- WHAT POINT `t` WRITES BACK is block `t` of the scaled, shifted product of the four arrays the region finds. -/
theorem flushed_eq (c : Dev nD) (t : Fin cfg9.N) :
    (dat9 (F := Ideal) V c).flushed 4 t
      = ((cfg9.win 4).blk t).view.read (Elt Ideal)
          (Cert.MatmulSpec.mm (V c main_v90) (V c main_arg13) (V c main_v91) (V c main_v92)) := by
  show (cfg9.win 4).cut (grid9.coords t) ((dat9 V c).after 4 t) = _
  rw [after9_4]
  unfold out9_4
  rw [View.canon_unit_zero zero_offsets]
  simp only [View.ld_unit_zero (S := S1024x128) zero_offsets,
    View.ld_unit_zero (S := S128x4096) zero_offsets,
    View.ld_unit_zero (S := S1024x1) zero_offsets,
    View.ld_unit_zero (S := S1x4096) zero_offsets]
  funext j
  obtain ⟨p, q, rfl⟩ : ∃
      (p : Fin 1024)
      (q : Fin 4096),
      j = ix2 p q := ⟨j 0, j 1, eq_ix2 j⟩
  obtain ⟨-, -, -, -, -, -, -, -, b0, b1⟩ := index_maps t
  have hp : p.val < 1024 := p.isLt
  have hq : q.val < 4096 := q.isLt
  obtain ⟨r, hr⟩ : ∃
      r : Fin 4096,
      r.val = win9_4.index t (0 : Fin 2) * 1024 + p.val :=
    ⟨⟨win9_4.index t (0 : Fin 2) * 1024 + p.val, by omega⟩, rfl⟩
  obtain ⟨s, hs⟩ : ∃
      s : Fin 16384,
      s.val = win9_4.index t (1 : Fin 2) * 4096 + q.val :=
    ⟨⟨win9_4.index t (1 : Fin 2) * 4096 + q.val, by omega⟩, rfl⟩
  show k9_pay1 (iblk9 V c 0 t) (iblk9 V c 1 t) (iblk9 V c 2 t) (iblk9 V c 3 t) (ix2 p q) = _
  refine (pay_apply _ _ _ _ p q).trans ?_
  refine Eq.trans ?_ (array_block_apply _ t p q r s hr hs).symm
  rw [Cert.MatmulSpec.mm_apply]
  congr 1
  · congr 1
    · refine Finset.sum_congr rfl fun k _ => ?_
      exact congrArg₂ (· * ·) (left_block_apply V c t p k r hr) (right_block_apply V c t k q s hs)
    · exact scale_block_apply V c t p r hr
  · exact shift_block_apply V c t q s hs

/-- An index of the array is in point `t`'s block iff each coordinate is in the block's range on its axis. -/
theorem mem_block (t : Fin cfg9.N) (i : S4096x16384.Idx) :
    i ∈ ((cfg9.win 4).blk t).view.set ↔ ∀ a : Fin 2, win9_4.index t a * S1024x4096.size a ≤ (i a).val
      ∧ (i a).val < win9_4.index t a * S1024x4096.size a + S1024x4096.size a := by
  show i ∈ ((View.whole main_v93).slice (win9_4.rect t)).set ↔ _
  rw [View.set_slice_whole, Rect.mem_set_unit]
  exact Iff.rfl

/-- THE BLOCKS TILE THE ARRAY: row `r` lies in block row `r / 1024`,
    column `s` in block column `s / 4096`,
    and that block is some point's, which writes it back. -/
theorem blocks_cover (i : S4096x16384.Idx) :
    ∃ t : Fin cfg9.N, (cfg9.win 4).flush t = true ∧ i ∈ ((cfg9.win 4).blk t).view.set := by
  have hi0 : (i 0).val < 4096 := (i 0).isLt
  have hi1 : (i 1).val < 16384 := (i 1).isLt
  obtain ⟨t, ht⟩ := index_onto
    ⟨(i 0).val / 1024, by omega⟩
    ⟨(i 1).val / 4096, by omega⟩
  have q0 : win9_4.index t (0 : Fin 2) = (i 0).val / 1024 := congrFun ht 0
  have q1 : win9_4.index t (1 : Fin 2) = (i 1).val / 4096 := congrFun ht 1
  refine ⟨t, flush9_4 t, ?_⟩
  rw [mem_block]
  intro a
  match a with
  | ⟨0, _⟩ =>
    show win9_4.index t (0 : Fin 2) * 1024 ≤ (i 0).val
      ∧ (i 0).val < win9_4.index t (0 : Fin 2) * 1024 + 1024
    omega
  | ⟨1, _⟩ =>
    show win9_4.index t (1 : Fin 2) * 4096 ≤ (i 1).val
      ∧ (i 1).val < win9_4.index t (1 : Fin 2) * 4096 + 4096
    omega

/-- THE REGION'S VALUE: the output array ends holding the scaled, shifted product of the four arrays the region finds
    (its blocks tile the array). -/
theorem value (c : Dev nD) :
    (dat9 (F := Ideal) V c).arrAt 4 cfg9.N
      = Cert.MatmulSpec.mm (V c main_v90) (V c main_arg13) (V c main_v91) (V c main_v92) := by
  exact (dat9 (F := Ideal) V c).arrAt_eq_of_cover 4 _ (fun t _ => flushed_eq V c t) blocks_cover

end Cert.KernelIdeal.Region9

end
-- ==== Proof.KernelStagesR.lean ====
/-
  THE REGIONS' RESULTS AT AN INDEX. Region `K` leaves in its output array, at row `n` and column `q`, the product of row
  `n` of its left array with column `q` of its right array, times the row's scale, plus the column's shift (clipped at zero
  from below in the two regions that end in a rectifier) — each array read as the region found it, at the boundary where
  the region is entered.
-/
import proofs.«401099_j71683004170518_2_alg».proof.Proof.Gen.KernelIdeal.Frame
import proofs.«401099_j71683004170518_2_alg».proof.Proof.Region0
import proofs.«401099_j71683004170518_2_alg».proof.Proof.Region1
import proofs.«401099_j71683004170518_2_alg».proof.Proof.Region2
import proofs.«401099_j71683004170518_2_alg».proof.Proof.Region3
import proofs.«401099_j71683004170518_2_alg».proof.Proof.Region4
import proofs.«401099_j71683004170518_2_alg».proof.Proof.Region5
import proofs.«401099_j71683004170518_2_alg».proof.Proof.Region6
import proofs.«401099_j71683004170518_2_alg».proof.Proof.Region7
import proofs.«401099_j71683004170518_2_alg».proof.Proof.Region8
import proofs.«401099_j71683004170518_2_alg».proof.Proof.Region9
import proofs.«401099_j71683004170518_2_alg».proof.Proof.MatmulSpec
import proofs.«401099_j71683004170518_2_alg».proof.Proof.RealVals
import Idealize.ShloMosaic.Lib.Pipeline.Value
import Idealize.ShloMosaic.Lib.ValueIdx
import Idealize.ShloMosaic.Lib.ValueIdxRank1
import Idealize.ShloMosaic.Lib.ValueLayout
import Idealize.ShloMosaic.Lib.StableHlo.Run
import Idealize.ShloMosaic.Lib.StableHlo.Predicate

set_option maxRecDepth 16384

noncomputable section

open scoped BigOperators

namespace Cert.KernelIdeal.StagesR

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- Region 0's output at `(n, q)`. -/
theorem out0 (n : Fin 4096) (q : Fin 4096) :
    Cert.fvec S4096x4096 (W2 m ρ c (Proc.devRef .tc main_v35)) (ix2 n q)
      = (∑ k : Fin 4096, Cert.fvec S4096x4096 (W1 m ρ c (Proc.devRef .tc main_v20)) (ix2 n k) * Cert.fvec S4096x4096 (W1 m ρ c (Proc.devRef .tc main_v32)) (ix2 k q))
          * Cert.fvec S4096x1 (W1 m ρ c (Proc.devRef .tc main_v33)) (ix2 n 0)
        + Cert.fvec S1x4096 (W1 m ρ c (Proc.devRef .tc main_v34)) (ix2 0 q) :=
  congrFun ((W2_arr m ρ c 4).trans (Cert.KernelIdeal.Region0.value (V1 m ρ) c)) (ix2 n q)

/-- Region 1's output at `(n, q)`. -/
theorem out1 (n : Fin 4096) (q : Fin 256) :
    Cert.fvec S4096x256 (W4 m ρ c (Proc.devRef .tc main_v38)) (ix2 n q)
      = (∑ k : Fin 4096, Cert.fvec S4096x4096 (W3 m ρ c (Proc.devRef .tc main_v35)) (ix2 n k) * Cert.fvec S4096x256 (W3 m ρ c (Proc.devRef .tc main_arg2)) (ix2 k q))
          * Cert.fvec S4096x1 (W3 m ρ c (Proc.devRef .tc main_v36)) (ix2 n 0)
        + Cert.fvec S1x256 (W3 m ρ c (Proc.devRef .tc main_v37)) (ix2 0 q) :=
  congrFun ((W4_arr m ρ c 4).trans (Cert.KernelIdeal.Region1.value (V3 m ρ) c)) (ix2 n q)

/-- Region 2's output at `(n, q)`. -/
theorem out2 (n : Fin 4096) (q : Fin 256) :
    Cert.fvec S4096x256 (W6 m ρ c (Proc.devRef .tc main_v41)) (ix2 n q)
      = (∑ k : Fin 4096, Cert.fvec S4096x4096 (W5 m ρ c (Proc.devRef .tc main_v32)) (ix2 n k) * Cert.fvec S4096x256 (W5 m ρ c (Proc.devRef .tc main_arg4)) (ix2 k q))
          * Cert.fvec S4096x1 (W5 m ρ c (Proc.devRef .tc main_v39)) (ix2 n 0)
        + Cert.fvec S1x256 (W5 m ρ c (Proc.devRef .tc main_v40)) (ix2 0 q) :=
  congrFun ((W6_arr m ρ c 4).trans (Cert.KernelIdeal.Region2.value (V5 m ρ) c)) (ix2 n q)

/-- Region 3's output at `(n, q)`. -/
theorem out3 (n : Fin 4096) (q : Fin 256) :
    Cert.fvec S4096x256 (W8 m ρ c (Proc.devRef .tc main_v47)) (ix2 n q)
      = (∑ k : Fin 256, Cert.fvec S4096x256 (W7 m ρ c (Proc.devRef .tc main_v44)) (ix2 n k) * Cert.fvec S256x256 (W7 m ρ c (Proc.devRef .tc main_arg5)) (ix2 k q))
          * Cert.fvec S4096x1 (W7 m ρ c (Proc.devRef .tc main_v45)) (ix2 n 0)
        + Cert.fvec S1x256 (W7 m ρ c (Proc.devRef .tc main_v46)) (ix2 0 q) :=
  congrFun ((W8_arr m ρ c 4).trans (Cert.KernelIdeal.Region3.value (V7 m ρ) c)) (ix2 n q)

/-- Region 4's output at `(n, q)`. -/
theorem out4 (n : Fin 4096) (q : Fin 256) :
    Cert.fvec S4096x256 (W10 m ρ c (Proc.devRef .tc main_v54)) (ix2 n q)
      = (∑ k : Fin 4096, Cert.fvec S4096x4096 (W9 m ρ c (Proc.devRef .tc main_v20)) (ix2 n k) * Cert.fvec S4096x256 (W9 m ρ c (Proc.devRef .tc main_v51)) (ix2 k q))
          * Cert.fvec S4096x1 (W9 m ρ c (Proc.devRef .tc main_v52)) (ix2 n 0)
        + Cert.fvec S1x256 (W9 m ρ c (Proc.devRef .tc main_v53)) (ix2 0 q) :=
  congrFun ((W10_arr m ρ c 4).trans (Cert.KernelIdeal.Region4.value (V9 m ρ) c)) (ix2 n q)

/-- Region 5's output at `(n, q)`. -/
theorem out5 (n : Fin 4096) (q : Fin 128) :
    Cert.fvec S4096x128 (W12 m ρ c (Proc.devRef .tc main_v67)) (ix2 n q)
      = (∑ k : Fin 256, Cert.fvec S4096x256 (W11 m ρ c (Proc.devRef .tc main_v64)) (ix2 n k) * Cert.fvec S256x128 (W11 m ρ c (Proc.devRef .tc main_arg7)) (ix2 k q))
          * Cert.fvec S4096x1 (W11 m ρ c (Proc.devRef .tc main_v65)) (ix2 n 0)
        + Cert.fvec S1x128 (W11 m ρ c (Proc.devRef .tc main_v66)) (ix2 0 q) :=
  congrFun ((W12_arr m ρ c 4).trans (Cert.KernelIdeal.Region5.value (V11 m ρ) c)) (ix2 n q)

/-- Region 6's output at `(n, q)`. -/
theorem out6 (n : Fin 4096) (q : Fin 128) :
    Cert.fvec S4096x128 (W14 m ρ c (Proc.devRef .tc main_v74)) (ix2 n q)
      = (∑ k : Fin 4096, Cert.fvec S4096x4096 (W13 m ρ c (Proc.devRef .tc main_v20)) (ix2 n k) * Cert.fvec S4096x128 (W13 m ρ c (Proc.devRef .tc main_v71)) (ix2 k q))
          * Cert.fvec S4096x1 (W13 m ρ c (Proc.devRef .tc main_v72)) (ix2 n 0)
        + Cert.fvec S1x128 (W13 m ρ c (Proc.devRef .tc main_v73)) (ix2 0 q) :=
  congrFun ((W14_arr m ρ c 4).trans (Cert.KernelIdeal.Region6.value (V13 m ρ) c)) (ix2 n q)

/-- Region 7's output at `(n, q)`. -/
theorem out7 (n : Fin 4096) (q : Fin 128) :
    Cert.fvec S4096x128 (W16 m ρ c (Proc.devRef .tc main_v87)) (ix2 n q)
      = max ((∑ k : Fin 128, Cert.fvec S4096x128 (W15 m ρ c (Proc.devRef .tc main_v84)) (ix2 n k) * Cert.fvec S128x128 (W15 m ρ c (Proc.devRef .tc main_arg9)) (ix2 k q))
          * Cert.fvec S4096x1 (W15 m ρ c (Proc.devRef .tc main_v85)) (ix2 n 0)
        + Cert.fvec S1x128 (W15 m ρ c (Proc.devRef .tc main_v86)) (ix2 0 q)) 0 :=
  congrFun ((W16_arr m ρ c 4).trans (Cert.KernelIdeal.Region7.value (V15 m ρ) c)) (ix2 n q)

/-- Region 8's output at `(n, q)`. -/
theorem out8 (n : Fin 4096) (q : Fin 128) :
    Cert.fvec S4096x128 (W18 m ρ c (Proc.devRef .tc main_v90)) (ix2 n q)
      = max ((∑ k : Fin 128, Cert.fvec S4096x128 (W17 m ρ c (Proc.devRef .tc main_v87)) (ix2 n k) * Cert.fvec S128x128 (W17 m ρ c (Proc.devRef .tc main_arg11)) (ix2 k q))
          * Cert.fvec S4096x1 (W17 m ρ c (Proc.devRef .tc main_v88)) (ix2 n 0)
        + Cert.fvec S1x128 (W17 m ρ c (Proc.devRef .tc main_v89)) (ix2 0 q)) 0 :=
  congrFun ((W18_arr m ρ c 4).trans (Cert.KernelIdeal.Region8.value (V17 m ρ) c)) (ix2 n q)

/-- Region 9's output at `(n, q)`. -/
theorem out9 (n : Fin 4096) (q : Fin 16384) :
    Cert.fvec S4096x16384 (W20 m ρ c (Proc.devRef .tc main_v93)) (ix2 n q)
      = (∑ k : Fin 128, Cert.fvec S4096x128 (W19 m ρ c (Proc.devRef .tc main_v90)) (ix2 n k) * Cert.fvec S128x16384 (W19 m ρ c (Proc.devRef .tc main_arg13)) (ix2 k q))
          * Cert.fvec S4096x1 (W19 m ρ c (Proc.devRef .tc main_v91)) (ix2 n 0)
        + Cert.fvec S1x16384 (W19 m ρ c (Proc.devRef .tc main_v92)) (ix2 0 q) :=
  congrFun ((W20_arr m ρ c 4).trans (Cert.KernelIdeal.Region9.value (V19 m ρ) c)) (ix2 n q)

end Cert.KernelIdeal.StagesR

end
-- ==== Proof.KernelStagesH.lean ====
/-
  THE HOST STRETCHES BETWEEN THE REGIONS, read at an index. Between two regions the host prepares the next region's
  operands from what the regions before left: columns of ones (a unit row scale), rows of zeros or a bias vector laid
  out as a row (the shift), the rectified sum of two regions' outputs, the node weights times a region's output (the
  data scaled before the dense product), and the normalisation layers' epilogue: the dense product plus the self loop's
  term `w n · w n · hw (n, j)` plus the bias, rectified. Each lemma states one such buffer at an index from the buffers at
  the boundary where the stretch is entered.
-/
import proofs.«401099_j71683004170518_2_alg».proof.Proof.Gen.KernelIdeal.Frame
import proofs.«401099_j71683004170518_2_alg».proof.Proof.MatmulSpec
import proofs.«401099_j71683004170518_2_alg».proof.Proof.RealVals
import Idealize.ShloMosaic.Lib.Pipeline.Value
import Idealize.ShloMosaic.Lib.ValueIdx
import Idealize.ShloMosaic.Lib.ValueIdxRank1
import Idealize.ShloMosaic.Lib.ValueLayout
import Idealize.ShloMosaic.Lib.StableHlo.Run
import Idealize.ShloMosaic.Lib.StableHlo.Predicate

set_option maxRecDepth 16384

noncomputable section

open scoped BigOperators

namespace Cert.KernelIdeal.StagesH

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The f32 word `0x3F800000` broadcast from a scalar reads `1` everywhere. -/
private theorem ones_apply {t : Shape} (hb : S_.BroadcastsInDim t ![]) (i : t.Idx) :
    broadcastInDim t ![] hb (constant (F := Ideal) S_ .f32 0x3F800000#32) i = 1 :=
  Cert.RealVals.ofBits_one

/-- The f32 word `0x00000000` broadcast from a scalar reads `0` everywhere. -/
private theorem zeros_apply {t : Shape} (hb : S_.BroadcastsInDim t ![]) (i : t.Idx) :
    broadcastInDim t ![] hb (constant (F := Ideal) S_ .f32 0x00000000#32) i = 0 :=
  Cert.RealVals.ofBits_zero

/-- A vector `[a]` cast to a column `[a, 1]` reads, at `(i, u)`, the vector at `i`: the two row-major positions are
    `i` and `i · 1 + 0`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A vector `[n]` broadcast to a column `[n, 1]` and then along the rows of `[n, k]` reads, at `(p, q)`, the vector
    at `p`. -/
private theorem bcast_rows_ix {α : Type} {n k : ℕ} (h₁ : (⟨1, ![n]⟩ : Shape).BroadcastsInDim ⟨2, ![n, 1]⟩ ![0])
    (h₂ : (⟨2, ![n, 1]⟩ : Shape).BroadcastsInDim ⟨2, ![n, k]⟩ ![0, 1]) (v : (⟨1, ![n]⟩ : Shape).Idx → α)
    (p : Fin n) (q : Fin k) :
    broadcastInDim ⟨2, ![n, k]⟩ ![0, 1] h₂ (broadcastInDim ⟨2, ![n, 1]⟩ ![0] h₁ v) (ix2 p q) = v (ix1 p) := by
  have hp := p.isLt
  rw [broadcastInDim_apply ![0, 1] h₂ _ (ix2 p q) (ix2 p (0 : Fin 1)) (fun a => by
    match a with
    | ⟨0, _⟩ => show p.val = if n = 1 then 0 else p.val; split <;> omega
    | ⟨1, _⟩ => show (0 : ℕ) = if (1 : ℕ) = 1 then 0 else q.val; rw [if_pos rfl])]
  exact broadcastInDim_apply ![0] h₁ v (ix2 p (0 : Fin 1)) (ix1 p) (fun a => by
    match a with
    | ⟨0, _⟩ => show p.val = if n = 1 then 0 else p.val; split <;> omega)

/-- A vector `[k]` broadcast to a row `[1, k]` and then down the columns of `[n, k]` reads, at `(p, q)`, the vector
    at `q`. -/
private theorem bcast_cols_ix {α : Type} {n k : ℕ} (h₁ : (⟨1, ![k]⟩ : Shape).BroadcastsInDim ⟨2, ![1, k]⟩ ![1])
    (h₂ : (⟨2, ![1, k]⟩ : Shape).BroadcastsInDim ⟨2, ![n, k]⟩ ![0, 1]) (v : (⟨1, ![k]⟩ : Shape).Idx → α)
    (p : Fin n) (q : Fin k) :
    broadcastInDim ⟨2, ![n, k]⟩ ![0, 1] h₂ (broadcastInDim ⟨2, ![1, k]⟩ ![1] h₁ v) (ix2 p q) = v (ix1 q) := by
  have hq := q.isLt
  rw [broadcastInDim_apply ![0, 1] h₂ _ (ix2 p q) (ix2 (0 : Fin 1) q) (fun a => by
    match a with
    | ⟨0, _⟩ => show (0 : ℕ) = if (1 : ℕ) = 1 then 0 else p.val; rw [if_pos rfl]
    | ⟨1, _⟩ => show q.val = if k = 1 then 0 else q.val; split <;> omega)]
  exact broadcastInDim_apply ![1] h₁ v (ix2 (0 : Fin 1) q) (ix1 q) (fun a => by
    match a with
    | ⟨0, _⟩ => show q.val = if k = 1 then 0 else q.val; split <;> omega)

/-- The sum of two arrays clipped at the broadcast zero reads `max (a i + b i) 0`. -/
private theorem relu_apply {t : Shape} (hz : S_.BroadcastsInDim t ![]) (a b : FVec Ideal t .f32) (i : t.Idx) :
    maximumf (addf a b) (broadcastInDim t ![] hz (constant (F := Ideal) S_ .f32 0x00000000#32)) i = max (a i + b i) 0 := by
  show max (a i + b i) (Ideal.ofBits .f32 0x00000000#32) = _
  rw [Cert.RealVals.ofBits_zero]

/-- A matrix scaled row by row by a vector (broadcast to a column, then along the rows), then narrowed — the identity at the
    exact instance — reads `w p · x (p, q)`. -/
private theorem scaled_apply {n k : ℕ} (h₁ : (⟨1, ![n]⟩ : Shape).BroadcastsInDim ⟨2, ![n, 1]⟩ ![0])
    (h₂ : (⟨2, ![n, 1]⟩ : Shape).BroadcastsInDim ⟨2, ![n, k]⟩ ![0, 1]) (hlt : FTy.bf16.bits < FTy.f32.bits)
    (w : FVec Ideal ⟨1, ![n]⟩ .f32) (x : FVec Ideal ⟨2, ![n, k]⟩ .f32) (p : Fin n) (q : Fin k) :
    truncf .bf16 (mulf (broadcastInDim ⟨2, ![n, k]⟩ ![0, 1] h₂ (broadcastInDim ⟨2, ![n, 1]⟩ ![0] h₁ w)) x) hlt (ix2 p q)
      = w (ix1 p) * x (ix2 p q) := by
  show broadcastInDim ⟨2, ![n, k]⟩ ![0, 1] h₂ (broadcastInDim ⟨2, ![n, 1]⟩ ![0] h₁ w) (ix2 p q) * x (ix2 p q) = _
  rw [bcast_rows_ix]

/-- The epilogue read at `(p, q)`: the product's entry, plus the squared weight of row `p` (broadcast along the row) times
    the data's entry, plus the bias of column `q` (broadcast down the column), clipped at zero. -/
private theorem epi_apply {n k : ℕ} (h₁ : (⟨1, ![n]⟩ : Shape).BroadcastsInDim ⟨2, ![n, 1]⟩ ![0])
    (h₂ : (⟨2, ![n, 1]⟩ : Shape).BroadcastsInDim ⟨2, ![n, k]⟩ ![0, 1])
    (h₃ : (⟨1, ![k]⟩ : Shape).BroadcastsInDim ⟨2, ![1, k]⟩ ![1])
    (h₄ : (⟨2, ![1, k]⟩ : Shape).BroadcastsInDim ⟨2, ![n, k]⟩ ![0, 1])
    (hz : S_.BroadcastsInDim ⟨2, ![n, k]⟩ ![])
    (a : FVec Ideal ⟨2, ![n, k]⟩ .f32) (w : FVec Ideal ⟨1, ![n]⟩ .f32) (x : FVec Ideal ⟨2, ![n, k]⟩ .f32)
    (b : FVec Ideal ⟨1, ![k]⟩ .f32) (p : Fin n) (q : Fin k) :
    maximumf
        (addf (addf a (mulf (broadcastInDim ⟨2, ![n, k]⟩ ![0, 1] h₂ (broadcastInDim ⟨2, ![n, 1]⟩ ![0] h₁ (mulf w w))) x))
          (broadcastInDim ⟨2, ![n, k]⟩ ![0, 1] h₄ (broadcastInDim ⟨2, ![1, k]⟩ ![1] h₃ b)))
        (broadcastInDim ⟨2, ![n, k]⟩ ![] hz (constant (F := Ideal) S_ .f32 0x00000000#32)) (ix2 p q)
      = max ((a (ix2 p q) + (w (ix1 p) * w (ix1 p)) * x (ix2 p q)) + b (ix1 q)) 0 := by
  show max ((a (ix2 p q)
        + broadcastInDim ⟨2, ![n, k]⟩ ![0, 1] h₂ (broadcastInDim ⟨2, ![n, 1]⟩ ![0] h₁ (mulf w w)) (ix2 p q) * x (ix2 p q))
      + broadcastInDim ⟨2, ![n, k]⟩ ![0, 1] h₄ (broadcastInDim ⟨2, ![1, k]⟩ ![1] h₃ b) (ix2 p q))
      (Ideal.ofBits .f32 0x00000000#32) = _
  rw [bcast_rows_ix, bcast_cols_ix, Cert.RealVals.ofBits_zero]
  rfl

/-- A column of ones (the unit row scale). -/
theorem ones_v36 (n : Fin 4096) : Cert.fvec S4096x1 (W3 m ρ c (Proc.devRef .tc main_v36)) (ix2 n 0) = 1 := by
  show StableHlo.after hostOps1 (W2 m ρ c) (Proc.devRef .tc main_v36) (ix2 n 0) = _
  after_results
  exact ones_apply _ _

/-- The bias vector laid out as a row. -/
theorem row_v37 (q : Fin 256) : Cert.fvec S1x256 (W3 m ρ c (Proc.devRef .tc main_v37)) (ix2 0 q) = Cert.fvec S256 (W2 m ρ c (Proc.devRef .tc main_arg3)) (ix1 q) := by
  show StableHlo.after hostOps1 (W2 m ρ c) (Proc.devRef .tc main_v37) (ix2 0 q) = _
  after_results
  exact shapeCast_a_1a_apply _ _ 0 q

/-- A column of ones (the unit row scale). -/
theorem ones_v39 (n : Fin 4096) : Cert.fvec S4096x1 (W5 m ρ c (Proc.devRef .tc main_v39)) (ix2 n 0) = 1 := by
  show StableHlo.after hostOps2 (W4 m ρ c) (Proc.devRef .tc main_v39) (ix2 n 0) = _
  after_results
  exact ones_apply _ _

/-- A row of zeros (no shift). -/
theorem zeros_v40 (q : Fin 256) : Cert.fvec S1x256 (W5 m ρ c (Proc.devRef .tc main_v40)) (ix2 0 q) = 0 := by
  show StableHlo.after hostOps2 (W4 m ρ c) (Proc.devRef .tc main_v40) (ix2 0 q) = _
  after_results
  exact zeros_apply _ _

/-- The first layer's output: the two products' sum, rectified. -/
theorem relu_v44 (n : Fin 4096) (j : Fin 256) :
    Cert.fvec S4096x256 (W7 m ρ c (Proc.devRef .tc main_v44)) (ix2 n j) = max (Cert.fvec S4096x256 (W6 m ρ c (Proc.devRef .tc main_v38)) (ix2 n j) + Cert.fvec S4096x256 (W6 m ρ c (Proc.devRef .tc main_v41)) (ix2 n j)) 0 := by
  show StableHlo.after hostOps3 (W6 m ρ c) (Proc.devRef .tc main_v44) (ix2 n j) = _
  after_results
  exact relu_apply _ _ _ _

/-- A column of ones (the unit row scale). -/
theorem ones_v45 (n : Fin 4096) : Cert.fvec S4096x1 (W7 m ρ c (Proc.devRef .tc main_v45)) (ix2 n 0) = 1 := by
  show StableHlo.after hostOps3 (W6 m ρ c) (Proc.devRef .tc main_v45) (ix2 n 0) = _
  after_results
  exact ones_apply _ _

/-- A row of zeros (no shift). -/
theorem zeros_v46 (q : Fin 256) : Cert.fvec S1x256 (W7 m ρ c (Proc.devRef .tc main_v46)) (ix2 0 q) = 0 := by
  show StableHlo.after hostOps3 (W6 m ρ c) (Proc.devRef .tc main_v46) (ix2 0 q) = _
  after_results
  exact zeros_apply _ _

/-- The data scaled by the node weights before the dense product. -/
theorem scaled_v51 (s : Fin 4096) (j : Fin 256) :
    Cert.fvec S4096x256 (W9 m ρ c (Proc.devRef .tc main_v51)) (ix2 s j) = Cert.fvec S4096 (W8 m ρ c (Proc.devRef .tc main_v31)) (ix1 s) * Cert.fvec S4096x256 (W8 m ρ c (Proc.devRef .tc main_v47)) (ix2 s j) := by
  show StableHlo.after hostOps4 (W8 m ρ c) (Proc.devRef .tc main_v51) (ix2 s j) = _
  after_results
  exact scaled_apply _ _ _ _ _ s j

/-- The node weights laid out as a column (the row scale after the dense product). -/
theorem wcol_v52 (n : Fin 4096) : Cert.fvec S4096x1 (W9 m ρ c (Proc.devRef .tc main_v52)) (ix2 n 0) = Cert.fvec S4096 (W8 m ρ c (Proc.devRef .tc main_v31)) (ix1 n) := by
  show StableHlo.after hostOps4 (W8 m ρ c) (Proc.devRef .tc main_v52) (ix2 n 0) = _
  after_results
  exact shapeCast_a_a1_apply _ _ n 0

/-- A row of zeros (no shift). -/
theorem zeros_v53 (q : Fin 256) : Cert.fvec S1x256 (W9 m ρ c (Proc.devRef .tc main_v53)) (ix2 0 q) = 0 := by
  show StableHlo.after hostOps4 (W8 m ρ c) (Proc.devRef .tc main_v53) (ix2 0 q) = _
  after_results
  exact zeros_apply _ _

/-- The normalisation layer's epilogue: dense product, plus the self loop's term, plus the bias, rectified. -/
theorem epi_v64 (n : Fin 4096) (j : Fin 256) :
    Cert.fvec S4096x256 (W11 m ρ c (Proc.devRef .tc main_v64)) (ix2 n j)
      = max ((Cert.fvec S4096x256 (W10 m ρ c (Proc.devRef .tc main_v54)) (ix2 n j)
              + (Cert.fvec S4096 (W10 m ρ c (Proc.devRef .tc main_v31)) (ix1 n) * Cert.fvec S4096 (W10 m ρ c (Proc.devRef .tc main_v31)) (ix1 n)) * Cert.fvec S4096x256 (W10 m ρ c (Proc.devRef .tc main_v47)) (ix2 n j))
            + Cert.fvec S256 (W10 m ρ c (Proc.devRef .tc main_arg6)) (ix1 j)) 0 := by
  show StableHlo.after hostOps5 (W10 m ρ c) (Proc.devRef .tc main_v64) (ix2 n j) = _
  after_results
  exact epi_apply _ _ _ _ _ _ _ _ _ n j

/-- A column of ones (the unit row scale). -/
theorem ones_v65 (n : Fin 4096) : Cert.fvec S4096x1 (W11 m ρ c (Proc.devRef .tc main_v65)) (ix2 n 0) = 1 := by
  show StableHlo.after hostOps5 (W10 m ρ c) (Proc.devRef .tc main_v65) (ix2 n 0) = _
  after_results
  exact ones_apply _ _

/-- A row of zeros (no shift). -/
theorem zeros_v66 (q : Fin 128) : Cert.fvec S1x128 (W11 m ρ c (Proc.devRef .tc main_v66)) (ix2 0 q) = 0 := by
  show StableHlo.after hostOps5 (W10 m ρ c) (Proc.devRef .tc main_v66) (ix2 0 q) = _
  after_results
  exact zeros_apply _ _

/-- The data scaled by the node weights before the dense product. -/
theorem scaled_v71 (s : Fin 4096) (j : Fin 128) :
    Cert.fvec S4096x128 (W13 m ρ c (Proc.devRef .tc main_v71)) (ix2 s j) = Cert.fvec S4096 (W12 m ρ c (Proc.devRef .tc main_v31)) (ix1 s) * Cert.fvec S4096x128 (W12 m ρ c (Proc.devRef .tc main_v67)) (ix2 s j) := by
  show StableHlo.after hostOps6 (W12 m ρ c) (Proc.devRef .tc main_v71) (ix2 s j) = _
  after_results
  exact scaled_apply _ _ _ _ _ s j

/-- The node weights laid out as a column (the row scale after the dense product). -/
theorem wcol_v72 (n : Fin 4096) : Cert.fvec S4096x1 (W13 m ρ c (Proc.devRef .tc main_v72)) (ix2 n 0) = Cert.fvec S4096 (W12 m ρ c (Proc.devRef .tc main_v31)) (ix1 n) := by
  show StableHlo.after hostOps6 (W12 m ρ c) (Proc.devRef .tc main_v72) (ix2 n 0) = _
  after_results
  exact shapeCast_a_a1_apply _ _ n 0

/-- A row of zeros (no shift). -/
theorem zeros_v73 (q : Fin 128) : Cert.fvec S1x128 (W13 m ρ c (Proc.devRef .tc main_v73)) (ix2 0 q) = 0 := by
  show StableHlo.after hostOps6 (W12 m ρ c) (Proc.devRef .tc main_v73) (ix2 0 q) = _
  after_results
  exact zeros_apply _ _

/-- The normalisation layer's epilogue: dense product, plus the self loop's term, plus the bias, rectified. -/
theorem epi_v84 (n : Fin 4096) (j : Fin 128) :
    Cert.fvec S4096x128 (W15 m ρ c (Proc.devRef .tc main_v84)) (ix2 n j)
      = max ((Cert.fvec S4096x128 (W14 m ρ c (Proc.devRef .tc main_v74)) (ix2 n j)
              + (Cert.fvec S4096 (W14 m ρ c (Proc.devRef .tc main_v31)) (ix1 n) * Cert.fvec S4096 (W14 m ρ c (Proc.devRef .tc main_v31)) (ix1 n)) * Cert.fvec S4096x128 (W14 m ρ c (Proc.devRef .tc main_v67)) (ix2 n j))
            + Cert.fvec S128 (W14 m ρ c (Proc.devRef .tc main_arg8)) (ix1 j)) 0 := by
  show StableHlo.after hostOps7 (W14 m ρ c) (Proc.devRef .tc main_v84) (ix2 n j) = _
  after_results
  exact epi_apply _ _ _ _ _ _ _ _ _ n j

/-- A column of ones (the unit row scale). -/
theorem ones_v85 (n : Fin 4096) : Cert.fvec S4096x1 (W15 m ρ c (Proc.devRef .tc main_v85)) (ix2 n 0) = 1 := by
  show StableHlo.after hostOps7 (W14 m ρ c) (Proc.devRef .tc main_v85) (ix2 n 0) = _
  after_results
  exact ones_apply _ _

/-- The bias vector laid out as a row. -/
theorem row_v86 (q : Fin 128) : Cert.fvec S1x128 (W15 m ρ c (Proc.devRef .tc main_v86)) (ix2 0 q) = Cert.fvec S128 (W14 m ρ c (Proc.devRef .tc main_arg10)) (ix1 q) := by
  show StableHlo.after hostOps7 (W14 m ρ c) (Proc.devRef .tc main_v86) (ix2 0 q) = _
  after_results
  exact shapeCast_a_1a_apply _ _ 0 q

/-- A column of ones (the unit row scale). -/
theorem ones_v88 (n : Fin 4096) : Cert.fvec S4096x1 (W17 m ρ c (Proc.devRef .tc main_v88)) (ix2 n 0) = 1 := by
  show StableHlo.after hostOps8 (W16 m ρ c) (Proc.devRef .tc main_v88) (ix2 n 0) = _
  after_results
  exact ones_apply _ _

/-- The bias vector laid out as a row. -/
theorem row_v89 (q : Fin 128) : Cert.fvec S1x128 (W17 m ρ c (Proc.devRef .tc main_v89)) (ix2 0 q) = Cert.fvec S128 (W16 m ρ c (Proc.devRef .tc main_arg12)) (ix1 q) := by
  show StableHlo.after hostOps8 (W16 m ρ c) (Proc.devRef .tc main_v89) (ix2 0 q) = _
  after_results
  exact shapeCast_a_1a_apply _ _ 0 q

/-- A column of ones (the unit row scale). -/
theorem ones_v91 (n : Fin 4096) : Cert.fvec S4096x1 (W19 m ρ c (Proc.devRef .tc main_v91)) (ix2 n 0) = 1 := by
  show StableHlo.after hostOps9 (W18 m ρ c) (Proc.devRef .tc main_v91) (ix2 n 0) = _
  after_results
  exact ones_apply _ _

/-- The bias vector laid out as a row. -/
theorem row_v92 (q : Fin 16384) : Cert.fvec S1x16384 (W19 m ρ c (Proc.devRef .tc main_v92)) (ix2 0 q) = Cert.fvec S16384 (W18 m ρ c (Proc.devRef .tc main_arg14)) (ix1 q) := by
  show StableHlo.after hostOps9 (W18 m ρ c) (Proc.devRef .tc main_v92) (ix2 0 q) = _
  after_results
  exact shapeCast_a_1a_apply _ _ 0 q

/-- The result: the last region's output, reshaped `[4096, 16384] → [4096, 4, 4096]`. -/
theorem result_v94 :
    Cert.fvec S4096x4x4096 (W21 m ρ c (Proc.devRef .tc main_v94)) = shapeCast S4096x4x4096 (Cert.fvec S4096x16384 (W20 m ρ c (Proc.devRef .tc main_v93))) shapeCasts_S4096x16384_S4096x4x4096 := by
  show StableHlo.after hostOps10 (W20 m ρ c) (Proc.devRef .tc main_v94) = _
  after_results
  rfl

end Cert.KernelIdeal.StagesH

end
-- ==== Proof.KernelKeep.lean ====
/-
  WHAT A SEGMENT OF THE PROGRAM LEAVES ALONE. The program is eleven stretches of host operations with ten kernel regions
  between them. A host stretch changes only the buffers its operations write; a region changes only its five arrays (its
  inputs it writes back as it found them). So a buffer read at a later boundary holds what the last segment that wrote
  it left there: each lemma below steps one boundary back for a buffer outside the segment's written set.
-/
import proofs.«401099_j71683004170518_2_alg».proof.Proof.Gen.KernelIdeal.Frame
import Idealize.ShloMosaic.Lib.StableHlo.Run

set_option maxRecDepth 16384

noncomputable section

namespace Cert.KernelIdeal.Keep

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg) (c : Dev nD)

/-- An operation that writes one buffer of a list writes inside the list. -/
theorem single_sub {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

/-- Host stretch 0 writes only these buffers. -/
theorem writes0 : (hostOps0 : List (HloOp τ sig (Elt F))).Forall fun op =>
    op.writes ⊆ (([main_v0, main_v1, main_v2, main_v3, main_cst, main_v4, main_cst_0, main_v5, main_c, main_v6, main_v7, main_c_1, main_v8, main_v9, main_v10, main_c_2, main_v11, main_v12, main_c_3, main_v13, main_v14, main_v15, main_v16, main_v17, main_v18, main_v19, main_v20, main_cst_4, main_v21, main_v22, main_v23, main_cst_5, main_v24, main_v25, main_cst_6, main_v26, main_v27, main_cst_7, main_v28, main_v29, main_cst_8, main_v30, main_v31, main_v32, main_v33, main_cst_9, main_v34] : List (Ref sig .tc)).map (Proc.devRef (τ := τ) .tc)).toFinset := by
  simp only [hostOps0, List.Forall, StableHlo.nullary_writes, StableHlo.unary_writes, StableHlo.binary_writes,
    StableHlo.ternary_writes, StableHlo.quaternary_writes, StableHlo.reshape_writes]
  repeat' apply And.intro
  all_goals exact single_sub (by decide)

/-- A buffer host stretch 0 does not write is after it what it was before. -/
theorem host0 (b : Ref sig .tc) (hb : b ∉ ([main_v0, main_v1, main_v2, main_v3, main_cst, main_v4, main_cst_0, main_v5, main_c, main_v6, main_v7, main_c_1, main_v8, main_v9, main_v10, main_c_2, main_v11, main_v12, main_c_3, main_v13, main_v14, main_v15, main_v16, main_v17, main_v18, main_v19, main_v20, main_cst_4, main_v21, main_v22, main_v23, main_cst_5, main_v24, main_v25, main_cst_6, main_v26, main_v27, main_cst_7, main_v28, main_v29, main_cst_8, main_v30, main_v31, main_v32, main_v33, main_cst_9, main_v34] : List (Ref sig .tc))) :
    W1 m ρ c (no_index (Proc.devRef .tc b)) = W0 m ρ c (Proc.devRef .tc b) :=
  StableHlo.after_of_writes_sub hostOps0 _ (writes0 (F := F)) hb

/-- Host stretch 1 writes only these buffers. -/
theorem writes1 : (hostOps1 : List (HloOp τ sig (Elt F))).Forall fun op =>
    op.writes ⊆ (([main_cst_10, main_v36, main_v37] : List (Ref sig .tc)).map (Proc.devRef (τ := τ) .tc)).toFinset := by
  simp only [hostOps1, List.Forall, StableHlo.nullary_writes, StableHlo.unary_writes, StableHlo.binary_writes,
    StableHlo.ternary_writes, StableHlo.quaternary_writes, StableHlo.reshape_writes]
  repeat' apply And.intro
  all_goals exact single_sub (by decide)

/-- A buffer host stretch 1 does not write is after it what it was before. -/
theorem host1 (b : Ref sig .tc) (hb : b ∉ ([main_cst_10, main_v36, main_v37] : List (Ref sig .tc))) :
    W3 m ρ c (no_index (Proc.devRef .tc b)) = W2 m ρ c (Proc.devRef .tc b) :=
  StableHlo.after_of_writes_sub hostOps1 _ (writes1 (F := F)) hb

/-- Host stretch 2 writes only these buffers. -/
theorem writes2 : (hostOps2 : List (HloOp τ sig (Elt F))).Forall fun op =>
    op.writes ⊆ (([main_cst_11, main_v39, main_cst_12, main_v40] : List (Ref sig .tc)).map (Proc.devRef (τ := τ) .tc)).toFinset := by
  simp only [hostOps2, List.Forall, StableHlo.nullary_writes, StableHlo.unary_writes, StableHlo.binary_writes,
    StableHlo.ternary_writes, StableHlo.quaternary_writes, StableHlo.reshape_writes]
  repeat' apply And.intro
  all_goals exact single_sub (by decide)

/-- A buffer host stretch 2 does not write is after it what it was before. -/
theorem host2 (b : Ref sig .tc) (hb : b ∉ ([main_cst_11, main_v39, main_cst_12, main_v40] : List (Ref sig .tc))) :
    W5 m ρ c (no_index (Proc.devRef .tc b)) = W4 m ρ c (Proc.devRef .tc b) :=
  StableHlo.after_of_writes_sub hostOps2 _ (writes2 (F := F)) hb

/-- Host stretch 3 writes only these buffers. -/
theorem writes3 : (hostOps3 : List (HloOp τ sig (Elt F))).Forall fun op =>
    op.writes ⊆ (([main_v42, main_cst_13, main_v43, main_v44, main_cst_14, main_v45, main_cst_15, main_v46] : List (Ref sig .tc)).map (Proc.devRef (τ := τ) .tc)).toFinset := by
  simp only [hostOps3, List.Forall, StableHlo.nullary_writes, StableHlo.unary_writes, StableHlo.binary_writes,
    StableHlo.ternary_writes, StableHlo.quaternary_writes, StableHlo.reshape_writes]
  repeat' apply And.intro
  all_goals exact single_sub (by decide)

/-- A buffer host stretch 3 does not write is after it what it was before. -/
theorem host3 (b : Ref sig .tc) (hb : b ∉ ([main_v42, main_cst_13, main_v43, main_v44, main_cst_14, main_v45, main_cst_15, main_v46] : List (Ref sig .tc))) :
    W7 m ρ c (no_index (Proc.devRef .tc b)) = W6 m ρ c (Proc.devRef .tc b) :=
  StableHlo.after_of_writes_sub hostOps3 _ (writes3 (F := F)) hb

/-- Host stretch 4 writes only these buffers. -/
theorem writes4 : (hostOps4 : List (HloOp τ sig (Elt F))).Forall fun op =>
    op.writes ⊆ (([main_v48, main_v49, main_v50, main_v51, main_v52, main_cst_16, main_v53] : List (Ref sig .tc)).map (Proc.devRef (τ := τ) .tc)).toFinset := by
  simp only [hostOps4, List.Forall, StableHlo.nullary_writes, StableHlo.unary_writes, StableHlo.binary_writes,
    StableHlo.ternary_writes, StableHlo.quaternary_writes, StableHlo.reshape_writes]
  repeat' apply And.intro
  all_goals exact single_sub (by decide)

/-- A buffer host stretch 4 does not write is after it what it was before. -/
theorem host4 (b : Ref sig .tc) (hb : b ∉ ([main_v48, main_v49, main_v50, main_v51, main_v52, main_cst_16, main_v53] : List (Ref sig .tc))) :
    W9 m ρ c (no_index (Proc.devRef .tc b)) = W8 m ρ c (Proc.devRef .tc b) :=
  StableHlo.after_of_writes_sub hostOps4 _ (writes4 (F := F)) hb

/-- Host stretch 5 writes only these buffers. -/
theorem writes5 : (hostOps5 : List (HloOp τ sig (Elt F))).Forall fun op =>
    op.writes ⊆ (([main_v55, main_v56, main_v57, main_v58, main_v59, main_v60, main_v61, main_v62, main_cst_17, main_v63, main_v64, main_cst_18, main_v65, main_cst_19, main_v66] : List (Ref sig .tc)).map (Proc.devRef (τ := τ) .tc)).toFinset := by
  simp only [hostOps5, List.Forall, StableHlo.nullary_writes, StableHlo.unary_writes, StableHlo.binary_writes,
    StableHlo.ternary_writes, StableHlo.quaternary_writes, StableHlo.reshape_writes]
  repeat' apply And.intro
  all_goals exact single_sub (by decide)

/-- A buffer host stretch 5 does not write is after it what it was before. -/
theorem host5 (b : Ref sig .tc) (hb : b ∉ ([main_v55, main_v56, main_v57, main_v58, main_v59, main_v60, main_v61, main_v62, main_cst_17, main_v63, main_v64, main_cst_18, main_v65, main_cst_19, main_v66] : List (Ref sig .tc))) :
    W11 m ρ c (no_index (Proc.devRef .tc b)) = W10 m ρ c (Proc.devRef .tc b) :=
  StableHlo.after_of_writes_sub hostOps5 _ (writes5 (F := F)) hb

/-- Host stretch 6 writes only these buffers. -/
theorem writes6 : (hostOps6 : List (HloOp τ sig (Elt F))).Forall fun op =>
    op.writes ⊆ (([main_v68, main_v69, main_v70, main_v71, main_v72, main_cst_20, main_v73] : List (Ref sig .tc)).map (Proc.devRef (τ := τ) .tc)).toFinset := by
  simp only [hostOps6, List.Forall, StableHlo.nullary_writes, StableHlo.unary_writes, StableHlo.binary_writes,
    StableHlo.ternary_writes, StableHlo.quaternary_writes, StableHlo.reshape_writes]
  repeat' apply And.intro
  all_goals exact single_sub (by decide)

/-- A buffer host stretch 6 does not write is after it what it was before. -/
theorem host6 (b : Ref sig .tc) (hb : b ∉ ([main_v68, main_v69, main_v70, main_v71, main_v72, main_cst_20, main_v73] : List (Ref sig .tc))) :
    W13 m ρ c (no_index (Proc.devRef .tc b)) = W12 m ρ c (Proc.devRef .tc b) :=
  StableHlo.after_of_writes_sub hostOps6 _ (writes6 (F := F)) hb

/-- Host stretch 7 writes only these buffers. -/
theorem writes7 : (hostOps7 : List (HloOp τ sig (Elt F))).Forall fun op =>
    op.writes ⊆ (([main_v75, main_v76, main_v77, main_v78, main_v79, main_v80, main_v81, main_v82, main_cst_21, main_v83, main_v84, main_cst_22, main_v85, main_v86] : List (Ref sig .tc)).map (Proc.devRef (τ := τ) .tc)).toFinset := by
  simp only [hostOps7, List.Forall, StableHlo.nullary_writes, StableHlo.unary_writes, StableHlo.binary_writes,
    StableHlo.ternary_writes, StableHlo.quaternary_writes, StableHlo.reshape_writes]
  repeat' apply And.intro
  all_goals exact single_sub (by decide)

/-- A buffer host stretch 7 does not write is after it what it was before. -/
theorem host7 (b : Ref sig .tc) (hb : b ∉ ([main_v75, main_v76, main_v77, main_v78, main_v79, main_v80, main_v81, main_v82, main_cst_21, main_v83, main_v84, main_cst_22, main_v85, main_v86] : List (Ref sig .tc))) :
    W15 m ρ c (no_index (Proc.devRef .tc b)) = W14 m ρ c (Proc.devRef .tc b) :=
  StableHlo.after_of_writes_sub hostOps7 _ (writes7 (F := F)) hb

/-- Host stretch 8 writes only these buffers. -/
theorem writes8 : (hostOps8 : List (HloOp τ sig (Elt F))).Forall fun op =>
    op.writes ⊆ (([main_cst_23, main_v88, main_v89] : List (Ref sig .tc)).map (Proc.devRef (τ := τ) .tc)).toFinset := by
  simp only [hostOps8, List.Forall, StableHlo.nullary_writes, StableHlo.unary_writes, StableHlo.binary_writes,
    StableHlo.ternary_writes, StableHlo.quaternary_writes, StableHlo.reshape_writes]
  repeat' apply And.intro
  all_goals exact single_sub (by decide)

/-- A buffer host stretch 8 does not write is after it what it was before. -/
theorem host8 (b : Ref sig .tc) (hb : b ∉ ([main_cst_23, main_v88, main_v89] : List (Ref sig .tc))) :
    W17 m ρ c (no_index (Proc.devRef .tc b)) = W16 m ρ c (Proc.devRef .tc b) :=
  StableHlo.after_of_writes_sub hostOps8 _ (writes8 (F := F)) hb

/-- Host stretch 9 writes only these buffers. -/
theorem writes9 : (hostOps9 : List (HloOp τ sig (Elt F))).Forall fun op =>
    op.writes ⊆ (([main_cst_24, main_v91, main_v92] : List (Ref sig .tc)).map (Proc.devRef (τ := τ) .tc)).toFinset := by
  simp only [hostOps9, List.Forall, StableHlo.nullary_writes, StableHlo.unary_writes, StableHlo.binary_writes,
    StableHlo.ternary_writes, StableHlo.quaternary_writes, StableHlo.reshape_writes]
  repeat' apply And.intro
  all_goals exact single_sub (by decide)

/-- A buffer host stretch 9 does not write is after it what it was before. -/
theorem host9 (b : Ref sig .tc) (hb : b ∉ ([main_cst_24, main_v91, main_v92] : List (Ref sig .tc))) :
    W19 m ρ c (no_index (Proc.devRef .tc b)) = W18 m ρ c (Proc.devRef .tc b) :=
  StableHlo.after_of_writes_sub hostOps9 _ (writes9 (F := F)) hb

/-- Host stretch 10 writes only these buffers. -/
theorem writes10 : (hostOps10 : List (HloOp τ sig (Elt F))).Forall fun op =>
    op.writes ⊆ (([main_v94] : List (Ref sig .tc)).map (Proc.devRef (τ := τ) .tc)).toFinset := by
  simp only [hostOps10, List.Forall, StableHlo.nullary_writes, StableHlo.unary_writes, StableHlo.binary_writes,
    StableHlo.ternary_writes, StableHlo.quaternary_writes, StableHlo.reshape_writes]
  repeat' apply And.intro
  all_goals exact single_sub (by decide)

/-- A buffer host stretch 10 does not write is after it what it was before. -/
theorem host10 (b : Ref sig .tc) (hb : b ∉ ([main_v94] : List (Ref sig .tc))) :
    W21 m ρ c (no_index (Proc.devRef .tc b)) = W20 m ρ c (Proc.devRef .tc b) :=
  StableHlo.after_of_writes_sub hostOps10 _ (writes10 (F := F)) hb

/-- A buffer that is none of region 0's arrays is after the region what it was before. -/
theorem reg0 (b : Ref sig .tc) (hb : ∀ w, Pipeline.arrRef spec0 w ≠ b) :
    W2 m ρ c (no_index (Proc.devRef .tc b)) = W1 m ρ c (Proc.devRef .tc b) :=
  W2_of_ne m ρ c b hb

/-- A buffer that is none of region 1's arrays is after the region what it was before. -/
theorem reg1 (b : Ref sig .tc) (hb : ∀ w, Pipeline.arrRef spec1 w ≠ b) :
    W4 m ρ c (no_index (Proc.devRef .tc b)) = W3 m ρ c (Proc.devRef .tc b) :=
  W4_of_ne m ρ c b hb

/-- A buffer that is none of region 2's arrays is after the region what it was before. -/
theorem reg2 (b : Ref sig .tc) (hb : ∀ w, Pipeline.arrRef spec2 w ≠ b) :
    W6 m ρ c (no_index (Proc.devRef .tc b)) = W5 m ρ c (Proc.devRef .tc b) :=
  W6_of_ne m ρ c b hb

/-- A buffer that is none of region 3's arrays is after the region what it was before. -/
theorem reg3 (b : Ref sig .tc) (hb : ∀ w, Pipeline.arrRef spec3 w ≠ b) :
    W8 m ρ c (no_index (Proc.devRef .tc b)) = W7 m ρ c (Proc.devRef .tc b) :=
  W8_of_ne m ρ c b hb

/-- A buffer that is none of region 4's arrays is after the region what it was before. -/
theorem reg4 (b : Ref sig .tc) (hb : ∀ w, Pipeline.arrRef spec4 w ≠ b) :
    W10 m ρ c (no_index (Proc.devRef .tc b)) = W9 m ρ c (Proc.devRef .tc b) :=
  W10_of_ne m ρ c b hb

/-- A buffer that is none of region 5's arrays is after the region what it was before. -/
theorem reg5 (b : Ref sig .tc) (hb : ∀ w, Pipeline.arrRef spec5 w ≠ b) :
    W12 m ρ c (no_index (Proc.devRef .tc b)) = W11 m ρ c (Proc.devRef .tc b) :=
  W12_of_ne m ρ c b hb

/-- A buffer that is none of region 6's arrays is after the region what it was before. -/
theorem reg6 (b : Ref sig .tc) (hb : ∀ w, Pipeline.arrRef spec6 w ≠ b) :
    W14 m ρ c (no_index (Proc.devRef .tc b)) = W13 m ρ c (Proc.devRef .tc b) :=
  W14_of_ne m ρ c b hb

/-- A buffer that is none of region 7's arrays is after the region what it was before. -/
theorem reg7 (b : Ref sig .tc) (hb : ∀ w, Pipeline.arrRef spec7 w ≠ b) :
    W16 m ρ c (no_index (Proc.devRef .tc b)) = W15 m ρ c (Proc.devRef .tc b) :=
  W16_of_ne m ρ c b hb

/-- A buffer that is none of region 8's arrays is after the region what it was before. -/
theorem reg8 (b : Ref sig .tc) (hb : ∀ w, Pipeline.arrRef spec8 w ≠ b) :
    W18 m ρ c (no_index (Proc.devRef .tc b)) = W17 m ρ c (Proc.devRef .tc b) :=
  W18_of_ne m ρ c b hb

/-- A buffer that is none of region 9's arrays is after the region what it was before. -/
theorem reg9 (b : Ref sig .tc) (hb : ∀ w, Pipeline.arrRef spec9 w ≠ b) :
    W20 m ρ c (no_index (Proc.devRef .tc b)) = W19 m ρ c (Proc.devRef .tc b) :=
  W20_of_ne m ρ c b hb

/-! ## A region's input arrays

A region writes its four input arrays back as it found them. -/

theorem reg0_in0 :
    W2 m ρ c (no_index (Proc.devRef .tc main_v20)) = W1 m ρ c (Proc.devRef .tc main_v20) :=
  (W2_arr m ρ c 0).trans (((dat0 (V1 m ρ) c).arrAt_in 0 rfl _).trans (A_eq0 (V1 m ρ) c 0))

theorem reg0_in1 :
    W2 m ρ c (no_index (Proc.devRef .tc main_v32)) = W1 m ρ c (Proc.devRef .tc main_v32) :=
  (W2_arr m ρ c 1).trans (((dat0 (V1 m ρ) c).arrAt_in 1 rfl _).trans (A_eq0 (V1 m ρ) c 1))

theorem reg0_in2 :
    W2 m ρ c (no_index (Proc.devRef .tc main_v33)) = W1 m ρ c (Proc.devRef .tc main_v33) :=
  (W2_arr m ρ c 2).trans (((dat0 (V1 m ρ) c).arrAt_in 2 rfl _).trans (A_eq0 (V1 m ρ) c 2))

theorem reg0_in3 :
    W2 m ρ c (no_index (Proc.devRef .tc main_v34)) = W1 m ρ c (Proc.devRef .tc main_v34) :=
  (W2_arr m ρ c 3).trans (((dat0 (V1 m ρ) c).arrAt_in 3 rfl _).trans (A_eq0 (V1 m ρ) c 3))

theorem reg1_in0 :
    W4 m ρ c (no_index (Proc.devRef .tc main_v35)) = W3 m ρ c (Proc.devRef .tc main_v35) :=
  (W4_arr m ρ c 0).trans (((dat1 (V3 m ρ) c).arrAt_in 0 rfl _).trans (A_eq1 (V3 m ρ) c 0))

theorem reg1_in1 :
    W4 m ρ c (no_index (Proc.devRef .tc main_arg2)) = W3 m ρ c (Proc.devRef .tc main_arg2) :=
  (W4_arr m ρ c 1).trans (((dat1 (V3 m ρ) c).arrAt_in 1 rfl _).trans (A_eq1 (V3 m ρ) c 1))

theorem reg1_in2 :
    W4 m ρ c (no_index (Proc.devRef .tc main_v36)) = W3 m ρ c (Proc.devRef .tc main_v36) :=
  (W4_arr m ρ c 2).trans (((dat1 (V3 m ρ) c).arrAt_in 2 rfl _).trans (A_eq1 (V3 m ρ) c 2))

theorem reg1_in3 :
    W4 m ρ c (no_index (Proc.devRef .tc main_v37)) = W3 m ρ c (Proc.devRef .tc main_v37) :=
  (W4_arr m ρ c 3).trans (((dat1 (V3 m ρ) c).arrAt_in 3 rfl _).trans (A_eq1 (V3 m ρ) c 3))

theorem reg2_in0 :
    W6 m ρ c (no_index (Proc.devRef .tc main_v32)) = W5 m ρ c (Proc.devRef .tc main_v32) :=
  (W6_arr m ρ c 0).trans (((dat2 (V5 m ρ) c).arrAt_in 0 rfl _).trans (A_eq2 (V5 m ρ) c 0))

theorem reg2_in1 :
    W6 m ρ c (no_index (Proc.devRef .tc main_arg4)) = W5 m ρ c (Proc.devRef .tc main_arg4) :=
  (W6_arr m ρ c 1).trans (((dat2 (V5 m ρ) c).arrAt_in 1 rfl _).trans (A_eq2 (V5 m ρ) c 1))

theorem reg2_in2 :
    W6 m ρ c (no_index (Proc.devRef .tc main_v39)) = W5 m ρ c (Proc.devRef .tc main_v39) :=
  (W6_arr m ρ c 2).trans (((dat2 (V5 m ρ) c).arrAt_in 2 rfl _).trans (A_eq2 (V5 m ρ) c 2))

theorem reg2_in3 :
    W6 m ρ c (no_index (Proc.devRef .tc main_v40)) = W5 m ρ c (Proc.devRef .tc main_v40) :=
  (W6_arr m ρ c 3).trans (((dat2 (V5 m ρ) c).arrAt_in 3 rfl _).trans (A_eq2 (V5 m ρ) c 3))

theorem reg3_in0 :
    W8 m ρ c (no_index (Proc.devRef .tc main_v44)) = W7 m ρ c (Proc.devRef .tc main_v44) :=
  (W8_arr m ρ c 0).trans (((dat3 (V7 m ρ) c).arrAt_in 0 rfl _).trans (A_eq3 (V7 m ρ) c 0))

theorem reg3_in1 :
    W8 m ρ c (no_index (Proc.devRef .tc main_arg5)) = W7 m ρ c (Proc.devRef .tc main_arg5) :=
  (W8_arr m ρ c 1).trans (((dat3 (V7 m ρ) c).arrAt_in 1 rfl _).trans (A_eq3 (V7 m ρ) c 1))

theorem reg3_in2 :
    W8 m ρ c (no_index (Proc.devRef .tc main_v45)) = W7 m ρ c (Proc.devRef .tc main_v45) :=
  (W8_arr m ρ c 2).trans (((dat3 (V7 m ρ) c).arrAt_in 2 rfl _).trans (A_eq3 (V7 m ρ) c 2))

theorem reg3_in3 :
    W8 m ρ c (no_index (Proc.devRef .tc main_v46)) = W7 m ρ c (Proc.devRef .tc main_v46) :=
  (W8_arr m ρ c 3).trans (((dat3 (V7 m ρ) c).arrAt_in 3 rfl _).trans (A_eq3 (V7 m ρ) c 3))

theorem reg4_in0 :
    W10 m ρ c (no_index (Proc.devRef .tc main_v20)) = W9 m ρ c (Proc.devRef .tc main_v20) :=
  (W10_arr m ρ c 0).trans (((dat4 (V9 m ρ) c).arrAt_in 0 rfl _).trans (A_eq4 (V9 m ρ) c 0))

theorem reg4_in1 :
    W10 m ρ c (no_index (Proc.devRef .tc main_v51)) = W9 m ρ c (Proc.devRef .tc main_v51) :=
  (W10_arr m ρ c 1).trans (((dat4 (V9 m ρ) c).arrAt_in 1 rfl _).trans (A_eq4 (V9 m ρ) c 1))

theorem reg4_in2 :
    W10 m ρ c (no_index (Proc.devRef .tc main_v52)) = W9 m ρ c (Proc.devRef .tc main_v52) :=
  (W10_arr m ρ c 2).trans (((dat4 (V9 m ρ) c).arrAt_in 2 rfl _).trans (A_eq4 (V9 m ρ) c 2))

theorem reg4_in3 :
    W10 m ρ c (no_index (Proc.devRef .tc main_v53)) = W9 m ρ c (Proc.devRef .tc main_v53) :=
  (W10_arr m ρ c 3).trans (((dat4 (V9 m ρ) c).arrAt_in 3 rfl _).trans (A_eq4 (V9 m ρ) c 3))

theorem reg5_in0 :
    W12 m ρ c (no_index (Proc.devRef .tc main_v64)) = W11 m ρ c (Proc.devRef .tc main_v64) :=
  (W12_arr m ρ c 0).trans (((dat5 (V11 m ρ) c).arrAt_in 0 rfl _).trans (A_eq5 (V11 m ρ) c 0))

theorem reg5_in1 :
    W12 m ρ c (no_index (Proc.devRef .tc main_arg7)) = W11 m ρ c (Proc.devRef .tc main_arg7) :=
  (W12_arr m ρ c 1).trans (((dat5 (V11 m ρ) c).arrAt_in 1 rfl _).trans (A_eq5 (V11 m ρ) c 1))

theorem reg5_in2 :
    W12 m ρ c (no_index (Proc.devRef .tc main_v65)) = W11 m ρ c (Proc.devRef .tc main_v65) :=
  (W12_arr m ρ c 2).trans (((dat5 (V11 m ρ) c).arrAt_in 2 rfl _).trans (A_eq5 (V11 m ρ) c 2))

theorem reg5_in3 :
    W12 m ρ c (no_index (Proc.devRef .tc main_v66)) = W11 m ρ c (Proc.devRef .tc main_v66) :=
  (W12_arr m ρ c 3).trans (((dat5 (V11 m ρ) c).arrAt_in 3 rfl _).trans (A_eq5 (V11 m ρ) c 3))

theorem reg6_in0 :
    W14 m ρ c (no_index (Proc.devRef .tc main_v20)) = W13 m ρ c (Proc.devRef .tc main_v20) :=
  (W14_arr m ρ c 0).trans (((dat6 (V13 m ρ) c).arrAt_in 0 rfl _).trans (A_eq6 (V13 m ρ) c 0))

theorem reg6_in1 :
    W14 m ρ c (no_index (Proc.devRef .tc main_v71)) = W13 m ρ c (Proc.devRef .tc main_v71) :=
  (W14_arr m ρ c 1).trans (((dat6 (V13 m ρ) c).arrAt_in 1 rfl _).trans (A_eq6 (V13 m ρ) c 1))

theorem reg6_in2 :
    W14 m ρ c (no_index (Proc.devRef .tc main_v72)) = W13 m ρ c (Proc.devRef .tc main_v72) :=
  (W14_arr m ρ c 2).trans (((dat6 (V13 m ρ) c).arrAt_in 2 rfl _).trans (A_eq6 (V13 m ρ) c 2))

theorem reg6_in3 :
    W14 m ρ c (no_index (Proc.devRef .tc main_v73)) = W13 m ρ c (Proc.devRef .tc main_v73) :=
  (W14_arr m ρ c 3).trans (((dat6 (V13 m ρ) c).arrAt_in 3 rfl _).trans (A_eq6 (V13 m ρ) c 3))

theorem reg7_in0 :
    W16 m ρ c (no_index (Proc.devRef .tc main_v84)) = W15 m ρ c (Proc.devRef .tc main_v84) :=
  (W16_arr m ρ c 0).trans (((dat7 (V15 m ρ) c).arrAt_in 0 rfl _).trans (A_eq7 (V15 m ρ) c 0))

theorem reg7_in1 :
    W16 m ρ c (no_index (Proc.devRef .tc main_arg9)) = W15 m ρ c (Proc.devRef .tc main_arg9) :=
  (W16_arr m ρ c 1).trans (((dat7 (V15 m ρ) c).arrAt_in 1 rfl _).trans (A_eq7 (V15 m ρ) c 1))

theorem reg7_in2 :
    W16 m ρ c (no_index (Proc.devRef .tc main_v85)) = W15 m ρ c (Proc.devRef .tc main_v85) :=
  (W16_arr m ρ c 2).trans (((dat7 (V15 m ρ) c).arrAt_in 2 rfl _).trans (A_eq7 (V15 m ρ) c 2))

theorem reg7_in3 :
    W16 m ρ c (no_index (Proc.devRef .tc main_v86)) = W15 m ρ c (Proc.devRef .tc main_v86) :=
  (W16_arr m ρ c 3).trans (((dat7 (V15 m ρ) c).arrAt_in 3 rfl _).trans (A_eq7 (V15 m ρ) c 3))

theorem reg8_in0 :
    W18 m ρ c (no_index (Proc.devRef .tc main_v87)) = W17 m ρ c (Proc.devRef .tc main_v87) :=
  (W18_arr m ρ c 0).trans (((dat8 (V17 m ρ) c).arrAt_in 0 rfl _).trans (A_eq8 (V17 m ρ) c 0))

theorem reg8_in1 :
    W18 m ρ c (no_index (Proc.devRef .tc main_arg11)) = W17 m ρ c (Proc.devRef .tc main_arg11) :=
  (W18_arr m ρ c 1).trans (((dat8 (V17 m ρ) c).arrAt_in 1 rfl _).trans (A_eq8 (V17 m ρ) c 1))

theorem reg8_in2 :
    W18 m ρ c (no_index (Proc.devRef .tc main_v88)) = W17 m ρ c (Proc.devRef .tc main_v88) :=
  (W18_arr m ρ c 2).trans (((dat8 (V17 m ρ) c).arrAt_in 2 rfl _).trans (A_eq8 (V17 m ρ) c 2))

theorem reg8_in3 :
    W18 m ρ c (no_index (Proc.devRef .tc main_v89)) = W17 m ρ c (Proc.devRef .tc main_v89) :=
  (W18_arr m ρ c 3).trans (((dat8 (V17 m ρ) c).arrAt_in 3 rfl _).trans (A_eq8 (V17 m ρ) c 3))

theorem reg9_in0 :
    W20 m ρ c (no_index (Proc.devRef .tc main_v90)) = W19 m ρ c (Proc.devRef .tc main_v90) :=
  (W20_arr m ρ c 0).trans (((dat9 (V19 m ρ) c).arrAt_in 0 rfl _).trans (A_eq9 (V19 m ρ) c 0))

theorem reg9_in1 :
    W20 m ρ c (no_index (Proc.devRef .tc main_arg13)) = W19 m ρ c (Proc.devRef .tc main_arg13) :=
  (W20_arr m ρ c 1).trans (((dat9 (V19 m ρ) c).arrAt_in 1 rfl _).trans (A_eq9 (V19 m ρ) c 1))

theorem reg9_in2 :
    W20 m ρ c (no_index (Proc.devRef .tc main_v91)) = W19 m ρ c (Proc.devRef .tc main_v91) :=
  (W20_arr m ρ c 2).trans (((dat9 (V19 m ρ) c).arrAt_in 2 rfl _).trans (A_eq9 (V19 m ρ) c 2))

theorem reg9_in3 :
    W20 m ρ c (no_index (Proc.devRef .tc main_v92)) = W19 m ρ c (Proc.devRef .tc main_v92) :=
  (W20_arr m ρ c 3).trans (((dat9 (V19 m ρ) c).arrAt_in 3 rfl _).trans (A_eq9 (V19 m ρ) c 3))

end Cert.KernelIdeal.Keep

end

/-- Walks every buffer read in the goal back to the boundary right after the segment that last wrote it. -/
macro "keep_walk" : tactic =>
  `(tactic| simp (disch := decide) only [Cert.KernelIdeal.Keep.host0,
    Cert.KernelIdeal.Keep.host1,
    Cert.KernelIdeal.Keep.host2,
    Cert.KernelIdeal.Keep.host3,
    Cert.KernelIdeal.Keep.host4,
    Cert.KernelIdeal.Keep.host5,
    Cert.KernelIdeal.Keep.host6,
    Cert.KernelIdeal.Keep.host7,
    Cert.KernelIdeal.Keep.host8,
    Cert.KernelIdeal.Keep.host9,
    Cert.KernelIdeal.Keep.host10,
    Cert.KernelIdeal.Keep.reg0,
    Cert.KernelIdeal.Keep.reg1,
    Cert.KernelIdeal.Keep.reg2,
    Cert.KernelIdeal.Keep.reg3,
    Cert.KernelIdeal.Keep.reg4,
    Cert.KernelIdeal.Keep.reg5,
    Cert.KernelIdeal.Keep.reg6,
    Cert.KernelIdeal.Keep.reg7,
    Cert.KernelIdeal.Keep.reg8,
    Cert.KernelIdeal.Keep.reg9,
    Cert.KernelIdeal.Keep.reg0_in0,
    Cert.KernelIdeal.Keep.reg0_in1,
    Cert.KernelIdeal.Keep.reg0_in2,
    Cert.KernelIdeal.Keep.reg0_in3,
    Cert.KernelIdeal.Keep.reg1_in0,
    Cert.KernelIdeal.Keep.reg1_in1,
    Cert.KernelIdeal.Keep.reg1_in2,
    Cert.KernelIdeal.Keep.reg1_in3,
    Cert.KernelIdeal.Keep.reg2_in0,
    Cert.KernelIdeal.Keep.reg2_in1,
    Cert.KernelIdeal.Keep.reg2_in2,
    Cert.KernelIdeal.Keep.reg2_in3,
    Cert.KernelIdeal.Keep.reg3_in0,
    Cert.KernelIdeal.Keep.reg3_in1,
    Cert.KernelIdeal.Keep.reg3_in2,
    Cert.KernelIdeal.Keep.reg3_in3,
    Cert.KernelIdeal.Keep.reg4_in0,
    Cert.KernelIdeal.Keep.reg4_in1,
    Cert.KernelIdeal.Keep.reg4_in2,
    Cert.KernelIdeal.Keep.reg4_in3,
    Cert.KernelIdeal.Keep.reg5_in0,
    Cert.KernelIdeal.Keep.reg5_in1,
    Cert.KernelIdeal.Keep.reg5_in2,
    Cert.KernelIdeal.Keep.reg5_in3,
    Cert.KernelIdeal.Keep.reg6_in0,
    Cert.KernelIdeal.Keep.reg6_in1,
    Cert.KernelIdeal.Keep.reg6_in2,
    Cert.KernelIdeal.Keep.reg6_in3,
    Cert.KernelIdeal.Keep.reg7_in0,
    Cert.KernelIdeal.Keep.reg7_in1,
    Cert.KernelIdeal.Keep.reg7_in2,
    Cert.KernelIdeal.Keep.reg7_in3,
    Cert.KernelIdeal.Keep.reg8_in0,
    Cert.KernelIdeal.Keep.reg8_in1,
    Cert.KernelIdeal.Keep.reg8_in2,
    Cert.KernelIdeal.Keep.reg8_in3,
    Cert.KernelIdeal.Keep.reg9_in0,
    Cert.KernelIdeal.Keep.reg9_in1,
    Cert.KernelIdeal.Keep.reg9_in2,
    Cert.KernelIdeal.Keep.reg9_in3])
-- ==== Proof.LibScatter2.lean ====
/-
  READING A TWO-INDEX ELEMENT SCATTER-ADD AT AN INDEX, at any extents.

  `x.at[r, c].add(upd)` of a table `x : [N, M]` with index vectors `idx : [E, 2]` (row, column) and scalar updates
  `upd : [E]`, at the exact instance: update `e` lands on element `(idx[e,0], idx[e,1])`, both read signed and not
  clamped, and is dropped when either is out of range. So element `(n, s)` of the result is `x (n, s)` plus the sum of
  `upd e` over the `e` whose index vector is `(n, s)`.
-/
import Idealize.ShloMosaic.Lib.ValueIdx
import Idealize.ShloMosaic.Lib.ValueIdxRank1

noncomputable section

open scoped BigOperators

namespace Cert.LibScatter2

open Idealize.ShloMosaic Idealize.ShloMosaic.ValueIdx

section
variable {N M E w : Nat}

/-- The dimension numbers of a two-index element scatter: operand `[N, M]`, scatter indices `[E, 2]`, updates `[E]`; no
    window axis, both operand axes inserted, index component `k` names operand axis `k`. -/
abbrev elemScatterDims (N M E : Nat)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

variable (wf : ScatterDims.WF ⟨2, ![N, M]⟩ ⟨2, ![E, 2]⟩ ⟨1, ![E]⟩ [] [0, 1] [0, 1] 1) (idx : IVec ⟨2, ![E, 2]⟩ w)

/-- A sum over a rank-1 shape's indices is the sum over the coordinate. -/
private theorem sum_idx1 {A : Type*} [AddCommMonoid A] {n : Nat} (f : (⟨1, ![n]⟩ : Shape).Idx → A) :
    ∑ i, f i = ∑ a : Fin n, f (ix1 a) :=
  (Equiv.sum_comp (idxEquiv1 (n := n)).symm f).symm

/-- On the operand's row axis the window starts at the index vector's component 0, read signed. -/
theorem elemScatter_start0 (e : Fin E) :
    (elemScatterDims N M E wf).start (ix1 e) idx 0 = (idx (ix2 e 0)).toInt := by
  have hmem : (0 : Fin 2) ∈ (elemScatterDims N M E wf).scatterDimsToOperandDims := List.mem_cons_self
  unfold ScatterDims.start
  rw [dif_pos hmem]
  have hsi : (elemScatterDims N M E wf).siIdx (ix1 e)
      ⟨List.idxOf (0 : Fin 2) (elemScatterDims N M E wf).scatterDimsToOperandDims,
        List.idxOf_lt_length_iff.2 hmem⟩ = ix2 e 0 := by
    funext b; refine Fin.ext ?_
    match b with
    | ⟨0, _⟩ => rfl
    | ⟨1, _⟩ => rfl
  rw [hsi]

/-- On the operand's column axis the window starts at the index vector's component 1, read signed. -/
theorem elemScatter_start1 (e : Fin E) :
    (elemScatterDims N M E wf).start (ix1 e) idx 1 = (idx (ix2 e 1)).toInt := by
  have hmem : (1 : Fin 2) ∈ (elemScatterDims N M E wf).scatterDimsToOperandDims :=
    List.mem_cons_of_mem _ List.mem_cons_self
  unfold ScatterDims.start
  rw [dif_pos hmem]
  have hsi : (elemScatterDims N M E wf).siIdx (ix1 e)
      ⟨List.idxOf (1 : Fin 2) (elemScatterDims N M E wf).scatterDimsToOperandDims,
        List.idxOf_lt_length_iff.2 hmem⟩ = ix2 e 1 := by
    funext b; refine Fin.ext ?_
    match b with
    | ⟨0, _⟩ => rfl
    | ⟨1, _⟩ => rfl
  rw [hsi]

/-- Both operand axes are inserted: none is kept. -/
theorem elemScatter_sKept : (elemScatterDims N M E wf).sKept = [] := rfl

/-- No window coordinate on either axis: both are inserted. -/
theorem elemScatter_window (e : Fin E) (a : Fin 2) : (elemScatterDims N M E wf).window (ix1 e) a = 0 := by
  unfold ScatterDims.window
  rw [dif_neg (show a ∉ (elemScatterDims N M E wf).sKept from by
    rw [elemScatter_sKept]; exact List.not_mem_nil)]

/-- WHERE AN UPDATE LANDS: update element `e` lands on operand element `(n, s)` exactly when its index vector
    `(idx[e, 0], idx[e, 1])`, read signed, is `(n, s)`. -/
theorem elemScatter_resultIdx?_eq_some (e : Fin E) (n : Fin N) (s : Fin M) :
    (elemScatterDims N M E wf).resultIdx? (ix1 e) idx = some (ix2 n s)
      ↔ (idx (ix2 e 0)).toInt = (n.val : Int) ∧ (idx (ix2 e 1)).toInt = (s.val : Int) := by
  have hs0 := elemScatter_start0 wf idx e
  have hs1 := elemScatter_start1 wf idx e
  have hw0 := elemScatter_window wf e 0
  have hw1 := elemScatter_window wf e 1
  unfold ScatterDims.resultIdx?
  split
  · rename_i h
    rw [Option.some.injEq]
    constructor
    · intro heq
      have h0 : ((elemScatterDims N M E wf).start (ix1 e) idx 0
          + ((elemScatterDims N M E wf).window (ix1 e) 0 : Nat)).toNat = n.val :=
        congrArg (fun i : (⟨2, ![N, M]⟩ : Shape).Idx => (i 0).val) heq
      have h1 : ((elemScatterDims N M E wf).start (ix1 e) idx 1
          + ((elemScatterDims N M E wf).window (ix1 e) 1 : Nat)).toNat = s.val :=
        congrArg (fun i : (⟨2, ![N, M]⟩ : Shape).Idx => (i 1).val) heq
      have hh0 := (h 0).1
      have hh1 := (h 1).1
      rw [hs0, hw0] at h0 hh0
      rw [hs1, hw1] at h1 hh1
      exact ⟨by omega, by omega⟩
    · rintro ⟨ht0, ht1⟩
      funext a; refine Fin.ext ?_
      match a with
      | ⟨0, _⟩ =>
        show ((elemScatterDims N M E wf).start (ix1 e) idx 0
          + ((elemScatterDims N M E wf).window (ix1 e) 0 : Nat)).toNat = n.val
        rw [hs0, hw0]; omega
      | ⟨1, _⟩ =>
        show ((elemScatterDims N M E wf).start (ix1 e) idx 1
          + ((elemScatterDims N M E wf).window (ix1 e) 1 : Nat)).toNat = s.val
        rw [hs1, hw1]; omega
  · rename_i h
    refine iff_of_false (fun hc => Option.some_ne_none _ hc.symm) ?_
    rintro ⟨ht0, ht1⟩
    refine h fun a => ?_
    match a with
    | ⟨0, _⟩ =>
      show 0 ≤ (elemScatterDims N M E wf).start (ix1 e) idx 0 + ((elemScatterDims N M E wf).window (ix1 e) 0 : Nat)
        ∧ (elemScatterDims N M E wf).start (ix1 e) idx 0 + ((elemScatterDims N M E wf).window (ix1 e) 0 : Nat) < (N : Int)
      rw [hs0, hw0]; have := n.isLt; omega
    | ⟨1, _⟩ =>
      show 0 ≤ (elemScatterDims N M E wf).start (ix1 e) idx 1 + ((elemScatterDims N M E wf).window (ix1 e) 1 : Nat)
        ∧ (elemScatterDims N M E wf).start (ix1 e) idx 1 + ((elemScatterDims N M E wf).window (ix1 e) 1 : Nat) < (M : Int)
      rw [hs1, hw1]; have := s.isLt; omega

/-- THE TWO-INDEX ELEMENT SCATTER-ADD READ AT `(n, s)`: the operand's element plus the sum of the updates `upd e` over the
    `e` whose index vector `(idx[e,0], idx[e,1])`, read signed, is `(n, s)`. -/
theorem scatterAdd_elem2_apply {φ : FTy} (x : FVec Ideal ⟨2, ![N, M]⟩ φ) (upd : FVec Ideal ⟨1, ![E]⟩ φ)
    (n : Fin N) (s : Fin M) :
    Host.scatterAdd (elemScatterDims N M E wf) x idx upd (ix2 n s)
      = x (ix2 n s) + ∑ e ∈ Finset.univ.filter (fun e : Fin E =>
          (idx (ix2 e 0)).toInt = (n.val : Int) ∧ (idx (ix2 e 1)).toInt = (s.val : Int)), upd (ix1 e) := by
  show x (ix2 n s) + ∑ i ∈ Finset.univ.filter
      (fun i => (elemScatterDims N M E wf).resultIdx? i idx = some (ix2 n s)), upd i = _
  congr 1
  rw [Finset.sum_filter, sum_idx1, Finset.sum_filter]
  refine Finset.sum_congr rfl fun e _ => ?_
  simp only [elemScatter_resultIdx?_eq_some]

end

end Cert.LibScatter2

end
-- ==== Proof.LibIndexing.lean ====
/-
  READING A GATHER AND A SCATTER-ADD AT AN INDEX, at any extents.

  A row gather `x[idx]` of a table `[N, D]` and a vector gather of `[N]`, both at a column of start indices `[E, 1]`:
  the result's element is the operand's at the start index read as a signed integer and clamped into `[0, N − 1]`
  (`gather_rows_apply`, `gather_vec_apply`). A row scatter-add into `[N, D]` and a vector scatter-add into `[N]`, at a
  column of scatter indices `[E, 1]`, over the extended reals: the result's element is the operand's plus the sum of
  the updates whose scatter index, read signed and not clamped, is that element's row
  (`scatterAdd_rows_apply`, `scatterAdd_vec_apply`); an update whose index is outside `[0, N)` lands nowhere.
-/
import Idealize.ShloMosaic.Lib.ValueIdx
import Idealize.ShloMosaic.Lib.ValueIdxRank1

noncomputable section

open scoped BigOperators

namespace Cert.LibIndexing

open Idealize.ShloMosaic Idealize.ShloMosaic.ValueIdx

/-! ## A row gather: `x[idx]` of a table `x : [N, D]` at a column of start indices `idx : [E, 1]`

Result element `(e, j)` is the table's row at the start index `idx[e, 0]`, read as a signed integer and clamped into
`[0, N − 1]`, at column `j`. -/

section Gather
variable {α : Type}

/-- The dimension numbers of a row gather: operand `[N, D]`, start indices `[E, 1]`, result `[E, D]`; the result's
    axis 1 is the offset axis, the operand's axis 0 is collapsed and is the one the start index names, whole rows
    `[1, D]` are sliced. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, j)`: the table at row `idx[e, 0]` (signed, clamped into `[0, N − 1]`) and column `j`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N D E wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowGatherDims N D E wf).start (ix2 e j) idx 0 + (rowGatherDims N D E wf).batchCoord (ix2 e j) 0
        + (rowGatherDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e j) ⟨List.idxOf (0 : Fin 2) (rowGatherDims N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N D E wf).start (ix2 e j) idx 1 + (rowGatherDims N D E wf).batchCoord (ix2 e j) 1
        + (rowGatherDims N D E wf).offCoord (ix2 e j) 1 = _
    rw [GatherDims.batchCoord_eq_zero _ _ _ List.not_mem_nil]
    unfold GatherDims.start
    rw [dif_neg (show (1 : Fin 2) ∉ (rowGatherDims N D E wf).startIndexMap from
      fun h => absurd (congrArg Fin.val (List.mem_singleton.mp h)) Nat.one_ne_zero)]
    simp only [Nat.add_zero, Nat.zero_add]
    rfl

/-! ## A vector gather: `x[idx]` of a vector `x : [N]` at a column of start indices `idx : [E, 1]` -/

/-- The dimension numbers of a vector gather: operand `[N]`, start indices `[E, 1]`, result `[E]`; no offset axis, the
    operand's one axis is collapsed and is the one the start index names, single elements `[1]` are sliced. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the vector at `idx[e, 0]` (signed, clamped into `[0, N − 1]`). -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## A row scatter-add: `x.at[idx].add(upd)` of a table `x : [N, D]`, a column of scatter indices `idx : [E, 1]` and
update rows `upd : [E, D]`, at the exact instance

Update element `(e, j)` lands at row `idx[e, 0]` (read signed, not clamped) and column `j`, and is dropped when that row is
outside `[0, N)`. So element `(n, j)` of the result is `x (n, j)` plus the sum of `upd (e, j)` over the `e` whose index is `n`. -/

section ScatterRows
variable {N D E w : Nat}

/-- The dimension numbers of a row scatter: operand `[N, D]`, scatter indices `[E, 1]`, updates `[E, D]`; the updates'
    axis 1 is the window axis, the operand's axis 0 is inserted and is the one the scatter index names. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable (wf : ScatterDims.WF ⟨2, ![N, D]⟩ ⟨2, ![E, 1]⟩ ⟨2, ![E, D]⟩ [1] [0] [0] 1) (idx : IVec ⟨2, ![E, 1]⟩ w)

/-- On the operand's row axis the window starts at the scatter index, read signed. -/
theorem rowScatter_start0 (e : Fin E) (j : Fin D) :
    (rowScatterDims N D E wf).start (ix2 e j) idx 0 = (idx (ix2 e 0)).toInt := by
  unfold ScatterDims.start
  rw [dif_pos (show (0 : Fin 2) ∈ (rowScatterDims N D E wf).scatterDimsToOperandDims from List.mem_singleton.mpr rfl)]
  have hsi : (rowScatterDims N D E wf).siIdx (ix2 e j)
      ⟨List.idxOf (0 : Fin 2) (rowScatterDims N D E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's column axis the window starts at `0`. -/
theorem rowScatter_start1 (e : Fin E) (j : Fin D) : (rowScatterDims N D E wf).start (ix2 e j) idx 1 = 0 := by
  unfold ScatterDims.start
  rw [dif_neg (show (1 : Fin 2) ∉ (rowScatterDims N D E wf).scatterDimsToOperandDims from
    fun h => absurd (congrArg Fin.val (List.mem_singleton.mp h)) Nat.one_ne_zero)]

/-- The operand's axes that are not inserted: the column axis alone. -/
theorem rowScatter_sKept : (rowScatterDims N D E wf).sKept = [1] := rfl

/-- The row axis is inserted: no window coordinate there. -/
theorem rowScatter_window0 (e : Fin E) (j : Fin D) : (rowScatterDims N D E wf).window (ix2 e j) 0 = 0 := by
  unfold ScatterDims.window
  rw [dif_neg (show (0 : Fin 2) ∉ (rowScatterDims N D E wf).sKept from by
    rw [rowScatter_sKept]; exact fun h => absurd (congrArg Fin.val (List.mem_singleton.mp h)) Nat.zero_ne_one)]

/-- On the column axis the window coordinate is the update's column. -/
theorem rowScatter_window1 (e : Fin E) (j : Fin D) : (rowScatterDims N D E wf).window (ix2 e j) 1 = j.val := by
  unfold ScatterDims.window
  rw [dif_pos (show (1 : Fin 2) ∈ (rowScatterDims N D E wf).sKept from by
    rw [rowScatter_sKept]; exact List.mem_singleton.mpr rfl)]
  rfl

/-- WHERE AN UPDATE LANDS: update element `(e, j')` lands on operand element `(n, j)` exactly when the scatter index
    `idx[e, 0]`, read signed, is `n` and the columns agree. -/
theorem rowScatter_resultIdx?_eq_some (e : Fin E) (j' : Fin D) (n : Fin N) (j : Fin D) :
    (rowScatterDims N D E wf).resultIdx? (ix2 e j') idx = some (ix2 n j)
      ↔ (idx (ix2 e 0)).toInt = (n.val : Int) ∧ j' = j := by
  have hs0 := rowScatter_start0 wf idx e j'
  have hs1 := rowScatter_start1 wf idx e j'
  have hw0 := rowScatter_window0 wf e j'
  have hw1 := rowScatter_window1 wf e j'
  unfold ScatterDims.resultIdx?
  split
  · rename_i h
    rw [Option.some.injEq]
    constructor
    · intro heq
      have h0 : ((rowScatterDims N D E wf).start (ix2 e j') idx 0 + ((rowScatterDims N D E wf).window (ix2 e j') 0 : Nat)).toNat
          = n.val := congrArg (fun i : (⟨2, ![N, D]⟩ : Shape).Idx => (i 0).val) heq
      have h1 : ((rowScatterDims N D E wf).start (ix2 e j') idx 1 + ((rowScatterDims N D E wf).window (ix2 e j') 1 : Nat)).toNat
          = j.val := congrArg (fun i : (⟨2, ![N, D]⟩ : Shape).Idx => (i 1).val) heq
      have hh := (h 0).1
      rw [hs0, hw0] at h0 hh
      rw [hs1, hw1] at h1
      refine ⟨by omega, Fin.ext (by omega)⟩
    · rintro ⟨ht, rfl⟩
      funext a; refine Fin.ext ?_
      match a with
      | ⟨0, _⟩ =>
        show ((rowScatterDims N D E wf).start (ix2 e j') idx 0 + ((rowScatterDims N D E wf).window (ix2 e j') 0 : Nat)).toNat = n.val
        rw [hs0, hw0]; omega
      | ⟨1, _⟩ =>
        show ((rowScatterDims N D E wf).start (ix2 e j') idx 1 + ((rowScatterDims N D E wf).window (ix2 e j') 1 : Nat)).toNat = j'.val
        rw [hs1, hw1]; omega
  · rename_i h
    refine iff_of_false (fun hc => Option.some_ne_none _ hc.symm) ?_
    rintro ⟨ht, rfl⟩
    refine h fun a => ?_
    match a with
    | ⟨0, _⟩ =>
      show 0 ≤ (rowScatterDims N D E wf).start (ix2 e j') idx 0 + ((rowScatterDims N D E wf).window (ix2 e j') 0 : Nat)
        ∧ (rowScatterDims N D E wf).start (ix2 e j') idx 0 + ((rowScatterDims N D E wf).window (ix2 e j') 0 : Nat) < (N : Int)
      rw [hs0, hw0]; have := n.isLt; omega
    | ⟨1, _⟩ =>
      show 0 ≤ (rowScatterDims N D E wf).start (ix2 e j') idx 1 + ((rowScatterDims N D E wf).window (ix2 e j') 1 : Nat)
        ∧ (rowScatterDims N D E wf).start (ix2 e j') idx 1 + ((rowScatterDims N D E wf).window (ix2 e j') 1 : Nat) < (D : Int)
      rw [hs1, hw1]; have := j'.isLt; omega

/-- THE ROW SCATTER-ADD READ AT `(n, j)`: the operand's element plus the sum of the updates `upd (e, j)` over the `e`
    whose scatter index `idx[e, 0]`, read signed, is `n`. -/
theorem scatterAdd_rows_apply {φ : FTy} (x : FVec Ideal ⟨2, ![N, D]⟩ φ) (upd : FVec Ideal ⟨2, ![E, D]⟩ φ)
    (n : Fin N) (j : Fin D) :
    Host.scatterAdd (rowScatterDims N D E wf) x idx upd (ix2 n j)
      = x (ix2 n j) + ∑ e ∈ Finset.univ.filter (fun e : Fin E => (idx (ix2 e 0)).toInt = (n.val : Int)), upd (ix2 e j) := by
  show x (ix2 n j) + ∑ i ∈ Finset.univ.filter
      (fun i => (rowScatterDims N D E wf).resultIdx? i idx = some (ix2 n j)), upd i = _
  congr 1
  rw [Finset.sum_filter, sum_idx2, Finset.sum_filter]
  refine Finset.sum_congr rfl fun e _ => ?_
  simp only [rowScatter_resultIdx?_eq_some]
  by_cases ht : (idx (ix2 e 0)).toInt = (n.val : Int)
  · simp only [ht, true_and, if_true]
    rw [Finset.sum_ite_eq' Finset.univ j (fun b => upd (ix2 e b))]
    simp
  · simp only [ht, false_and, if_false, Finset.sum_const_zero]

end ScatterRows

/-! ## A vector scatter-add: `x.at[idx].add(upd)` of a vector `x : [N]`, a column of scatter indices `idx : [E, 1]` and
updates `upd : [E]`, at the exact instance -/

section ScatterVec
variable {N E w : Nat}

/-- A sum over a rank-1 shape's indices is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The dimension numbers of a vector scatter: operand `[N]`, scatter indices `[E, 1]`, updates `[E]`; no window axis,
    the operand's one axis is inserted and is the one the scatter index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1) (idx : IVec ⟨2, ![E, 1]⟩ w)

/-- On the operand's one axis the window starts at the scatter index, read signed. -/
theorem vecScatter_start0 (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: none is kept. -/
theorem vecScatter_sKept : (vecScatterDims N E wf).sKept = [] := rfl

/-- No window coordinate on the inserted axis. -/
theorem vecScatter_window0 (e : Fin E) : (vecScatterDims N E wf).window (ix1 e) 0 = 0 := by
  unfold ScatterDims.window
  rw [dif_neg (show (0 : Fin 1) ∉ (vecScatterDims N E wf).sKept from by
    rw [vecScatter_sKept]; exact List.not_mem_nil)]

/-- WHERE AN UPDATE LANDS: update element `e` lands on operand element `n` exactly when the scatter index `idx[e, 0]`,
    read signed, is `n`. -/
theorem vecScatter_resultIdx?_eq_some (e : Fin E) (n : Fin N) :
    (vecScatterDims N E wf).resultIdx? (ix1 e) idx = some (ix1 n) ↔ (idx (ix2 e 0)).toInt = (n.val : Int) := by
  have hs0 := vecScatter_start0 wf idx e
  have hw0 := vecScatter_window0 wf e
  unfold ScatterDims.resultIdx?
  split
  · rename_i h
    rw [Option.some.injEq]
    constructor
    · intro heq
      have h0 : ((vecScatterDims N E wf).start (ix1 e) idx 0 + ((vecScatterDims N E wf).window (ix1 e) 0 : Nat)).toNat
          = n.val := congrArg (fun i : (⟨1, ![N]⟩ : Shape).Idx => (i 0).val) heq
      have hh := (h 0).1
      rw [hs0, hw0] at h0 hh
      omega
    · intro ht
      funext a; refine Fin.ext ?_
      match a with
      | ⟨0, _⟩ =>
        show ((vecScatterDims N E wf).start (ix1 e) idx 0 + ((vecScatterDims N E wf).window (ix1 e) 0 : Nat)).toNat = n.val
        rw [hs0, hw0]; omega
  · rename_i h
    refine iff_of_false (fun hc => Option.some_ne_none _ hc.symm) ?_
    intro ht
    refine h fun a => ?_
    match a with
    | ⟨0, _⟩ =>
      show 0 ≤ (vecScatterDims N E wf).start (ix1 e) idx 0 + ((vecScatterDims N E wf).window (ix1 e) 0 : Nat)
        ∧ (vecScatterDims N E wf).start (ix1 e) idx 0 + ((vecScatterDims N E wf).window (ix1 e) 0 : Nat) < (N : Int)
      rw [hs0, hw0]; have := n.isLt; omega

/-- THE VECTOR SCATTER-ADD READ AT `n`: the operand's element plus the sum of the updates `upd e` over the `e` whose
    scatter index `idx[e, 0]`, read signed, is `n`. -/
theorem scatterAdd_vec_apply {φ : FTy} (x : FVec Ideal ⟨1, ![N]⟩ φ) (upd : FVec Ideal ⟨1, ![E]⟩ φ) (n : Fin N) :
    Host.scatterAdd (vecScatterDims N E wf) x idx upd (ix1 n)
      = x (ix1 n) + ∑ e ∈ Finset.univ.filter (fun e : Fin E => (idx (ix2 e 0)).toInt = (n.val : Int)), upd (ix1 e) := by
  show x (ix1 n) + ∑ i ∈ Finset.univ.filter
      (fun i => (vecScatterDims N E wf).resultIdx? i idx = some (ix1 n)), upd i = _
  congr 1
  rw [Finset.sum_filter, sum_idx1, Finset.sum_filter]
  refine Finset.sum_congr rfl fun e _ => ?_
  simp only [vecScatter_resultIdx?_eq_some]

end ScatterVec

end Cert.LibIndexing

end
-- ==== Proof.IndexNorm.lean ====
/-
  NODE INDICES IN RANGE. For a 32-bit index word `v` with `0 ≤ v < 4096` (read signed): NumPy's negative-index wrap
  `select (v <ₛ 0) (v + 4096) v` leaves it alone, a gather's clamp into `[0, 4095]` leaves it alone, it names one node
  `node v : Fin 4096`, and the index words an `iota` makes name the nodes in order.
-/
import Idealize.ShloMosaic.PureOps
import Idealize.ShloMosaic.Lib.StableHlo.Predicate

noncomputable section

namespace Cert.IndexNorm

open Idealize.ShloMosaic

/-- The negative-index wrap at extent 4096, elementwise, is the identity where the index is nonnegative. `zero` and
    `n` are the splat operands the program builds; `hz`, `hn` say what they hold at `i`. -/
theorem wrap_apply {s : Shape} (v zero n : IVec s 32) (i : s.Idx) (hz : zero i = 0#32) (hn : n i = 4096#32)
    (h0 : 0 ≤ (v i).toInt) :
    select (cmpi .slt v zero) (addi v n) v i = v i := by
  have hs : (v i).slt (zero i) = false := by
    rw [hz]
    unfold BitVec.slt
    rw [BitVec.toInt_zero]
    exact decide_eq_false (by omega)
  show (if BitVec.ofBool ((v i).slt (zero i)) = 1 then IntOp.addi (v i) (n i) else v i) = v i
  rw [hs]
  exact if_neg (by decide)

/-- A gather's clamp into `[0, 4095]` is the identity on an index in range. -/
theorem clamp_eq (v : BitVec 32) (h0 : 0 ≤ v.toInt) (h1 : v.toInt < 4096) :
    min v.toInt.toNat (4096 - 1) = v.toInt.toNat := by
  omega

/-- The node an in-range index word names. -/
def node (v : BitVec 32) (h0 : 0 ≤ v.toInt) (h1 : v.toInt < 4096) : Fin 4096 := ⟨v.toInt.toNat, by omega⟩

theorem node_val (v : BitVec 32) (h0 : 0 ≤ v.toInt) (h1 : v.toInt < 4096) : ((node v h0 h1).val : Int) = v.toInt := by
  show ((v.toInt.toNat : Nat) : Int) = v.toInt
  omega

/-- An in-range index word, read signed, is a given node's number iff it names that node. -/
theorem toInt_eq_iff (v : BitVec 32) (h0 : 0 ≤ v.toInt) (h1 : v.toInt < 4096) (n : Fin 4096) :
    v.toInt = (n.val : Int) ↔ node v h0 h1 = n := by
  constructor
  · intro h
    apply Fin.ext
    show v.toInt.toNat = n.val
    omega
  · intro h
    rw [← h]
    exact (node_val v h0 h1).symm

/-- The index word an `iota` makes for node `p`, read signed, is `p`. -/
theorem iota_toInt (p : Fin 4096) : (BitVec.ofNat 32 p.val).toInt = (p.val : Int) := by
  exact StableHlo.Predicate.toInt_ofNat_small p.val (by have := p.isLt; omega)

/-- and it is in range. -/
theorem iota_range (p : Fin 4096) : 0 ≤ (BitVec.ofNat 32 p.val).toInt ∧ (BitVec.ofNat 32 p.val).toInt < 4096 := by
  rw [iota_toInt]
  have := p.isLt
  omega

end Cert.IndexNorm

end
-- ==== Proof.GraphData.lean ====
/-
  THE GRAPH THE TWO PROGRAMS SHARE. The edge list is an integer array `[2, 65536]`: row 0 the sources, row 1 the
  destinations. When every entry, read signed, lies in `[0, 4096)`, edge `e` runs from node `srcN e` to node `dstN e`; the
  in-degree of node `n` is the number of edges into it, written as a sum of ones over the extended reals (the form the
  two programs' degree scatters read as).
-/
import Idealize.ShloMosaic.Lib.ValueIdx
import Idealize.ShloMosaic.PureOps.Ideal
import proofs.«401099_j71683004170518_2_alg».proof.Proof.IndexNorm

noncomputable section

open scoped BigOperators

namespace Cert.GraphData

open Idealize.ShloMosaic Idealize.ShloMosaic.ValueIdx

/-- The edge list: row 0 the sources, row 1 the destinations. -/
abbrev EdgeList := IVec (⟨2, ![2, 65536]⟩ : Shape) 32

/-- Every entry of the edge list, read signed, is a node number. -/
def InRange (ei : EdgeList) : Prop := ∀ i, 0 ≤ (ei i).toInt ∧ (ei i).toInt < 4096

/-- Edge `e`'s source word and destination word. -/
def srcW (ei : EdgeList) (e : Fin 65536) : BitVec 32 := ei (ix2 0 e)
def dstW (ei : EdgeList) (e : Fin 65536) : BitVec 32 := ei (ix2 1 e)

/-- Edge `e`'s source node and destination node. -/
def srcN (ei : EdgeList) (h : InRange ei) (e : Fin 65536) : Fin 4096 :=
  Cert.IndexNorm.node (srcW ei e) (h (ix2 0 e)).1 (h (ix2 0 e)).2
def dstN (ei : EdgeList) (h : InRange ei) (e : Fin 65536) : Fin 4096 :=
  Cert.IndexNorm.node (dstW ei e) (h (ix2 1 e)).1 (h (ix2 1 e)).2

theorem srcW_toInt (ei : EdgeList) (h : InRange ei) (e : Fin 65536) : (srcW ei e).toInt = ((srcN ei h e).val : Int) :=
  (Cert.IndexNorm.node_val _ _ _).symm
theorem dstW_toInt (ei : EdgeList) (h : InRange ei) (e : Fin 65536) : (dstW ei e).toInt = ((dstN ei h e).val : Int) :=
  (Cert.IndexNorm.node_val _ _ _).symm

/-- The in-degree of node `n`: one for each edge into it. -/
def degIn (ei : EdgeList) (h : InRange ei) (n : Fin 4096) : EReal :=
  ∑ _e ∈ Finset.univ.filter (fun e : Fin 65536 => dstN ei h e = n), (1 : EReal)

/-- The adjacency count: one for each edge from `s` into `n`. -/
def adj (ei : EdgeList) (h : InRange ei) (n s : Fin 4096) : EReal :=
  ∑ _e ∈ Finset.univ.filter (fun e : Fin 65536 => dstN ei h e = n ∧ srcN ei h e = s), (1 : EReal)

/-- The symmetric normalisation's node weight: `(in-degree + 1) ^ (-1/2)`, as both programs compute it (the host's
    power function at the float word of `-0.5`). -/
def dinv (ei : EdgeList) (h : InRange ei) (n : Fin 4096) : EReal :=
  Ideal.pow (degIn ei h n + 1) (Ideal.ofBits .f32 0xBF000000#32)

end Cert.GraphData

end
-- ==== Proof.KernelHost0.lean ====
/-
  THE KERNEL PROGRAM'S FIRST HOST STRETCH, read at an index. Before the first region the host builds, from the edge
  list alone: the dense adjacency counts `A (n, s) = #{e | dst e = n ∧ src e = s}` (a two-index scatter-add of ones into
  zeros, after NumPy's negative-index wrap of both index rows), the in-degree (a scatter-add of ones at the
  destinations), the mean aggregation's row scale `1 / max(deg, 1)`, the symmetric normalisation's weight
  `(deg + 1) ^ (-1/2)`, a copy of the features, and a zero bias row. With every edge entry a node number the wrap is the
  identity and these read as the graph's counts.
-/
import proofs.«401099_j71683004170518_2_alg».proof.Proof.Gen.KernelIdeal.Frame
import proofs.«401099_j71683004170518_2_alg».proof.Proof.LibScatter2
import proofs.«401099_j71683004170518_2_alg».proof.Proof.LibIndexing
import proofs.«401099_j71683004170518_2_alg».proof.Proof.IndexNorm
import proofs.«401099_j71683004170518_2_alg».proof.Proof.GraphData
import proofs.«401099_j71683004170518_2_alg».proof.Proof.RealVals
import proofs.«401099_j71683004170518_2_alg».proof.Proof.MatmulSpec
import Idealize.ShloMosaic.Lib.Pipeline.Value
import Idealize.ShloMosaic.Lib.ValueIdx
import Idealize.ShloMosaic.Lib.ValueIdxRank1
import Idealize.ShloMosaic.Lib.ValueLayout
import Idealize.ShloMosaic.Lib.StableHlo.Run

set_option maxRecDepth 16384

noncomputable section

open scoped BigOperators

namespace Cert.KernelIdeal.Host0

open Idealize.ShloMosaic Idealize.ShloMosaic.ValueIdx Idealize.ShloMosaic.TcCoe Idealize.SL.Sem Idealize.ShloMosaic.StableHlo
open Cert.KernelIdeal Cert.KernelIdeal.Gen Cert.GraphData

variable (m : (ℓ : Loc nD τ sig) → Buf (Elt Ideal) ℓ) (ρ : Dev nD → PrngReg) (c : Dev nD)

/-- The edge list the program was launched with. -/
abbrev edges : EdgeList := m ((c.tc : Thread nD τ).loc main_arg1)

/-! ## The stretch's values, as functions of the edge list -/

/-- Row 0 (the sources) and row 1 (the destinations) of the edge list, each as a vector: a slice, then a reshape. -/
private def srcV (ei : EdgeList) : IVec S65536 32 :=
  shapeCast S65536 (extractStridedSlice S1x65536 ![0, 0] ei Facts₀.slices_S2x65536_S1x65536_0_0) Facts₀.shapeCasts_S1x65536_S65536
private def dstV (ei : EdgeList) : IVec S65536 32 :=
  shapeCast S65536 (extractStridedSlice S1x65536 ![1, 0] ei Facts₀.slices_S2x65536_S1x65536_1_0) Facts₀.shapeCasts_S1x65536_S65536

/-- The splats of the index words `0` and `4096`. -/
private def zeroV : IVec S65536 32 := broadcastInDim S65536 ![] Facts₀.bcast_S_S65536 (constantI S_ 32 0#32)
private def extV : IVec S65536 32 := broadcastInDim S65536 ![] Facts₀.bcast_S_S65536 (constantI S_ 32 4096#32)

/-- The negative-index wrap at extent 4096. -/
private def wrapV (v : IVec S65536 32) : IVec S65536 32 := select (cmpi .slt v zeroV) (addi v extV) v

/-- A vector as a one-column matrix. -/
private def colV (v : IVec S65536 32) : IVec S65536x1 32 := broadcastInDim S65536x1 ![0] Facts₀.bcast_S65536_S65536x1_0 v

/-- The two-column index matrix: column 0 the wrapped destinations, column 1 the wrapped sources. -/
private def idxV (ei : EdgeList) : IVec S65536x2 32 :=
  concatenate S65536x2 1 [⟨S65536x1, colV (wrapV (dstV ei))⟩, ⟨S65536x1, colV (wrapV (srcV ei))⟩]
    Facts₀.concatenates_S65536x1_S65536x1_S65536x2_d1

/-- The splats of the float words of one, zero and minus one half. -/
private def onesE : FVec Ideal S65536 .f32 := broadcastInDim S65536 ![] Facts₀.bcast_S_S65536 (constant S_ .f32 0x3F800000#32)
private def zerosNN : FVec Ideal S4096x4096 .f32 := broadcastInDim S4096x4096 ![] Facts₀.bcast_S_S4096x4096 (constant S_ .f32 0x00000000#32)
private def zerosN : FVec Ideal S4096 .f32 := broadcastInDim S4096 ![] Facts₀.bcast_S_S4096 (constant S_ .f32 0x00000000#32)
private def onesN : FVec Ideal S4096 .f32 := broadcastInDim S4096 ![] Facts₀.bcast_S_S4096 (constant S_ .f32 0x3F800000#32)
private def halfN : FVec Ideal S4096 .f32 := broadcastInDim S4096 ![] Facts₀.bcast_S_S4096 (constant S_ .f32 0xBF000000#32)

/-- The adjacency scatter and the degree scatter. -/
private def adjV (ei : EdgeList) : FVec Ideal S4096x4096 .f32 :=
  Host.scatterAdd scatter_S4096x4096_S65536x2_S65536_n_01_01_1 zerosNN (idxV ei) onesE
private def degV (ei : EdgeList) : FVec Ideal S4096 .f32 :=
  Host.scatterAdd scatter_S4096_S65536x1_S65536_n_0_0_1 zerosN (colV (dstV ei)) onesE

/-! ## Each result buffer after the stretch, as such a function of the launch's edge list -/

private theorem v32_eq : W1 m ρ c (Proc.devRef .tc main_v32)
    = (truncf .bf16 (m ((c.tc : Thread nD τ).loc main_arg0)) Facts₀.bitsLt_bf16_f32 : FVec Ideal S4096x4096 .bf16) := by
  show StableHlo.after hostOps0 (W0 m ρ c) (Proc.devRef .tc main_v32) = _
  after_results_simp

private theorem v34_eq : W1 m ρ c (Proc.devRef .tc main_v34)
    = (broadcastInDim S1x4096 ![] Facts₀.bcast_S_S1x4096 (constant S_ .f32 0x00000000#32 : FVec Ideal S_ .f32) : FVec Ideal S1x4096 .f32) := by
  show StableHlo.after hostOps0 (W0 m ρ c) (Proc.devRef .tc main_v34) = _
  after_results_simp

private theorem v20_eq : W1 m ρ c (Proc.devRef .tc main_v20)
    = (truncf .bf16 (adjV (edges m c)) Facts₀.bitsLt_bf16_f32 : FVec Ideal S4096x4096 .bf16) := by
  show StableHlo.after hostOps0 (W0 m ρ c) (Proc.devRef .tc main_v20) = _
  after_results_simp
  rfl

private theorem v33_eq : W1 m ρ c (Proc.devRef .tc main_v33)
    = (shapeCast S4096x1 (Host.divf onesN (maximumf (degV (edges m c)) onesN)) Facts₀.shapeCasts_S4096_S4096x1 : FVec Ideal S4096x1 .f32) := by
  show StableHlo.after hostOps0 (W0 m ρ c) (Proc.devRef .tc main_v33) = _
  after_results_simp
  rfl

private theorem v31_eq : W1 m ρ c (Proc.devRef .tc main_v31)
    = (Host.powf (addf (degV (edges m c)) onesN) halfN : FVec Ideal S4096 .f32) := by
  show StableHlo.after hostOps0 (W0 m ρ c) (Proc.devRef .tc main_v31) = _
  after_results_simp
  rfl

/-! ## The index words, read at an edge -/

private theorem srcV_apply (ei : EdgeList) (e : Fin 65536) : srcV ei (ix1 e) = srcW ei e := by
  unfold srcV srcW
  rw [shapeCast_apply _ Facts₀.shapeCasts_S1x65536_S65536 (ix1 e) (ix2 (0 : Fin 1) e)
    (by rewrite [Shape.rowMajor_val_two, Shape.rowMajor_val_one]; show 0 * 65536 + e.val = e.val; omega)]
  exact extractStridedSlice_apply ![0, 0] ei Facts₀.slices_S2x65536_S1x65536_0_0 (ix2 (0 : Fin 1) e) (ix2 (0 : Fin 2) e)
    (fun a => match a with
      | ⟨0, _⟩ => by show (0 : Nat) = 0 + 0; rfl
      | ⟨1, _⟩ => by show e.val = 0 + e.val; omega)

private theorem dstV_apply (ei : EdgeList) (e : Fin 65536) : dstV ei (ix1 e) = dstW ei e := by
  unfold dstV dstW
  rw [shapeCast_apply _ Facts₀.shapeCasts_S1x65536_S65536 (ix1 e) (ix2 (0 : Fin 1) e)
    (by rewrite [Shape.rowMajor_val_two, Shape.rowMajor_val_one]; show 0 * 65536 + e.val = e.val; omega)]
  exact extractStridedSlice_apply ![1, 0] ei Facts₀.slices_S2x65536_S1x65536_1_0 (ix2 (0 : Fin 1) e) (ix2 (1 : Fin 2) e)
    (fun a => match a with
      | ⟨0, _⟩ => by show (1 : Nat) = 1 + 0; rfl
      | ⟨1, _⟩ => by show e.val = 0 + e.val; omega)

private theorem zeroV_apply (i : S65536.Idx) : zeroV i = 0#32 := by
  unfold zeroV
  exact broadcastInDim_apply _ Facts₀.bcast_S_S65536 _ i (fun a => a.elim0) (fun a => a.elim0)

private theorem extV_apply (i : S65536.Idx) : extV i = 4096#32 := by
  unfold extV
  exact broadcastInDim_apply _ Facts₀.bcast_S_S65536 _ i (fun a => a.elim0) (fun a => a.elim0)

/-- On a nonnegative index word the wrap is the identity. -/
private theorem wrapV_apply (v : IVec S65536 32) (i : S65536.Idx) (h0 : 0 ≤ (v i).toInt) : wrapV v i = v i :=
  Cert.IndexNorm.wrap_apply v zeroV extV i (zeroV_apply i) (extV_apply i) h0

private theorem colV_apply (v : IVec S65536 32) (e : Fin 65536) : colV v (ix2 e 0) = v (ix1 e) := by
  unfold colV
  exact broadcastInDim_apply _ Facts₀.bcast_S65536_S65536x1_0 v (ix2 e 0) (ix1 e) (fun a => match a with
    | ⟨0, _⟩ => by show e.val = if (65536 : Nat) = 1 then 0 else e.val; rw [if_neg (by decide)])

/-- Column 0 of the index matrix at edge `e` is the wrapped destination word, column 1 the wrapped source word. -/
private theorem idxV_apply0 (ei : EdgeList) (e : Fin 65536) : idxV ei (ix2 e 0) = wrapV (dstV ei) (ix1 e) := by
  unfold idxV
  exact (concatenate_pair_apply_left (t := S65536x2) (s₁ := S65536x1) (s₂ := S65536x1) (1 : Fin 2) _ _
    Facts₀.concatenates_S65536x1_S65536x1_S65536x2_d1 (ix2 e (0 : Fin 2)) rfl (ix2 e (0 : Fin 1))
    (fun b => match b with
      | ⟨0, _⟩ => rfl
      | ⟨1, _⟩ => rfl)).trans (colV_apply _ e)

private theorem idxV_apply1 (ei : EdgeList) (e : Fin 65536) : idxV ei (ix2 e 1) = wrapV (srcV ei) (ix1 e) := by
  unfold idxV
  exact (concatenate_pair_apply_right (t := S65536x2) (s₁ := S65536x1) (s₂ := S65536x1) (1 : Fin 2) _ _
    Facts₀.concatenates_S65536x1_S65536x1_S65536x2_d1 (ix2 e (1 : Fin 2)) rfl rfl (ix2 e (0 : Fin 1))
    (fun b => match b with
      | ⟨0, _⟩ => fun _ => rfl
      | ⟨1, _⟩ => fun hb => absurd rfl hb)
    rfl).trans (colV_apply _ e)

/-- With every entry a node number, the two index words at edge `e` are the edge's destination and source words. -/
private theorem idxV_dst (ei : EdgeList) (h : InRange ei) (e : Fin 65536) : idxV ei (ix2 e 0) = dstW ei e := by
  rw [idxV_apply0, wrapV_apply _ _ (by rw [dstV_apply]; exact (h (ix2 1 e)).1), dstV_apply]

private theorem idxV_src (ei : EdgeList) (h : InRange ei) (e : Fin 65536) : idxV ei (ix2 e 1) = srcW ei e := by
  rw [idxV_apply1, wrapV_apply _ _ (by rw [srcV_apply]; exact (h (ix2 0 e)).1), srcV_apply]

/-! ## The float splats -/

private theorem onesE_apply (i : S65536.Idx) : onesE i = 1 := by
  unfold onesE
  rw [broadcastInDim_apply _ Facts₀.bcast_S_S65536 _ i (fun a => a.elim0) (fun a => a.elim0), constant_apply]
  exact Cert.RealVals.ofBits_one

private theorem zerosNN_apply (i : S4096x4096.Idx) : zerosNN i = 0 := by
  unfold zerosNN
  rw [broadcastInDim_apply _ Facts₀.bcast_S_S4096x4096 _ i (fun a => a.elim0) (fun a => a.elim0), constant_apply]
  exact Cert.RealVals.ofBits_zero

private theorem zerosN_apply (i : S4096.Idx) : zerosN i = 0 := by
  unfold zerosN
  rw [broadcastInDim_apply _ Facts₀.bcast_S_S4096 _ i (fun a => a.elim0) (fun a => a.elim0), constant_apply]
  exact Cert.RealVals.ofBits_zero

private theorem onesN_apply (i : S4096.Idx) : onesN i = 1 := by
  unfold onesN
  rw [broadcastInDim_apply _ Facts₀.bcast_S_S4096 _ i (fun a => a.elim0) (fun a => a.elim0), constant_apply]
  exact Cert.RealVals.ofBits_one

private theorem halfN_apply (i : S4096.Idx) : halfN i = Ideal.ofBits .f32 0xBF000000#32 := by
  unfold halfN
  rw [broadcastInDim_apply _ Facts₀.bcast_S_S4096 _ i (fun a => a.elim0) (fun a => a.elim0), constant_apply]

/-! ## The two scatters, read at a node -/

/-- The two-index scatter of ones into zeros counts the edges from `s` into `n`. -/
private theorem adjV_apply (ei : EdgeList) (h : InRange ei) (n s : Fin 4096) : adjV ei (ix2 n s) = adj ei h n s := by
  unfold adjV
  have hs : Host.scatterAdd scatter_S4096x4096_S65536x2_S65536_n_01_01_1 zerosNN (idxV ei) onesE (ix2 n s) = _ :=
    Cert.LibScatter2.scatterAdd_elem2_apply (N := 4096) (M := 4096) (E := 65536)
      Facts₀.scatter_S4096x4096_S65536x2_S65536_n_01_01_1_wf (idxV ei) zerosNN onesE n s
  rw [hs, zerosNN_apply, zero_add]
  unfold adj
  refine Finset.sum_congr (Finset.filter_congr fun e _ => ?_) (fun e _ => onesE_apply _)
  rw [idxV_dst ei h, idxV_src ei h]
  exact and_congr (Cert.IndexNorm.toInt_eq_iff _ _ _ n) (Cert.IndexNorm.toInt_eq_iff _ _ _ s)

/-- The scatter of ones at the destinations into zeros counts the edges into `n`. -/
private theorem degV_apply (ei : EdgeList) (h : InRange ei) (n : Fin 4096) : degV ei (ix1 n) = degIn ei h n := by
  unfold degV
  have hs : Host.scatterAdd scatter_S4096_S65536x1_S65536_n_0_0_1 zerosN (colV (dstV ei)) onesE (ix1 n) = _ :=
    Cert.LibIndexing.scatterAdd_vec_apply (N := 4096) (E := 65536)
      Facts₀.scatter_S4096_S65536x1_S65536_n_0_0_1_wf (colV (dstV ei)) zerosN onesE n
  rw [hs, zerosN_apply, zero_add]
  unfold degIn
  refine Finset.sum_congr (Finset.filter_congr fun e _ => ?_) (fun e _ => onesE_apply _)
  rw [colV_apply, dstV_apply]
  exact Cert.IndexNorm.toInt_eq_iff _ _ _ n

/-! ## The host's quotient and power are elementwise -/

private theorem hostDivf_apply {s : Shape} {φ : FTy} (a b : FVec Ideal s φ) (i : s.Idx) :
    Host.divf a b i = Ideal.div (a i) (b i) := rfl

private theorem hostPowf_apply {s : Shape} {φ : FTy} (a b : FVec Ideal s φ) (i : s.Idx) :
    Host.powf a b i = Ideal.pow (a i) (b i) := rfl

/-- The feature copy (a change of float format, the identity here). -/
theorem feat_apply (i : S4096x4096.Idx) :
    Cert.fvec S4096x4096 (W1 m ρ c (Proc.devRef .tc main_v32)) i
      = Cert.fvec S4096x4096 (m ((c.tc : Thread nD τ).loc main_arg0)) i := by
  rw [v32_eq]
  rfl

/-- The zero bias row. -/
theorem zrow_apply (i : S1x4096.Idx) : Cert.fvec S1x4096 (W1 m ρ c (Proc.devRef .tc main_v34)) i = 0 := by
  rw [v34_eq]
  show broadcastInDim S1x4096 ![] Facts₀.bcast_S_S1x4096 (constant S_ .f32 0x00000000#32 : FVec Ideal S_ .f32) i = 0
  rw [broadcastInDim_apply _ Facts₀.bcast_S_S1x4096 _ i (fun a => a.elim0) (fun a => a.elim0), constant_apply]
  exact Cert.RealVals.ofBits_zero

/-- The dense adjacency counts. -/
theorem adj_apply (h : InRange (edges m c)) (n s : Fin 4096) :
    Cert.fvec S4096x4096 (W1 m ρ c (Proc.devRef .tc main_v20)) (ix2 n s) = adj (edges m c) h n s := by
  rw [v20_eq]
  exact adjV_apply _ h n s

/-- The mean aggregation's row scale: the reciprocal of the in-degree, at least one. -/
theorem scale_apply (h : InRange (edges m c)) (n : Fin 4096) :
    Cert.fvec S4096x1 (W1 m ρ c (Proc.devRef .tc main_v33)) (ix2 n 0) = Ideal.div 1 (max (degIn (edges m c) h n) 1) := by
  rw [v33_eq]
  show shapeCast S4096x1 (Host.divf onesN (maximumf (degV (edges m c)) onesN)) Facts₀.shapeCasts_S4096_S4096x1 (ix2 n (0 : Fin 1)) = _
  rw [shapeCast_apply _ Facts₀.shapeCasts_S4096_S4096x1 (ix2 n (0 : Fin 1)) (ix1 n)
    (by rewrite [Shape.rowMajor_val_two, Shape.rowMajor_val_one]; show n.val = n.val * 1 + 0; omega),
    hostDivf_apply, maximumf_apply, onesN_apply, degV_apply _ h]

/-- The symmetric normalisation's node weight. -/
theorem dinv_apply (h : InRange (edges m c)) (n : Fin 4096) :
    Cert.fvec S4096 (W1 m ρ c (Proc.devRef .tc main_v31)) (ix1 n) = dinv (edges m c) h n := by
  rw [v31_eq]
  show Host.powf (addf (degV (edges m c)) onesN) halfN (ix1 n) = _
  rw [hostPowf_apply, addf_apply, onesN_apply, degV_apply _ h, halfN_apply]
  rfl

end Cert.KernelIdeal.Host0

end
-- ==== Proof.GraphAlgebra.lean ====
/-
  THE GRAPH IDENTITIES, over the extended reals at finite (real) data.

  A graph on `N` nodes is a list of `E` edges `e ↦ (sN e → dN e)`. Its dense adjacency counts are
  `c(n, s) = #{e | dN e = n ∧ sN e = s}`, written here as a sum of ones. For real node data:
  * the dense product `∑ s, c(n, s) · X s` is the edge sum `∑_{e : dN e = n} X (sN e)` (`adj_mul_sum`);
  * a product with `1 / d` is the quotient by `d` for a real `d ≠ 0` (`mul_div_one`);
  * the symmetric normalisation folded as two vector scalings around the dense product, plus the self-loop term,
    is the edge sum of `dv (sN e) · dv (dN e) · H (sN e)` over the edges into `n` together with the self loop
    (`gcn_agg`).
-/
import Idealize.ShloMosaic.PureOps.Ideal
import Mathlib.Algebra.BigOperators.Group.Finset.Basic

noncomputable section

open scoped BigOperators

namespace Cert.GraphAlgebra

open Idealize.ShloMosaic

/-- A finite sum of coerced reals is the coerced real sum. -/
theorem sum_coe {ι : Type*} (s : Finset ι) (f : ι → ℝ) :
    ∑ i ∈ s, ((f i : ℝ) : EReal) = ((∑ i ∈ s, f i : ℝ) : EReal) := by
  classical
  -- induction on the index set: the empty sum is `0`, and one more term is one more real summand
  refine Finset.induction_on s ?_ ?_
  · rw [Finset.sum_empty, Finset.sum_empty, EReal.coe_zero]
  · intro a t ha ih
    rw [Finset.sum_insert ha, Finset.sum_insert ha, ih, EReal.coe_add]

/-- A sum of ones over a finite set is its cardinality, a real. -/
theorem sum_one_eq_card {ι : Type*} (s : Finset ι) : ∑ _i ∈ s, (1 : EReal) = ((s.card : ℝ) : EReal) := by
  -- the one of the extended reals is the real one; a real sum of ones counts the set
  have h := sum_coe s (fun _ => (1 : ℝ))
  rw [EReal.coe_one] at h
  rw [h, Finset.sum_const, nsmul_eq_mul, mul_one]

/-- A product with the reciprocal of a nonzero real is the quotient by it. -/
theorem mul_div_one (a : EReal) (d : ℝ) (hd : d ≠ 0) : a * Ideal.div 1 (d : EReal) = Ideal.div a (d : EReal) := by
  -- off zero, both quotients are products with the real reciprocal `1 / d`
  rw [Ideal.div_coe hd, Ideal.div_coe hd, one_mul]

section Graph
variable {N E : ℕ} (sN dN : Fin E → Fin N)

/-- The real form of the dense adjacency product: the edges into `n` are partitioned by their source `s`, the class of
    `s` has `c(n, s)` edges, and on it `X (sN e)` is the constant `X s`. -/
private theorem adj_mul_sum_real (X : Fin N → ℝ) (n : Fin N) :
    ∑ s : Fin N, ((Finset.univ.filter (fun e : Fin E => dN e = n ∧ sN e = s)).card : ℝ) * X s
      = ∑ e ∈ Finset.univ.filter (fun e : Fin E => dN e = n), X (sN e) := by
  rw [← Finset.sum_fiberwise (Finset.univ.filter (fun e : Fin E => dN e = n)) sN (fun e => X (sN e))]
  refine Finset.sum_congr rfl (fun s _ => ?_)
  rw [Finset.filter_filter]
  have hc : ∀ e ∈ Finset.univ.filter (fun e : Fin E => dN e = n ∧ sN e = s), X (sN e) = X s := by
    intro e he
    rw [(Finset.mem_filter.mp he).2.2]
  rw [Finset.sum_congr rfl hc, Finset.sum_const, nsmul_eq_mul]

/-- THE DENSE ADJACENCY PRODUCT IS THE EDGE SUM: `∑ s, c(n, s) · X s = ∑_{e : dN e = n} X (sN e)`. -/
theorem adj_mul_sum (X : Fin N → ℝ) (n : Fin N) :
    ∑ s : Fin N, (∑ _e ∈ Finset.univ.filter (fun e : Fin E => dN e = n ∧ sN e = s), (1 : EReal)) * ((X s : ℝ) : EReal)
      = ∑ e ∈ Finset.univ.filter (fun e : Fin E => dN e = n), ((X (sN e) : ℝ) : EReal) := by
  -- each count is a real, each product and each sum of reals is a real: both sides are one coerced real
  simp only [sum_one_eq_card, ← EReal.coe_mul, sum_coe]
  rw [adj_mul_sum_real sN dN X n]

/-- THE SYMMETRIC NORMALISATION: scaling the data by `dv` before the dense product and the product by `dv` after it, plus
    the self-loop term `dv n · dv n · H n`, is the sum over the edges into `n` of `dv (sN e) · dv (dN e) · H (sN e)` plus
    the same over the one self loop `i = n`. -/
theorem gcn_agg (dv H : Fin N → ℝ) (n : Fin N) :
    (∑ s : Fin N, (∑ _e ∈ Finset.univ.filter (fun e : Fin E => dN e = n ∧ sN e = s), (1 : EReal))
          * (((dv s : ℝ) : EReal) * ((H s : ℝ) : EReal))) * ((dv n : ℝ) : EReal)
        + (((dv n : ℝ) : EReal) * ((dv n : ℝ) : EReal)) * ((H n : ℝ) : EReal)
      = ∑ e ∈ Finset.univ.filter (fun e : Fin E => dN e = n),
            (((dv (sN e) : ℝ) : EReal) * ((dv (dN e) : ℝ) : EReal)) * ((H (sN e) : ℝ) : EReal)
        + ∑ i ∈ Finset.univ.filter (fun i : Fin N => i = n),
            (((dv i : ℝ) : EReal) * ((dv i : ℝ) : EReal)) * ((H i : ℝ) : EReal) := by
  -- the self-loop sum runs over the one index `i = n`
  rw [Finset.filter_eq', if_pos (Finset.mem_univ n), Finset.sum_singleton]
  congr 1
  -- the dense product at the scaled data `dv s · H s` is the edge sum of `dv (sN e) · H (sN e)`
  have h := adj_mul_sum sN dN (fun s => dv s * H s) n
  simp only [EReal.coe_mul] at h
  rw [h]
  -- push the coercions out and finish over the reals: on an edge into `n`, `dN e = n`
  simp only [← EReal.coe_mul, sum_coe]
  rw [Finset.sum_mul]
  congr 1
  refine Finset.sum_congr rfl (fun e he => ?_)
  rw [(Finset.mem_filter.mp he).2]
  ring

/-- The degree with a self loop: the in-degree plus one is the count over the edges into `n` together with the one self
    loop `i = n`. -/
theorem deg_self_loop (n : Fin N) :
    (∑ _e ∈ Finset.univ.filter (fun e : Fin E => dN e = n), (1 : EReal)) + 1
      = ∑ _e ∈ Finset.univ.filter (fun e : Fin E => dN e = n), (1 : EReal)
        + ∑ _i ∈ Finset.univ.filter (fun i : Fin N => i = n), (1 : EReal) := by
  -- the self-loop count runs over the one index `i = n`
  rw [Finset.filter_eq', if_pos (Finset.mem_univ n), Finset.sum_singleton]

end Graph

end Cert.GraphAlgebra

end
-- ==== Proof.RefGraph.lean ====
/-
  THE REFERENCE'S GRAPH OPERATIONS, read at an index. The reference gathers the source rows of every edge and
  scatter-adds them at the destinations (the neighbour sum), counts the in-degree by a scatter-add of ones, and for the
  two symmetric-normalisation layers appends one self loop per node to the edge list (a concatenation with an iota),
  counts the degree over the longer list, raises it to `-1/2` where positive, gathers that weight at both ends of every
  edge, scales the gathered source rows by the product of the two weights and scatter-adds them at the destinations.
  With every edge entry a node number (no clamp, no dropped update, no wrap) these read as sums over the edges into a
  node, the self loop's term apart.
-/
import proofs.«401099_j71683004170518_2_alg».proof.Proof.RefReadPatched
import proofs.«401099_j71683004170518_2_alg».proof.Proof.LibIndexing
import proofs.«401099_j71683004170518_2_alg».proof.Proof.IndexNorm
import proofs.«401099_j71683004170518_2_alg».proof.Proof.GraphData
import proofs.«401099_j71683004170518_2_alg».proof.Proof.GraphAlgebra
import proofs.«401099_j71683004170518_2_alg».proof.Proof.RealVals
import Idealize.ShloMosaic.Lib.Pipeline.Value
import Idealize.ShloMosaic.Lib.ValueIdx
import Idealize.ShloMosaic.Lib.ValueIdxRank1
import Idealize.ShloMosaic.Lib.ValueLayout
import Mathlib.Algebra.BigOperators.Fin

set_option maxRecDepth 16384

noncomputable section

open scoped BigOperators

namespace Cert.ReferenceIdeal.GraphReads

open Idealize.ShloMosaic Idealize.ShloMosaic.ValueIdx Idealize.ShloMosaic.TcCoe Idealize.SL.Sem
open Cert.ReferenceIdeal Cert.ReferenceIdeal.Gen Cert.ReferenceIdeal.Read Cert.GraphData

variable (x0 : (⟨S4096x4096, .f32⟩ : BufTy).Contents (Elt Ideal)) (x1 : (⟨S2x65536, .i32⟩ : BufTy).Contents (Elt Ideal))
  (x2 : (⟨S4096x256, .f32⟩ : BufTy).Contents (Elt Ideal)) (x3 : (⟨S256, .f32⟩ : BufTy).Contents (Elt Ideal))
  (x4 : (⟨S4096x256, .f32⟩ : BufTy).Contents (Elt Ideal)) (x5 : (⟨S256x256, .f32⟩ : BufTy).Contents (Elt Ideal))
  (x6 : (⟨S256, .f32⟩ : BufTy).Contents (Elt Ideal)) (x7 : (⟨S256x128, .f32⟩ : BufTy).Contents (Elt Ideal))
  (h : InRange (x1 : EdgeList))

/-! ## The edge words the program reads -/

/-- Row 0 of the edge list at `e`: the source word. -/
private theorem src_word (e : Fin 65536) : val_main_v1 (F := Ideal) x1 (ix1 e) = srcW x1 e := by
  rw [val_main_v1_apply, val_main_v0_apply]
  show x1 _ = x1 _
  congr 1
  funext a
  refine Fin.ext ?_
  match a with
  | ⟨0, _⟩ => rfl
  | ⟨1, _⟩ => exact Nat.mod_eq_of_lt e.isLt

/-- Row 1 of the edge list at `e`: the destination word. -/
private theorem dst_word (e : Fin 65536) : val_main_v3 (F := Ideal) x1 (ix1 e) = dstW x1 e := by
  rw [val_main_v3_apply, val_main_v2_apply]
  show x1 _ = x1 _
  congr 1
  funext a
  refine Fin.ext ?_
  match a with
  | ⟨0, _⟩ => rfl
  | ⟨1, _⟩ => exact Nat.mod_eq_of_lt e.isLt

/-- A vector turned into a one-column table reads, at row `i`, the vector at `i`. -/
private theorem col65536_apply {α : Type} (y : S65536.Idx → α) (i : Fin 65536) :
    broadcastInDim S65536x1 ![0] bcast_S65536_S65536x1_0 y (ix2 i 0) = y (ix1 i) :=
  broadcastInDim_apply _ bcast_S65536_S65536x1_0 y (ix2 i 0) (ix1 i) (fun a => match a with
    | ⟨0, _⟩ => by show i.val = if (65536 : Nat) = 1 then 0 else i.val; rw [if_neg (by decide)])

/-- The node a gather's clamped start index names. -/
private def nodeOf (w : BitVec 32) : Fin 4096 := ⟨min w.toInt.toNat (4096 - 1), by omega⟩

private theorem nodeOf_src (e : Fin 65536) : nodeOf (srcW x1 e) = srcN x1 h e :=
  Fin.ext (Cert.IndexNorm.clamp_eq _ (h (ix2 0 e)).1 (h (ix2 0 e)).2)

private theorem nodeOf_dst (e : Fin 65536) : nodeOf (dstW x1 e) = dstN x1 h e :=
  Fin.ext (Cert.IndexNorm.clamp_eq _ (h (ix2 1 e)).1 (h (ix2 1 e)).2)

/-- A destination word, read signed, is node `n`'s number exactly when the edge runs into `n`. -/
private theorem dst_toInt_iff (e : Fin 65536) (n : Fin 4096) :
    (dstW x1 e).toInt = (n.val : Int) ↔ dstN x1 h e = n :=
  Cert.IndexNorm.toInt_eq_iff _ (h (ix2 1 e)).1 (h (ix2 1 e)).2 n

/-! ## The in-degree and the neighbour sum -/

/-- The in-degree (the mean aggregation's count). -/
theorem deg_apply (n : Fin 4096) : val_main_v7 (F := Ideal) x1 (ix1 n) = degIn x1 h n := by
  unfold val_main_v7
  refine (Cert.LibIndexing.scatterAdd_vec_apply (N := 4096) (E := 65536) _ (val_main_v6 (F := Ideal) x1)
    (val_main_v5 (F := Ideal)) (val_main_v4 (F := Ideal)) n).trans ?_
  have h5 : val_main_v5 (F := Ideal) (ix1 n) = 0 := by
    rw [val_main_v5_apply, val_main_cst_0_apply]; exact Cert.RealVals.ofBits_zero
  rw [h5, zero_add]
  unfold degIn
  have hf : Finset.univ.filter (fun e : Fin 65536 => (val_main_v6 (F := Ideal) x1 (ix2 e 0)).toInt = (n.val : Int))
      = Finset.univ.filter (fun e : Fin 65536 => dstN x1 h e = n) := by
    refine Finset.filter_congr (fun e _ => ?_)
    have hw : val_main_v6 (F := Ideal) x1 (ix2 e 0) = dstW x1 e := (col65536_apply _ e).trans (dst_word x1 e)
    rw [hw]
    exact dst_toInt_iff x1 h e n
  rw [hf]
  refine Finset.sum_congr rfl (fun e _ => ?_)
  rw [val_main_v4_apply, val_main_cst_apply]
  exact Cert.RealVals.ofBits_one

include h in
/-- The wrapped source word of edge `e`, as a one-column table, is the source word. -/
private theorem v13_word (e : Fin 65536) : val_main_v13 (F := Ideal) x1 (ix2 e 0) = srcW x1 e := by
  refine (col65536_apply _ e).trans ?_
  refine (Cert.IndexNorm.wrap_apply (val_main_v1 (F := Ideal) x1) (val_main_v8 (F := Ideal)) (val_main_v10 (F := Ideal)) (ix1 e)
    (val_main_v8_apply _) (val_main_v10_apply _) ?_).trans (src_word x1 e)
  rw [src_word]
  exact (h (ix2 0 e)).1

/-- The gathered feature row of edge `e` is its source's row. -/
private theorem v14_apply (e : Fin 65536) (f : Fin 4096) :
    val_main_v14 (F := Ideal) x0 x1 (ix2 e f) = x0 (ix2 (srcN x1 h e) f) := by
  unfold val_main_v14
  refine (Cert.LibIndexing.gather_rows_apply (N := 4096) (D := 4096) (E := 65536) (by decide) _ x0
    (val_main_v13 (F := Ideal) x1) e f).trans ?_
  show x0 (ix2 (nodeOf (val_main_v13 (F := Ideal) x1 (ix2 e 0))) f) = _
  rw [v13_word x1 h e, nodeOf_src x1 h e]

/-- The neighbour sum: the feature rows of the sources of the edges into `n`. -/
theorem nbrsum_apply (n f : Fin 4096) :
    val_main_v17 (F := Ideal) x0 x1 (ix2 n f)
      = ∑ e ∈ Finset.univ.filter (fun e : Fin 65536 => dstN x1 h e = n), x0 (ix2 (srcN x1 h e) f) := by
  unfold val_main_v17
  refine (Cert.LibIndexing.scatterAdd_rows_apply (N := 4096) (D := 4096) (E := 65536) _ (val_main_v16 (F := Ideal) x1)
    (val_main_v15 (F := Ideal)) (val_main_v14 (F := Ideal) x0 x1) n f).trans ?_
  have h15 : val_main_v15 (F := Ideal) (ix2 n f) = 0 := by
    rw [val_main_v15_apply, val_main_cst_2_apply]; exact Cert.RealVals.ofBits_zero
  rw [h15, zero_add]
  have hf : Finset.univ.filter (fun e : Fin 65536 => (val_main_v16 (F := Ideal) x1 (ix2 e 0)).toInt = (n.val : Int))
      = Finset.univ.filter (fun e : Fin 65536 => dstN x1 h e = n) := by
    refine Finset.filter_congr (fun e _ => ?_)
    have hw : val_main_v16 (F := Ideal) x1 (ix2 e 0) = dstW x1 e := (col65536_apply _ e).trans (dst_word x1 e)
    rw [hw]
    exact dst_toInt_iff x1 h e n
  rw [hf]
  exact Finset.sum_congr rfl (fun e _ => v14_apply x0 x1 h e f)

/-! ## The edge list with one self loop per node appended

Position `e < 65536` of the longer list is edge `e`; position `65536 + p` is the self loop of node `p`. -/

private abbrev edgePos (e : Fin 65536) : Fin 69632 := ⟨e.val, by have := e.isLt; omega⟩
private abbrev loopPos (p : Fin 4096) : Fin 69632 := ⟨65536 + p.val, by have := p.isLt; omega⟩

/-- A sum over the longer list is the sum over the edges plus the sum over the self loops. -/
private theorem sum_split (f : Fin 69632 → EReal) :
    ∑ i, f i = ∑ e : Fin 65536, f (edgePos e) + ∑ p : Fin 4096, f (loopPos p) :=
  Fin.sum_univ_add (a := 65536) (b := 4096) f

/-- A filtered sum over the longer list, its condition read on the edges as `Q` and on the self loops as `R`. -/
private theorem sum_long (P : Fin 69632 → Prop) [DecidablePred P] (g : Fin 69632 → EReal)
    (Q : Fin 65536 → Prop) [DecidablePred Q] (R : Fin 4096 → Prop) [DecidablePred R]
    (hQ : ∀ e, P (edgePos e) ↔ Q e) (hR : ∀ p, P (loopPos p) ↔ R p) :
    ∑ i ∈ Finset.univ.filter P, g i
      = ∑ e ∈ Finset.univ.filter Q, g (edgePos e) + ∑ p ∈ Finset.univ.filter R, g (loopPos p) := by
  rw [Finset.sum_filter, sum_split, Finset.sum_filter, Finset.sum_filter]
  refine congrArg₂ (fun a b : EReal => a + b) ?_ ?_
  · exact Finset.sum_congr rfl (fun e _ => if_congr (hQ e) rfl rfl)
  · exact Finset.sum_congr rfl (fun p _ => if_congr (hR p) rfl rfl)

/-- The concatenation at an edge's position reads the first piece. -/
private theorem cat_edge {α : Type} (a : S65536.Idx → α) (b : S4096.Idx → α) (e : Fin 65536) :
    concatenate S69632 0 [⟨S65536, a⟩, ⟨S4096, b⟩] concatenates_S65536_S4096_S69632_d0 (ix1 (edgePos e)) = a (ix1 e) :=
  concatenate_pair_apply_left 0 a b concatenates_S65536_S4096_S69632_d0 (ix1 (edgePos e)) rfl (ix1 e)
    (fun c => match c with | ⟨0, _⟩ => rfl)

/-- The concatenation at a self loop's position reads the second piece. -/
private theorem cat_loop {α : Type} (a : S65536.Idx → α) (b : S4096.Idx → α) (p : Fin 4096) :
    concatenate S69632 0 [⟨S65536, a⟩, ⟨S4096, b⟩] concatenates_S65536_S4096_S69632_d0 (ix1 (loopPos p)) = b (ix1 p) :=
  concatenate_pair_apply_right 0 a b concatenates_S65536_S4096_S69632_d0 (ix1 (loopPos p)) rfl rfl (ix1 p)
    (fun c hc => match c, hc with | ⟨0, _⟩, hc => absurd (Fin.ext rfl) hc)
    (by show p.val + 65536 = 65536 + p.val; omega)

/-- A vector over the longer list turned into a one-column table reads, at row `i`, the vector at `i`. -/
private theorem col69632_apply {α : Type} (y : S69632.Idx → α) (i : Fin 69632) :
    broadcastInDim S69632x1 ![0] bcast_S69632_S69632x1_0 y (ix2 i 0) = y (ix1 i) :=
  broadcastInDim_apply _ bcast_S69632_S69632x1_0 y (ix2 i 0) (ix1 i) (fun a => match a with
    | ⟨0, _⟩ => by show i.val = if (69632 : Nat) = 1 then 0 else i.val; rw [if_neg (by decide)])

/-- The node the self loop's index word names. -/
private theorem nodeOf_iota (p : Fin 4096) : nodeOf (BitVec.ofNat 32 p.val) = p := by
  apply Fin.ext
  show min (BitVec.ofNat 32 p.val).toInt.toNat (4096 - 1) = p.val
  rw [Cert.IndexNorm.iota_toInt, Int.toNat_natCast]
  have := p.isLt
  omega

/-- The self loop's index word, read signed, is node `n`'s number exactly when it is `n`'s loop. -/
private theorem iota_toInt_iff (p n : Fin 4096) : (BitVec.ofNat 32 p.val).toInt = (n.val : Int) ↔ p = n := by
  rw [Cert.IndexNorm.iota_toInt]
  constructor
  · intro hh
    exact Fin.ext (by exact_mod_cast hh)
  · intro hh
    rw [hh]

/-- A vector gather over the longer list reads the vector at the node the start index names. -/
private theorem gvec_apply {α : Type} (t : S4096.Idx → α) (idx : IVec S69632x1 32) (i : Fin 69632) :
    Host.gather gather_S4096_S69632x1_S69632_n_0_n_n_0_1_1 t idx (ix1 i) = t (ix1 (nodeOf (idx (ix2 i 0)))) :=
  Cert.LibIndexing.gather_vec_apply (N := 4096) (E := 69632) (by decide) _ t idx i

/-- The degree plus one is positive. -/
private theorem deg_pos (n : Fin 4096) : (0 : EReal) < degIn x1 h n + 1 := by
  unfold degIn
  rw [Cert.GraphAlgebra.sum_one_eq_card, ← EReal.coe_one, ← EReal.coe_add]
  exact EReal.coe_pos.mpr (by positivity)

/-- `where (d > 0) (d ^ w) o` at a positive `d` is the power. -/
private theorem where_pos (d w o : EReal) (hd : 0 < d) :
    Scalar.select (FloatOps.cmpf (F := Ideal) (φ := .f32) .ogt d (Ideal.ofBits .f32 0x00000000#32))
      (FloatOps.hostPowf (F := Ideal) (φ := .f32) d w) o = Ideal.pow d w := by
  rw [Cert.RealVals.ofBits_zero]
  show Scalar.select (BitVec.ofBool (decide ((0 : EReal) < d))) (Ideal.pow d w) o = _
  rw [decide_eq_true hd]
  exact select_one _ _

/-- The wrapped index word, as a one-column table over the longer list, at a position whose word `w` is nonnegative:
    the wrap leaves it alone. -/
private theorem wrapcol_apply (v zero n : IVec S69632 32) (i : Fin 69632) (w : BitVec 32)
    (hz : zero (ix1 i) = 0#32) (hn : n (ix1 i) = 4096#32) (hv : v (ix1 i) = w) (h0 : 0 ≤ w.toInt) :
    broadcastInDim S69632x1 ![0] bcast_S69632_S69632x1_0 (select (cmpi .slt v zero) (addi v n) v) (ix2 i 0) = w := by
  refine (col69632_apply _ i).trans ?_
  refine (Cert.IndexNorm.wrap_apply v zero n (ix1 i) hz hn ?_).trans hv
  rw [hv]
  exact h0

/-- A row gather of a `[4096, 256]` table over the longer list reads the row of the node the start index names. -/
private theorem grow256_apply {α : Type} (t : S4096x256.Idx → α) (idx : IVec S69632x1 32) (i : Fin 69632) (j : Fin 256) :
    Host.gather gather_S4096x256_S69632x1_S69632x256_1_0_n_n_0_1_1256 t idx (ix2 i j) = t (ix2 (nodeOf (idx (ix2 i 0))) j) :=
  Cert.LibIndexing.gather_rows_apply (N := 4096) (D := 256) (E := 69632) (by decide) _ t idx i j

/-- and of a `[4096, 128]` table. -/
private theorem grow128_apply {α : Type} (t : S4096x128.Idx → α) (idx : IVec S69632x1 32) (i : Fin 69632) (j : Fin 128) :
    Host.gather gather_S4096x128_S69632x1_S69632x128_1_0_n_n_0_1_1128 t idx (ix2 i j) = t (ix2 (nodeOf (idx (ix2 i 0))) j) :=
  Cert.LibIndexing.gather_rows_apply (N := 4096) (D := 128) (E := 69632) (by decide) _ t idx i j

/-! ## Normalisation layer 1: the index words of the longer list -/

private theorem src1_edge (e : Fin 65536) : val_main_v32 (F := Ideal) x1 (ix1 (edgePos e)) = srcW x1 e :=
  (cat_edge (val_main_v1 (F := Ideal) x1) (val_main_v31 (F := Ideal)) e).trans (src_word x1 e)

private theorem src1_loop (p : Fin 4096) : val_main_v32 (F := Ideal) x1 (ix1 (loopPos p)) = BitVec.ofNat 32 p.val :=
  cat_loop (val_main_v1 (F := Ideal) x1) (val_main_v31 (F := Ideal)) p

private theorem dst1_edge (e : Fin 65536) : val_main_v33 (F := Ideal) x1 (ix1 (edgePos e)) = dstW x1 e :=
  (cat_edge (val_main_v3 (F := Ideal) x1) (val_main_v31 (F := Ideal)) e).trans (dst_word x1 e)

private theorem dst1_loop (p : Fin 4096) : val_main_v33 (F := Ideal) x1 (ix1 (loopPos p)) = BitVec.ofNat 32 p.val :=
  cat_loop (val_main_v3 (F := Ideal) x1) (val_main_v31 (F := Ideal)) p

/-- The degree counted over the longer list: the in-degree and the self loop. -/
private theorem deg1_apply (n : Fin 4096) : val_main_v37 (F := Ideal) x1 (ix1 n) = degIn x1 h n + 1 := by
  unfold val_main_v37
  refine (Cert.LibIndexing.scatterAdd_vec_apply (N := 4096) (E := 69632) _ (val_main_v36 (F := Ideal) x1)
    (val_main_v35 (F := Ideal)) (val_main_v34 (F := Ideal)) n).trans ?_
  have h0 : val_main_v35 (F := Ideal) (ix1 n) = 0 := by
    rw [val_main_v35_apply, val_main_cst_5_apply]; exact Cert.RealVals.ofBits_zero
  have h1 : ∀ i : Fin 69632, val_main_v34 (F := Ideal) (ix1 i) = 1 := fun i => by
    rw [val_main_v34_apply, val_main_cst_4_apply]; exact Cert.RealVals.ofBits_one
  have hQ : ∀ e : Fin 65536, (val_main_v36 (F := Ideal) x1 (ix2 (edgePos e) 0)).toInt = (n.val : Int) ↔ dstN x1 h e = n := fun e => by
    have hw : val_main_v36 (F := Ideal) x1 (ix2 (edgePos e) 0) = dstW x1 e := (col69632_apply _ _).trans (dst1_edge x1 e)
    rw [hw]
    exact dst_toInt_iff x1 h e n
  have hR : ∀ p : Fin 4096, (val_main_v36 (F := Ideal) x1 (ix2 (loopPos p) 0)).toInt = (n.val : Int) ↔ p = n := fun p => by
    have hw : val_main_v36 (F := Ideal) x1 (ix2 (loopPos p) 0) = BitVec.ofNat 32 p.val := (col69632_apply _ _).trans (dst1_loop x1 p)
    rw [hw]
    exact iota_toInt_iff p n
  rw [h0, zero_add]
  refine (sum_long (fun i : Fin 69632 => (val_main_v36 (F := Ideal) x1 (ix2 i 0)).toInt = (n.val : Int))
    (fun i => val_main_v34 (F := Ideal) (ix1 i)) (fun e => dstN x1 h e = n) (fun p => p = n) hQ hR).trans ?_
  simp only [h1]
  exact (Cert.GraphAlgebra.deg_self_loop _ n).symm

/-- The first normalisation layer's node weight. -/
theorem dinv1_apply (n : Fin 4096) : val_main_v42 (F := Ideal) x1 (ix1 n) = dinv x1 h n := by
  rw [val_main_v42_apply, val_main_v39_apply, val_main_v41_apply, deg1_apply x1 h n, val_main_v38_apply, val_main_cst_6_apply, val_main_v40_apply, val_main_cst_7_apply]
  exact where_pos _ _ _ (deg_pos x1 h n)

/-! ## Normalisation layer 1: the aggregation -/

include h in
/-- The three wrapped index tables at an edge's position are its source, destination, source word; at a self loop's,
    the loop's node word. -/
private theorem val_main_v48_edge (e : Fin 65536) : val_main_v48 (F := Ideal) x1 (ix2 (edgePos e) 0) = srcW x1 e :=
  wrapcol_apply (val_main_v32 (F := Ideal) x1) (val_main_v43 (F := Ideal)) (val_main_v45 (F := Ideal)) (edgePos e) (srcW x1 e)
    (val_main_v43_apply _) (val_main_v45_apply _) (src1_edge x1 e) (h (ix2 0 e)).1

private theorem val_main_v48_loop (p : Fin 4096) : val_main_v48 (F := Ideal) x1 (ix2 (loopPos p) 0) = BitVec.ofNat 32 p.val :=
  wrapcol_apply (val_main_v32 (F := Ideal) x1) (val_main_v43 (F := Ideal)) (val_main_v45 (F := Ideal)) (loopPos p) _
    (val_main_v43_apply _) (val_main_v45_apply _) (src1_loop x1 p) (Cert.IndexNorm.iota_range p).1

include h in
private theorem val_main_v55_edge (e : Fin 65536) : val_main_v55 (F := Ideal) x1 (ix2 (edgePos e) 0) = dstW x1 e :=
  wrapcol_apply (val_main_v33 (F := Ideal) x1) (val_main_v50 (F := Ideal)) (val_main_v52 (F := Ideal)) (edgePos e) (dstW x1 e)
    (val_main_v50_apply _) (val_main_v52_apply _) (dst1_edge x1 e) (h (ix2 1 e)).1

private theorem val_main_v55_loop (p : Fin 4096) : val_main_v55 (F := Ideal) x1 (ix2 (loopPos p) 0) = BitVec.ofNat 32 p.val :=
  wrapcol_apply (val_main_v33 (F := Ideal) x1) (val_main_v50 (F := Ideal)) (val_main_v52 (F := Ideal)) (loopPos p) _
    (val_main_v50_apply _) (val_main_v52_apply _) (dst1_loop x1 p) (Cert.IndexNorm.iota_range p).1

include h in
private theorem val_main_v64_edge (e : Fin 65536) : val_main_v64 (F := Ideal) x1 (ix2 (edgePos e) 0) = srcW x1 e :=
  wrapcol_apply (val_main_v32 (F := Ideal) x1) (val_main_v59 (F := Ideal)) (val_main_v61 (F := Ideal)) (edgePos e) (srcW x1 e)
    (val_main_v59_apply _) (val_main_v61_apply _) (src1_edge x1 e) (h (ix2 0 e)).1

private theorem val_main_v64_loop (p : Fin 4096) : val_main_v64 (F := Ideal) x1 (ix2 (loopPos p) 0) = BitVec.ofNat 32 p.val :=
  wrapcol_apply (val_main_v32 (F := Ideal) x1) (val_main_v59 (F := Ideal)) (val_main_v61 (F := Ideal)) (loopPos p) _
    (val_main_v59_apply _) (val_main_v61_apply _) (src1_loop x1 p) (Cert.IndexNorm.iota_range p).1

/-- The edge weight: the product of the two ends' node weights. -/
private theorem val_main_v57_edge (e : Fin 65536) :
    val_main_v57 (F := Ideal) x1 (ix1 (edgePos e)) = dinv x1 h (srcN x1 h e) * dinv x1 h (dstN x1 h e) := by
  have ha : val_main_v49 (F := Ideal) x1 (ix1 (edgePos e)) = dinv x1 h (srcN x1 h e) := by
    unfold val_main_v49
    rw [gvec_apply, val_main_v48_edge x1 h e, nodeOf_src x1 h e]
    exact dinv1_apply x1 h _
  have hb : val_main_v56 (F := Ideal) x1 (ix1 (edgePos e)) = dinv x1 h (dstN x1 h e) := by
    unfold val_main_v56
    rw [gvec_apply, val_main_v55_edge x1 h e, nodeOf_dst x1 h e]
    exact dinv1_apply x1 h _
  rw [val_main_v57_apply, ha, hb]
  rfl

private theorem val_main_v57_loop (p : Fin 4096) :
    val_main_v57 (F := Ideal) x1 (ix1 (loopPos p)) = dinv x1 h p * dinv x1 h p := by
  have ha : val_main_v49 (F := Ideal) x1 (ix1 (loopPos p)) = dinv x1 h p := by
    unfold val_main_v49
    rw [gvec_apply, val_main_v48_loop x1 p, nodeOf_iota p]
    exact dinv1_apply x1 h _
  have hb : val_main_v56 (F := Ideal) x1 (ix1 (loopPos p)) = dinv x1 h p := by
    unfold val_main_v56
    rw [gvec_apply, val_main_v55_loop x1 p, nodeOf_iota p]
    exact dinv1_apply x1 h _
  rw [val_main_v57_apply, ha, hb]
  rfl

/-- The edge weight spread over the row. -/
private theorem val_main_v66_pos (i : Fin 69632) (j : Fin 256) :
    val_main_v66 (F := Ideal) x1 (ix2 i j) = val_main_v57 (F := Ideal) x1 (ix1 i) := by
  rw [val_main_v66_apply]
  have hi : idx_main_v66 (ix2 i j) = ix2 i 0 := by
    funext a
    match a with
    | ⟨0, _⟩ => rfl
    | ⟨1, _⟩ => rfl
  rw [hi]
  exact col69632_apply _ i

/-- The scaled source row of an edge, and of a self loop. -/
private theorem val_main_v67_edge (e : Fin 65536) (j : Fin 256) :
    val_main_v67 (F := Ideal) x0 x1 x2 x3 x4 x5 (ix2 (edgePos e) j)
      = (dinv x1 h (srcN x1 h e) * dinv x1 h (dstN x1 h e)) * val_main_v30 (F := Ideal) x0 x1 x2 x3 x4 x5 (ix2 (srcN x1 h e) j) := by
  have hg : val_main_v65 (F := Ideal) x0 x1 x2 x3 x4 x5 (ix2 (edgePos e) j) = val_main_v30 (F := Ideal) x0 x1 x2 x3 x4 x5 (ix2 (srcN x1 h e) j) := by
    unfold val_main_v65
    generalize val_main_v30 (F := Ideal) x0 x1 x2 x3 x4 x5 = H
    rw [grow256_apply, val_main_v64_edge x1 h e, nodeOf_src x1 h e]
  rw [val_main_v67_apply, val_main_v66_pos, val_main_v57_edge x1 h e, hg]
  rfl

private theorem val_main_v67_loop (p : Fin 4096) (j : Fin 256) :
    val_main_v67 (F := Ideal) x0 x1 x2 x3 x4 x5 (ix2 (loopPos p) j)
      = (dinv x1 h p * dinv x1 h p) * val_main_v30 (F := Ideal) x0 x1 x2 x3 x4 x5 (ix2 p j) := by
  have hg : val_main_v65 (F := Ideal) x0 x1 x2 x3 x4 x5 (ix2 (loopPos p) j) = val_main_v30 (F := Ideal) x0 x1 x2 x3 x4 x5 (ix2 p j) := by
    unfold val_main_v65
    generalize val_main_v30 (F := Ideal) x0 x1 x2 x3 x4 x5 = H
    rw [grow256_apply, val_main_v64_loop x1 p, nodeOf_iota p]
  rw [val_main_v67_apply, val_main_v66_pos, val_main_v57_loop x1 h p, hg]
  rfl

/-- The first normalisation layer's aggregation: over the edges into `n`, and over the self loop. -/
theorem gcn1_apply (n : Fin 4096) (j : Fin 256) :
    val_main_v70 (F := Ideal) x0 x1 x2 x3 x4 x5 (ix2 n j)
      = ∑ e ∈ Finset.univ.filter (fun e : Fin 65536 => dstN x1 h e = n),
            (dinv x1 h (srcN x1 h e) * dinv x1 h (dstN x1 h e)) * val_main_v30 (F := Ideal) x0 x1 x2 x3 x4 x5 (ix2 (srcN x1 h e) j)
        + ∑ i ∈ Finset.univ.filter (fun i : Fin 4096 => i = n),
            (dinv x1 h i * dinv x1 h i) * val_main_v30 (F := Ideal) x0 x1 x2 x3 x4 x5 (ix2 i j) := by
  unfold val_main_v70
  refine (Cert.LibIndexing.scatterAdd_rows_apply (N := 4096) (D := 256) (E := 69632) _ (val_main_v69 (F := Ideal) x1)
    (val_main_v68 (F := Ideal)) (val_main_v67 (F := Ideal) x0 x1 x2 x3 x4 x5) n j).trans ?_
  have h0 : val_main_v68 (F := Ideal) (ix2 n j) = 0 := by
    rw [val_main_v68_apply, val_main_cst_15_apply]; exact Cert.RealVals.ofBits_zero
  have hQ : ∀ e : Fin 65536, (val_main_v69 (F := Ideal) x1 (ix2 (edgePos e) 0)).toInt = (n.val : Int) ↔ dstN x1 h e = n := fun e => by
    have hw : val_main_v69 (F := Ideal) x1 (ix2 (edgePos e) 0) = dstW x1 e := (col69632_apply _ _).trans (dst1_edge x1 e)
    rw [hw]
    exact dst_toInt_iff x1 h e n
  have hR : ∀ p : Fin 4096, (val_main_v69 (F := Ideal) x1 (ix2 (loopPos p) 0)).toInt = (n.val : Int) ↔ p = n := fun p => by
    have hw : val_main_v69 (F := Ideal) x1 (ix2 (loopPos p) 0) = BitVec.ofNat 32 p.val := (col69632_apply _ _).trans (dst1_loop x1 p)
    rw [hw]
    exact iota_toInt_iff p n
  rw [h0, zero_add]
  refine (sum_long (fun i : Fin 69632 => (val_main_v69 (F := Ideal) x1 (ix2 i 0)).toInt = (n.val : Int))
    (fun i => val_main_v67 (F := Ideal) x0 x1 x2 x3 x4 x5 (ix2 i j)) (fun e => dstN x1 h e = n) (fun p => p = n) hQ hR).trans ?_
  refine congrArg₂ (fun a b : EReal => a + b) ?_ ?_
  · exact Finset.sum_congr rfl (fun e _ => val_main_v67_edge x0 x1 x2 x3 x4 x5 h e j)
  · exact Finset.sum_congr rfl (fun p _ => val_main_v67_loop x0 x1 x2 x3 x4 x5 h p j)

/-! ## Normalisation layer 2: the index words of the longer list -/

private theorem src2_edge (e : Fin 65536) : val_main_v77 (F := Ideal) x1 (ix1 (edgePos e)) = srcW x1 e :=
  (cat_edge (val_main_v1 (F := Ideal) x1) (val_main_v76 (F := Ideal)) e).trans (src_word x1 e)

private theorem src2_loop (p : Fin 4096) : val_main_v77 (F := Ideal) x1 (ix1 (loopPos p)) = BitVec.ofNat 32 p.val :=
  cat_loop (val_main_v1 (F := Ideal) x1) (val_main_v76 (F := Ideal)) p

private theorem dst2_edge (e : Fin 65536) : val_main_v78 (F := Ideal) x1 (ix1 (edgePos e)) = dstW x1 e :=
  (cat_edge (val_main_v3 (F := Ideal) x1) (val_main_v76 (F := Ideal)) e).trans (dst_word x1 e)

private theorem dst2_loop (p : Fin 4096) : val_main_v78 (F := Ideal) x1 (ix1 (loopPos p)) = BitVec.ofNat 32 p.val :=
  cat_loop (val_main_v3 (F := Ideal) x1) (val_main_v76 (F := Ideal)) p

/-- The degree counted over the longer list: the in-degree and the self loop. -/
private theorem deg2_apply (n : Fin 4096) : val_main_v82 (F := Ideal) x1 (ix1 n) = degIn x1 h n + 1 := by
  unfold val_main_v82
  refine (Cert.LibIndexing.scatterAdd_vec_apply (N := 4096) (E := 69632) _ (val_main_v81 (F := Ideal) x1)
    (val_main_v80 (F := Ideal)) (val_main_v79 (F := Ideal)) n).trans ?_
  have h0 : val_main_v80 (F := Ideal) (ix1 n) = 0 := by
    rw [val_main_v80_apply, val_main_cst_17_apply]; exact Cert.RealVals.ofBits_zero
  have h1 : ∀ i : Fin 69632, val_main_v79 (F := Ideal) (ix1 i) = 1 := fun i => by
    rw [val_main_v79_apply, val_main_cst_16_apply]; exact Cert.RealVals.ofBits_one
  have hQ : ∀ e : Fin 65536, (val_main_v81 (F := Ideal) x1 (ix2 (edgePos e) 0)).toInt = (n.val : Int) ↔ dstN x1 h e = n := fun e => by
    have hw : val_main_v81 (F := Ideal) x1 (ix2 (edgePos e) 0) = dstW x1 e := (col69632_apply _ _).trans (dst2_edge x1 e)
    rw [hw]
    exact dst_toInt_iff x1 h e n
  have hR : ∀ p : Fin 4096, (val_main_v81 (F := Ideal) x1 (ix2 (loopPos p) 0)).toInt = (n.val : Int) ↔ p = n := fun p => by
    have hw : val_main_v81 (F := Ideal) x1 (ix2 (loopPos p) 0) = BitVec.ofNat 32 p.val := (col69632_apply _ _).trans (dst2_loop x1 p)
    rw [hw]
    exact iota_toInt_iff p n
  rw [h0, zero_add]
  refine (sum_long (fun i : Fin 69632 => (val_main_v81 (F := Ideal) x1 (ix2 i 0)).toInt = (n.val : Int))
    (fun i => val_main_v79 (F := Ideal) (ix1 i)) (fun e => dstN x1 h e = n) (fun p => p = n) hQ hR).trans ?_
  simp only [h1]
  exact (Cert.GraphAlgebra.deg_self_loop _ n).symm

/-- The second normalisation layer's node weight. -/
theorem dinv2_apply (n : Fin 4096) : val_main_v87 (F := Ideal) x1 (ix1 n) = dinv x1 h n := by
  rw [val_main_v87_apply, val_main_v84_apply, val_main_v86_apply, deg2_apply x1 h n, val_main_v83_apply, val_main_cst_18_apply, val_main_v85_apply, val_main_cst_19_apply]
  exact where_pos _ _ _ (deg_pos x1 h n)

/-! ## Normalisation layer 2: the aggregation -/

include h in
/-- The three wrapped index tables at an edge's position are its source, destination, source word; at a self loop's,
    the loop's node word. -/
private theorem val_main_v93_edge (e : Fin 65536) : val_main_v93 (F := Ideal) x1 (ix2 (edgePos e) 0) = srcW x1 e :=
  wrapcol_apply (val_main_v77 (F := Ideal) x1) (val_main_v88 (F := Ideal)) (val_main_v90 (F := Ideal)) (edgePos e) (srcW x1 e)
    (val_main_v88_apply _) (val_main_v90_apply _) (src2_edge x1 e) (h (ix2 0 e)).1

private theorem val_main_v93_loop (p : Fin 4096) : val_main_v93 (F := Ideal) x1 (ix2 (loopPos p) 0) = BitVec.ofNat 32 p.val :=
  wrapcol_apply (val_main_v77 (F := Ideal) x1) (val_main_v88 (F := Ideal)) (val_main_v90 (F := Ideal)) (loopPos p) _
    (val_main_v88_apply _) (val_main_v90_apply _) (src2_loop x1 p) (Cert.IndexNorm.iota_range p).1

include h in
private theorem val_main_v100_edge (e : Fin 65536) : val_main_v100 (F := Ideal) x1 (ix2 (edgePos e) 0) = dstW x1 e :=
  wrapcol_apply (val_main_v78 (F := Ideal) x1) (val_main_v95 (F := Ideal)) (val_main_v97 (F := Ideal)) (edgePos e) (dstW x1 e)
    (val_main_v95_apply _) (val_main_v97_apply _) (dst2_edge x1 e) (h (ix2 1 e)).1

private theorem val_main_v100_loop (p : Fin 4096) : val_main_v100 (F := Ideal) x1 (ix2 (loopPos p) 0) = BitVec.ofNat 32 p.val :=
  wrapcol_apply (val_main_v78 (F := Ideal) x1) (val_main_v95 (F := Ideal)) (val_main_v97 (F := Ideal)) (loopPos p) _
    (val_main_v95_apply _) (val_main_v97_apply _) (dst2_loop x1 p) (Cert.IndexNorm.iota_range p).1

include h in
private theorem val_main_v109_edge (e : Fin 65536) : val_main_v109 (F := Ideal) x1 (ix2 (edgePos e) 0) = srcW x1 e :=
  wrapcol_apply (val_main_v77 (F := Ideal) x1) (val_main_v104 (F := Ideal)) (val_main_v106 (F := Ideal)) (edgePos e) (srcW x1 e)
    (val_main_v104_apply _) (val_main_v106_apply _) (src2_edge x1 e) (h (ix2 0 e)).1

private theorem val_main_v109_loop (p : Fin 4096) : val_main_v109 (F := Ideal) x1 (ix2 (loopPos p) 0) = BitVec.ofNat 32 p.val :=
  wrapcol_apply (val_main_v77 (F := Ideal) x1) (val_main_v104 (F := Ideal)) (val_main_v106 (F := Ideal)) (loopPos p) _
    (val_main_v104_apply _) (val_main_v106_apply _) (src2_loop x1 p) (Cert.IndexNorm.iota_range p).1

/-- The edge weight: the product of the two ends' node weights. -/
private theorem val_main_v102_edge (e : Fin 65536) :
    val_main_v102 (F := Ideal) x1 (ix1 (edgePos e)) = dinv x1 h (srcN x1 h e) * dinv x1 h (dstN x1 h e) := by
  have ha : val_main_v94 (F := Ideal) x1 (ix1 (edgePos e)) = dinv x1 h (srcN x1 h e) := by
    unfold val_main_v94
    rw [gvec_apply, val_main_v93_edge x1 h e, nodeOf_src x1 h e]
    exact dinv2_apply x1 h _
  have hb : val_main_v101 (F := Ideal) x1 (ix1 (edgePos e)) = dinv x1 h (dstN x1 h e) := by
    unfold val_main_v101
    rw [gvec_apply, val_main_v100_edge x1 h e, nodeOf_dst x1 h e]
    exact dinv2_apply x1 h _
  rw [val_main_v102_apply, ha, hb]
  rfl

private theorem val_main_v102_loop (p : Fin 4096) :
    val_main_v102 (F := Ideal) x1 (ix1 (loopPos p)) = dinv x1 h p * dinv x1 h p := by
  have ha : val_main_v94 (F := Ideal) x1 (ix1 (loopPos p)) = dinv x1 h p := by
    unfold val_main_v94
    rw [gvec_apply, val_main_v93_loop x1 p, nodeOf_iota p]
    exact dinv2_apply x1 h _
  have hb : val_main_v101 (F := Ideal) x1 (ix1 (loopPos p)) = dinv x1 h p := by
    unfold val_main_v101
    rw [gvec_apply, val_main_v100_loop x1 p, nodeOf_iota p]
    exact dinv2_apply x1 h _
  rw [val_main_v102_apply, ha, hb]
  rfl

/-- The edge weight spread over the row. -/
private theorem val_main_v111_pos (i : Fin 69632) (j : Fin 128) :
    val_main_v111 (F := Ideal) x1 (ix2 i j) = val_main_v102 (F := Ideal) x1 (ix1 i) := by
  rw [val_main_v111_apply]
  have hi : idx_main_v111 (ix2 i j) = ix2 i 0 := by
    funext a
    match a with
    | ⟨0, _⟩ => rfl
    | ⟨1, _⟩ => rfl
  rw [hi]
  exact col69632_apply _ i

/-- The scaled source row of an edge, and of a self loop. -/
private theorem val_main_v112_edge (e : Fin 65536) (j : Fin 128) :
    val_main_v112 (F := Ideal) x0 x1 x2 x3 x4 x5 x6 x7 (ix2 (edgePos e) j)
      = (dinv x1 h (srcN x1 h e) * dinv x1 h (dstN x1 h e)) * val_main_v75 (F := Ideal) x0 x1 x2 x3 x4 x5 x6 x7 (ix2 (srcN x1 h e) j) := by
  have hg : val_main_v110 (F := Ideal) x0 x1 x2 x3 x4 x5 x6 x7 (ix2 (edgePos e) j) = val_main_v75 (F := Ideal) x0 x1 x2 x3 x4 x5 x6 x7 (ix2 (srcN x1 h e) j) := by
    unfold val_main_v110
    generalize val_main_v75 (F := Ideal) x0 x1 x2 x3 x4 x5 x6 x7 = H
    rw [grow128_apply, val_main_v109_edge x1 h e, nodeOf_src x1 h e]
  rw [val_main_v112_apply, val_main_v111_pos, val_main_v102_edge x1 h e, hg]
  rfl

private theorem val_main_v112_loop (p : Fin 4096) (j : Fin 128) :
    val_main_v112 (F := Ideal) x0 x1 x2 x3 x4 x5 x6 x7 (ix2 (loopPos p) j)
      = (dinv x1 h p * dinv x1 h p) * val_main_v75 (F := Ideal) x0 x1 x2 x3 x4 x5 x6 x7 (ix2 p j) := by
  have hg : val_main_v110 (F := Ideal) x0 x1 x2 x3 x4 x5 x6 x7 (ix2 (loopPos p) j) = val_main_v75 (F := Ideal) x0 x1 x2 x3 x4 x5 x6 x7 (ix2 p j) := by
    unfold val_main_v110
    generalize val_main_v75 (F := Ideal) x0 x1 x2 x3 x4 x5 x6 x7 = H
    rw [grow128_apply, val_main_v109_loop x1 p, nodeOf_iota p]
  rw [val_main_v112_apply, val_main_v111_pos, val_main_v102_loop x1 h p, hg]
  rfl

/-- The second normalisation layer's aggregation. -/
theorem gcn2_apply (n : Fin 4096) (j : Fin 128) :
    val_main_v115 (F := Ideal) x0 x1 x2 x3 x4 x5 x6 x7 (ix2 n j)
      = ∑ e ∈ Finset.univ.filter (fun e : Fin 65536 => dstN x1 h e = n),
            (dinv x1 h (srcN x1 h e) * dinv x1 h (dstN x1 h e)) * val_main_v75 (F := Ideal) x0 x1 x2 x3 x4 x5 x6 x7 (ix2 (srcN x1 h e) j)
        + ∑ i ∈ Finset.univ.filter (fun i : Fin 4096 => i = n),
            (dinv x1 h i * dinv x1 h i) * val_main_v75 (F := Ideal) x0 x1 x2 x3 x4 x5 x6 x7 (ix2 i j) := by
  unfold val_main_v115
  refine (Cert.LibIndexing.scatterAdd_rows_apply (N := 4096) (D := 128) (E := 69632) _ (val_main_v114 (F := Ideal) x1)
    (val_main_v113 (F := Ideal)) (val_main_v112 (F := Ideal) x0 x1 x2 x3 x4 x5 x6 x7) n j).trans ?_
  have h0 : val_main_v113 (F := Ideal) (ix2 n j) = 0 := by
    rw [val_main_v113_apply, val_main_cst_27_apply]; exact Cert.RealVals.ofBits_zero
  have hQ : ∀ e : Fin 65536, (val_main_v114 (F := Ideal) x1 (ix2 (edgePos e) 0)).toInt = (n.val : Int) ↔ dstN x1 h e = n := fun e => by
    have hw : val_main_v114 (F := Ideal) x1 (ix2 (edgePos e) 0) = dstW x1 e := (col69632_apply _ _).trans (dst2_edge x1 e)
    rw [hw]
    exact dst_toInt_iff x1 h e n
  have hR : ∀ p : Fin 4096, (val_main_v114 (F := Ideal) x1 (ix2 (loopPos p) 0)).toInt = (n.val : Int) ↔ p = n := fun p => by
    have hw : val_main_v114 (F := Ideal) x1 (ix2 (loopPos p) 0) = BitVec.ofNat 32 p.val := (col69632_apply _ _).trans (dst2_loop x1 p)
    rw [hw]
    exact iota_toInt_iff p n
  rw [h0, zero_add]
  refine (sum_long (fun i : Fin 69632 => (val_main_v114 (F := Ideal) x1 (ix2 i 0)).toInt = (n.val : Int))
    (fun i => val_main_v112 (F := Ideal) x0 x1 x2 x3 x4 x5 x6 x7 (ix2 i j)) (fun e => dstN x1 h e = n) (fun p => p = n) hQ hR).trans ?_
  refine congrArg₂ (fun a b : EReal => a + b) ?_ ?_
  · exact Finset.sum_congr rfl (fun e _ => val_main_v112_edge x0 x1 x2 x3 x4 x5 x6 x7 h e j)
  · exact Finset.sum_congr rfl (fun p _ => val_main_v112_loop x0 x1 x2 x3 x4 x5 x6 x7 h p j)

end Cert.ReferenceIdeal.GraphReads

end
-- ==== Proof.RefStages.lean ====
/-
  THE REFERENCE'S LAYERS, read at an index. Each layer's output at row `n`, column `j` from the layer before: a product with a
  weight matrix is the sum over the shared axis, a bias is added per column, the rectifier clips at zero from below, the
  mean aggregation divides the neighbour sum by the in-degree (at least one); the graph operations themselves (neighbour
  sum, degree, the normalisation layers' aggregation) stay named.
-/
import proofs.«401099_j71683004170518_2_alg».proof.Proof.RefReadPatched
import proofs.«401099_j71683004170518_2_alg».proof.Proof.LibMatmul
import proofs.«401099_j71683004170518_2_alg».proof.Proof.RealVals
import Idealize.ShloMosaic.Lib.Pipeline.Value
import Idealize.ShloMosaic.Lib.ValueIdx
import Idealize.ShloMosaic.Lib.ValueIdxRank1
import Idealize.ShloMosaic.Lib.ValueLayout

set_option maxRecDepth 16384

noncomputable section

open scoped BigOperators

namespace Cert.ReferenceIdeal.Stages

open Idealize.ShloMosaic Idealize.ShloMosaic.ValueIdx Idealize.ShloMosaic.TcCoe Idealize.SL.Sem
open Cert.ReferenceIdeal Cert.ReferenceIdeal.Gen Cert.ReferenceIdeal.Read

variable (x0 : (⟨S4096x4096, .f32⟩ : BufTy).Contents (Elt Ideal)) (x1 : (⟨S2x65536, .i32⟩ : BufTy).Contents (Elt Ideal))
  (x2 : (⟨S4096x256, .f32⟩ : BufTy).Contents (Elt Ideal)) (x3 : (⟨S256, .f32⟩ : BufTy).Contents (Elt Ideal))
  (x4 : (⟨S4096x256, .f32⟩ : BufTy).Contents (Elt Ideal)) (x5 : (⟨S256x256, .f32⟩ : BufTy).Contents (Elt Ideal))
  (x6 : (⟨S256, .f32⟩ : BufTy).Contents (Elt Ideal)) (x7 : (⟨S256x128, .f32⟩ : BufTy).Contents (Elt Ideal))
  (x8 : (⟨S128, .f32⟩ : BufTy).Contents (Elt Ideal)) (x9 : (⟨S128x128, .f32⟩ : BufTy).Contents (Elt Ideal))
  (x10 : (⟨S128, .f32⟩ : BufTy).Contents (Elt Ideal)) (x11 : (⟨S128x128, .f32⟩ : BufTy).Contents (Elt Ideal))
  (x12 : (⟨S128, .f32⟩ : BufTy).Contents (Elt Ideal)) (x13 : (⟨S128x16384, .f32⟩ : BufTy).Contents (Elt Ideal))
  (x14 : (⟨S16384, .f32⟩ : BufTy).Contents (Elt Ideal))

/-- The zero word of the rectifier's splat denotes `0`, and the one word of the degree clamp denotes `1`. -/
private theorem zero_word : FloatOps.ofBits (F := Ideal) .f32 0x00000000#32 = 0 := Cert.RealVals.ofBits_zero
private theorem one_word : FloatOps.ofBits (F := Ideal) .f32 0x3F800000#32 = 1 := Cert.RealVals.ofBits_one

/-- The mean aggregation's entry: the neighbour sum over the in-degree clipped at one from below. The divisor is the
    degree vector broadcast along the rows, so at `(n, k)` it is the degree of node `n`. -/
private theorem mean_apply (n k : Fin 4096) :
    val_main_v22 (F := Ideal) x0 x1 (ix2 n k)
      = Ideal.div (val_main_v17 (F := Ideal) x0 x1 (ix2 n k)) (max (val_main_v7 (F := Ideal) x1 (ix1 n)) 1) := by
  rw [val_main_v22_apply, val_main_v21_apply, val_main_v20_apply, val_main_v19_apply, val_main_v18_apply,
    val_main_cst_3_apply]
  have hi : idx_main_v20 (idx_main_v21 (ix2 n k)) = ix1 n :=
    funext fun a => Fin.ext (by match a with | ⟨0, _⟩ => rfl)
  rw [hi, one_word]
  rfl

/-- The first layer's product of the mean with its weight matrix: the sum over the shared axis, each mean entry read as
    the neighbour sum over the clipped degree. -/
private theorem dot23_apply (n : Fin 4096) (j : Fin 256) :
    val_main_v23 (F := Ideal) x0 x1 x2 (ix2 n j)
      = ∑ k : Fin 4096, Ideal.div (val_main_v17 (F := Ideal) x0 x1 (ix2 n k)) (max (val_main_v7 (F := Ideal) x1 (ix1 n)) 1) * x2 (ix2 k j) := by
  have h : val_main_v23 (F := Ideal) x0 x1 x2 (ix2 n j)
      = ∑ k : Fin 4096, val_main_v22 (F := Ideal) x0 x1 (ix2 n k) * x2 (ix2 k j) := by
    unfold val_main_v23
    exact Cert.LibMatmul.dotGeneral_apply2 _ rfl rfl rfl rfl rfl rfl none _ _ n j
  rw [h]
  exact Finset.sum_congr rfl fun k _ => by rw [mean_apply]

/-- The first layer's product of the node's own features with their weight matrix. -/
private theorem dot27_apply (n : Fin 4096) (j : Fin 256) :
    val_main_v27 (F := Ideal) x0 x4 (ix2 n j) = ∑ k : Fin 4096, x0 (ix2 n k) * x4 (ix2 k j) := by
  unfold val_main_v27
  exact Cert.LibMatmul.dotGeneral_apply2 _ rfl rfl rfl rfl rfl rfl none _ _ n j

/-- The first layer: the mean of the neighbours' features through one weight matrix, plus a bias, plus the node's own
    features through another, rectified. -/
theorem h0_apply (n : Fin 4096) (j : Fin 256) :
    val_main_v29 (F := Ideal) x0 x1 x2 x3 x4 (ix2 n j)
      = max (((∑ k : Fin 4096, Ideal.div (val_main_v17 (F := Ideal) x0 x1 (ix2 n k)) (max (val_main_v7 (F := Ideal) x1 (ix1 n)) 1) * x2 (ix2 k j)) + x3 (ix1 j))
            + ∑ k : Fin 4096, x0 (ix2 n k) * x4 (ix2 k j)) 0 := by
  rw [val_main_v29_apply, val_main_v28_apply, val_main_v26_apply, val_main_call0_v0_apply, val_main_call0_cst_apply,
    val_main_v25_apply, val_main_v24_apply]
  -- the bias is broadcast along the rows: at `(n, j)` it is read at `j`
  have hb : idx_main_v24 (idx_main_v25 (ix2 n j)) = ix1 j :=
    funext fun a => Fin.ext (by match a with | ⟨0, _⟩ => rfl)
  rw [hb, dot23_apply, dot27_apply, zero_word]
  rfl

/-- The first normalisation layer's linear map. -/
theorem hw1_apply (n : Fin 4096) (j : Fin 256) :
    val_main_v30 (F := Ideal) x0 x1 x2 x3 x4 x5 (ix2 n j) = ∑ k : Fin 256, val_main_v29 (F := Ideal) x0 x1 x2 x3 x4 (ix2 n k) * x5 (ix2 k j) := by
  unfold val_main_v30
  exact Cert.LibMatmul.dotGeneral_apply2 _ rfl rfl rfl rfl rfl rfl none _ _ n j

/-- The first normalisation layer's output: its aggregation plus the bias, rectified. -/
theorem h1_apply (n : Fin 4096) (j : Fin 256) :
    val_main_v74 (F := Ideal) x0 x1 x2 x3 x4 x5 x6 (ix2 n j) = max (val_main_v70 (F := Ideal) x0 x1 x2 x3 x4 x5 (ix2 n j) + x6 (ix1 j)) 0 := by
  rw [val_main_v74_apply, val_main_v73_apply, val_main_call2_v0_apply, val_main_call2_cst_apply,
    val_main_v72_apply, val_main_v71_apply]
  have hb : idx_main_v71 (idx_main_v72 (ix2 n j)) = ix1 j :=
    funext fun a => Fin.ext (by match a with | ⟨0, _⟩ => rfl)
  rw [hb, zero_word]
  rfl

/-- The second normalisation layer's linear map. -/
theorem hw2_apply (n : Fin 4096) (j : Fin 128) :
    val_main_v75 (F := Ideal) x0 x1 x2 x3 x4 x5 x6 x7 (ix2 n j) = ∑ k : Fin 256, val_main_v74 (F := Ideal) x0 x1 x2 x3 x4 x5 x6 (ix2 n k) * x7 (ix2 k j) := by
  unfold val_main_v75
  exact Cert.LibMatmul.dotGeneral_apply2 _ rfl rfl rfl rfl rfl rfl none _ _ n j

/-- The second normalisation layer's output. -/
theorem h2_apply (n : Fin 4096) (j : Fin 128) :
    val_main_v119 (F := Ideal) x0 x1 x2 x3 x4 x5 x6 x7 x8 (ix2 n j) = max (val_main_v115 (F := Ideal) x0 x1 x2 x3 x4 x5 x6 x7 (ix2 n j) + x8 (ix1 j)) 0 := by
  rw [val_main_v119_apply, val_main_v118_apply, val_main_call4_v0_apply, val_main_call4_cst_apply,
    val_main_v117_apply, val_main_v116_apply]
  have hb : idx_main_v116 (idx_main_v117 (ix2 n j)) = ix1 j :=
    funext fun a => Fin.ext (by match a with | ⟨0, _⟩ => rfl)
  rw [hb, zero_word]
  rfl

/-- The head's first product. -/
private theorem dot120_apply (n : Fin 4096) (j : Fin 128) :
    val_main_v120 (F := Ideal) x0 x1 x2 x3 x4 x5 x6 x7 x8 x9 (ix2 n j)
      = ∑ k : Fin 128, val_main_v119 (F := Ideal) x0 x1 x2 x3 x4 x5 x6 x7 x8 (ix2 n k) * x9 (ix2 k j) := by
  unfold val_main_v120
  exact Cert.LibMatmul.dotGeneral_apply2 _ rfl rfl rfl rfl rfl rfl none _ _ n j

/-- The head's first layer. -/
theorem h3_apply (n : Fin 4096) (j : Fin 128) :
    val_main_v124 (F := Ideal) x0 x1 x2 x3 x4 x5 x6 x7 x8 x9 x10 (ix2 n j) = max ((∑ k : Fin 128, val_main_v119 (F := Ideal) x0 x1 x2 x3 x4 x5 x6 x7 x8 (ix2 n k) * x9 (ix2 k j)) + x10 (ix1 j)) 0 := by
  rw [val_main_v124_apply, val_main_v123_apply, val_main_call5_v0_apply, val_main_call5_cst_apply,
    val_main_v122_apply, val_main_v121_apply]
  have hb : idx_main_v121 (idx_main_v122 (ix2 n j)) = ix1 j :=
    funext fun a => Fin.ext (by match a with | ⟨0, _⟩ => rfl)
  rw [hb, dot120_apply, zero_word]
  rfl

/-- The head's second product. -/
private theorem dot125_apply (n : Fin 4096) (j : Fin 128) :
    val_main_v125 (F := Ideal) x0 x1 x2 x3 x4 x5 x6 x7 x8 x9 x10 x11 (ix2 n j)
      = ∑ k : Fin 128, val_main_v124 (F := Ideal) x0 x1 x2 x3 x4 x5 x6 x7 x8 x9 x10 (ix2 n k) * x11 (ix2 k j) := by
  unfold val_main_v125
  exact Cert.LibMatmul.dotGeneral_apply2 _ rfl rfl rfl rfl rfl rfl none _ _ n j

/-- The head's second layer. -/
theorem h4_apply (n : Fin 4096) (j : Fin 128) :
    val_main_v129 (F := Ideal) x0 x1 x2 x3 x4 x5 x6 x7 x8 x9 x10 x11 x12 (ix2 n j) = max ((∑ k : Fin 128, val_main_v124 (F := Ideal) x0 x1 x2 x3 x4 x5 x6 x7 x8 x9 x10 (ix2 n k) * x11 (ix2 k j)) + x12 (ix1 j)) 0 := by
  rw [val_main_v129_apply, val_main_v128_apply, val_main_call6_v0_apply, val_main_call6_cst_apply,
    val_main_v127_apply, val_main_v126_apply]
  have hb : idx_main_v126 (idx_main_v127 (ix2 n j)) = ix1 j :=
    funext fun a => Fin.ext (by match a with | ⟨0, _⟩ => rfl)
  rw [hb, dot125_apply, zero_word]
  rfl

/-- The output layer's product. -/
private theorem dot130_apply (n : Fin 4096) (q : Fin 16384) :
    val_main_v130 (F := Ideal) x0 x1 x2 x3 x4 x5 x6 x7 x8 x9 x10 x11 x12 x13 (ix2 n q)
      = ∑ k : Fin 128, val_main_v129 (F := Ideal) x0 x1 x2 x3 x4 x5 x6 x7 x8 x9 x10 x11 x12 (ix2 n k) * x13 (ix2 k q) := by
  unfold val_main_v130
  exact Cert.LibMatmul.dotGeneral_apply2 _ rfl rfl rfl rfl rfl rfl none _ _ n q

/-- The output layer. -/
theorem out_apply (n : Fin 4096) (q : Fin 16384) :
    val_main_v133 (F := Ideal) x0 x1 x2 x3 x4 x5 x6 x7 x8 x9 x10 x11 x12 x13 x14 (ix2 n q) = (∑ k : Fin 128, val_main_v129 (F := Ideal) x0 x1 x2 x3 x4 x5 x6 x7 x8 x9 x10 x11 x12 (ix2 n k) * x13 (ix2 k q)) + x14 (ix1 q) := by
  rw [val_main_v133_apply, val_main_v132_apply, val_main_v131_apply]
  have hb : idx_main_v131 (idx_main_v132 (ix2 n q)) = ix1 q :=
    funext fun a => Fin.ext (by match a with | ⟨0, _⟩ => rfl)
  rw [hb, dot130_apply]
  rfl

/-- The result: the output layer reshaped `[4096, 16384] → [4096, 4, 4096]`. -/
theorem result_eq :
    val_main_v134 (F := Ideal) x0 x1 x2 x3 x4 x5 x6 x7 x8 x9 x10 x11 x12 x13 x14 = shapeCast S4096x4x4096 (val_main_v133 (F := Ideal) x0 x1 x2 x3 x4 x5 x6 x7 x8 x9 x10 x11 x12 x13 x14) shapeCasts_S4096x16384_S4096x4x4096 := by
  rfl

end Cert.ReferenceIdeal.Stages

end
-- ==== Proof.RefReal.lean ====
/-
  THE REFERENCE'S INTERMEDIATE VALUES ARE FINITE on finite inputs whose edge list holds node numbers: the in-degree is a
  count, the node weight `(deg + 1)^(-1/2)` a real power of a positive real, the mean aggregation a finite sum divided by a
  real that is at least one, and every layer a finite sum of products of finite values, a bias and a rectifier.
-/
import proofs.«401099_j71683004170518_2_alg».proof.Proof.RefStages
import proofs.«401099_j71683004170518_2_alg».proof.Proof.RefGraph
import proofs.«401099_j71683004170518_2_alg».proof.Proof.GraphAlgebra
import proofs.«401099_j71683004170518_2_alg».proof.Proof.GraphData
import proofs.«401099_j71683004170518_2_alg».proof.Proof.RealVals

set_option maxRecDepth 16384

noncomputable section

open scoped BigOperators

namespace Cert.ReferenceIdeal.Finite

open Idealize.ShloMosaic Idealize.ShloMosaic.ValueIdx Idealize.ShloMosaic.TcCoe Idealize.SL.Sem
open Cert.ReferenceIdeal Cert.ReferenceIdeal.Gen Cert.ReferenceIdeal.Read Cert.GraphData Cert.RealVals

variable (x0 : (⟨S4096x4096, .f32⟩ : BufTy).Contents (Elt Ideal)) (x1 : (⟨S2x65536, .i32⟩ : BufTy).Contents (Elt Ideal))
  (x2 : (⟨S4096x256, .f32⟩ : BufTy).Contents (Elt Ideal)) (x3 : (⟨S256, .f32⟩ : BufTy).Contents (Elt Ideal))
  (x4 : (⟨S4096x256, .f32⟩ : BufTy).Contents (Elt Ideal)) (x5 : (⟨S256x256, .f32⟩ : BufTy).Contents (Elt Ideal))
  (x6 : (⟨S256, .f32⟩ : BufTy).Contents (Elt Ideal)) (x7 : (⟨S256x128, .f32⟩ : BufTy).Contents (Elt Ideal))
  (h : InRange (x1 : EdgeList))

/-- The in-degree is a count: a natural number as a real. -/
theorem degIn_eq_card (n : Fin 4096) :
    degIn x1 h n = (((Finset.univ.filter (fun e : Fin 65536 => dstN x1 h e = n)).card : ℝ) : EReal) := by
  unfold degIn
  exact Cert.GraphAlgebra.sum_one_eq_card _

/-- The mean aggregation's divisor `max(deg, 1)` is a nonzero real. -/
theorem degmax_real (n : Fin 4096) : ∃ d : ℝ, d ≠ 0 ∧ max (degIn x1 h n) 1 = (d : EReal) := by
  rw [degIn_eq_card]
  refine ⟨max (((Finset.univ.filter (fun e : Fin 65536 => dstN x1 h e = n)).card : ℝ)) 1, ?_, ?_⟩
  · exact (lt_of_lt_of_le one_pos (le_max_right _ _)).ne'
  · have hm : (((max (((Finset.univ.filter (fun e : Fin 65536 => dstN x1 h e = n)).card : ℝ)) 1 : ℝ)) : EReal)
        = max ((((Finset.univ.filter (fun e : Fin 65536 => dstN x1 h e = n)).card : ℝ)) : EReal) (((1 : ℝ)) : EReal) :=
      EReal.coe_strictMono.monotone.map_max
    rw [hm, EReal.coe_one]

/-- The node weight `(deg + 1)^(-1/2)` is a real. -/
theorem dinv_real (n : Fin 4096) : IsReal (dinv x1 h n) := by
  unfold dinv
  rw [degIn_eq_card, ofBits_neg_half, ← EReal.coe_one, ← EReal.coe_add]
  exact isReal_pow _ _

include h

/-- Layer 0's output is finite. -/
theorem real_h0 (r0 : ∀ i, IsReal (x0 i)) (r2 : ∀ i, IsReal (x2 i)) (r3 : ∀ i, IsReal (x3 i)) (r4 : ∀ i, IsReal (x4 i)) (n : Fin 4096) (j : Fin 256) :
    IsReal (val_main_v29 (F := Ideal) x0 x1 x2 x3 x4 (ix2 n j)) := by
  rw [Stages.h0_apply]
  obtain ⟨d, hd, hdeq⟩ := degmax_real x1 h n
  rw [GraphReads.deg_apply x1 h n, hdeq]
  refine IsReal.max (IsReal.add (IsReal.add
      (IsReal.sum _ _ fun k _ => IsReal.mul (IsReal.div ?_ d hd) (r2 _)) (r3 _))
      (IsReal.sum _ _ fun k _ => IsReal.mul (r0 _) (r4 _))) isReal_zero
  rw [GraphReads.nbrsum_apply x0 x1 h n k]
  exact IsReal.sum _ _ fun e _ => r0 _

/-- The first normalisation layer's linear map is finite. -/
theorem real_hw1 (r0 : ∀ i, IsReal (x0 i)) (r2 : ∀ i, IsReal (x2 i)) (r3 : ∀ i, IsReal (x3 i)) (r4 : ∀ i, IsReal (x4 i)) (r5 : ∀ i, IsReal (x5 i)) (n : Fin 4096) (j : Fin 256) :
    IsReal (val_main_v30 (F := Ideal) x0 x1 x2 x3 x4 x5 (ix2 n j)) := by
  rw [Stages.hw1_apply]
  exact IsReal.sum _ _ fun k _ => IsReal.mul (real_h0 x0 x1 x2 x3 x4 h r0 r2 r3 r4 n k) (r5 _)

/-- The first normalisation layer's output is finite. -/
theorem real_h1 (r0 : ∀ i, IsReal (x0 i)) (r2 : ∀ i, IsReal (x2 i)) (r3 : ∀ i, IsReal (x3 i)) (r4 : ∀ i, IsReal (x4 i)) (r5 : ∀ i, IsReal (x5 i)) (r6 : ∀ i, IsReal (x6 i)) (n : Fin 4096) (j : Fin 256) :
    IsReal (val_main_v74 (F := Ideal) x0 x1 x2 x3 x4 x5 x6 (ix2 n j)) := by
  rw [Stages.h1_apply, GraphReads.gcn1_apply x0 x1 x2 x3 x4 x5 h n j]
  refine IsReal.max (IsReal.add (IsReal.add
      (IsReal.sum _ _ fun e _ => ?_) (IsReal.sum _ _ fun i _ => ?_)) (r6 _)) isReal_zero
  · exact IsReal.mul (IsReal.mul (dinv_real x1 h _) (dinv_real x1 h _))
      (real_hw1 x0 x1 x2 x3 x4 x5 h r0 r2 r3 r4 r5 _ j)
  · exact IsReal.mul (IsReal.mul (dinv_real x1 h i) (dinv_real x1 h i))
      (real_hw1 x0 x1 x2 x3 x4 x5 h r0 r2 r3 r4 r5 i j)

/-- The second normalisation layer's linear map is finite. -/
theorem real_hw2 (r0 : ∀ i, IsReal (x0 i)) (r2 : ∀ i, IsReal (x2 i)) (r3 : ∀ i, IsReal (x3 i)) (r4 : ∀ i, IsReal (x4 i)) (r5 : ∀ i, IsReal (x5 i)) (r6 : ∀ i, IsReal (x6 i)) (r7 : ∀ i, IsReal (x7 i)) (n : Fin 4096) (j : Fin 128) :
    IsReal (val_main_v75 (F := Ideal) x0 x1 x2 x3 x4 x5 x6 x7 (ix2 n j)) := by
  rw [Stages.hw2_apply]
  exact IsReal.sum _ _ fun k _ => IsReal.mul (real_h1 x0 x1 x2 x3 x4 x5 x6 h r0 r2 r3 r4 r5 r6 n k) (r7 _)

end Cert.ReferenceIdeal.Finite

end
-- ==== Proof.BridgeHyp.lean ====
/-
  WHAT THE PRECONDITION GIVES, as one record: the edge list holds node numbers and every float input is finite.
-/
import proofs.«401099_j71683004170518_2_alg».proof.Proof.Gen.KernelIdeal
import proofs.«401099_j71683004170518_2_alg».proof.Proof.GraphData
import proofs.«401099_j71683004170518_2_alg».proof.Proof.RealVals

noncomputable section

namespace Cert.Bridge

open Idealize.ShloMosaic Idealize.ShloMosaic.TcCoe Idealize.SL.Sem
open Cert.KernelIdeal Cert.GraphData Cert.RealVals

/-- What the precondition gives: the edge list holds node numbers and every float input is finite. -/
structure Hyp (m : (ℓ : Loc nD τ sig) → Buf (Elt Ideal) ℓ) (c : Dev nD) : Prop where
  range : InRange (m ((c.tc : Thread nD τ).loc main_arg1) : EdgeList)
  real0 : ∀ i, IsReal ((m ((c.tc : Thread nD τ).loc main_arg0)) i)
  real2 : ∀ i, IsReal ((m ((c.tc : Thread nD τ).loc main_arg2)) i)
  real3 : ∀ i, IsReal ((m ((c.tc : Thread nD τ).loc main_arg3)) i)
  real4 : ∀ i, IsReal ((m ((c.tc : Thread nD τ).loc main_arg4)) i)
  real5 : ∀ i, IsReal ((m ((c.tc : Thread nD τ).loc main_arg5)) i)
  real6 : ∀ i, IsReal ((m ((c.tc : Thread nD τ).loc main_arg6)) i)
  real7 : ∀ i, IsReal ((m ((c.tc : Thread nD τ).loc main_arg7)) i)
  real8 : ∀ i, IsReal ((m ((c.tc : Thread nD τ).loc main_arg8)) i)
  real9 : ∀ i, IsReal ((m ((c.tc : Thread nD τ).loc main_arg9)) i)
  real10 : ∀ i, IsReal ((m ((c.tc : Thread nD τ).loc main_arg10)) i)
  real11 : ∀ i, IsReal ((m ((c.tc : Thread nD τ).loc main_arg11)) i)
  real12 : ∀ i, IsReal ((m ((c.tc : Thread nD τ).loc main_arg12)) i)
  real13 : ∀ i, IsReal ((m ((c.tc : Thread nD τ).loc main_arg13)) i)
  real14 : ∀ i, IsReal ((m ((c.tc : Thread nD τ).loc main_arg14)) i)

end Cert.Bridge

end
-- ==== Proof.BridgeSage.lean ====
/-
  THE MEAN-AGGREGATION LAYER. The kernel program multiplies the dense adjacency counts into the features,
  `∑ s, A (n, s) · x (s, k)`, and scales row `n` by `1 / max(deg n, 1)`; the reference sums the features of the sources of the
  edges into `n` and divides by `max(deg n, 1)`. The adjacency count is a sum of ones over the edges from `s` into `n`, so at
  finite features the dense product IS the edge sum, and a product with the reciprocal of a nonzero real is the quotient.
  The two linear maps, the bias and the rectifier around it are the same on both sides (the kernel program's regions carry
  a unit row scale and, where there is no bias, a zero shift).
-/
import proofs.«401099_j71683004170518_2_alg».proof.Proof.BridgeHyp
import proofs.«401099_j71683004170518_2_alg».proof.Proof.KernelStagesR
import proofs.«401099_j71683004170518_2_alg».proof.Proof.KernelStagesH
import proofs.«401099_j71683004170518_2_alg».proof.Proof.KernelKeep
import proofs.«401099_j71683004170518_2_alg».proof.Proof.KernelHost0
import proofs.«401099_j71683004170518_2_alg».proof.Proof.RefGraph
import proofs.«401099_j71683004170518_2_alg».proof.Proof.RefStages
import proofs.«401099_j71683004170518_2_alg».proof.Proof.RefReal
import proofs.«401099_j71683004170518_2_alg».proof.Proof.GraphAlgebra
import proofs.«401099_j71683004170518_2_alg».proof.Proof.GraphData
import proofs.«401099_j71683004170518_2_alg».proof.Proof.RealVals
import proofs.«401099_j71683004170518_2_alg».proof.Proof.MatmulSpec

set_option maxRecDepth 16384

noncomputable section

open scoped BigOperators

namespace Cert.BridgeSage

open Idealize.ShloMosaic Idealize.ShloMosaic.ValueIdx Idealize.ShloMosaic.TcCoe Idealize.SL.Sem Idealize.ShloMosaic.StableHlo
open Cert.KernelIdeal Cert.KernelIdeal.Gen Cert.GraphData Cert.RealVals

variable (m : (ℓ : Loc nD τ sig) → Buf (Elt Ideal) ℓ) (ρ : Dev nD → PrngReg) (c : Dev nD)

/-- THE MEAN AGGREGATION, the two ways: the dense adjacency product into a finite column, scaled by the reciprocal of a
    nonzero real `d`, is the sum of the column over the sources of the edges into `n`, divided by `d`. -/
private theorem mean_agg (ei : EdgeList) (h : InRange ei) (x : Fin 4096 → EReal) (hx : ∀ s, IsReal (x s))
    (d : ℝ) (hd : d ≠ 0) (n : Fin 4096) :
    (∑ s : Fin 4096, adj ei h n s * x s) * Ideal.div 1 (d : EReal)
      = Ideal.div (∑ e ∈ Finset.univ.filter (fun e : Fin 65536 => dstN ei h e = n), x (srcN ei h e)) (d : EReal) := by
  -- a finite column is a column of coerced reals
  obtain ⟨r, rfl⟩ := exists_real_fun x hx
  -- the product with the reciprocal is the quotient; the dense product is the edge sum
  rw [Cert.GraphAlgebra.mul_div_one _ d hd]
  refine congrArg (fun a => Ideal.div a (d : EReal)) ?_
  unfold adj
  exact Cert.GraphAlgebra.adj_mul_sum (srcN ei h) (dstN ei h) r n

/-- Region 0's output read at `(n, k)`: the mean of the features `k` over the sources of the edges into `n`, in the
    reference's form — the edge sum over the divisor `max(deg n, 1)`. -/
private theorem agg_apply (H : Cert.Bridge.Hyp m c) (n k : Fin 4096) :
    Cert.fvec S4096x4096 (W2 m ρ c (Proc.devRef .tc main_v35)) (ix2 n k)
      = Ideal.div (∑ e ∈ Finset.univ.filter (fun e : Fin 65536 => dstN (Cert.KernelIdeal.Host0.edges m c) H.range e = n),
            m ((c.tc : Thread nD τ).loc main_arg0) (ix2 (srcN (Cert.KernelIdeal.Host0.edges m c) H.range e) k))
          (max (degIn (Cert.KernelIdeal.Host0.edges m c) H.range n) 1) := by
  -- the divisor is a nonzero real
  obtain ⟨d, hd, hD⟩ := Cert.ReferenceIdeal.Finite.degmax_real (m ((c.tc : Thread nD τ).loc main_arg1)) H.range n
  -- the region's product with the row scale, no shift; then the dense product is the edge sum
  rw [Cert.KernelIdeal.StagesR.out0 m ρ c n k, Cert.KernelIdeal.Host0.zrow_apply m ρ c (ix2 0 k), add_zero,
    Cert.KernelIdeal.Host0.scale_apply m ρ c H.range n, hD,
    ← mean_agg _ H.range (fun s => m ((c.tc : Thread nD τ).loc main_arg0) (ix2 s k)) (fun s => H.real0 _) d hd n]
  refine congrArg (fun a => a * Ideal.div 1 (d : EReal)) (Finset.sum_congr rfl fun s _ => ?_)
  rw [Cert.KernelIdeal.Host0.adj_apply m ρ c H.range n s, Cert.KernelIdeal.Host0.feat_apply m ρ c (ix2 s k)]

/-- Layer 0: the rectified mean-aggregation layer. -/
theorem layer0 (H : Cert.Bridge.Hyp m c) (n : Fin 4096) (j : Fin 256) :
    Cert.fvec S4096x256 (W7 m ρ c (Proc.devRef .tc main_v44)) (ix2 n j) = Cert.ReferenceIdeal.Read.val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 n j) := by
  -- both sides as the rectifier of two products' sum
  rw [Cert.KernelIdeal.StagesH.relu_v44, Cert.ReferenceIdeal.Stages.h0_apply]
  -- the kernel program's two products: a unit row scale, the bias row or a zero shift
  keep_walk
  rw [Cert.KernelIdeal.StagesR.out1 m ρ c n j, Cert.KernelIdeal.StagesR.out2 m ρ c n j,
    Cert.KernelIdeal.StagesH.ones_v36 m ρ c n, Cert.KernelIdeal.StagesH.row_v37 m ρ c j,
    Cert.KernelIdeal.StagesH.ones_v39 m ρ c n, Cert.KernelIdeal.StagesH.zeros_v40 m ρ c j, mul_one, mul_one, add_zero]
  keep_walk
  -- the two sides agree summand by summand: the aggregated features, the bias, the node's own features
  refine congrArg (fun v => max v 0) ?_
  refine congrArg₂ (· + ·) (congrArg₂ (· + ·) (Finset.sum_congr rfl fun k _ => ?_) rfl) (Finset.sum_congr rfl fun k _ => ?_)
  · rw [agg_apply m ρ c H n k, Cert.ReferenceIdeal.GraphReads.deg_apply _ H.range n,
      Cert.ReferenceIdeal.GraphReads.nbrsum_apply _ _ H.range n k]
  · rw [Cert.KernelIdeal.Host0.feat_apply m ρ c (ix2 n k)]

end Cert.BridgeSage

end
-- ==== Proof.BridgeGcn.lean ====
/-
  THE TWO SYMMETRIC-NORMALISATION LAYERS. With node weights `w = (deg + 1)^(-1/2)` and the layer's linear map `hw` the same
  on both sides, the kernel program computes `w n · ∑ s, A (n, s) · (w s · hw (s, j)) + w n · w n · hw (n, j) + b j` (the data
  scaled before the dense product, the rows after it, the self loop's term added by the host) and the reference
  `∑_{e : dst e = n} (w (src e) · w (dst e)) · hw (src e, j) + (w n · w n) · hw (n, j) + b j` (the edge list with one self loop per
  node appended): equal at finite data, because the adjacency count is a sum of ones and finite sums distribute.
-/
import proofs.«401099_j71683004170518_2_alg».proof.Proof.BridgeHyp
import proofs.«401099_j71683004170518_2_alg».proof.Proof.KernelStagesR
import proofs.«401099_j71683004170518_2_alg».proof.Proof.KernelStagesH
import proofs.«401099_j71683004170518_2_alg».proof.Proof.KernelKeep
import proofs.«401099_j71683004170518_2_alg».proof.Proof.KernelHost0
import proofs.«401099_j71683004170518_2_alg».proof.Proof.RefGraph
import proofs.«401099_j71683004170518_2_alg».proof.Proof.RefStages
import proofs.«401099_j71683004170518_2_alg».proof.Proof.RefReal
import proofs.«401099_j71683004170518_2_alg».proof.Proof.GraphAlgebra
import proofs.«401099_j71683004170518_2_alg».proof.Proof.GraphData
import proofs.«401099_j71683004170518_2_alg».proof.Proof.RealVals
import proofs.«401099_j71683004170518_2_alg».proof.Proof.MatmulSpec

set_option maxRecDepth 16384

noncomputable section

open scoped BigOperators

namespace Cert.BridgeGcn

open Idealize.ShloMosaic Idealize.ShloMosaic.ValueIdx Idealize.ShloMosaic.TcCoe Idealize.SL.Sem Idealize.ShloMosaic.StableHlo
open Cert.KernelIdeal Cert.KernelIdeal.Gen Cert.GraphData Cert.RealVals

variable (m : (ℓ : Loc nD τ sig) → Buf (Elt Ideal) ℓ) (ρ : Dev nD → PrngReg) (c : Dev nD)

/-- THE AGGREGATION IDENTITY AT FINITE DATA: with node weights `w` and node data `Hc` finite, scaling the data by `w`
    before the dense adjacency product and the product by `w` after it, plus the self loop's term, is the sum over the
    edges into `n` of `w (src) · w (dst) · Hc (src)` plus the same over the one self loop. -/
private theorem agg_eq {N E : ℕ} (sN dN : Fin E → Fin N) (w Hc : Fin N → EReal)
    (hw : ∀ s, IsReal (w s)) (hH : ∀ s, IsReal (Hc s)) (n : Fin N) :
    (∑ s : Fin N, (∑ _e ∈ Finset.univ.filter (fun e : Fin E => dN e = n ∧ sN e = s), (1 : EReal)) * (w s * Hc s)) * w n
        + (w n * w n) * Hc n
      = ∑ e ∈ Finset.univ.filter (fun e : Fin E => dN e = n), (w (sN e) * w (dN e)) * Hc (sN e)
        + ∑ i ∈ Finset.univ.filter (fun i : Fin N => i = n), (w i * w i) * Hc i := by
  obtain ⟨dv, rfl⟩ := exists_real_fun w hw
  obtain ⟨Hr, rfl⟩ := exists_real_fun Hc hH
  exact Cert.GraphAlgebra.gcn_agg sN dN dv Hr n

/-- The first normalisation layer. -/
theorem layer1 (H : Cert.Bridge.Hyp m c)
    (hl : ∀ (s : Fin 4096) (j : Fin 256), Cert.fvec S4096x256 (W8 m ρ c (Proc.devRef .tc main_v47)) (ix2 s j) = Cert.ReferenceIdeal.Read.val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 s j))
    (n : Fin 4096) (j : Fin 256) :
    Cert.fvec S4096x256 (W11 m ρ c (Proc.devRef .tc main_v64)) (ix2 n j) = Cert.ReferenceIdeal.Read.val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix2 n j) := by
  -- both sides as the layer's epilogue around an aggregation
  rw [Cert.KernelIdeal.StagesH.epi_v64, Cert.ReferenceIdeal.Stages.h1_apply,
    Cert.ReferenceIdeal.GraphReads.gcn1_apply _ _ _ _ _ _ H.range]
  keep_walk
  -- the dense product: adjacency counts times the scaled data, rows scaled after
  rw [Cert.KernelIdeal.StagesR.out4]
  rw [Cert.KernelIdeal.StagesH.wcol_v52 m ρ c n, Cert.KernelIdeal.StagesH.zeros_v53 m ρ c j, add_zero]
  simp only [Cert.KernelIdeal.StagesH.scaled_v51 m ρ c]
  keep_walk
  simp only [hl, Cert.KernelIdeal.Host0.adj_apply m ρ c H.range, Cert.KernelIdeal.Host0.dinv_apply m ρ c H.range]
  -- the aggregation identity at the finite node weights and the finite linear map
  have key := agg_eq (srcN (Cert.KernelIdeal.Host0.edges m c) H.range) (dstN (Cert.KernelIdeal.Host0.edges m c) H.range)
    (fun s => dinv (Cert.KernelIdeal.Host0.edges m c) H.range s)
    (fun s => Cert.ReferenceIdeal.Read.val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 s j))
    (fun s => Cert.ReferenceIdeal.Finite.dinv_real _ H.range s)
    (fun s => Cert.ReferenceIdeal.Finite.real_hw1 _ _ _ _ _ _ H.range H.real0 H.real2 H.real3 H.real4 H.real5 s j) n
  beta_reduce at key
  unfold Cert.GraphData.adj
  rewrite [key]
  rfl

end Cert.BridgeGcn

end
-- ==== Proof.BridgeGcn2.lean ====
/-
  THE SECOND SYMMETRIC-NORMALISATION LAYER (the first is its twin, at width 256). With node weights `w = (deg + 1)^(-1/2)` and the layer's linear map `hw` the same
  on both sides, the kernel program computes `w n · ∑ s, A (n, s) · (w s · hw (s, j)) + w n · w n · hw (n, j) + b j` (the data
  scaled before the dense product, the rows after it, the self loop's term added by the host) and the reference
  `∑_{e : dst e = n} (w (src e) · w (dst e)) · hw (src e, j) + (w n · w n) · hw (n, j) + b j` (the edge list with one self loop per
  node appended): equal at finite data, because the adjacency count is a sum of ones and finite sums distribute.
-/
import proofs.«401099_j71683004170518_2_alg».proof.Proof.BridgeHyp
import proofs.«401099_j71683004170518_2_alg».proof.Proof.KernelStagesR
import proofs.«401099_j71683004170518_2_alg».proof.Proof.KernelStagesH
import proofs.«401099_j71683004170518_2_alg».proof.Proof.KernelKeep
import proofs.«401099_j71683004170518_2_alg».proof.Proof.KernelHost0
import proofs.«401099_j71683004170518_2_alg».proof.Proof.RefGraph
import proofs.«401099_j71683004170518_2_alg».proof.Proof.RefStages
import proofs.«401099_j71683004170518_2_alg».proof.Proof.RefReal
import proofs.«401099_j71683004170518_2_alg».proof.Proof.GraphAlgebra
import proofs.«401099_j71683004170518_2_alg».proof.Proof.GraphData
import proofs.«401099_j71683004170518_2_alg».proof.Proof.RealVals
import proofs.«401099_j71683004170518_2_alg».proof.Proof.MatmulSpec

set_option maxRecDepth 16384

noncomputable section

open scoped BigOperators

namespace Cert.BridgeGcn2

open Idealize.ShloMosaic Idealize.ShloMosaic.ValueIdx Idealize.ShloMosaic.TcCoe Idealize.SL.Sem Idealize.ShloMosaic.StableHlo
open Cert.KernelIdeal Cert.KernelIdeal.Gen Cert.GraphData Cert.RealVals

variable (m : (ℓ : Loc nD τ sig) → Buf (Elt Ideal) ℓ) (ρ : Dev nD → PrngReg) (c : Dev nD)

/-- THE AGGREGATION IDENTITY AT FINITE DATA: with node weights `w` and node data `Hc` finite, scaling the data by `w`
    before the dense adjacency product and the product by `w` after it, plus the self loop's term, is the sum over the
    edges into `n` of `w (src) · w (dst) · Hc (src)` plus the same over the one self loop. -/
private theorem agg_eq {N E : ℕ} (sN dN : Fin E → Fin N) (w Hc : Fin N → EReal)
    (hw : ∀ s, IsReal (w s)) (hH : ∀ s, IsReal (Hc s)) (n : Fin N) :
    (∑ s : Fin N, (∑ _e ∈ Finset.univ.filter (fun e : Fin E => dN e = n ∧ sN e = s), (1 : EReal)) * (w s * Hc s)) * w n
        + (w n * w n) * Hc n
      = ∑ e ∈ Finset.univ.filter (fun e : Fin E => dN e = n), (w (sN e) * w (dN e)) * Hc (sN e)
        + ∑ i ∈ Finset.univ.filter (fun i : Fin N => i = n), (w i * w i) * Hc i := by
  obtain ⟨dv, rfl⟩ := exists_real_fun w hw
  obtain ⟨Hr, rfl⟩ := exists_real_fun Hc hH
  exact Cert.GraphAlgebra.gcn_agg sN dN dv Hr n

/-- The second normalisation layer. -/
theorem layer2 (H : Cert.Bridge.Hyp m c)
    (hl : ∀ (s : Fin 4096) (j : Fin 128), Cert.fvec S4096x128 (W12 m ρ c (Proc.devRef .tc main_v67)) (ix2 s j) = Cert.ReferenceIdeal.Read.val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 s j))
    (n : Fin 4096) (j : Fin 128) :
    Cert.fvec S4096x128 (W15 m ρ c (Proc.devRef .tc main_v84)) (ix2 n j) = Cert.ReferenceIdeal.Read.val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (ix2 n j) := by
  -- both sides as the layer's epilogue around an aggregation
  rw [Cert.KernelIdeal.StagesH.epi_v84, Cert.ReferenceIdeal.Stages.h2_apply,
    Cert.ReferenceIdeal.GraphReads.gcn2_apply _ _ _ _ _ _ _ _ H.range]
  keep_walk
  -- the dense product: adjacency counts times the scaled data, rows scaled after
  rw [Cert.KernelIdeal.StagesR.out6]
  rw [Cert.KernelIdeal.StagesH.wcol_v72 m ρ c n, Cert.KernelIdeal.StagesH.zeros_v73 m ρ c j, add_zero]
  simp only [Cert.KernelIdeal.StagesH.scaled_v71 m ρ c]
  keep_walk
  simp only [hl, Cert.KernelIdeal.Host0.adj_apply m ρ c H.range, Cert.KernelIdeal.Host0.dinv_apply m ρ c H.range]
  -- the aggregation identity at the finite node weights and the finite linear map
  have key := agg_eq (srcN (Cert.KernelIdeal.Host0.edges m c) H.range) (dstN (Cert.KernelIdeal.Host0.edges m c) H.range)
    (fun s => dinv (Cert.KernelIdeal.Host0.edges m c) H.range s)
    (fun s => Cert.ReferenceIdeal.Read.val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 s j))
    (fun s => Cert.ReferenceIdeal.Finite.dinv_real _ H.range s)
    (fun s => Cert.ReferenceIdeal.Finite.real_hw2 _ _ _ _ _ _ _ _ H.range H.real0 H.real2 H.real3 H.real4 H.real5 H.real6 H.real7 s j) n
  beta_reduce at key
  unfold Cert.GraphData.adj
  rewrite [key]
  rfl

end Cert.BridgeGcn2

end
-- ==== Proof.BridgeLin.lean ====
/-
  THE LINEAR MAPS OF THE TWO NORMALISATION LAYERS. Given that the layer before is the same on both sides, the linear
  map is the same product on both sides: the kernel program's region computes `(h · W) · 1 + 0` (a unit row scale, a zero
  shift), the reference `h · W`.
-/
import proofs.«401099_j71683004170518_2_alg».proof.Proof.KernelStagesR
import proofs.«401099_j71683004170518_2_alg».proof.Proof.KernelStagesH
import proofs.«401099_j71683004170518_2_alg».proof.Proof.KernelKeep
import proofs.«401099_j71683004170518_2_alg».proof.Proof.RefStages
import proofs.«401099_j71683004170518_2_alg».proof.Proof.MatmulSpec

set_option maxRecDepth 16384

noncomputable section

open scoped BigOperators

namespace Cert.BridgeLin

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The first normalisation layer's linear map. -/
theorem lin1
    (h0 : ∀ (n : Fin 4096) (k : Fin 256), Cert.fvec S4096x256 (W7 m ρ c (Proc.devRef .tc main_v44)) (ix2 n k) = Cert.ReferenceIdeal.Read.val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 n k))
    (n : Fin 4096) (j : Fin 256) :
    Cert.fvec S4096x256 (W8 m ρ c (Proc.devRef .tc main_v47)) (ix2 n j) = Cert.ReferenceIdeal.Read.val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 n j) := by
  -- both sides as sums over the shared axis; the unit row scale and the zero shift drop out
  rw [Cert.KernelIdeal.StagesR.out3, Cert.ReferenceIdeal.Stages.hw1_apply,
    Cert.KernelIdeal.StagesH.ones_v45 m ρ c n, Cert.KernelIdeal.StagesH.zeros_v46 m ρ c j, mul_one, add_zero]
  -- under the sum, the layer before is the reference's
  simp only [h0]
  -- the weight argument is written by no stretch and no region: at the region's entry it is the launch memory's
  simp (disch := decide) only [Cert.KernelIdeal.Keep.host0, Cert.KernelIdeal.Keep.host1, Cert.KernelIdeal.Keep.host2, Cert.KernelIdeal.Keep.host3, Cert.KernelIdeal.Keep.host4, Cert.KernelIdeal.Keep.host5, Cert.KernelIdeal.Keep.host6, Cert.KernelIdeal.Keep.host7, Cert.KernelIdeal.Keep.host8, Cert.KernelIdeal.Keep.host9, Cert.KernelIdeal.Keep.host10, Cert.KernelIdeal.Keep.reg0, Cert.KernelIdeal.Keep.reg1, Cert.KernelIdeal.Keep.reg2, Cert.KernelIdeal.Keep.reg3, Cert.KernelIdeal.Keep.reg4, Cert.KernelIdeal.Keep.reg5, Cert.KernelIdeal.Keep.reg6, Cert.KernelIdeal.Keep.reg7, Cert.KernelIdeal.Keep.reg8, Cert.KernelIdeal.Keep.reg9]

/-- The second normalisation layer's linear map. -/
theorem lin2
    (h1 : ∀ (n : Fin 4096) (k : Fin 256), Cert.fvec S4096x256 (W11 m ρ c (Proc.devRef .tc main_v64)) (ix2 n k) = Cert.ReferenceIdeal.Read.val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix2 n k))
    (n : Fin 4096) (j : Fin 128) :
    Cert.fvec S4096x128 (W12 m ρ c (Proc.devRef .tc main_v67)) (ix2 n j) = Cert.ReferenceIdeal.Read.val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 n j) := by
  -- both sides as sums over the shared axis; the unit row scale and the zero shift drop out
  rw [Cert.KernelIdeal.StagesR.out5, Cert.ReferenceIdeal.Stages.hw2_apply,
    Cert.KernelIdeal.StagesH.ones_v65 m ρ c n, Cert.KernelIdeal.StagesH.zeros_v66 m ρ c j, mul_one, add_zero]
  -- under the sum, the layer before is the reference's
  simp only [h1]
  -- the weight argument is written by no stretch and no region: at the region's entry it is the launch memory's
  simp (disch := decide) only [Cert.KernelIdeal.Keep.host0, Cert.KernelIdeal.Keep.host1, Cert.KernelIdeal.Keep.host2, Cert.KernelIdeal.Keep.host3, Cert.KernelIdeal.Keep.host4, Cert.KernelIdeal.Keep.host5, Cert.KernelIdeal.Keep.host6, Cert.KernelIdeal.Keep.host7, Cert.KernelIdeal.Keep.host8, Cert.KernelIdeal.Keep.host9, Cert.KernelIdeal.Keep.host10, Cert.KernelIdeal.Keep.reg0, Cert.KernelIdeal.Keep.reg1, Cert.KernelIdeal.Keep.reg2, Cert.KernelIdeal.Keep.reg3, Cert.KernelIdeal.Keep.reg4, Cert.KernelIdeal.Keep.reg5, Cert.KernelIdeal.Keep.reg6, Cert.KernelIdeal.Keep.reg7, Cert.KernelIdeal.Keep.reg8, Cert.KernelIdeal.Keep.reg9]

end Cert.BridgeLin

end
-- ==== Proof.BridgeHead.lean ====
/-
  THE DENSE HEAD AND THE RESULT. Given that the second normalisation layer's output is the same on both sides, the head's
  two rectified dense layers and the output layer are the same product, bias and rectifier on both sides — the kernel
  program's region computes `(h · W) · 1 + b` with a unit row scale, the reference `h · W + b` —, and the result is the
  same reshape of the output layer.
-/
import proofs.«401099_j71683004170518_2_alg».proof.Proof.KernelStagesR
import proofs.«401099_j71683004170518_2_alg».proof.Proof.KernelStagesH
import proofs.«401099_j71683004170518_2_alg».proof.Proof.KernelKeep
import proofs.«401099_j71683004170518_2_alg».proof.Proof.RefStages
import proofs.«401099_j71683004170518_2_alg».proof.Proof.MatmulSpec

set_option maxRecDepth 16384

noncomputable section

open scoped BigOperators

namespace Cert.BridgeHead

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The head's first layer. -/
theorem layer3
    (h2 : ∀ (n : Fin 4096) (k : Fin 128), Cert.fvec S4096x128 (W15 m ρ c (Proc.devRef .tc main_v84)) (ix2 n k) = Cert.ReferenceIdeal.Read.val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (ix2 n k))
    (n : Fin 4096) (j : Fin 128) :
    Cert.fvec S4096x128 (W16 m ρ c (Proc.devRef .tc main_v87)) (ix2 n j) = Cert.ReferenceIdeal.Read.val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix2 n j) := by
  -- the region's entry: a product with a unit row scale plus the bias row; the reference's layer: the product plus the bias
  rw [StagesR.out7, Cert.ReferenceIdeal.Stages.h3_apply, StagesH.ones_v85, StagesH.row_v86, mul_one]
  -- no segment before the region writes the weight matrix or the bias: they are the launch contents
  simp (disch := decide) only [Keep.host0, Keep.host1, Keep.host2, Keep.host3, Keep.host4, Keep.host5, Keep.host6, Keep.host7,
    Keep.host8, Keep.host9, Keep.host10, Keep.reg0, Keep.reg1, Keep.reg2, Keep.reg3, Keep.reg4, Keep.reg5, Keep.reg6,
    Keep.reg7, Keep.reg8, Keep.reg9]
  -- the layer before, rewritten under the sum, leaves the two sides the same term
  simp only [h2]

/-- The head's second layer. -/
theorem layer4
    (h3 : ∀ (n : Fin 4096) (k : Fin 128), Cert.fvec S4096x128 (W16 m ρ c (Proc.devRef .tc main_v87)) (ix2 n k) = Cert.ReferenceIdeal.Read.val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix2 n k))
    (n : Fin 4096) (j : Fin 128) :
    Cert.fvec S4096x128 (W18 m ρ c (Proc.devRef .tc main_v90)) (ix2 n j) = Cert.ReferenceIdeal.Read.val_main_v129 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (ix2 n j) := by
  rw [StagesR.out8, Cert.ReferenceIdeal.Stages.h4_apply, StagesH.ones_v88, StagesH.row_v89, mul_one]
  -- the layer before is read as the region before left it; the weight matrix and the bias are the launch contents
  simp (disch := decide) only [Keep.host0, Keep.host1, Keep.host2, Keep.host3, Keep.host4, Keep.host5, Keep.host6, Keep.host7,
    Keep.host8, Keep.host9, Keep.host10, Keep.reg0, Keep.reg1, Keep.reg2, Keep.reg3, Keep.reg4, Keep.reg5, Keep.reg6,
    Keep.reg7, Keep.reg8, Keep.reg9]
  simp only [h3]

/-- The output layer. -/
theorem layer5
    (h4 : ∀ (n : Fin 4096) (k : Fin 128), Cert.fvec S4096x128 (W18 m ρ c (Proc.devRef .tc main_v90)) (ix2 n k) = Cert.ReferenceIdeal.Read.val_main_v129 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (ix2 n k))
    (n : Fin 4096) (q : Fin 16384) :
    Cert.fvec S4096x16384 (W20 m ρ c (Proc.devRef .tc main_v93)) (ix2 n q) = Cert.ReferenceIdeal.Read.val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (ix2 n q) := by
  rw [StagesR.out9, Cert.ReferenceIdeal.Stages.out_apply, StagesH.ones_v91, StagesH.row_v92, mul_one]
  -- the layer before is read as the region before left it; the weight matrix and the bias are the launch contents
  simp (disch := decide) only [Keep.host0, Keep.host1, Keep.host2, Keep.host3, Keep.host4, Keep.host5, Keep.host6, Keep.host7,
    Keep.host8, Keep.host9, Keep.host10, Keep.reg0, Keep.reg1, Keep.reg2, Keep.reg3, Keep.reg4, Keep.reg5, Keep.reg6,
    Keep.reg7, Keep.reg8, Keep.reg9]
  simp only [h4]

/-- THE RESULT: the same reshape of the same output layer. -/
theorem result
    (h5 : ∀ (n : Fin 4096) (q : Fin 16384), Cert.fvec S4096x16384 (W20 m ρ c (Proc.devRef .tc main_v93)) (ix2 n q) = Cert.ReferenceIdeal.Read.val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (ix2 n q)) :
    Cert.fvec S4096x4x4096 (W21 m ρ c (Proc.devRef .tc main_v94)) = Cert.ReferenceIdeal.Read.val_main_v134 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [StagesH.result_v94, Cert.ReferenceIdeal.Stages.result_eq]
  -- the two reshaped arrays are equal as functions: every index of `[4096, 16384]` is a pair of coordinates
  refine congrArg (fun v => shapeCast S4096x4x4096 v shapeCasts_S4096x16384_S4096x4x4096) (funext fun i => ?_)
  obtain ⟨n, q, rfl⟩ : ∃ (n : Fin 4096) (q : Fin 16384), i = ix2 n q := ⟨i 0, i 1, eq_ix2 i⟩
  exact h5 n q

end Cert.BridgeHead

end
-- ==== Proof.Bridge.lean ====
/-
  THE TWO PROGRAMS COMPUTE ONE FUNCTION, layer by layer. On finite inputs whose edge list holds node numbers:
  * layer 0 (mean aggregation): the kernel program's dense product `∑ s, A (n, s) · x (s, k)`, scaled by `1 / max(deg n, 1)`,
    is the reference's neighbour sum over the edges into `n` divided by `max(deg n, 1)`; the two linear maps, the bias and
    the rectifier are the same on both sides;
  * the two symmetric-normalisation layers: the kernel program scales the data by the node weights `w = (deg + 1)^(-1/2)`,
    takes the dense product, scales the rows by `w` again and adds the self loop's term `w n · w n · hw (n, j)`; the reference
    sums `w (src e) · w (dst e) · hw (src e, j)` over the edges into `n` and over the appended self loop: equal because a
    finite sum distributes over finite real data;
  * the three dense layers of the head are the same product, bias and rectifier on both sides, and the final reshape too.
-/
import proofs.«401099_j71683004170518_2_alg».proof.Proof.KernelStagesR
import proofs.«401099_j71683004170518_2_alg».proof.Proof.KernelStagesH
import proofs.«401099_j71683004170518_2_alg».proof.Proof.KernelKeep
import proofs.«401099_j71683004170518_2_alg».proof.Proof.KernelHost0
import proofs.«401099_j71683004170518_2_alg».proof.Proof.RefGraph
import proofs.«401099_j71683004170518_2_alg».proof.Proof.RefStages
import proofs.«401099_j71683004170518_2_alg».proof.Proof.RefReal
import proofs.«401099_j71683004170518_2_alg».proof.Proof.BridgeHyp
import proofs.«401099_j71683004170518_2_alg».proof.Proof.BridgeSage
import proofs.«401099_j71683004170518_2_alg».proof.Proof.BridgeGcn
import proofs.«401099_j71683004170518_2_alg».proof.Proof.BridgeGcn2
import proofs.«401099_j71683004170518_2_alg».proof.Proof.BridgeLin
import proofs.«401099_j71683004170518_2_alg».proof.Proof.BridgeHead
import proofs.«401099_j71683004170518_2_alg».proof.Proof.GraphAlgebra
import proofs.«401099_j71683004170518_2_alg».proof.Proof.GraphData
import proofs.«401099_j71683004170518_2_alg».proof.Proof.RealVals
import proofs.«401099_j71683004170518_2_alg».proof.Proof.MatmulSpec

set_option maxRecDepth 16384

noncomputable section

open scoped BigOperators

namespace Cert.Bridge

open Idealize.ShloMosaic Idealize.ShloMosaic.ValueIdx Idealize.ShloMosaic.TcCoe Idealize.SL.Sem Idealize.ShloMosaic.StableHlo
open Cert.KernelIdeal Cert.KernelIdeal.Gen Cert.GraphData Cert.RealVals

variable (m : (ℓ : Loc nD τ sig) → Buf (Elt Ideal) ℓ) (ρ : Dev nD → PrngReg) (c : Dev nD)

variable (H : Hyp m c)
include H

/-- Layer 0: the rectified mean-aggregation layer. -/
theorem layer0 (n : Fin 4096) (j : Fin 256) :
    Cert.fvec S4096x256 (W7 m ρ c (Proc.devRef .tc main_v44)) (ix2 n j) = Cert.ReferenceIdeal.Read.val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 n j) :=
  Cert.BridgeSage.layer0 m ρ c H n j

/-- The first normalisation layer's linear map. -/
theorem lin1 (n : Fin 4096) (j : Fin 256) :
    Cert.fvec S4096x256 (W8 m ρ c (Proc.devRef .tc main_v47)) (ix2 n j) = Cert.ReferenceIdeal.Read.val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 n j) :=
  Cert.BridgeLin.lin1 m ρ c (layer0 m ρ c H) n j

/-- The first normalisation layer. -/
theorem layer1 (n : Fin 4096) (j : Fin 256) :
    Cert.fvec S4096x256 (W11 m ρ c (Proc.devRef .tc main_v64)) (ix2 n j) = Cert.ReferenceIdeal.Read.val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix2 n j) :=
  Cert.BridgeGcn.layer1 m ρ c H (lin1 m ρ c H) n j

/-- The second normalisation layer's linear map. -/
theorem lin2 (n : Fin 4096) (j : Fin 128) :
    Cert.fvec S4096x128 (W12 m ρ c (Proc.devRef .tc main_v67)) (ix2 n j) = Cert.ReferenceIdeal.Read.val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 n j) :=
  Cert.BridgeLin.lin2 m ρ c (layer1 m ρ c H) n j

/-- The second normalisation layer. -/
theorem layer2 (n : Fin 4096) (j : Fin 128) :
    Cert.fvec S4096x128 (W15 m ρ c (Proc.devRef .tc main_v84)) (ix2 n j) = Cert.ReferenceIdeal.Read.val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (ix2 n j) :=
  Cert.BridgeGcn2.layer2 m ρ c H (lin2 m ρ c H) n j

/-- THE RESULT: the kernel program's result buffer holds the reference's result, as a function of the arguments. -/
theorem result : Cert.fvec S4096x4x4096 (W21 m ρ c (Proc.devRef .tc main_v94)) = Cert.ReferenceIdeal.Read.val_main_v134 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  Cert.BridgeHead.result m ρ c (Cert.BridgeHead.layer5 m ρ c (Cert.BridgeHead.layer4 m ρ c (Cert.BridgeHead.layer3 m ρ c (layer2 m ρ c H))))

end Cert.Bridge

end
-- ==== Proof.lean ====
/-
  THE CERTIFICATE: a three-layer graph network (a mean-aggregation layer, two symmetric-normalisation layers) with a
  three-layer dense head, computed by ten launches of one tiled matrix-product kernel over a dense adjacency-count matrix,
  against the edge-list reference (gather the sources' rows, scatter-add at the destinations).

  The three frames: the two kernel programs' are the generated frame certificates; the reference's is its run with the
  result dropped. Nothing was rewritten by the idealization, so `preserves` is trivial. `algebraic`: the kernel program's
  run leaves the result buffer at the last boundary's contents, the reference's run leaves its result at the composed
  term of its operations, and on inputs the precondition admits — every float finite, every edge entry a node number —
  the two are one function of the arguments (layer by layer: Proof/Bridge.lean).
-/
import proofs.«401099_j71683004170518_2_alg».proof.Defs
import proofs.«401099_j71683004170518_2_alg».proof.Proof.Gen.Kernel
import proofs.«401099_j71683004170518_2_alg».proof.Proof.Gen.Kernel.Frame
import proofs.«401099_j71683004170518_2_alg».proof.Proof.Gen.KernelIdeal
import proofs.«401099_j71683004170518_2_alg».proof.Proof.Gen.KernelIdeal.Frame
import proofs.«401099_j71683004170518_2_alg».proof.Proof.Gen.ReferenceIdeal
import proofs.«401099_j71683004170518_2_alg».proof.Proof.Gen.Pre_finite_inputs
import proofs.«401099_j71683004170518_2_alg».proof.Proof.KernelRun
import proofs.«401099_j71683004170518_2_alg».proof.Proof.RefRunPatched
import proofs.«401099_j71683004170518_2_alg».proof.Proof.RefReadPatched
import proofs.«401099_j71683004170518_2_alg».proof.Proof.PreFacts
import proofs.«401099_j71683004170518_2_alg».proof.Proof.Bridge
import Idealize.ShloMosaic.Adequacy
import Idealize.ShloMosaic.Init

noncomputable section

namespace Cert.Proof

open Idealize.ShloMosaic Idealize.SL.Sem

/-- The word-level kernel program runs and leaves its arguments alone: the generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The precondition, element by element: the edge list holds node numbers, every float input is finite. -/
theorem hyp_of_pre (m : (ℓ : Loc Cert.KernelIdeal.nD Cert.KernelIdeal.τ Cert.KernelIdeal.sig) → Buf (Elt Ideal) ℓ)
    (hpre : Cert.Pre_KernelIdeal m) (c : Dev Cert.KernelIdeal.nD) : Cert.Bridge.Hyp m c := by
  obtain ⟨h0, h2, h3, h4, h5, h6, h7, h8, h9, h10, h11, h12, h13, h14, hr⟩ := Cert.PreFacts.decode _ _ _ _ _ _ _ _ _ _ _ _ _ _ _ (hpre c)
  exact ⟨hr, h0, h2, h3, h4, h5, h6, h7, h8, h9, h10, h11, h12, h13, h14⟩

/-- Both programs run, and from memories that agree on the arguments they end with the same result. -/
theorem algebraic : Cert.algebraic_KernelIdeal_ReferenceIdeal := by
  intro m ρ m' ρ' hpre hagree
  refine ⟨fun c => Cert.KernelIdeal.Gen.W21 m ρ c (Proc.devRef .tc Cert.KernelIdeal.main_v94),
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14⟩ := hagree c
  rw [Cert.ReferenceIdeal.Read.val_main_v134_eq, e0, e1, e2, e3, e4, e5, e6, e7, e8, e9, e10, e11, e12, e13, e14]
  exact (Cert.Bridge.result m ρ c (hyp_of_pre m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
